-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S256x64 : Shape := ⟨2, ![256, 64]⟩
abbrev S8x32000 : Shape := ⟨2, ![8, 32000]⟩
abbrev S500x8x32000 : Shape := ⟨3, ![500, 8, 32000]⟩
abbrev S64x8x32000 : Shape := ⟨3, ![64, 8, 32000]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S8x32000 : S_.BroadcastsInDim S8x32000 (![] : Fin 0 → Fin S8x32000.rank)
  reducesTo_S8x32000_S_d0_1 : S8x32000.ReducesTo [0, 1] S_
  bcast_S_S500x8x32000 : S_.BroadcastsInDim S500x8x32000 (![] : Fin 0 → Fin S500x8x32000.rank)
  reducesTo_S500x8x32000_S_d0_1_2 : S500x8x32000.ReducesTo [0, 1, 2] S_
  bcast_S_S64x8x32000 : S_.BroadcastsInDim S64x8x32000 (![] : Fin 0 → Fin S64x8x32000.rank)
  reducesTo_S64x8x32000_S_d0_1_2 : S64x8x32000.ReducesTo [0, 1, 2] S_
  bcast_S_S256 : S_.BroadcastsInDim S256 (![] : Fin 0 → Fin S256.rank)
  reducesTo_S256_S_d0 : S256.ReducesTo [0] S_

variable [Facts]

def fn_part2 {F : FTy → Type} [FloatOps F] (main_arg3 : IVec S8x32000 32) (main_v32 : IVec S_ 1) (main_c_12 : IVec S_ 32) : IVec S_ 1 :=
  let main_v33 : IVec S8x32000 32 := broadcastInDim S8x32000 ![] bcast_S_S8x32000 main_c_12
  let main_v34 : IVec S8x32000 1 := cmpi .sge main_arg3 main_v33
  let main_c_13 : IVec S_ 32 := constantI S_ 32 1#32
  let main_v35 : IVec S8x32000 32 := broadcastInDim S8x32000 ![] bcast_S_S8x32000 main_c_13
  let main_v36 : IVec S8x32000 1 := cmpi .sle main_arg3 main_v35
  let main_v37 : IVec S8x32000 1 := andi main_v34 main_v36
  let main_c_14 : IVec S_ 1 := constantI S_ 1 1#1
  let main_v38 : IVec S_ 1 := (fun x v => Host.reduce IntOp.andi x v reducesTo_S8x32000_S_d0_1 h_S_) main_v37 main_c_14
  let main_v39 : IVec S_ 1 := andi main_v32 main_v38
  main_v39

def fn_part1 {F : FTy → Type} [FloatOps F] (main_arg0 : IVec S256 32) (main_arg2 : IVec S256 32) (main_arg3 : IVec S8x32000 32) (main_v13 : IVec S_ 1) (main_v16 : IVec S64x8x32000 1) : IVec S_ 1 :=
  let main_c_5 : IVec S_ 1 := constantI S_ 1 1#1
  let main_v17 : IVec S_ 1 := (fun x v => Host.reduce IntOp.andi x v reducesTo_S64x8x32000_S_d0_1_2 h_S_) main_v16 main_c_5
  let main_v18 : IVec S_ 1 := andi main_v13 main_v17
  let main_c_6 : IVec S_ 32 := constantI S_ 32 0#32
  let main_v19 : IVec S256 32 := broadcastInDim S256 ![] bcast_S_S256 main_c_6
  let main_v20 : IVec S256 1 := cmpi .sge main_arg0 main_v19
  let main_c_7 : IVec S_ 32 := constantI S_ 32 500#32
  let main_v21 : IVec S256 32 := broadcastInDim S256 ![] bcast_S_S256 main_c_7
  let main_v22 : IVec S256 1 := cmpi .slt main_arg0 main_v21
  let main_v23 : IVec S256 1 := andi main_v20 main_v22
  let main_c_8 : IVec S_ 1 := constantI S_ 1 1#1
  let main_v24 : IVec S_ 1 := (fun x v => Host.reduce IntOp.andi x v reducesTo_S256_S_d0 h_S_) main_v23 main_c_8
  let main_v25 : IVec S_ 1 := andi main_v18 main_v24
  let main_c_9 : IVec S_ 32 := constantI S_ 32 0#32
  let main_v26 : IVec S256 32 := broadcastInDim S256 ![] bcast_S_S256 main_c_9
  let main_v27 : IVec S256 1 := cmpi .sge main_arg2 main_v26
  let main_c_10 : IVec S_ 32 := constantI S_ 32 8#32
  let main_v28 : IVec S256 32 := broadcastInDim S256 ![] bcast_S_S256 main_c_10
  let main_v29 : IVec S256 1 := cmpi .slt main_arg2 main_v28
  let main_v30 : IVec S256 1 := andi main_v27 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v25 main_v31
  let main_c_12 : IVec S_ 32 := constantI S_ 32 0#32
  fn_part2 (F := F) main_arg3 main_v32 main_c_12

def fn {F : FTy → Type} [FloatOps F] (main_arg0 : IVec S256 32) (main_arg1 : FVec F S256x64 .f32) (main_arg2 : IVec S256 32) (main_arg3 : IVec S8x32000 32) (main_arg4 : FVec F S8x32000 .f32) (main_arg5 : FVec F S500x8x32000 .f32) (main_arg6 : FVec F S64x8x32000 .f32) : IVec S_ 1 :=
  let main_v0 : FVec F S256x64 .f32 := Host.absf main_arg1
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S8x32000 .f32 := Host.absf main_arg4
  let main_cst_0 : FVec F S_ .f32 := constant S_ .f32 0x7F800000#32
  let main_v5 : FVec F S8x32000 .f32 := broadcastInDim S8x32000 ![] bcast_S_S8x32000 main_cst_0
  let main_v6 : IVec S8x32000 1 := cmpf .olt main_v4 main_v5
  let main_c_1 : IVec S_ 1 := constantI S_ 1 1#1
  let main_v7 : IVec S_ 1 := (fun x v => Host.reduce IntOp.andi x v reducesTo_S8x32000_S_d0_1 h_S_) main_v6 main_c_1
  let main_v8 : IVec S_ 1 := andi main_v3 main_v7
  let main_v9 : FVec F S500x8x32000 .f32 := Host.absf main_arg5
  let main_cst_2 : FVec F S_ .f32 := constant S_ .f32 0x7F800000#32
  let main_v10 : FVec F S500x8x32000 .f32 := broadcastInDim S500x8x32000 ![] bcast_S_S500x8x32000 main_cst_2
  let main_v11 : IVec S500x8x32000 1 := cmpf .olt main_v9 main_v10
  let main_c_3 : IVec S_ 1 := constantI S_ 1 1#1
  let main_v12 : IVec S_ 1 := (fun x v => Host.reduce IntOp.andi x v reducesTo_S500x8x32000_S_d0_1_2 h_S_) main_v11 main_c_3
  let main_v13 : IVec S_ 1 := andi main_v8 main_v12
  let main_v14 : FVec F S64x8x32000 .f32 := Host.absf main_arg6
  let main_cst_4 : FVec F S_ .f32 := constant S_ .f32 0x7F800000#32
  let main_v15 : FVec F S64x8x32000 .f32 := broadcastInDim S64x8x32000 ![] bcast_S_S64x8x32000 main_cst_4
  let main_v16 : IVec S64x8x32000 1 := cmpf .olt main_v14 main_v15
  fn_part1 (F := F) main_arg0 main_arg2 main_arg3 main_v13 main_v16
-- ==== Kernel.lean ====
abbrev S256 : Shape := ⟨1, ![256]⟩
abbrev S256x64 : Shape := ⟨2, ![256, 64]⟩
abbrev S8x32000 : Shape := ⟨2, ![8, 32000]⟩
abbrev S500x8x32000 : Shape := ⟨3, ![500, 8, 32000]⟩
abbrev S64x8x32000 : Shape := ⟨3, ![64, 8, 32000]⟩
abbrev S_ : Shape := ⟨0, ![]⟩
abbrev S4000x32000 : Shape := ⟨2, ![4000, 32000]⟩
abbrev S256x32000 : Shape := ⟨2, ![256, 32000]⟩
abbrev S32x32000 : Shape := ⟨2, ![32, 32000]⟩
abbrev S32 : Shape := ⟨1, ![32]⟩
abbrev S1 : Shape := ⟨1, ![1]⟩
abbrev S1x32000 : Shape := ⟨2, ![1, 32000]⟩
abbrev S32000 : Shape := ⟨1, ![32000]⟩
abbrev S256x1 : Shape := ⟨2, ![256, 1]⟩
abbrev S1x8 : Shape := ⟨2, ![1, 8]⟩
abbrev S256x8 : Shape := ⟨2, ![256, 8]⟩
abbrev S128x64 : Shape := ⟨2, ![128, 64]⟩
abbrev S64x8x3200 : Shape := ⟨3, ![64, 8, 3200]⟩
abbrev S8x3200 : Shape := ⟨2, ![8, 3200]⟩
abbrev S128x3200 : Shape := ⟨2, ![128, 3200]⟩
abbrev S128x8 : Shape := ⟨2, ![128, 8]⟩
abbrev S128x32000 : Shape := ⟨2, ![128, 32000]⟩
abbrev S128x1 : Shape := ⟨2, ![128, 1]⟩
abbrev S1x3200 : Shape := ⟨2, ![1, 3200]⟩
abbrev S3200 : Shape := ⟨1, ![3200]⟩
abbrev S128x64x1 : Shape := ⟨3, ![128, 64, 1]⟩
abbrev S128x1x8 : Shape := ⟨3, ![128, 1, 8]⟩
abbrev S128x64x8 : Shape := ⟨3, ![128, 64, 8]⟩
abbrev S128x512 : Shape := ⟨2, ![128, 512]⟩
abbrev S512x3200 : Shape := ⟨2, ![512, 3200]⟩
abbrev S128 : Shape := ⟨1, ![128]⟩

abbrev nBuf : Space → Nat
  | .hbm => 19
  | .vmem => 18
  | .smem => 1
  | _ => 0

abbrev bufTy : (tb : Table) → Fin (tcTables nBuf tb) → BufTy
  | .hbm, ⟨0, _⟩ => ⟨S256, .i32⟩
  | .hbm, ⟨1, _⟩ => ⟨S256x64, .f32⟩
  | .hbm, ⟨2, _⟩ => ⟨S256, .i32⟩
  | .hbm, ⟨3, _⟩ => ⟨S8x32000, .i32⟩
  | .hbm, ⟨4, _⟩ => ⟨S8x32000, .f32⟩
  | .hbm, ⟨5, _⟩ => ⟨S500x8x32000, .f32⟩
  | .hbm, ⟨6, _⟩ => ⟨S64x8x32000, .f32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S4000x32000, .f32⟩
  | .hbm, ⟨11, _⟩ => ⟨S256x32000, .f32⟩
  | .hbm, ⟨12, _⟩ => ⟨S256x1, .i32⟩
  | .hbm, ⟨13, _⟩ => ⟨S1x8, .i32⟩
  | .hbm, ⟨14, _⟩ => ⟨S256x8, .i32⟩
  | .hbm, ⟨15, _⟩ => ⟨S256x8, .i32⟩
  | .hbm, ⟨16, _⟩ => ⟨S256x8, .i1⟩
  | .hbm, ⟨17, _⟩ => ⟨S256x8, .f32⟩
  | .hbm, ⟨18, _⟩ => ⟨S256x32000, .f32⟩
  | .local _ .vmem, ⟨0, _⟩ => ⟨S32x32000, .f32⟩
  | .local _ .vmem, ⟨1, _⟩ => ⟨S32x32000, .f32⟩
  | .local _ .vmem, ⟨2, _⟩ => ⟨S128x64, .f32⟩
  | .local _ .vmem, ⟨3, _⟩ => ⟨S128x64, .f32⟩
  | .local _ .vmem, ⟨4, _⟩ => ⟨S64x8x3200, .f32⟩
  | .local _ .vmem, ⟨5, _⟩ => ⟨S64x8x3200, .f32⟩
  | .local _ .vmem, ⟨6, _⟩ => ⟨S8x3200, .f32⟩
  | .local _ .vmem, ⟨7, _⟩ => ⟨S8x3200, .f32⟩
  | .local _ .vmem, ⟨8, _⟩ => ⟨S8x3200, .i32⟩
  | .local _ .vmem, ⟨9, _⟩ => ⟨S8x3200, .i32⟩
  | .local _ .vmem, ⟨10, _⟩ => ⟨S128x3200, .f32⟩
  | .local _ .vmem, ⟨11, _⟩ => ⟨S128x3200, .f32⟩
  | .local _ .vmem, ⟨12, _⟩ => ⟨S128x8, .f32⟩
  | .local _ .vmem, ⟨13, _⟩ => ⟨S128x8, .f32⟩
  | .local _ .vmem, ⟨14, _⟩ => ⟨S128x32000, .f32⟩
  | .local _ .vmem, ⟨15, _⟩ => ⟨S128x32000, .f32⟩
  | .local _ .vmem, ⟨16, _⟩ => ⟨S128x1, .f32⟩
  | .local _ .vmem, ⟨17, _⟩ => ⟨S128x1, .f32⟩
  | .local _ .smem, ⟨0, _⟩ => ⟨S256, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem2_1 : DmaSem sig := 39
abbrev cc1_sem3_0 : DmaSem sig := 40
abbrev cc1_sem3_1 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46
abbrev cc1_sem6_1 : DmaSem sig := 47

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c32_i32 : BitVec 32 := 32#32
  let v0 : BitVec 32 := Scalar.muli arg0 c32_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c32_i32 : BitVec 32 := 32#32
  let v0 : BitVec 32 := Scalar.muli arg0 c32_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c32_i32 : BitVec 32 := 32#32
  let v0 : BitVec 32 := Scalar.muli arg0 c32_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c32_i32 : BitVec 32 := 32#32
  let v0 : BitVec 32 := Scalar.muli arg0 c32_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c32_i32 : BitVec 32 := 32#32
  let v0 : BitVec 32 := Scalar.muli arg0 c32_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c32_i32 : BitVec 32 := 32#32
  let v0 : BitVec 32 := Scalar.muli arg0 c32_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c32_i32 : BitVec 32 := 32#32
  let v0 : BitVec 32 := Scalar.muli arg0 c32_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c32_i32 : BitVec 32 := 32#32
  let v0 : BitVec 32 := Scalar.muli arg0 c32_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c32_i32 : BitVec 32 := 32#32
  let v0 : BitVec 32 := Scalar.muli arg0 c32_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c32_i32 : BitVec 32 := 32#32
  let v0 : BitVec 32 := Scalar.muli arg0 c32_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c32_i32 : BitVec 32 := 32#32
  let v0 : BitVec 32 := Scalar.muli arg0 c32_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c32_i32 : BitVec 32 := 32#32
  let v0 : BitVec 32 := Scalar.muli arg0 c32_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c32_i32 : BitVec 32 := 32#32
  let v0 : BitVec 32 := Scalar.muli arg0 c32_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c32_i32 : BitVec 32 := 32#32
  let v0 : BitVec 32 := Scalar.muli arg0 c32_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c32_i32 : BitVec 32 := 32#32
  let v0 : BitVec 32 := Scalar.muli arg0 c32_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c32_i32 : BitVec 32 := 32#32
  let v0 : BitVec 32 := Scalar.muli arg0 c32_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c32_i32 : BitVec 32 := 32#32
  let v0 : BitVec 32 := Scalar.muli arg0 c32_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c32_i32 : BitVec 32 := 32#32
  let v0 : BitVec 32 := Scalar.muli arg0 c32_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c32_i32 : BitVec 32 := 32#32
  let v0 : BitVec 32 := Scalar.muli arg0 c32_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c32_i32 : BitVec 32 := 32#32
  let v0 : BitVec 32 := Scalar.muli arg0 c32_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c32_i32 : BitVec 32 := 32#32
  let v0 : BitVec 32 := Scalar.muli arg0 c32_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c32_i32 : BitVec 32 := 32#32
  let v0 : BitVec 32 := Scalar.muli arg0 c32_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c32_i32 : BitVec 32 := 32#32
  let v0 : BitVec 32 := Scalar.muli arg0 c32_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c32_i32 : BitVec 32 := 32#32
  let v0 : BitVec 32 := Scalar.muli arg0 c32_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c32_i32 : BitVec 32 := 32#32
  let v0 : BitVec 32 := Scalar.muli arg0 c32_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c32_i32 : BitVec 32 := 32#32
  let v0 : BitVec 32 := Scalar.muli arg0 c32_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c32_i32 : BitVec 32 := 32#32
  let v0 : BitVec 32 := Scalar.muli arg0 c32_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c32_i32 : BitVec 32 := 32#32
  let v0 : BitVec 32 := Scalar.muli arg0 c32_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c32_i32 : BitVec 32 := 32#32
  let v0 : BitVec 32 := Scalar.muli arg0 c32_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c32_i32 : BitVec 32 := 32#32
  let v0 : BitVec 32 := Scalar.muli arg0 c32_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c32_i32 : BitVec 32 := 32#32
  let v0 : BitVec 32 := Scalar.muli arg0 c32_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x32000.size a ≤ S4000x32000.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x32000.size a ≤ S4000x32000.size a := fun v282 k0_hw32 => k0_hw32

def k0_off65 (v3 : BitVec 32) : Fin 2 → Nat :=
  let c0_i32_131 : BitVec 32 := 0#32
  ![v3.toNat, 0]

def k0_chk1 (v3 : BitVec 32) : Prop :=
  (∀ a, (k0_off2 v3) a + S1x32000.size a ≤ S4000x32000.size a) ∧
  (∀ a, (k0_off65 v3) a + S1x32000.size a ≤ S4000x32000.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x32000.size a ≤ S4000x32000.size a := fun v3 k0_hw1 => k0_hw1.1
theorem k0_off65_inb : ∀ (v3 : BitVec 32) (k0_hw1 : k0_chk1 v3), ∀ a, (k0_off65 v3) a + S1x32000.size a ≤ S4000x32000.size a := fun v3 k0_hw1 => k0_hw1.2

def k0_off66 (v12 : BitVec 32) : Fin 2 → Nat :=
  let c0_i32_135 : BitVec 32 := 0#32
  ![v12.toNat, 0]

def k0_chk2 (v12 : BitVec 32) : Prop :=
  (∀ a, (k0_off4 v12) a + S1x32000.size a ≤ S4000x32000.size a) ∧
  (∀ a, (k0_off66 v12) a + S1x32000.size a ≤ S4000x32000.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x32000.size a ≤ S4000x32000.size a := fun v12 k0_hw2 => k0_hw2.1
theorem k0_off66_inb : ∀ (v12 : BitVec 32) (k0_hw2 : k0_chk2 v12), ∀ a, (k0_off66 v12) a + S1x32000.size a ≤ S4000x32000.size a := fun v12 k0_hw2 => k0_hw2.2

def k0_off67 (v21 : BitVec 32) : Fin 2 → Nat :=
  let c0_i32_139 : BitVec 32 := 0#32
  ![v21.toNat, 0]

def k0_chk3 (v21 : BitVec 32) : Prop :=
  (∀ a, (k0_off6 v21) a + S1x32000.size a ≤ S4000x32000.size a) ∧
  (∀ a, (k0_off67 v21) a + S1x32000.size a ≤ S4000x32000.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x32000.size a ≤ S4000x32000.size a := fun v21 k0_hw3 => k0_hw3.1
theorem k0_off67_inb : ∀ (v21 : BitVec 32) (k0_hw3 : k0_chk3 v21), ∀ a, (k0_off67 v21) a + S1x32000.size a ≤ S4000x32000.size a := fun v21 k0_hw3 => k0_hw3.2

def k0_off68 (v30 : BitVec 32) : Fin 2 → Nat :=
  let c0_i32_143 : BitVec 32 := 0#32
  ![v30.toNat, 0]

def k0_chk4 (v30 : BitVec 32) : Prop :=
  (∀ a, (k0_off8 v30) a + S1x32000.size a ≤ S4000x32000.size a) ∧
  (∀ a, (k0_off68 v30) a + S1x32000.size a ≤ S4000x32000.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x32000.size a ≤ S4000x32000.size a := fun v30 k0_hw4 => k0_hw4.1
theorem k0_off68_inb : ∀ (v30 : BitVec 32) (k0_hw4 : k0_chk4 v30), ∀ a, (k0_off68 v30) a + S1x32000.size a ≤ S4000x32000.size a := fun v30 k0_hw4 => k0_hw4.2

def k0_off69 (v39 : BitVec 32) : Fin 2 → Nat :=
  let c0_i32_147 : BitVec 32 := 0#32
  ![v39.toNat, 0]

def k0_chk5 (v39 : BitVec 32) : Prop :=
  (∀ a, (k0_off10 v39) a + S1x32000.size a ≤ S4000x32000.size a) ∧
  (∀ a, (k0_off69 v39) a + S1x32000.size a ≤ S4000x32000.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x32000.size a ≤ S4000x32000.size a := fun v39 k0_hw5 => k0_hw5.1
theorem k0_off69_inb : ∀ (v39 : BitVec 32) (k0_hw5 : k0_chk5 v39), ∀ a, (k0_off69 v39) a + S1x32000.size a ≤ S4000x32000.size a := fun v39 k0_hw5 => k0_hw5.2

def k0_off70 (v48 : BitVec 32) : Fin 2 → Nat :=
  let c0_i32_151 : BitVec 32 := 0#32
  ![v48.toNat, 0]

def k0_chk6 (v48 : BitVec 32) : Prop :=
  (∀ a, (k0_off12 v48) a + S1x32000.size a ≤ S4000x32000.size a) ∧
  (∀ a, (k0_off70 v48) a + S1x32000.size a ≤ S4000x32000.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x32000.size a ≤ S4000x32000.size a := fun v48 k0_hw6 => k0_hw6.1
theorem k0_off70_inb : ∀ (v48 : BitVec 32) (k0_hw6 : k0_chk6 v48), ∀ a, (k0_off70 v48) a + S1x32000.size a ≤ S4000x32000.size a := fun v48 k0_hw6 => k0_hw6.2

def k0_off71 (v57 : BitVec 32) : Fin 2 → Nat :=
  let c0_i32_155 : BitVec 32 := 0#32
  ![v57.toNat, 0]

def k0_chk7 (v57 : BitVec 32) : Prop :=
  (∀ a, (k0_off14 v57) a + S1x32000.size a ≤ S4000x32000.size a) ∧
  (∀ a, (k0_off71 v57) a + S1x32000.size a ≤ S4000x32000.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x32000.size a ≤ S4000x32000.size a := fun v57 k0_hw7 => k0_hw7.1
theorem k0_off71_inb : ∀ (v57 : BitVec 32) (k0_hw7 : k0_chk7 v57), ∀ a, (k0_off71 v57) a + S1x32000.size a ≤ S4000x32000.size a := fun v57 k0_hw7 => k0_hw7.2

def k0_off72 (v66 : BitVec 32) : Fin 2 → Nat :=
  let c0_i32_159 : BitVec 32 := 0#32
  ![v66.toNat, 0]

def k0_chk8 (v66 : BitVec 32) : Prop :=
  (∀ a, (k0_off16 v66) a + S1x32000.size a ≤ S4000x32000.size a) ∧
  (∀ a, (k0_off72 v66) a + S1x32000.size a ≤ S4000x32000.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x32000.size a ≤ S4000x32000.size a := fun v66 k0_hw8 => k0_hw8.1
theorem k0_off72_inb : ∀ (v66 : BitVec 32) (k0_hw8 : k0_chk8 v66), ∀ a, (k0_off72 v66) a + S1x32000.size a ≤ S4000x32000.size a := fun v66 k0_hw8 => k0_hw8.2

def k0_off73 (v75 : BitVec 32) : Fin 2 → Nat :=
  let c0_i32_163 : BitVec 32 := 0#32
  ![v75.toNat, 0]

def k0_chk9 (v75 : BitVec 32) : Prop :=
  (∀ a, (k0_off18 v75) a + S1x32000.size a ≤ S4000x32000.size a) ∧
  (∀ a, (k0_off73 v75) a + S1x32000.size a ≤ S4000x32000.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x32000.size a ≤ S4000x32000.size a := fun v75 k0_hw9 => k0_hw9.1
theorem k0_off73_inb : ∀ (v75 : BitVec 32) (k0_hw9 : k0_chk9 v75), ∀ a, (k0_off73 v75) a + S1x32000.size a ≤ S4000x32000.size a := fun v75 k0_hw9 => k0_hw9.2

def k0_off74 (v84 : BitVec 32) : Fin 2 → Nat :=
  let c0_i32_167 : BitVec 32 := 0#32
  ![v84.toNat, 0]

def k0_chk10 (v84 : BitVec 32) : Prop :=
  (∀ a, (k0_off20 v84) a + S1x32000.size a ≤ S4000x32000.size a) ∧
  (∀ a, (k0_off74 v84) a + S1x32000.size a ≤ S4000x32000.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x32000.size a ≤ S4000x32000.size a := fun v84 k0_hw10 => k0_hw10.1
theorem k0_off74_inb : ∀ (v84 : BitVec 32) (k0_hw10 : k0_chk10 v84), ∀ a, (k0_off74 v84) a + S1x32000.size a ≤ S4000x32000.size a := fun v84 k0_hw10 => k0_hw10.2

def k0_off75 (v93 : BitVec 32) : Fin 2 → Nat :=
  let c0_i32_171 : BitVec 32 := 0#32
  ![v93.toNat, 0]

def k0_chk11 (v93 : BitVec 32) : Prop :=
  (∀ a, (k0_off22 v93) a + S1x32000.size a ≤ S4000x32000.size a) ∧
  (∀ a, (k0_off75 v93) a + S1x32000.size a ≤ S4000x32000.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x32000.size a ≤ S4000x32000.size a := fun v93 k0_hw11 => k0_hw11.1
theorem k0_off75_inb : ∀ (v93 : BitVec 32) (k0_hw11 : k0_chk11 v93), ∀ a, (k0_off75 v93) a + S1x32000.size a ≤ S4000x32000.size a := fun v93 k0_hw11 => k0_hw11.2

def k0_off76 (v102 : BitVec 32) : Fin 2 → Nat :=
  let c0_i32_175 : BitVec 32 := 0#32
  ![v102.toNat, 0]

def k0_chk12 (v102 : BitVec 32) : Prop :=
  (∀ a, (k0_off24 v102) a + S1x32000.size a ≤ S4000x32000.size a) ∧
  (∀ a, (k0_off76 v102) a + S1x32000.size a ≤ S4000x32000.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x32000.size a ≤ S4000x32000.size a := fun v102 k0_hw12 => k0_hw12.1
theorem k0_off76_inb : ∀ (v102 : BitVec 32) (k0_hw12 : k0_chk12 v102), ∀ a, (k0_off76 v102) a + S1x32000.size a ≤ S4000x32000.size a := fun v102 k0_hw12 => k0_hw12.2

def k0_off77 (v111 : BitVec 32) : Fin 2 → Nat :=
  let c0_i32_179 : BitVec 32 := 0#32
  ![v111.toNat, 0]

def k0_chk13 (v111 : BitVec 32) : Prop :=
  (∀ a, (k0_off26 v111) a + S1x32000.size a ≤ S4000x32000.size a) ∧
  (∀ a, (k0_off77 v111) a + S1x32000.size a ≤ S4000x32000.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x32000.size a ≤ S4000x32000.size a := fun v111 k0_hw13 => k0_hw13.1
theorem k0_off77_inb : ∀ (v111 : BitVec 32) (k0_hw13 : k0_chk13 v111), ∀ a, (k0_off77 v111) a + S1x32000.size a ≤ S4000x32000.size a := fun v111 k0_hw13 => k0_hw13.2

def k0_off78 (v120 : BitVec 32) : Fin 2 → Nat :=
  let c0_i32_183 : BitVec 32 := 0#32
  ![v120.toNat, 0]

def k0_chk14 (v120 : BitVec 32) : Prop :=
  (∀ a, (k0_off28 v120) a + S1x32000.size a ≤ S4000x32000.size a) ∧
  (∀ a, (k0_off78 v120) a + S1x32000.size a ≤ S4000x32000.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x32000.size a ≤ S4000x32000.size a := fun v120 k0_hw14 => k0_hw14.1
theorem k0_off78_inb : ∀ (v120 : BitVec 32) (k0_hw14 : k0_chk14 v120), ∀ a, (k0_off78 v120) a + S1x32000.size a ≤ S4000x32000.size a := fun v120 k0_hw14 => k0_hw14.2

def k0_off79 (v129 : BitVec 32) : Fin 2 → Nat :=
  let c0_i32_187 : BitVec 32 := 0#32
  ![v129.toNat, 0]

def k0_chk15 (v129 : BitVec 32) : Prop :=
  (∀ a, (k0_off30 v129) a + S1x32000.size a ≤ S4000x32000.size a) ∧
  (∀ a, (k0_off79 v129) a + S1x32000.size a ≤ S4000x32000.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x32000.size a ≤ S4000x32000.size a := fun v129 k0_hw15 => k0_hw15.1
theorem k0_off79_inb : ∀ (v129 : BitVec 32) (k0_hw15 : k0_chk15 v129), ∀ a, (k0_off79 v129) a + S1x32000.size a ≤ S4000x32000.size a := fun v129 k0_hw15 => k0_hw15.2

def k0_off80 (v138 : BitVec 32) : Fin 2 → Nat :=
  let c0_i32_191 : BitVec 32 := 0#32
  ![v138.toNat, 0]

def k0_chk16 (v138 : BitVec 32) : Prop :=
  (∀ a, (k0_off32 v138) a + S1x32000.size a ≤ S4000x32000.size a) ∧
  (∀ a, (k0_off80 v138) a + S1x32000.size a ≤ S4000x32000.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x32000.size a ≤ S4000x32000.size a := fun v138 k0_hw16 => k0_hw16.1
theorem k0_off80_inb : ∀ (v138 : BitVec 32) (k0_hw16 : k0_chk16 v138), ∀ a, (k0_off80 v138) a + S1x32000.size a ≤ S4000x32000.size a := fun v138 k0_hw16 => k0_hw16.2

def k0_off81 (v147 : BitVec 32) : Fin 2 → Nat :=
  let c0_i32_195 : BitVec 32 := 0#32
  ![v147.toNat, 0]

def k0_chk17 (v147 : BitVec 32) : Prop :=
  (∀ a, (k0_off34 v147) a + S1x32000.size a ≤ S4000x32000.size a) ∧
  (∀ a, (k0_off81 v147) a + S1x32000.size a ≤ S4000x32000.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x32000.size a ≤ S4000x32000.size a := fun v147 k0_hw17 => k0_hw17.1
theorem k0_off81_inb : ∀ (v147 : BitVec 32) (k0_hw17 : k0_chk17 v147), ∀ a, (k0_off81 v147) a + S1x32000.size a ≤ S4000x32000.size a := fun v147 k0_hw17 => k0_hw17.2

def k0_off82 (v156 : BitVec 32) : Fin 2 → Nat :=
  let c0_i32_199 : BitVec 32 := 0#32
  ![v156.toNat, 0]

def k0_chk18 (v156 : BitVec 32) : Prop :=
  (∀ a, (k0_off36 v156) a + S1x32000.size a ≤ S4000x32000.size a) ∧
  (∀ a, (k0_off82 v156) a + S1x32000.size a ≤ S4000x32000.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x32000.size a ≤ S4000x32000.size a := fun v156 k0_hw18 => k0_hw18.1
theorem k0_off82_inb : ∀ (v156 : BitVec 32) (k0_hw18 : k0_chk18 v156), ∀ a, (k0_off82 v156) a + S1x32000.size a ≤ S4000x32000.size a := fun v156 k0_hw18 => k0_hw18.2

def k0_off83 (v165 : BitVec 32) : Fin 2 → Nat :=
  let c0_i32_203 : BitVec 32 := 0#32
  ![v165.toNat, 0]

def k0_chk19 (v165 : BitVec 32) : Prop :=
  (∀ a, (k0_off38 v165) a + S1x32000.size a ≤ S4000x32000.size a) ∧
  (∀ a, (k0_off83 v165) a + S1x32000.size a ≤ S4000x32000.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x32000.size a ≤ S4000x32000.size a := fun v165 k0_hw19 => k0_hw19.1
theorem k0_off83_inb : ∀ (v165 : BitVec 32) (k0_hw19 : k0_chk19 v165), ∀ a, (k0_off83 v165) a + S1x32000.size a ≤ S4000x32000.size a := fun v165 k0_hw19 => k0_hw19.2

def k0_off84 (v174 : BitVec 32) : Fin 2 → Nat :=
  let c0_i32_207 : BitVec 32 := 0#32
  ![v174.toNat, 0]

def k0_chk20 (v174 : BitVec 32) : Prop :=
  (∀ a, (k0_off40 v174) a + S1x32000.size a ≤ S4000x32000.size a) ∧
  (∀ a, (k0_off84 v174) a + S1x32000.size a ≤ S4000x32000.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x32000.size a ≤ S4000x32000.size a := fun v174 k0_hw20 => k0_hw20.1
theorem k0_off84_inb : ∀ (v174 : BitVec 32) (k0_hw20 : k0_chk20 v174), ∀ a, (k0_off84 v174) a + S1x32000.size a ≤ S4000x32000.size a := fun v174 k0_hw20 => k0_hw20.2

def k0_off85 (v183 : BitVec 32) : Fin 2 → Nat :=
  let c0_i32_211 : BitVec 32 := 0#32
  ![v183.toNat, 0]

def k0_chk21 (v183 : BitVec 32) : Prop :=
  (∀ a, (k0_off42 v183) a + S1x32000.size a ≤ S4000x32000.size a) ∧
  (∀ a, (k0_off85 v183) a + S1x32000.size a ≤ S4000x32000.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x32000.size a ≤ S4000x32000.size a := fun v183 k0_hw21 => k0_hw21.1
theorem k0_off85_inb : ∀ (v183 : BitVec 32) (k0_hw21 : k0_chk21 v183), ∀ a, (k0_off85 v183) a + S1x32000.size a ≤ S4000x32000.size a := fun v183 k0_hw21 => k0_hw21.2

def k0_off86 (v192 : BitVec 32) : Fin 2 → Nat :=
  let c0_i32_215 : BitVec 32 := 0#32
  ![v192.toNat, 0]

def k0_chk22 (v192 : BitVec 32) : Prop :=
  (∀ a, (k0_off44 v192) a + S1x32000.size a ≤ S4000x32000.size a) ∧
  (∀ a, (k0_off86 v192) a + S1x32000.size a ≤ S4000x32000.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x32000.size a ≤ S4000x32000.size a := fun v192 k0_hw22 => k0_hw22.1
theorem k0_off86_inb : ∀ (v192 : BitVec 32) (k0_hw22 : k0_chk22 v192), ∀ a, (k0_off86 v192) a + S1x32000.size a ≤ S4000x32000.size a := fun v192 k0_hw22 => k0_hw22.2

def k0_off87 (v201 : BitVec 32) : Fin 2 → Nat :=
  let c0_i32_219 : BitVec 32 := 0#32
  ![v201.toNat, 0]

def k0_chk23 (v201 : BitVec 32) : Prop :=
  (∀ a, (k0_off46 v201) a + S1x32000.size a ≤ S4000x32000.size a) ∧
  (∀ a, (k0_off87 v201) a + S1x32000.size a ≤ S4000x32000.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x32000.size a ≤ S4000x32000.size a := fun v201 k0_hw23 => k0_hw23.1
theorem k0_off87_inb : ∀ (v201 : BitVec 32) (k0_hw23 : k0_chk23 v201), ∀ a, (k0_off87 v201) a + S1x32000.size a ≤ S4000x32000.size a := fun v201 k0_hw23 => k0_hw23.2

def k0_off88 (v210 : BitVec 32) : Fin 2 → Nat :=
  let c0_i32_223 : BitVec 32 := 0#32
  ![v210.toNat, 0]

def k0_chk24 (v210 : BitVec 32) : Prop :=
  (∀ a, (k0_off48 v210) a + S1x32000.size a ≤ S4000x32000.size a) ∧
  (∀ a, (k0_off88 v210) a + S1x32000.size a ≤ S4000x32000.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x32000.size a ≤ S4000x32000.size a := fun v210 k0_hw24 => k0_hw24.1
theorem k0_off88_inb : ∀ (v210 : BitVec 32) (k0_hw24 : k0_chk24 v210), ∀ a, (k0_off88 v210) a + S1x32000.size a ≤ S4000x32000.size a := fun v210 k0_hw24 => k0_hw24.2

def k0_off89 (v219 : BitVec 32) : Fin 2 → Nat :=
  let c0_i32_227 : BitVec 32 := 0#32
  ![v219.toNat, 0]

def k0_chk25 (v219 : BitVec 32) : Prop :=
  (∀ a, (k0_off50 v219) a + S1x32000.size a ≤ S4000x32000.size a) ∧
  (∀ a, (k0_off89 v219) a + S1x32000.size a ≤ S4000x32000.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x32000.size a ≤ S4000x32000.size a := fun v219 k0_hw25 => k0_hw25.1
theorem k0_off89_inb : ∀ (v219 : BitVec 32) (k0_hw25 : k0_chk25 v219), ∀ a, (k0_off89 v219) a + S1x32000.size a ≤ S4000x32000.size a := fun v219 k0_hw25 => k0_hw25.2

def k0_off90 (v228 : BitVec 32) : Fin 2 → Nat :=
  let c0_i32_231 : BitVec 32 := 0#32
  ![v228.toNat, 0]

def k0_chk26 (v228 : BitVec 32) : Prop :=
  (∀ a, (k0_off52 v228) a + S1x32000.size a ≤ S4000x32000.size a) ∧
  (∀ a, (k0_off90 v228) a + S1x32000.size a ≤ S4000x32000.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x32000.size a ≤ S4000x32000.size a := fun v228 k0_hw26 => k0_hw26.1
theorem k0_off90_inb : ∀ (v228 : BitVec 32) (k0_hw26 : k0_chk26 v228), ∀ a, (k0_off90 v228) a + S1x32000.size a ≤ S4000x32000.size a := fun v228 k0_hw26 => k0_hw26.2

def k0_off91 (v237 : BitVec 32) : Fin 2 → Nat :=
  let c0_i32_235 : BitVec 32 := 0#32
  ![v237.toNat, 0]

def k0_chk27 (v237 : BitVec 32) : Prop :=
  (∀ a, (k0_off54 v237) a + S1x32000.size a ≤ S4000x32000.size a) ∧
  (∀ a, (k0_off91 v237) a + S1x32000.size a ≤ S4000x32000.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x32000.size a ≤ S4000x32000.size a := fun v237 k0_hw27 => k0_hw27.1
theorem k0_off91_inb : ∀ (v237 : BitVec 32) (k0_hw27 : k0_chk27 v237), ∀ a, (k0_off91 v237) a + S1x32000.size a ≤ S4000x32000.size a := fun v237 k0_hw27 => k0_hw27.2

def k0_off92 (v246 : BitVec 32) : Fin 2 → Nat :=
  let c0_i32_239 : BitVec 32 := 0#32
  ![v246.toNat, 0]

def k0_chk28 (v246 : BitVec 32) : Prop :=
  (∀ a, (k0_off56 v246) a + S1x32000.size a ≤ S4000x32000.size a) ∧
  (∀ a, (k0_off92 v246) a + S1x32000.size a ≤ S4000x32000.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x32000.size a ≤ S4000x32000.size a := fun v246 k0_hw28 => k0_hw28.1
theorem k0_off92_inb : ∀ (v246 : BitVec 32) (k0_hw28 : k0_chk28 v246), ∀ a, (k0_off92 v246) a + S1x32000.size a ≤ S4000x32000.size a := fun v246 k0_hw28 => k0_hw28.2

def k0_off93 (v255 : BitVec 32) : Fin 2 → Nat :=
  let c0_i32_243 : BitVec 32 := 0#32
  ![v255.toNat, 0]

def k0_chk29 (v255 : BitVec 32) : Prop :=
  (∀ a, (k0_off58 v255) a + S1x32000.size a ≤ S4000x32000.size a) ∧
  (∀ a, (k0_off93 v255) a + S1x32000.size a ≤ S4000x32000.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x32000.size a ≤ S4000x32000.size a := fun v255 k0_hw29 => k0_hw29.1
theorem k0_off93_inb : ∀ (v255 : BitVec 32) (k0_hw29 : k0_chk29 v255), ∀ a, (k0_off93 v255) a + S1x32000.size a ≤ S4000x32000.size a := fun v255 k0_hw29 => k0_hw29.2

def k0_off94 (v264 : BitVec 32) : Fin 2 → Nat :=
  let c0_i32_247 : BitVec 32 := 0#32
  ![v264.toNat, 0]

def k0_chk30 (v264 : BitVec 32) : Prop :=
  (∀ a, (k0_off60 v264) a + S1x32000.size a ≤ S4000x32000.size a) ∧
  (∀ a, (k0_off94 v264) a + S1x32000.size a ≤ S4000x32000.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x32000.size a ≤ S4000x32000.size a := fun v264 k0_hw30 => k0_hw30.1
theorem k0_off94_inb : ∀ (v264 : BitVec 32) (k0_hw30 : k0_chk30 v264), ∀ a, (k0_off94 v264) a + S1x32000.size a ≤ S4000x32000.size a := fun v264 k0_hw30 => k0_hw30.2

def k0_off95 (v273 : BitVec 32) : Fin 2 → Nat :=
  let c0_i32_251 : BitVec 32 := 0#32
  ![v273.toNat, 0]

def k0_chk31 (v273 : BitVec 32) : Prop :=
  (∀ a, (k0_off62 v273) a + S1x32000.size a ≤ S4000x32000.size a) ∧
  (∀ a, (k0_off95 v273) a + S1x32000.size a ≤ S4000x32000.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x32000.size a ≤ S4000x32000.size a := fun v273 k0_hw31 => k0_hw31.1
theorem k0_off95_inb : ∀ (v273 : BitVec 32) (k0_hw31 : k0_chk31 v273), ∀ a, (k0_off95 v273) a + S1x32000.size a ≤ S4000x32000.size a := fun v273 k0_hw31 => k0_hw31.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![2, 10], ![false, false]⟩

def k1_mult1 (i : grid1.Coords) : BitVec 32 :=
  let arg1 : BitVec 32 := BitVec.ofNat 32 (i 1).val
  let c3200_i32 : BitVec 32 := 3200#32
  let v172 : BitVec 32 := Scalar.muli arg1 c3200_i32
  v172
def k1_off1 (i : grid1.Coords) : Fin 2 → Nat :=
  let c0_29 : Index := 0#32
  let arg1 : BitVec 32 := BitVec.ofNat 32 (i 1).val
  let c3200_i32 : BitVec 32 := 3200#32
  let v172 : BitVec 32 := Scalar.muli arg1 c3200_i32
  let v173 : BitVec 32 := v172
  let v174 : Index := Scalar.indexCast v173
  ![0, v174.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x8x3200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x3200 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x3200 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S128x32000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S256 : S_.BroadcastsInDim S256 (![] : Fin 0 → Fin S256.rank)
  shapeCasts_S500x8x32000_S4000x32000 : S500x8x32000.ShapeCasts S4000x32000
  numel1_S1 : S1.numel = 1
  inb_S32_S1_0 : ∀ a, (![0] : Fin 1 → Nat) a + S1.size a ≤ S32.size a
  squeezes_S1_S_ : S1.Squeezes S_
  inb_S32x32000_S1x32000_0_0 : ∀ a, (![0, 0] : Fin 2 → Nat) a + S1x32000.size a ≤ S32x32000.size a
  squeezes_S1x32000_S32000 : S1x32000.Squeezes S32000
  inb_S32_S1_1 : ∀ a, (![1] : Fin 1 → Nat) a + S1.size a ≤ S32.size a
  inb_S32x32000_S1x32000_1_0 : ∀ a, (![1, 0] : Fin 2 → Nat) a + S1x32000.size a ≤ S32x32000.size a
  inb_S32_S1_2 : ∀ a, (![2] : Fin 1 → Nat) a + S1.size a ≤ S32.size a
  inb_S32x32000_S1x32000_2_0 : ∀ a, (![2, 0] : Fin 2 → Nat) a + S1x32000.size a ≤ S32x32000.size a
  inb_S32_S1_3 : ∀ a, (![3] : Fin 1 → Nat) a + S1.size a ≤ S32.size a
  inb_S32x32000_S1x32000_3_0 : ∀ a, (![3, 0] : Fin 2 → Nat) a + S1x32000.size a ≤ S32x32000.size a
  inb_S32_S1_4 : ∀ a, (![4] : Fin 1 → Nat) a + S1.size a ≤ S32.size a
  inb_S32x32000_S1x32000_4_0 : ∀ a, (![4, 0] : Fin 2 → Nat) a + S1x32000.size a ≤ S32x32000.size a
  inb_S32_S1_5 : ∀ a, (![5] : Fin 1 → Nat) a + S1.size a ≤ S32.size a
  inb_S32x32000_S1x32000_5_0 : ∀ a, (![5, 0] : Fin 2 → Nat) a + S1x32000.size a ≤ S32x32000.size a
  inb_S32_S1_6 : ∀ a, (![6] : Fin 1 → Nat) a + S1.size a ≤ S32.size a
  inb_S32x32000_S1x32000_6_0 : ∀ a, (![6, 0] : Fin 2 → Nat) a + S1x32000.size a ≤ S32x32000.size a
  inb_S32_S1_7 : ∀ a, (![7] : Fin 1 → Nat) a + S1.size a ≤ S32.size a
  inb_S32x32000_S1x32000_7_0 : ∀ a, (![7, 0] : Fin 2 → Nat) a + S1x32000.size a ≤ S32x32000.size a
  inb_S32_S1_8 : ∀ a, (![8] : Fin 1 → Nat) a + S1.size a ≤ S32.size a
  inb_S32x32000_S1x32000_8_0 : ∀ a, (![8, 0] : Fin 2 → Nat) a + S1x32000.size a ≤ S32x32000.size a
  inb_S32_S1_9 : ∀ a, (![9] : Fin 1 → Nat) a + S1.size a ≤ S32.size a
  inb_S32x32000_S1x32000_9_0 : ∀ a, (![9, 0] : Fin 2 → Nat) a + S1x32000.size a ≤ S32x32000.size a
  inb_S32_S1_10 : ∀ a, (![10] : Fin 1 → Nat) a + S1.size a ≤ S32.size a
  inb_S32x32000_S1x32000_10_0 : ∀ a, (![10, 0] : Fin 2 → Nat) a + S1x32000.size a ≤ S32x32000.size a
  inb_S32_S1_11 : ∀ a, (![11] : Fin 1 → Nat) a + S1.size a ≤ S32.size a
  inb_S32x32000_S1x32000_11_0 : ∀ a, (![11, 0] : Fin 2 → Nat) a + S1x32000.size a ≤ S32x32000.size a
  inb_S32_S1_12 : ∀ a, (![12] : Fin 1 → Nat) a + S1.size a ≤ S32.size a
  inb_S32x32000_S1x32000_12_0 : ∀ a, (![12, 0] : Fin 2 → Nat) a + S1x32000.size a ≤ S32x32000.size a
  inb_S32_S1_13 : ∀ a, (![13] : Fin 1 → Nat) a + S1.size a ≤ S32.size a
  inb_S32x32000_S1x32000_13_0 : ∀ a, (![13, 0] : Fin 2 → Nat) a + S1x32000.size a ≤ S32x32000.size a
  inb_S32_S1_14 : ∀ a, (![14] : Fin 1 → Nat) a + S1.size a ≤ S32.size a
  inb_S32x32000_S1x32000_14_0 : ∀ a, (![14, 0] : Fin 2 → Nat) a + S1x32000.size a ≤ S32x32000.size a
  inb_S32_S1_15 : ∀ a, (![15] : Fin 1 → Nat) a + S1.size a ≤ S32.size a
  inb_S32x32000_S1x32000_15_0 : ∀ a, (![15, 0] : Fin 2 → Nat) a + S1x32000.size a ≤ S32x32000.size a
  inb_S32_S1_16 : ∀ a, (![16] : Fin 1 → Nat) a + S1.size a ≤ S32.size a
  inb_S32x32000_S1x32000_16_0 : ∀ a, (![16, 0] : Fin 2 → Nat) a + S1x32000.size a ≤ S32x32000.size a
  inb_S32_S1_17 : ∀ a, (![17] : Fin 1 → Nat) a + S1.size a ≤ S32.size a
  inb_S32x32000_S1x32000_17_0 : ∀ a, (![17, 0] : Fin 2 → Nat) a + S1x32000.size a ≤ S32x32000.size a
  inb_S32_S1_18 : ∀ a, (![18] : Fin 1 → Nat) a + S1.size a ≤ S32.size a
  inb_S32x32000_S1x32000_18_0 : ∀ a, (![18, 0] : Fin 2 → Nat) a + S1x32000.size a ≤ S32x32000.size a
  inb_S32_S1_19 : ∀ a, (![19] : Fin 1 → Nat) a + S1.size a ≤ S32.size a
  inb_S32x32000_S1x32000_19_0 : ∀ a, (![19, 0] : Fin 2 → Nat) a + S1x32000.size a ≤ S32x32000.size a
  inb_S32_S1_20 : ∀ a, (![20] : Fin 1 → Nat) a + S1.size a ≤ S32.size a
  inb_S32x32000_S1x32000_20_0 : ∀ a, (![20, 0] : Fin 2 → Nat) a + S1x32000.size a ≤ S32x32000.size a
  inb_S32_S1_21 : ∀ a, (![21] : Fin 1 → Nat) a + S1.size a ≤ S32.size a
  inb_S32x32000_S1x32000_21_0 : ∀ a, (![21, 0] : Fin 2 → Nat) a + S1x32000.size a ≤ S32x32000.size a
  inb_S32_S1_22 : ∀ a, (![22] : Fin 1 → Nat) a + S1.size a ≤ S32.size a
  inb_S32x32000_S1x32000_22_0 : ∀ a, (![22, 0] : Fin 2 → Nat) a + S1x32000.size a ≤ S32x32000.size a
  inb_S32_S1_23 : ∀ a, (![23] : Fin 1 → Nat) a + S1.size a ≤ S32.size a
  inb_S32x32000_S1x32000_23_0 : ∀ a, (![23, 0] : Fin 2 → Nat) a + S1x32000.size a ≤ S32x32000.size a
  inb_S32_S1_24 : ∀ a, (![24] : Fin 1 → Nat) a + S1.size a ≤ S32.size a
  inb_S32x32000_S1x32000_24_0 : ∀ a, (![24, 0] : Fin 2 → Nat) a + S1x32000.size a ≤ S32x32000.size a
  inb_S32_S1_25 : ∀ a, (![25] : Fin 1 → Nat) a + S1.size a ≤ S32.size a
  inb_S32x32000_S1x32000_25_0 : ∀ a, (![25, 0] : Fin 2 → Nat) a + S1x32000.size a ≤ S32x32000.size a
  inb_S32_S1_26 : ∀ a, (![26] : Fin 1 → Nat) a + S1.size a ≤ S32.size a
  inb_S32x32000_S1x32000_26_0 : ∀ a, (![26, 0] : Fin 2 → Nat) a + S1x32000.size a ≤ S32x32000.size a
  inb_S32_S1_27 : ∀ a, (![27] : Fin 1 → Nat) a + S1.size a ≤ S32.size a
  inb_S32x32000_S1x32000_27_0 : ∀ a, (![27, 0] : Fin 2 → Nat) a + S1x32000.size a ≤ S32x32000.size a
  inb_S32_S1_28 : ∀ a, (![28] : Fin 1 → Nat) a + S1.size a ≤ S32.size a
  inb_S32x32000_S1x32000_28_0 : ∀ a, (![28, 0] : Fin 2 → Nat) a + S1x32000.size a ≤ S32x32000.size a
  inb_S32_S1_29 : ∀ a, (![29] : Fin 1 → Nat) a + S1.size a ≤ S32.size a
  inb_S32x32000_S1x32000_29_0 : ∀ a, (![29, 0] : Fin 2 → Nat) a + S1x32000.size a ≤ S32x32000.size a
  inb_S32_S1_30 : ∀ a, (![30] : Fin 1 → Nat) a + S1.size a ≤ S32.size a
  inb_S32x32000_S1x32000_30_0 : ∀ a, (![30, 0] : Fin 2 → Nat) a + S1x32000.size a ≤ S32x32000.size a
  inb_S32_S1_31 : ∀ a, (![31] : Fin 1 → Nat) a + S1.size a ≤ S32.size a
  inb_S32x32000_S1x32000_31_0 : ∀ a, (![31, 0] : Fin 2 → Nat) a + S1x32000.size a ≤ S32x32000.size a
  bcast_S256_S256x1_0 : S256.BroadcastsInDim S256x1 (![0] : Fin 1 → Fin S256x1.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S8x3200_S8x3200_0_0 : ∀ a, (![0, 0] : Fin 2 → Nat) a + S8x3200.size a ≤ S8x3200.size a
  h_S8x3200 : 0 < S8x3200.numel
  slices_S128x8_o0_0_S128x1 : S128x8.Slices ![0, 0] S128x1
  slices_S8x3200_o0_0_S1x3200 : S8x3200.Slices ![0, 0] S1x3200
  shapeCasts_S1x3200_S3200 : S1x3200.ShapeCasts S3200
  shapeCasts_S3200_S1x3200 : S3200.ShapeCasts S1x3200
  broadcasts_S128x1_S128x3200 : S128x1.Broadcasts S128x3200
  broadcasts_S1x3200_S128x3200 : S1x3200.Broadcasts S128x3200
  slices_S128x8_o0_1_S128x1 : S128x8.Slices ![0, 1] S128x1
  slices_S8x3200_o1_0_S1x3200 : S8x3200.Slices ![1, 0] S1x3200
  slices_S128x8_o0_2_S128x1 : S128x8.Slices ![0, 2] S128x1
  slices_S8x3200_o2_0_S1x3200 : S8x3200.Slices ![2, 0] S1x3200
  slices_S128x8_o0_3_S128x1 : S128x8.Slices ![0, 3] S128x1
  slices_S8x3200_o3_0_S1x3200 : S8x3200.Slices ![3, 0] S1x3200
  slices_S128x8_o0_4_S128x1 : S128x8.Slices ![0, 4] S128x1
  slices_S8x3200_o4_0_S1x3200 : S8x3200.Slices ![4, 0] S1x3200
  slices_S128x8_o0_5_S128x1 : S128x8.Slices ![0, 5] S128x1
  slices_S8x3200_o5_0_S1x3200 : S8x3200.Slices ![5, 0] S1x3200
  slices_S128x8_o0_6_S128x1 : S128x8.Slices ![0, 6] S128x1
  slices_S8x3200_o6_0_S1x3200 : S8x3200.Slices ![6, 0] S1x3200
  slices_S128x8_o0_7_S128x1 : S128x8.Slices ![0, 7] S128x1
  slices_S8x3200_o7_0_S1x3200 : S8x3200.Slices ![7, 0] S1x3200
  shapeCasts_S128x64_S128x64x1 : S128x64.ShapeCasts S128x64x1
  shapeCasts_S128x8_S128x1x8 : S128x8.ShapeCasts S128x1x8
  broadcasts_S128x64x1_S128x64x8 : S128x64x1.Broadcasts S128x64x8
  broadcasts_S128x1x8_S128x64x8 : S128x1x8.Broadcasts S128x64x8
  shapeCasts_S128x64x8_S128x512 : S128x64x8.ShapeCasts S128x512
  inb_S64x8x3200_S64x8x3200_0_0_0 : ∀ a, (![0, 0, 0] : Fin 3 → Nat) a + S64x8x3200.size a ≤ S64x8x3200.size a
  h_S64x8x3200 : 0 < S64x8x3200.numel
  shapeCasts_S64x8x3200_S512x3200 : S64x8x3200.ShapeCasts S512x3200
  inb_S128x3200_S128x3200_0_0 : ∀ a, (![0, 0] : Fin 2 → Nat) a + S128x3200.size a ≤ S128x3200.size a
  h_S128x3200 : 0 < S128x3200.numel
  shapeCasts_S128x3200_S128x3200 : S128x3200.ShapeCasts S128x3200
  reduces_S128x3200_S128 : S128x3200.Reduces [1] S128
  shapeCasts_S128_S128x1 : S128.ShapeCasts S128x1
  inb_S128x32000_S128x3200_0_0 : ∀ a, (![0, 0] : Fin 2 → Nat) a + S128x3200.size a ≤ S128x32000.size a
  inb_S128x32000_S128x3200_0_3200 : ∀ a, (![0, 3200] : Fin 2 → Nat) a + S128x3200.size a ≤ S128x32000.size a
  inb_S128x32000_S128x3200_0_6400 : ∀ a, (![0, 6400] : Fin 2 → Nat) a + S128x3200.size a ≤ S128x32000.size a
  inb_S128x32000_S128x3200_0_9600 : ∀ a, (![0, 9600] : Fin 2 → Nat) a + S128x3200.size a ≤ S128x32000.size a
  inb_S128x32000_S128x3200_0_12800 : ∀ a, (![0, 12800] : Fin 2 → Nat) a + S128x3200.size a ≤ S128x32000.size a
  inb_S128x32000_S128x3200_0_16000 : ∀ a, (![0, 16000] : Fin 2 → Nat) a + S128x3200.size a ≤ S128x32000.size a
  inb_S128x32000_S128x3200_0_19200 : ∀ a, (![0, 19200] : Fin 2 → Nat) a + S128x3200.size a ≤ S128x32000.size a
  inb_S128x32000_S128x3200_0_22400 : ∀ a, (![0, 22400] : Fin 2 → Nat) a + S128x3200.size a ≤ S128x32000.size a
  inb_S128x32000_S128x3200_0_25600 : ∀ a, (![0, 25600] : Fin 2 → Nat) a + S128x3200.size a ≤ S128x32000.size a
  inb_S128x32000_S128x3200_0_28800 : ∀ a, (![0, 28800] : Fin 2 → Nat) a + S128x3200.size a ≤ S128x32000.size a
  dot_S128x512_S512x3200_S128x3200_1_0_0_1_n_n_wf : DotDims.WF S128x512 S512x3200 S128x3200 [1] [0] [0] [1] [] []
  hcc0_scratch0 : 2 + S32.numel ≤ 48
  hrank0 : 0 < grid0.rank
  k0_off1_inb : ∀ i : grid0.Coords, ∀ a, (k0_off1 i) a + S1.size a ≤ S256.size a
  k0_off3_inb : ∀ i : grid0.Coords, ∀ a, (k0_off3 i) a + S1.size a ≤ S256.size a
  k0_off5_inb : ∀ i : grid0.Coords, ∀ a, (k0_off5 i) a + S1.size a ≤ S256.size a
  k0_off7_inb : ∀ i : grid0.Coords, ∀ a, (k0_off7 i) a + S1.size a ≤ S256.size a
  k0_off9_inb : ∀ i : grid0.Coords, ∀ a, (k0_off9 i) a + S1.size a ≤ S256.size a
  k0_off11_inb : ∀ i : grid0.Coords, ∀ a, (k0_off11 i) a + S1.size a ≤ S256.size a
  k0_off13_inb : ∀ i : grid0.Coords, ∀ a, (k0_off13 i) a + S1.size a ≤ S256.size a
  k0_off15_inb : ∀ i : grid0.Coords, ∀ a, (k0_off15 i) a + S1.size a ≤ S256.size a
  k0_off17_inb : ∀ i : grid0.Coords, ∀ a, (k0_off17 i) a + S1.size a ≤ S256.size a
  k0_off19_inb : ∀ i : grid0.Coords, ∀ a, (k0_off19 i) a + S1.size a ≤ S256.size a
  k0_off21_inb : ∀ i : grid0.Coords, ∀ a, (k0_off21 i) a + S1.size a ≤ S256.size a
  k0_off23_inb : ∀ i : grid0.Coords, ∀ a, (k0_off23 i) a + S1.size a ≤ S256.size a
  k0_off25_inb : ∀ i : grid0.Coords, ∀ a, (k0_off25 i) a + S1.size a ≤ S256.size a
  k0_off27_inb : ∀ i : grid0.Coords, ∀ a, (k0_off27 i) a + S1.size a ≤ S256.size a
  k0_off29_inb : ∀ i : grid0.Coords, ∀ a, (k0_off29 i) a + S1.size a ≤ S256.size a
  k0_off31_inb : ∀ i : grid0.Coords, ∀ a, (k0_off31 i) a + S1.size a ≤ S256.size a
  k0_off33_inb : ∀ i : grid0.Coords, ∀ a, (k0_off33 i) a + S1.size a ≤ S256.size a
  k0_off35_inb : ∀ i : grid0.Coords, ∀ a, (k0_off35 i) a + S1.size a ≤ S256.size a
  k0_off37_inb : ∀ i : grid0.Coords, ∀ a, (k0_off37 i) a + S1.size a ≤ S256.size a
  k0_off39_inb : ∀ i : grid0.Coords, ∀ a, (k0_off39 i) a + S1.size a ≤ S256.size a
  k0_off41_inb : ∀ i : grid0.Coords, ∀ a, (k0_off41 i) a + S1.size a ≤ S256.size a
  k0_off43_inb : ∀ i : grid0.Coords, ∀ a, (k0_off43 i) a + S1.size a ≤ S256.size a
  k0_off45_inb : ∀ i : grid0.Coords, ∀ a, (k0_off45 i) a + S1.size a ≤ S256.size a
  k0_off47_inb : ∀ i : grid0.Coords, ∀ a, (k0_off47 i) a + S1.size a ≤ S256.size a
  k0_off49_inb : ∀ i : grid0.Coords, ∀ a, (k0_off49 i) a + S1.size a ≤ S256.size a
  k0_off51_inb : ∀ i : grid0.Coords, ∀ a, (k0_off51 i) a + S1.size a ≤ S256.size a
  k0_off53_inb : ∀ i : grid0.Coords, ∀ a, (k0_off53 i) a + S1.size a ≤ S256.size a
  k0_off55_inb : ∀ i : grid0.Coords, ∀ a, (k0_off55 i) a + S1.size a ≤ S256.size a
  k0_off57_inb : ∀ i : grid0.Coords, ∀ a, (k0_off57 i) a + S1.size a ≤ S256.size a
  k0_off59_inb : ∀ i : grid0.Coords, ∀ a, (k0_off59 i) a + S1.size a ≤ S256.size a
  k0_off61_inb : ∀ i : grid0.Coords, ∀ a, (k0_off61 i) a + S1.size a ≤ S256.size a
  k0_off63_inb : ∀ i : grid0.Coords, ∀ a, (k0_off63 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S32x32000.size a ≤ S256x32000.size a
  hwx0_0 : ∀ i : grid0.Coords, EltTy.bits .f32 = 32 ∨ (Rect.block (s := S256x32000) S32x32000.size (cc0_transform_1 i) (hinb0_0 i)).WholeWords (EltTy.packing .f32)
  hrank1 : 0 < grid1.rank
  k1_mult1_dvd : ∀ i : grid1.Coords, 3200 ∣ (k1_mult1 i).toNat
  k1_off1_inb : ∀ i : grid1.Coords, ∀ a, (k1_off1 i) a + S128x3200.size a ≤ S128x32000.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S256x64.size a
  hwx1_0 : ∀ i : grid1.Coords, EltTy.bits .f32 = 32 ∨ (Rect.block (s := S256x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x8x3200.size a ≤ S64x8x32000.size a
  hwx1_1 : ∀ i : grid1.Coords, EltTy.bits .f32 = 32 ∨ (Rect.block (s := S64x8x32000) S64x8x3200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x3200.size a ≤ S8x32000.size a
  hwx1_2 : ∀ i : grid1.Coords, EltTy.bits .f32 = 32 ∨ (Rect.block (s := S8x32000) S8x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x3200.size a ≤ S8x32000.size a
  hwx1_3 : ∀ i : grid1.Coords, EltTy.bits .i32 = 32 ∨ (Rect.block (s := S8x32000) S8x3200.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x3200.size a ≤ S256x32000.size a
  hwx1_4 : ∀ i : grid1.Coords, EltTy.bits .f32 = 32 ∨ (Rect.block (s := S256x32000) S128x3200.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S256x8.size a
  hwx1_5 : ∀ i : grid1.Coords, EltTy.bits .f32 = 32 ∨ (Rect.block (s := S256x8) S128x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x32000.size a ≤ S256x32000.size a
  hwx1_6 : ∀ i : grid1.Coords, EltTy.bits .f32 = 32 ∨ (Rect.block (s := S256x32000) S128x32000.size (cc1_transform_6 i) (hinb1_6 i)).WholeWords (EltTy.packing .f32)

variable [Facts₀]

abbrev cc0_scratch0 : DmaSems sig S32 := SemArray.consecutive 2 S32 hcc0_scratch0
def dot_S128x512_S512x3200_S128x3200_1_0_0_1_n_n : DotDims S128x512 S512x3200 S128x3200 where
  lhsContracting := [1]
  rhsContracting := [0]
  lhsNonContracting := [0]
  rhsNonContracting := [1]
  lhsBatch := []
  rhsBatch := []
  wf := dot_S128x512_S512x3200_S128x3200_1_0_0_1_n_n_wf

abbrev spec0_0 : Pipeline.WinSpec sig grid0.rank :=
  Pipeline.WinSpec.ofSpec (Memref.whole main_v4) S32x32000.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_arg1) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x8x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S8x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S8x3200.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x3200.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S128x8.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S128x32000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where
  harr0 : ∀ w, (spec0 w).arr.IsWhole

variable [Facts]
-- ==== ReferenceIdeal.lean ====
abbrev S256 : Shape := ⟨1, ![256]⟩
abbrev S256x64 : Shape := ⟨2, ![256, 64]⟩
abbrev S8x32000 : Shape := ⟨2, ![8, 32000]⟩
abbrev S500x8x32000 : Shape := ⟨3, ![500, 8, 32000]⟩
abbrev S64x8x32000 : Shape := ⟨3, ![64, 8, 32000]⟩
abbrev S_ : Shape := ⟨0, ![]⟩
abbrev S256x1 : Shape := ⟨2, ![256, 1]⟩
abbrev S256x32000 : Shape := ⟨2, ![256, 32000]⟩
abbrev S256x2 : Shape := ⟨2, ![256, 2]⟩
abbrev S64x256000 : Shape := ⟨2, ![64, 256000]⟩
abbrev S256x256000 : Shape := ⟨2, ![256, 256000]⟩
abbrev S256x8x32000 : Shape := ⟨3, ![256, 8, 32000]⟩
abbrev S256x1x1 : Shape := ⟨3, ![256, 1, 1]⟩
abbrev S1 : Shape := ⟨1, ![1]⟩
abbrev S1x1x1 : Shape := ⟨3, ![1, 1, 1]⟩
abbrev S256x1x32000 : Shape := ⟨3, ![256, 1, 32000]⟩

abbrev nBuf : Space → Nat
  | .hbm => 93
  | .vmem => 0
  | .smem => 0
  | _ => 0

abbrev bufTy : (tb : Table) → Fin (tcTables nBuf tb) → BufTy
  | .hbm, ⟨0, _⟩ => ⟨S256, .i32⟩
  | .hbm, ⟨1, _⟩ => ⟨S256x64, .f32⟩
  | .hbm, ⟨2, _⟩ => ⟨S256, .i32⟩
  | .hbm, ⟨3, _⟩ => ⟨S8x32000, .i32⟩
  | .hbm, ⟨4, _⟩ => ⟨S8x32000, .f32⟩
  | .hbm, ⟨5, _⟩ => ⟨S500x8x32000, .f32⟩
  | .hbm, ⟨6, _⟩ => ⟨S64x8x32000, .f32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S256x32000, .f32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S256x1, .i32⟩
  | .hbm, ⟨32, _⟩ => ⟨S256x2, .i32⟩
  | .hbm, ⟨33, _⟩ => ⟨S256x32000, .f32⟩
  | .hbm, ⟨34, _⟩ => ⟨S64x256000, .f32⟩
  | .hbm, ⟨35, _⟩ => ⟨S256x256000, .f32⟩
  | .hbm, ⟨36, _⟩ => ⟨S256x8x32000, .f32⟩
  | .hbm, ⟨37, _⟩ => ⟨S256x1x1, .i32⟩
  | .hbm, ⟨38, _⟩ => ⟨S_, .i32⟩
  | .hbm, ⟨39, _⟩ => ⟨S256x1x1, .i32⟩
  | .hbm, ⟨40, _⟩ => ⟨S256x1x1, .i1⟩
  | .hbm, ⟨41, _⟩ => ⟨S_, .i32⟩
  | .hbm, ⟨42, _⟩ => ⟨S256x1x1, .i32⟩
  | .hbm, ⟨43, _⟩ => ⟨S256x1x1, .i32⟩
  | .hbm, ⟨44, _⟩ => ⟨S256x1x1, .i32⟩
  | .hbm, ⟨45, _⟩ => ⟨S1, .i32⟩
  | .hbm, ⟨46, _⟩ => ⟨S_, .i32⟩
  | .hbm, ⟨47, _⟩ => ⟨S256x1x1, .i32⟩
  | .hbm, ⟨48, _⟩ => ⟨S256x1x1, .i1⟩
  | .hbm, ⟨49, _⟩ => ⟨S1x1x1, .i32⟩
  | .hbm, ⟨50, _⟩ => ⟨S256x1x1, .i32⟩
  | .hbm, ⟨51, _⟩ => ⟨S256x1x1, .i1⟩
  | .hbm, ⟨52, _⟩ => ⟨S256x1x1, .i1⟩
  | .hbm, ⟨53, _⟩ => ⟨S_, .i1⟩
  | .hbm, ⟨54, _⟩ => ⟨S256x1, .i1⟩
  | .hbm, ⟨55, _⟩ => ⟨S256x1x32000, .f32⟩
  | .hbm, ⟨56, _⟩ => ⟨S256x1x32000, .i1⟩
  | .hbm, ⟨57, _⟩ => ⟨S_, .f32⟩
  | .hbm, ⟨58, _⟩ => ⟨S256x1x32000, .f32⟩
  | .hbm, ⟨59, _⟩ => ⟨S256x1x32000, .f32⟩
  | .hbm, ⟨60, _⟩ => ⟨S256x32000, .f32⟩
  | .hbm, ⟨61, _⟩ => ⟨S256x32000, .f32⟩
  | .hbm, ⟨62, _⟩ => ⟨S256x32000, .f32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S256x1, .i32⟩
  | .hbm, ⟨71, _⟩ => ⟨S256x32000, .i32⟩
  | .hbm, ⟨72, _⟩ => ⟨S_, .i32⟩
  | .hbm, ⟨73, _⟩ => ⟨S256x32000, .i32⟩
  | .hbm, ⟨74, _⟩ => ⟨S256x32000, .i1⟩
  | .hbm, ⟨75, _⟩ => ⟨S_, .f32⟩
  | .hbm, ⟨76, _⟩ => ⟨S256x32000, .f32⟩
  | .hbm, ⟨77, _⟩ => ⟨S256x32000, .f32⟩
  | .hbm, ⟨78, _⟩ => ⟨S_, .f32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x32000, .f32⟩
  | .hbm, ⟨85, _⟩ => ⟨S256x32000, .f32⟩
  | .hbm, ⟨86, _⟩ => ⟨S256x32000, .f32⟩
  | .hbm, ⟨87, _⟩ => ⟨S_, .f32⟩
  | .hbm, ⟨88, _⟩ => ⟨S256, .f32⟩
  | .hbm, ⟨89, _⟩ => ⟨S256x1, .f32⟩
  | .hbm, ⟨90, _⟩ => ⟨S256x1, .f32⟩
  | .hbm, ⟨91, _⟩ => ⟨S256x32000, .f32⟩
  | .hbm, ⟨92, _⟩ => ⟨S256x32000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_c_2 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_c_3 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_cst : Ref sig .tc := ⟨.hbm, 57, rfl⟩
abbrev main_call0_v14 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_5 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_7 : Ref sig .tc := ⟨.hbm, 72, rfl⟩
abbrev main_v36 : Ref sig .tc := ⟨.hbm, 73, rfl⟩
abbrev main_v37 : Ref sig .tc := ⟨.hbm, 74, rfl⟩
abbrev main_cst : Ref sig .tc := ⟨.hbm, 75, rfl⟩
abbrev main_call1_v0 : Ref sig .tc := ⟨.hbm, 76, rfl⟩
abbrev main_v38 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v39 : Ref sig .tc := ⟨.hbm, 92, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  shapeCasts_S64x8x32000_S64x256000 : S64x8x32000.ShapeCasts S64x256000
  shapeCasts_S256x256000_S256x8x32000 : S256x256000.ShapeCasts S256x8x32000
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  h_S_ : 0 < S_.numel
  bcast_S256x1_S256x1x32000_0_1 : S256x1.BroadcastsInDim S256x1x32000 (![0, 1] : Fin 2 → Fin S256x1x32000.rank)
  bcast_S_S256x1x32000 : S_.BroadcastsInDim S256x1x32000 (![] : Fin 0 → Fin S256x1x32000.rank)
  shapeCasts_S256x1x32000_S256x32000 : S256x1x32000.ShapeCasts S256x32000
  bcast_S_S256x32000 : S_.BroadcastsInDim S256x32000 (![] : Fin 0 → Fin S256x32000.rank)
  reducesTo_S256x32000_S256_d1 : S256x32000.ReducesTo [1] S256
  bcast_S256x1_S256x32000_0_1 : S256x1.BroadcastsInDim S256x32000 (![0, 1] : Fin 2 → Fin S256x32000.rank)
  gather_S8x32000_S256x1_S256x32000_1_0_n_n_0_1_132000_wf : GatherDims.WF S8x32000 S256x1 S256x32000 [1] [0] [] [0] [] 1 ![1, 32000]
  gather_S500x8x32000_S256x2_S256x32000_1_01_n_n_01_1_1132000_wf : GatherDims.WF S500x8x32000 S256x2 S256x32000 [1] [0, 1] [] [0, 1] [] 1 ![1, 1, 32000]
  dot_S256x64_S64x256000_S256x256000_1_0_0_1_n_n_wf : DotDims.WF S256x64 S64x256000 S256x256000 [1] [0] [0] [1] [] []
  gather_S256x8x32000_S256x1x1_S256x1x32000_2_1_0_0_1_2_1132000_wf : GatherDims.WF S256x8x32000 S256x1x1 S256x1x32000 [2] [1] [0] [1] [0] 2 ![1, 1, 32000]

variable [Facts₀]

def gather_S8x32000_S256x1_S256x32000_1_0_n_n_0_1_132000 : GatherDims S8x32000 S256x1 S256x32000 where
  offsetDims := [1]
  collapsedSliceDims := [0]
  operandBatchingDims := []
  startIndicesBatchingDims := []
  startIndexMap := [0]
  indexVectorDim := 1
  sliceSizes := ![1, 32000]
  wf := gather_S8x32000_S256x1_S256x32000_1_0_n_n_0_1_132000_wf
def gather_S500x8x32000_S256x2_S256x32000_1_01_n_n_01_1_1132000 : GatherDims S500x8x32000 S256x2 S256x32000 where
  offsetDims := [1]
  collapsedSliceDims := [0, 1]
  operandBatchingDims := []
  startIndicesBatchingDims := []
  startIndexMap := [0, 1]
  indexVectorDim := 1
  sliceSizes := ![1, 1, 32000]
  wf := gather_S500x8x32000_S256x2_S256x32000_1_01_n_n_01_1_1132000_wf
def dot_S256x64_S64x256000_S256x256000_1_0_0_1_n_n : DotDims S256x64 S64x256000 S256x256000 where
  lhsContracting := [1]
  rhsContracting := [0]
  lhsNonContracting := [0]
  rhsNonContracting := [1]
  lhsBatch := []
  rhsBatch := []
  wf := dot_S256x64_S64x256000_S256x256000_1_0_0_1_n_n_wf
def gather_S256x8x32000_S256x1x1_S256x1x32000_2_1_0_0_1_2_1132000 : GatherDims S256x8x32000 S256x1x1 S256x1x32000 where
  offsetDims := [2]
  collapsedSliceDims := [1]
  operandBatchingDims := [0]
  startIndicesBatchingDims := [0]
  startIndexMap := [1]
  indexVectorDim := 2
  sliceSizes := ![1, 1, 32000]
  wf := gather_S256x8x32000_S256x1x1_S256x1x32000_2_1_0_0_1_2_1132000_wf

class Facts : Prop extends Facts₀ where

variable [Facts]
-- ==== Proof.Spec.lean ====
/-
  The result both programs compute, as one function of the argument arrays, index by index, over the extended reals.

  For a batch row `b` let `r b` be its role (the word `ridx b`, below 8) and `a b` its author (the word `midx b`, below 500).
  The logit of row `b` at vocabulary column `v` is the masked sum
      x b v = -100                                   if mask (r b) v = 0,
      x b v = (bg (r b) v + auth (a b) (r b) v) + ∑ p, z b p * pers p (r b) v      otherwise,
  and the result is the row-wise log-softmax in its shifted form:
      out b v = (x b v - M b) - log (∑ v', exp (x b v' - M b)),   M b = sup over v of x b v.
-/
import Idealize.ShloMosaic.PureOps.Ideal
import Idealize.ShloMosaic.Lib.ValueIdx

noncomputable section

namespace Cert.Spec

open Idealize.ShloMosaic Idealize.ShloMosaic.ValueIdx

/-- The argument arrays, as contents at the ideal instance (integers are words, floats extended reals). -/
abbrev IVec256 : Type := (⟨1, ![256]⟩ : Shape).Idx → BitVec 32
abbrev ZArr : Type := (⟨2, ![256, 64]⟩ : Shape).Idx → EReal
abbrev MaskArr : Type := (⟨2, ![8, 32000]⟩ : Shape).Idx → BitVec 32
abbrev BgArr : Type := (⟨2, ![8, 32000]⟩ : Shape).Idx → EReal
abbrev AuthArr : Type := (⟨3, ![500, 8, 32000]⟩ : Shape).Idx → EReal
abbrev PersArr : Type := (⟨3, ![64, 8, 32000]⟩ : Shape).Idx → EReal
abbrev OutArr : Type := (⟨2, ![256, 32000]⟩ : Shape).Idx → EReal

/-- The mask's fill value: the f32 word of -100, the same word in both programs. -/
abbrev fillv : EReal := Ideal.ofBits .f32 0xC2C80000#32

section
variable (midx : IVec256) (z : ZArr) (ridx : IVec256) (mask : MaskArr) (bg : BgArr) (auth : AuthArr) (pers : PersArr)

/-- Row `b`'s role and author, read off the index words (reduced into range; in the domain they are in range). -/
def role (b : Fin 256) : Fin 8 := ⟨(ridx (ix1 b)).toNat % 8, Nat.mod_lt _ (by decide)⟩
def author (b : Fin 256) : Fin 500 := ⟨(midx (ix1 b)).toNat % 500, Nat.mod_lt _ (by decide)⟩

/-- The persona term: the row of `z` against the role's slice of `pers`. -/
def persona (b : Fin 256) (v : Fin 32000) : EReal := ∑ p : Fin 64, z (ix2 b p) * pers (ix3 p (role ridx b) v)

/-- The masked logit. -/
def logit (b : Fin 256) (v : Fin 32000) : EReal :=
  if mask (ix2 (role ridx b) v) = 0#32 then fillv
  else (bg (ix2 (role ridx b) v) + auth (ix3 (author midx b) (role ridx b) v)) + persona z ridx pers b v

/-- The row's largest logit. -/
def rowMax (b : Fin 256) : EReal := Finset.univ.sup fun v : Fin 32000 => logit midx z ridx mask bg auth pers b v

/-- The row's sum of shifted exponentials. -/
def rowSum (b : Fin 256) : EReal :=
  ∑ v : Fin 32000, Ideal.exp (logit midx z ridx mask bg auth pers b v - rowMax midx z ridx mask bg auth pers b)

/-- The log-softmax of row `b` at column `v`, in the shifted form both programs compute. -/
def out (b : Fin 256) (v : Fin 32000) : EReal :=
  (logit midx z ridx mask bg auth pers b v - rowMax midx z ridx mask bg auth pers b)
    - Ideal.log (rowSum midx z ridx mask bg auth pers b)

/-- The whole result array. -/
def G : OutArr := fun j => out midx z ridx mask bg auth pers (j 0) (j 1)

theorem G_ix2 (b : Fin 256) (v : Fin 32000) : G midx z ridx mask bg auth pers (ix2 b v) = out midx z ridx mask bg auth pers b v := rfl

/-- The domain the statement's precondition gives: indices in range, the mask a 0/1 mask, every float entry a real number. -/
structure Dom : Prop where
  hm : ∀ b : Fin 256, (midx (ix1 b)).toNat < 500
  hr : ∀ b : Fin 256, (ridx (ix1 b)).toNat < 8
  hmask : ∀ (r : Fin 8) (v : Fin 32000), mask (ix2 r v) = 0#32 ∨ mask (ix2 r v) = 1#32
  hz : ∀ i, ∃ x : ℝ, z i = (x : EReal)
  hbg : ∀ i, ∃ x : ℝ, bg i = (x : EReal)
  hauth : ∀ i, ∃ x : ℝ, auth i = (x : EReal)
  hpers : ∀ i, ∃ x : ℝ, pers i = (x : EReal)

end

end Cert.Spec

end
-- ==== Proof.PreFacts.lean ====
/-
  The precondition decoded. The statement's precondition is a conjunction of seven "all" reductions over the argument
  arrays: every entry of the four float arrays has |x| < +∞, every author word lies in [0, 500) and every role word in
  [0, 8) (signed compares), and every mask word lies in [0, 1] (signed). Read back, the index words are below 500 and 8
  as naturals, the mask words are 0 or 1, and at the ideal instance every float entry is a real number.
-/
import proofs.«424303_j34282428957025_2_alg».proof.Pre_finite_inputs
import proofs.«424303_j34282428957025_2_alg».proof.Proof.Gen.Pre_finite_inputs
import proofs.«424303_j34282428957025_2_alg».proof.Proof.Spec
import Idealize.ShloMosaic.Lib.ReduceAll
import Idealize.ShloMosaic.Lib.ValueIdx
import Idealize.ShloMosaic.Lib.StableHlo.Predicate
import Idealize.ShloMosaic.PureOps.Ideal

noncomputable section

namespace Cert.PreFacts

open Idealize.ShloMosaic Idealize.ShloMosaic.ValueIdx

/-- The shape of a scalar: it has one index. -/
abbrev S0 : Shape := ⟨0, ![]⟩

instance : Subsingleton S0.Idx := ⟨fun a b => funext fun d => d.elim0⟩

/-! ## Words -/

/-- A word that is at least 0 signed reads the same signed and unsigned. -/
theorem toInt_eq_toNat_of_sge_zero (w : BitVec 32) (h0 : IntOp.cmpi .sge w 0#32 = 1#1) : w.toInt = w.toNat := by
  rw [IntOp.cmpi_sge, show (0#32 : BitVec 32).toInt = 0 from by decide, BitVec.toInt_pos_iff] at h0
  exact BitVec.toInt_eq_toNat_of_lt h0

/-- A word in [0, n) signed is below n unsigned. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have e := toInt_eq_toNat_of_sge_zero w h0
  rw [IntOp.cmpi_slt, StableHlo.Predicate.toInt_ofNat_small n hn, e] at h1
  exact_mod_cast h1

/-- A word in [0, 1] signed is 0 or 1. -/
theorem zero_or_one_of_signed (w : BitVec 32) (h0 : IntOp.cmpi .sge w 0#32 = 1#1)
    (h1 : IntOp.cmpi .sle w 1#32 = 1#1) : w = 0#32 ∨ w = 1#32 := by
  have e := toInt_eq_toNat_of_sge_zero w h0
  rw [IntOp.cmpi_sle, show (1#32 : BitVec 32).toInt = 1 from by decide, e] at h1
  have h2 : w.toNat ≤ 1 := by exact_mod_cast h1
  rcases Nat.le_one_iff_eq_zero_or_eq_one.1 h2 with h | h
  · exact Or.inl (BitVec.eq_of_toNat_eq h)
  · exact Or.inr (BitVec.eq_of_toNat_eq h)

/-! ## One "all" read at one index -/

/-- An "all" of a two-sided test of every word against two scalar constants holds at every index. -/
theorem all_range {s : Shape} {axes : List (Fin s.rank)} (x : IVec s 32) (p q : CmpIPredicate) (lo hi : BitVec 32)
    (hb : S0.BroadcastsInDim s (![] : Fin 0 → Fin s.rank)) (hr : s.ReducesTo axes S0) (hu : 0 < S0.numel)
    (e : Host.reduce IntOp.andi
        (andi (cmpi p x (broadcastInDim s ![] hb (constantI S0 32 lo))) (cmpi q x (broadcastInDim s ![] hb (constantI S0 32 hi))))
        (constantI S0 1 1#1) hr hu ix0 = 1#1) (i : s.Idx) :
    IntOp.cmpi p (x i) lo = 1#1 ∧ IntOp.cmpi q (x i) hi = 1#1 :=
  IntOp.andi_eq_one.1 (Host.reduce_andi_all _ _ hr hu ix0 e i)

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

/-- An "all" of |x| < +∞ over an array at the ideal instance: every entry is a real number. -/
theorem all_finite {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant (F := Ideal) S0 .f32 0x7F800000#32)))
        (constantI S0 1 1#1) hr hu ix0 = 1#1) (i : s.Idx) : ∃ r : ℝ, x i = (r : EReal) :=
  real_of_abs_lt_top (x i) (Host.reduce_andi_all _ _ hr hu ix0 e i)

/-! ## The conjunction split

The predicate at its one index is a left-nested conjunction of seven reductions, in the order
z, bg, auth, pers, author words, role words, mask words. -/

/-- The integer conjuncts, at any float family: author words below 500, role words below 8, mask words 0 or 1. -/
theorem idx_of_pre {F : FTy → Type} [FloatOps F] [Cert.Pre_finite_inputs.Facts]
    (x0 : IVec ⟨1, ![256]⟩ 32) (x1 : FVec F ⟨2, ![256, 64]⟩ .f32) (x2 : IVec ⟨1, ![256]⟩ 32)
    (x3 : IVec ⟨2, ![8, 32000]⟩ 32) (x4 : FVec F ⟨2, ![8, 32000]⟩ .f32)
    (x5 : FVec F ⟨3, ![500, 8, 32000]⟩ .f32) (x6 : FVec F ⟨3, ![64, 8, 32000]⟩ .f32)
    (h : Cert.Pre_finite_inputs.fn (F := F) x0 x1 x2 x3 x4 x5 x6 = (fun _ => 1#1)) :
    (∀ b : Fin 256, (x0 (ix1 b)).toNat < 500) ∧ (∀ b : Fin 256, (x2 (ix1 b)).toNat < 8)
      ∧ (∀ (r : Fin 8) (v : Fin 32000), x3 (ix2 r v) = 0#32 ∨ x3 (ix2 r v) = 1#32) := by
  have e := congrFun h ix0
  dsimp only [Cert.Pre_finite_inputs.fn, Cert.Pre_finite_inputs.fn_part1, Cert.Pre_finite_inputs.fn_part2] at e
  obtain ⟨e5, h3⟩ := IntOp.andi_eq_one.1 e
  obtain ⟨e4, h2⟩ := IntOp.andi_eq_one.1 e5
  obtain ⟨-, h0⟩ := IntOp.andi_eq_one.1 e4
  refine ⟨fun b => ?_, fun b => ?_, fun r v => ?_⟩
  · obtain ⟨a, c⟩ := all_range x0 .sge .slt 0#32 500#32 _ _ _ h0 (ix1 b)
    exact toNat_lt_of_signed _ 500 (by decide) a c
  · obtain ⟨a, c⟩ := all_range x2 .sge .slt 0#32 8#32 _ _ _ h2 (ix1 b)
    exact toNat_lt_of_signed _ 8 (by decide) a c
  · obtain ⟨a, c⟩ := all_range x3 .sge .sle 0#32 1#32 _ _ _ h3 (ix2 r v)
    exact zero_or_one_of_signed _ a c

/-- At the ideal instance the precondition gives the whole domain: the integer facts, and every float entry a real. -/
theorem dom_of_pre [Cert.Pre_finite_inputs.Facts]
    (x0 : IVec ⟨1, ![256]⟩ 32) (x1 : FVec Ideal ⟨2, ![256, 64]⟩ .f32) (x2 : IVec ⟨1, ![256]⟩ 32)
    (x3 : IVec ⟨2, ![8, 32000]⟩ 32) (x4 : FVec Ideal ⟨2, ![8, 32000]⟩ .f32)
    (x5 : FVec Ideal ⟨3, ![500, 8, 32000]⟩ .f32) (x6 : FVec Ideal ⟨3, ![64, 8, 32000]⟩ .f32)
    (h : Cert.Pre_finite_inputs.fn (F := Ideal) x0 x1 x2 x3 x4 x5 x6 = (fun _ => 1#1)) :
    Cert.Spec.Dom x0 x1 x2 x3 x4 x5 x6 := by
  obtain ⟨hm, hr, hmask⟩ := idx_of_pre x0 x1 x2 x3 x4 x5 x6 h
  have e := congrFun h ix0
  dsimp only [Cert.Pre_finite_inputs.fn, Cert.Pre_finite_inputs.fn_part1, Cert.Pre_finite_inputs.fn_part2] at e
  obtain ⟨e5, -⟩ := IntOp.andi_eq_one.1 e
  obtain ⟨e4, -⟩ := IntOp.andi_eq_one.1 e5
  obtain ⟨e3, -⟩ := IntOp.andi_eq_one.1 e4
  obtain ⟨e2, h6⟩ := IntOp.andi_eq_one.1 e3
  obtain ⟨e1, h5⟩ := IntOp.andi_eq_one.1 e2
  obtain ⟨h1, h4⟩ := IntOp.andi_eq_one.1 e1
  exact ⟨hm, hr, hmask, all_finite x1 _ _ _ h1, all_finite x4 _ _ _ h4, all_finite x5 _ _ _ h5, all_finite x6 _ _ _ h6⟩

/-- info: 'Cert.PreFacts.dom_of_pre' depends on axioms: [propext, Classical.choice, Quot.sound] -/
#guard_msgs (whitespace := lax) in #print axioms dom_of_pre

end Cert.PreFacts

end
-- ==== Proof.Common.lean ====
/-
  The setting the two kernel regions' runs share: the resource algebra (the pipeline library's rounds copy beside the
  counters the kernel's own transfers take their tokens from), no variants, no levels (no core owes another anything).
-/
import proofs.«424303_j34282428957025_2_alg».proof.Proof.Gen.KernelIdeal
import proofs.«424303_j34282428957025_2_alg».proof.Proof.Gen.KernelIdeal.Skeleton
import proofs.«424303_j34282428957025_2_alg».proof.Proof.Gen.KernelIdeal.Launch
import proofs.«424303_j34282428957025_2_alg».proof.Proof.Gen.KernelIdeal.Points
import Idealize.ShloMosaic.Lib.Writes
import Idealize.ShloMosaic.Lib.Pipeline.FrameBody
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the transfers' counters. -/
abbrev UC : Type := UR sig nD τ × Counters

/-- The model's resource algebra at this program. -/
abbrev MM (F : FTy → Type) : Type := MT nD τ sig Unit (Elt F) ℕ UC ℕ

/-- The pipeline library's algebra is the left component. -/
abbrev EP : Emb (UR sig nD τ) (MM F) := embL

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between @main's items: the core's generator register at some state and its `owes`, at nothing. -/
abbrev Rest (c : Dev nD) : sProp (MM F) :=
  iprop((∃ r, prngReg c r) ∗ ∃ W, owes (c : Thread nD τ) (0 : CellTallies nD τ sig Unit) W)

end Cert.KernelIdeal.Hand

end
-- ==== Proof.Gather.lean ====
/-
  The gather region's body at a symbolic grid point: thirty-two rows of the source array, each named by a word of the
  index table, are copied into the thirty-two rows of the output block, every copy on a semaphore of its own, and all
  are awaited before the body returns. The block it leaves is the table-indexed selection of rows of the source.
-/
import proofs.«424303_j34282428957025_2_alg».proof.Proof.Common
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MM F

/-- The kernel's own semaphores: the thirty-two cells of its scratch array, the pool's 2 to 33. -/
abbrev osem0 : Fin 32 → SemLoc sig := fun | 0 => .dma 2 | 1 => .dma 3 | 2 => .dma 4 | 3 => .dma 5 | 4 => .dma 6 | 5 => .dma 7 | 6 => .dma 8 | 7 => .dma 9 | 8 => .dma 10 | 9 => .dma 11 | 10 => .dma 12 | 11 => .dma 13 | 12 => .dma 14 | 13 => .dma 15 | 14 => .dma 16 | 15 => .dma 17 | 16 => .dma 18 | 17 => .dma 19 | 18 => .dma 20 | 19 => .dma 21 | 20 => .dma 22 | 21 => .dma 23 | 22 => .dma 24 | 23 => .dma 25 | 24 => .dma 26 | 25 => .dma 27 | 26 => .dma 28 | 27 => .dma 29 | 28 => .dma 30 | 29 => .dma 31 | 30 => .dma 32 | 31 => .dma 33 | ⟨_ + 32, h⟩ => absurd h (Nat.not_lt.2 (Nat.le_add_left _ _))

/-- The thirty-two counters at zero. -/
abbrev sems0 (c : Dev nD) : sProp 𝕄 := Pipeline.ownSems0 osem0 c

/-- A table word's position: point `n` reads the words `32 n` to `32 n + 31`. -/
theorem tblIdx_lt (n : ℕ) (hn : n < 8) (j : Fin 32) : 32 * n + j.val < 256 := by
  have := j.isLt; omega

/-- The block point `n` gathers: row `j` is the row of the source `S` that the table `T` names at position `32 n + j`
    (positions and row numbers read modulo the extents, so that the block is defined at every table). -/
def gathv (T : S256.Idx → Elt F .i32) (S : S4000x32000.Idx → Elt F .f32) (n : ℕ) : S32x32000.Idx → Elt F .f32 :=
  fun x => S (ix2 (⟨(T (ix1 (⟨(32 * n + (x 0).val) % 256, Nat.mod_lt _ (by decide)⟩ : Fin 256))).toNat % 4000, Nat.mod_lt _ (by decide)⟩ : Fin 4000)
    (⟨(x 1).val, (x 1).isLt⟩ : Fin 32000))

/-- The gathered block read at a row and a column, at a table whose word there is a row number of the source. -/
theorem gathv_apply (T : S256.Idx → Elt F .i32) (S : S4000x32000.Idx → Elt F .f32) (n : ℕ) (j : Fin 32) (v : Fin 32000)
    (hj : 32 * n + j.val < 256) (hT : (T (ix1 (⟨32 * n + j.val, hj⟩ : Fin 256))).toNat < 4000) :
    gathv T S n (ix2 j v) = S (ix2 (⟨(T (ix1 (⟨32 * n + j.val, hj⟩ : Fin 256))).toNat, hT⟩ : Fin 4000) v) := by
  unfold gathv
  have hp : (⟨(32 * n + j.val) % 256, Nat.mod_lt _ (by decide)⟩ : Fin 256) = ⟨32 * n + j.val, hj⟩ := Fin.ext (Nat.mod_eq_of_lt hj)
  refine congrArg S (congrArg₂ ix2 (Fin.ext ?_) (Fin.ext rfl))
  show (T (ix1 (⟨(32 * n + j.val) % 256, Nat.mod_lt _ (by decide)⟩ : Fin 256))).toNat % 4000 = (T (ix1 (⟨32 * n + j.val, hj⟩ : Fin 256))).toNat
  rw [hp]
  exact Nat.mod_eq_of_lt hT

omit [FloatOps F] in
/-- A word below 4000 names a row of the source: its row window lies inside the array. -/
theorem offs_inb (w : BitVec 32) (h : w.toNat < 4000) : ∀ a, (![w.toNat, 0] : Fin 2 → ℕ) a + S1x32000.size a ≤ S4000x32000.size a := by
  intro a
  match a with
  | ⟨0, _⟩ => show w.toNat + 1 ≤ 4000; omega
  | ⟨1, _⟩ => show 0 + 32000 ≤ 32000; omega

omit [FloatOps F] in
/-- Every word of a table whose words are row numbers is one, at whatever index it is read. -/
theorem lt_of_tbl {T : S256.Idx → Elt F .i32} (hT : ∀ k : Fin 256, (T (ix1 k)).toNat < 4000) (x : S256.Idx) : (T x).toNat < 4000 := by
  rw [eq_ix1 x]; exact hT _

/-! ## The source read by thirty-two copies at once: one read share per semaphore cell -/

/-- The source held at the read share of cell `i`. -/
abbrev srcTok (c : Dev nD) (S : S4000x32000.Idx → Elt F .f32) (i : Fin 34) : sProp 𝕄 :=
  (Memref.whole main_v3).view.loc (c : Thread nD τ) ↦{Transfers.shareTok fullShare 34 i} S

/-- The source as the remainder and the thirty-four cells' read shares (the copies complete on cells 2 to 33). -/
abbrev srcToks (c : Dev nD) (S : S4000x32000.Idx → Elt F .f32) : sProp 𝕄 :=
  iprop(((Memref.whole main_v3).view.loc (c : Thread nD τ) ↦{Transfers.shareDrop fullShare 34} S) ∗ srcTok c S 0 ∗ srcTok c S 1 ∗ srcTok c S 2 ∗ srcTok c S 3 ∗ srcTok c S 4 ∗ srcTok c S 5 ∗ srcTok c S 6 ∗ srcTok c S 7 ∗ srcTok c S 8 ∗ srcTok c S 9 ∗ srcTok c S 10 ∗ srcTok c S 11 ∗ srcTok c S 12 ∗ srcTok c S 13 ∗ srcTok c S 14 ∗ srcTok c S 15 ∗ srcTok c S 16 ∗ srcTok c S 17 ∗ srcTok c S 18 ∗ srcTok c S 19 ∗ srcTok c S 20 ∗ srcTok c S 21 ∗ srcTok c S 22 ∗ srcTok c S 23 ∗ srcTok c S 24 ∗ srcTok c S 25 ∗ srcTok c S 26 ∗ srcTok c S 27 ∗ srcTok c S 28 ∗ srcTok c S 29 ∗ srcTok c S 30 ∗ srcTok c S 31 ∗ srcTok c S 32 ∗ srcTok c S 33)

theorem srcToks_eq (c : Dev nD) (S : S4000x32000.Idx → Elt F .f32) :
    (iprop(((Memref.whole main_v3).view.loc (c : Thread nD τ) ↦{Transfers.shareDrop fullShare 34} S)
      ∗ bigSep Finset.univ (fun i : Fin 34 => (Memref.whole main_v3).view.loc (c : Thread nD τ) ↦{Transfers.shareTok fullShare 34 i} S)) : sProp 𝕄)
      = srcToks c S := by
  rw [bigSep_univ_eq_bigSepL [(0 : Fin 34), (1 : Fin 34), (2 : Fin 34), (3 : Fin 34), (4 : Fin 34), (5 : Fin 34), (6 : Fin 34), (7 : Fin 34), (8 : Fin 34), (9 : Fin 34), (10 : Fin 34), (11 : Fin 34), (12 : Fin 34), (13 : Fin 34), (14 : Fin 34), (15 : Fin 34), (16 : Fin 34), (17 : Fin 34), (18 : Fin 34), (19 : Fin 34), (20 : Fin 34), (21 : Fin 34), (22 : Fin 34), (23 : Fin 34), (24 : Fin 34), (25 : Fin 34), (26 : Fin 34), (27 : Fin 34), (28 : Fin 34), (29 : Fin 34), (30 : Fin 34), (31 : Fin 34), (32 : Fin 34), (33 : Fin 34)] (by decide) (by decide)]
  rfl

theorem src_split (c : Dev nD) (S : S4000x32000.Idx → Elt F .f32) :
    ((Memref.whole main_v3).view.loc (c : Thread nD τ) ↦{fullShare} S : sProp 𝕄) ⊢ srcToks c S :=
  (Transfers.pointsTo_toks_split (Ix := Unit) (Name := ℕ) (U := UC) (Lvl := ℕ) fullShare 34).trans (Entails.of_eq (srcToks_eq c S))

theorem src_join (c : Dev nD) (S : S4000x32000.Idx → Elt F .f32) :
    srcToks c S ⊢ ((Memref.whole main_v3).view.loc (c : Thread nD τ) ↦{fullShare} S : sProp 𝕄) :=
  (Entails.of_eq (srcToks_eq c S).symm).trans (Transfers.pointsTo_toks_join (Ix := Unit) (Name := ℕ) (U := UC) (Lvl := ℕ) fullShare 34)

/-! ## The output block row by row -/

/-- Row `j` of the output block, as the body names it: the one-row window at row `j`, its unit axis dropped. -/
abbrev rowM (M3 : Memref sig .tc .vmem S32x32000 .f32) (j : ℕ) (h : ∀ a, (![j, 0] : Fin 2 → ℕ) a + S1x32000.size a ≤ S32x32000.size a) :
    Memref sig .tc .vmem S32000 .f32 :=
  (M3.slice (Rect.unit (s := S32x32000) ![j, 0] S1x32000.size h) (fun _ => rfl)).squeeze S32000 Facts₀.squeezes_S1x32000_S32000

omit [FloatOps F] in
theorem row_inb (j : Fin 32) : ∀ a, (![j.val, 0] : Fin 2 → ℕ) a + S1x32000.size a ≤ S32x32000.size a := by
  intro a
  have := j.isLt
  match a with
  | ⟨0, _⟩ => show j.val + 1 ≤ 32; omega
  | ⟨1, _⟩ => show 0 + 32000 ≤ 32000; omega

/-- Row `j` at an index of the row type. -/
abbrev rowK (M3 : Memref sig .tc .vmem S32x32000 .f32) (j : Fin 32) : Memref sig .tc .vmem S32000 .f32 := rowM M3 j.val (row_inb j)

omit [FloatOps F] in
theorem unit_congr2 {s : Shape} {off off' size size' : Fin s.rank → ℕ} (ho : off = off') (hs : size = size')
    (p : ∀ a, off a + size a ≤ s.size a) (p' : ∀ a, off' a + size' a ≤ s.size a) : Rect.unit off size p = Rect.unit off' size' p' := by
  subst ho; subst hs; rfl

omit [FloatOps F] in
/-- The row rectangle of the block along its first axis is the body's one-row window. -/
theorem rowRect_eq (k : Fin 32) : S32x32000.rowRect (0 : Fin 2) k = Rect.unit (s := S32x32000) ![k.val, 0] S1x32000.size (row_inb k) := by
  unfold Shape.rowRect
  refine unit_congr2 ?_ ?_ _ _
  · funext b; match b with | ⟨0, _⟩ => rfl | ⟨1, _⟩ => rfl
  · funext b; match b with | ⟨0, _⟩ => rfl | ⟨1, _⟩ => rfl

omit [FloatOps F] in
/-- Row `k`'s elements are the elements of the block's view under its row rectangle `k`. -/
theorem rowset_eq (M3 : Memref sig .tc .vmem S32x32000 .f32) (k : Fin 32) :
    (M3.view.slice (S32x32000.rowRect (0 : Fin 2) k)).set = (rowK M3 k).view.set := by
  rw [rowRect_eq]
  simp only [rowK, rowM, Memref.view_squeeze, Memref.view_slice, View.set_reshape]

/-- The block's buffer held by its own elements is its thirty-two rows, each held by its own. -/
theorem dst_rows (c : Dev nD) (M3 : Memref sig .tc .vmem S32x32000 .f32) (f : Buf (Elt F) (M3.view.loc (c : Thread nD τ))) :
    (M3.view.loc (c : Thread nD τ) ↦[M3.view.set]{fullShare} f : sProp 𝕄)
      = bigSep Finset.univ (fun k : Fin 32 => (rowK M3 k).view.loc (c : Thread nD τ) ↦[(rowK M3 k).view.set]{fullShare} f) := by
  refine (pointsTo_rows (Ix := Unit) (Name := ℕ) (U := UC) (Lvl := ℕ) (c : Thread nD τ) M3.view (0 : Fin 2) fullShare f).trans ?_
  show bigSep (Finset.univ : Finset (Fin 32)) (fun k : Fin 32 =>
    (M3.view.loc (c : Thread nD τ) ↦[(M3.view.slice (S32x32000.rowRect (0 : Fin 2) k)).set]{fullShare} f : sProp 𝕄)) = _
  exact bigSep_congr fun k _ => by rw [rowset_eq]

/-- The rows one by one, as the body names them. -/
abbrev rowsAt (c : Dev nD) (M3 : Memref sig .tc .vmem S32x32000 .f32) (f : Buf (Elt F) (M3.view.loc (c : Thread nD τ))) : sProp 𝕄 :=
  iprop(((rowM M3 0 Facts₀.inb_S32x32000_S1x32000_0_0).view.loc (c : Thread nD τ) ↦[(rowM M3 0 Facts₀.inb_S32x32000_S1x32000_0_0).view.set]{fullShare} f)
    ∗ ((rowM M3 1 Facts₀.inb_S32x32000_S1x32000_1_0).view.loc (c : Thread nD τ) ↦[(rowM M3 1 Facts₀.inb_S32x32000_S1x32000_1_0).view.set]{fullShare} f)
    ∗ ((rowM M3 2 Facts₀.inb_S32x32000_S1x32000_2_0).view.loc (c : Thread nD τ) ↦[(rowM M3 2 Facts₀.inb_S32x32000_S1x32000_2_0).view.set]{fullShare} f)
    ∗ ((rowM M3 3 Facts₀.inb_S32x32000_S1x32000_3_0).view.loc (c : Thread nD τ) ↦[(rowM M3 3 Facts₀.inb_S32x32000_S1x32000_3_0).view.set]{fullShare} f)
    ∗ ((rowM M3 4 Facts₀.inb_S32x32000_S1x32000_4_0).view.loc (c : Thread nD τ) ↦[(rowM M3 4 Facts₀.inb_S32x32000_S1x32000_4_0).view.set]{fullShare} f)
    ∗ ((rowM M3 5 Facts₀.inb_S32x32000_S1x32000_5_0).view.loc (c : Thread nD τ) ↦[(rowM M3 5 Facts₀.inb_S32x32000_S1x32000_5_0).view.set]{fullShare} f)
    ∗ ((rowM M3 6 Facts₀.inb_S32x32000_S1x32000_6_0).view.loc (c : Thread nD τ) ↦[(rowM M3 6 Facts₀.inb_S32x32000_S1x32000_6_0).view.set]{fullShare} f)
    ∗ ((rowM M3 7 Facts₀.inb_S32x32000_S1x32000_7_0).view.loc (c : Thread nD τ) ↦[(rowM M3 7 Facts₀.inb_S32x32000_S1x32000_7_0).view.set]{fullShare} f)
    ∗ ((rowM M3 8 Facts₀.inb_S32x32000_S1x32000_8_0).view.loc (c : Thread nD τ) ↦[(rowM M3 8 Facts₀.inb_S32x32000_S1x32000_8_0).view.set]{fullShare} f)
    ∗ ((rowM M3 9 Facts₀.inb_S32x32000_S1x32000_9_0).view.loc (c : Thread nD τ) ↦[(rowM M3 9 Facts₀.inb_S32x32000_S1x32000_9_0).view.set]{fullShare} f)
    ∗ ((rowM M3 10 Facts₀.inb_S32x32000_S1x32000_10_0).view.loc (c : Thread nD τ) ↦[(rowM M3 10 Facts₀.inb_S32x32000_S1x32000_10_0).view.set]{fullShare} f)
    ∗ ((rowM M3 11 Facts₀.inb_S32x32000_S1x32000_11_0).view.loc (c : Thread nD τ) ↦[(rowM M3 11 Facts₀.inb_S32x32000_S1x32000_11_0).view.set]{fullShare} f)
    ∗ ((rowM M3 12 Facts₀.inb_S32x32000_S1x32000_12_0).view.loc (c : Thread nD τ) ↦[(rowM M3 12 Facts₀.inb_S32x32000_S1x32000_12_0).view.set]{fullShare} f)
    ∗ ((rowM M3 13 Facts₀.inb_S32x32000_S1x32000_13_0).view.loc (c : Thread nD τ) ↦[(rowM M3 13 Facts₀.inb_S32x32000_S1x32000_13_0).view.set]{fullShare} f)
    ∗ ((rowM M3 14 Facts₀.inb_S32x32000_S1x32000_14_0).view.loc (c : Thread nD τ) ↦[(rowM M3 14 Facts₀.inb_S32x32000_S1x32000_14_0).view.set]{fullShare} f)
    ∗ ((rowM M3 15 Facts₀.inb_S32x32000_S1x32000_15_0).view.loc (c : Thread nD τ) ↦[(rowM M3 15 Facts₀.inb_S32x32000_S1x32000_15_0).view.set]{fullShare} f)
    ∗ ((rowM M3 16 Facts₀.inb_S32x32000_S1x32000_16_0).view.loc (c : Thread nD τ) ↦[(rowM M3 16 Facts₀.inb_S32x32000_S1x32000_16_0).view.set]{fullShare} f)
    ∗ ((rowM M3 17 Facts₀.inb_S32x32000_S1x32000_17_0).view.loc (c : Thread nD τ) ↦[(rowM M3 17 Facts₀.inb_S32x32000_S1x32000_17_0).view.set]{fullShare} f)
    ∗ ((rowM M3 18 Facts₀.inb_S32x32000_S1x32000_18_0).view.loc (c : Thread nD τ) ↦[(rowM M3 18 Facts₀.inb_S32x32000_S1x32000_18_0).view.set]{fullShare} f)
    ∗ ((rowM M3 19 Facts₀.inb_S32x32000_S1x32000_19_0).view.loc (c : Thread nD τ) ↦[(rowM M3 19 Facts₀.inb_S32x32000_S1x32000_19_0).view.set]{fullShare} f)
    ∗ ((rowM M3 20 Facts₀.inb_S32x32000_S1x32000_20_0).view.loc (c : Thread nD τ) ↦[(rowM M3 20 Facts₀.inb_S32x32000_S1x32000_20_0).view.set]{fullShare} f)
    ∗ ((rowM M3 21 Facts₀.inb_S32x32000_S1x32000_21_0).view.loc (c : Thread nD τ) ↦[(rowM M3 21 Facts₀.inb_S32x32000_S1x32000_21_0).view.set]{fullShare} f)
    ∗ ((rowM M3 22 Facts₀.inb_S32x32000_S1x32000_22_0).view.loc (c : Thread nD τ) ↦[(rowM M3 22 Facts₀.inb_S32x32000_S1x32000_22_0).view.set]{fullShare} f)
    ∗ ((rowM M3 23 Facts₀.inb_S32x32000_S1x32000_23_0).view.loc (c : Thread nD τ) ↦[(rowM M3 23 Facts₀.inb_S32x32000_S1x32000_23_0).view.set]{fullShare} f)
    ∗ ((rowM M3 24 Facts₀.inb_S32x32000_S1x32000_24_0).view.loc (c : Thread nD τ) ↦[(rowM M3 24 Facts₀.inb_S32x32000_S1x32000_24_0).view.set]{fullShare} f)
    ∗ ((rowM M3 25 Facts₀.inb_S32x32000_S1x32000_25_0).view.loc (c : Thread nD τ) ↦[(rowM M3 25 Facts₀.inb_S32x32000_S1x32000_25_0).view.set]{fullShare} f)
    ∗ ((rowM M3 26 Facts₀.inb_S32x32000_S1x32000_26_0).view.loc (c : Thread nD τ) ↦[(rowM M3 26 Facts₀.inb_S32x32000_S1x32000_26_0).view.set]{fullShare} f)
    ∗ ((rowM M3 27 Facts₀.inb_S32x32000_S1x32000_27_0).view.loc (c : Thread nD τ) ↦[(rowM M3 27 Facts₀.inb_S32x32000_S1x32000_27_0).view.set]{fullShare} f)
    ∗ ((rowM M3 28 Facts₀.inb_S32x32000_S1x32000_28_0).view.loc (c : Thread nD τ) ↦[(rowM M3 28 Facts₀.inb_S32x32000_S1x32000_28_0).view.set]{fullShare} f)
    ∗ ((rowM M3 29 Facts₀.inb_S32x32000_S1x32000_29_0).view.loc (c : Thread nD τ) ↦[(rowM M3 29 Facts₀.inb_S32x32000_S1x32000_29_0).view.set]{fullShare} f)
    ∗ ((rowM M3 30 Facts₀.inb_S32x32000_S1x32000_30_0).view.loc (c : Thread nD τ) ↦[(rowM M3 30 Facts₀.inb_S32x32000_S1x32000_30_0).view.set]{fullShare} f)
    ∗ ((rowM M3 31 Facts₀.inb_S32x32000_S1x32000_31_0).view.loc (c : Thread nD τ) ↦[(rowM M3 31 Facts₀.inb_S32x32000_S1x32000_31_0).view.set]{fullShare} f))

theorem dst_rows_chain (c : Dev nD) (M3 : Memref sig .tc .vmem S32x32000 .f32) (f : Buf (Elt F) (M3.view.loc (c : Thread nD τ))) :
    (M3.view.loc (c : Thread nD τ) ↦[M3.view.set]{fullShare} f : sProp 𝕄) = rowsAt c M3 f := by
  rw [dst_rows, bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide)]
  rfl

/-! ## The words read and the rows copied -/

omit [FloatOps F] in
/-- The table position the body computes for its `j`-th word at point `n`. -/
theorem wordIdx (n j : ℕ) (hn : n < 8) (hj : j < 32) :
    (Scalar.indexCast (Scalar.addi (Scalar.muli (BitVec.ofNat 32 n) 32#32) (BitVec.ofNat 32 j))).toNat = 32 * n + j := by
  show ((BitVec.ofNat 32 n * 32#32 + BitVec.ofNat 32 j : BitVec 32)).toNat = _
  simp only [BitVec.toNat_add, BitVec.toNat_mul, BitVec.toNat_ofNat, Nat.reducePow]
  omega

omit [FloatOps F] in
/-- The grid's one coordinate is the point's number. -/
theorem coords0 (t : Fin grid0.N) : (grid0.coords t 0).val = t.val := by
  obtain rfl | rfl | rfl | rfl | rfl | rfl | rfl | rfl := fin_N0 t <;> rfl

omit [FloatOps F] in
/-- A scalar load of the table at a one-element window reads the word at the window's offset. -/
theorem word_eq (T : S256.Idx → Elt F .i32) (off : Fin 1 → ℕ) (inb : ∀ a, off a + S1.size a ≤ S256.size a) (hf : 0 < S1.numel)
    (hlt : off 0 < 256) :
    View.readAt (Elt F) (Memref.whole main_v2).view (Rect.unit (s := S256) off S1.size inb).toLoadRect T (Shape.Idx.first hf)
      = T (ix1 (⟨off 0, hlt⟩ : Fin 256)) := by
  show T _ = T _
  refine congrArg T (funext fun a => ?_)
  match a with
  | ⟨0, _⟩ => exact Fin.ext (by show off 0 + 1 * 0 = off 0; omega)

omit [FloatOps F] in
/-- A row of the source, named by a word, read at a column. -/
theorem srcRow_read (S : S4000x32000.Idx → Elt F .f32) (w : BitVec 32)
    (hw : ∀ a, (![w.toNat, 0] : Fin 2 → ℕ) a + S1x32000.size a ≤ S4000x32000.size a)
    (hs : ∀ a, (Rect.unit (s := S4000x32000) ![w.toNat, 0] S1x32000.size hw).stride a = 1) (sq : S1x32000.Squeezes S32000) (hlt : w.toNat < 4000)
    (z : S32000.Idx) :
    View.read (Elt F) (((Memref.whole main_v3).slice (Rect.unit (s := S4000x32000) ![w.toNat, 0] S1x32000.size hw) hs).squeeze S32000 sq).view S z
      = S (ix2 (⟨w.toNat, hlt⟩ : Fin 4000) (⟨(z 0).val, (z 0).isLt⟩ : Fin 32000)) := by
  show S _ = S _
  refine congrArg S (funext fun a => Fin.ext ?_)
  have hz := Shape.reshapeEquiv_cons_one (n := 1) (d := ![32000]) sq.numel_eq z
  match a with
  | ⟨0, _⟩ =>
    show w.toNat + 1 * ((Shape.reshapeEquiv sq.numel_eq z) (0 : Fin 2)).val = w.toNat
    rw [hz]; show w.toNat + 1 * 0 = w.toNat; omega
  | ⟨1, _⟩ =>
    show 0 + 1 * ((Shape.reshapeEquiv sq.numel_eq z) (1 : Fin 2)).val = (z 0).val
    rw [hz]; show 0 + 1 * (z 0).val = (z 0).val; omega

omit [FloatOps F] in
/-- The `j`-th word the body loads at point `t` is the table's word at position `32 t + j`. -/
theorem word_at (t : Fin grid0.N) (T : S256.Idx → Elt F .i32) (j : Fin 32) (off : Fin 1 → ℕ) (inb : ∀ a, off a + S1.size a ≤ S256.size a)
    (hf : 0 < S1.numel) (hoff : off 0 = 32 * t.val + j.val) (hj : 32 * t.val + j.val < 256) :
    View.readAt (Elt F) (Memref.whole main_v2).view (Rect.unit (s := S256) off S1.size inb).toLoadRect T (Shape.Idx.first hf)
      = T (ix1 (⟨32 * t.val + j.val, hj⟩ : Fin 256)) := by
  rw [word_eq T off inb hf (by rw [hoff]; exact hj)]
  exact congrArg T (congrArg ix1 (Fin.ext hoff))

/-- The payload of the `j`-th copy — the source's row named by the word `w` — is row `j` of the gathered block. -/
theorem row_payload (T : S256.Idx → Elt F .i32) (S : S4000x32000.Idx → Elt F .f32) (n : ℕ) (j : Fin 32) (hj : 32 * n + j.val < 256)
    (hT : ∀ k : Fin 256, (T (ix1 k)).toNat < 4000) (w : BitVec 32) (hw_eq : w = T (ix1 (⟨32 * n + j.val, hj⟩ : Fin 256)))
    (hw : ∀ a, (![w.toNat, 0] : Fin 2 → ℕ) a + S1x32000.size a ≤ S4000x32000.size a)
    (hs : ∀ a, (Rect.unit (s := S4000x32000) ![w.toNat, 0] S1x32000.size hw).stride a = 1) (sq : S1x32000.Squeezes S32000) (z : S32000.Idx) :
    View.read (Elt F) (((Memref.whole main_v3).slice (Rect.unit (s := S4000x32000) ![w.toNat, 0] S1x32000.size hw) hs).squeeze S32000 sq).view S z
      = gathv T S n (ix2 j (⟨(z 0).val, (z 0).isLt⟩ : Fin 32000)) := by
  subst hw_eq
  rw [srcRow_read S _ hw hs sq (hT _) z, gathv_apply T S n j _ hj (hT _)]

/-- A row left at the listed whole write of a payload that is row `j` of a block `X` holds, on the row's elements, what
    the block written whole through the block's view holds. -/
theorem row_settle (c : Dev nD) (M3 : Memref sig .tc .vmem S32x32000 .f32) (f3 : Buf (Elt F) (M3.view.loc (c : Thread nD τ))) (j : ℕ) (hj : j < 32)
    (h : ∀ a, (![j, 0] : Fin 2 → ℕ) a + S1x32000.size a ≤ S32x32000.size a)
    (p : S32000.Idx → Elt F .f32) (X : S32x32000.Idx → Elt F .f32)
    (hp : ∀ z : S32000.Idx, p z = X (ix2 (⟨j, hj⟩ : Fin 32) (⟨(z 0).val, (z 0).isLt⟩ : Fin 32000))) :
    (((rowM M3 j h).view.loc (c : Thread nD τ) ↦[(rowM M3 j h).view.set]{fullShare} ((rowM M3 j h).view.writes (Elt F) f3 [⟨Rect.whole S32000, p⟩])) : sProp 𝕄)
      = ((rowM M3 j h).view.loc (c : Thread nD τ) ↦[(rowM M3 j h).view.set]{fullShare} (M3.view.write (Elt F) f3 X Finset.univ)) := by
  refine pointsTo_congr fun i hi => ?_
  obtain ⟨z, -, rfl⟩ := Finset.mem_map.mp hi
  have h1 : (rowM M3 j h).view.read (Elt F) ((rowM M3 j h).view.writes (Elt F) f3 [⟨Rect.whole S32000, p⟩]) z = p z :=
    congrFun (View.read_writes_whole _ _ _) z
  have h2 : (rowM M3 j h).view.read (Elt F) (M3.view.write (Elt F) f3 X Finset.univ) z = X (ix2 (⟨j, hj⟩ : Fin 32) (⟨(z 0).val, (z 0).isLt⟩ : Fin 32000)) := by
    have e : (rowM M3 j h).view.read (Elt F) (M3.view.write (Elt F) f3 X Finset.univ) z
        = M3.view.read (Elt F) (M3.view.write (Elt F) f3 X Finset.univ)
            ((Rect.unit (s := S32x32000) ![j, 0] S1x32000.size h).emb (Shape.reshapeEquiv Facts₀.squeezes_S1x32000_S32000.numel_eq z)) := rfl
    rw [e, View.read_write_univ]
    refine congrArg X (funext fun a => Fin.ext ?_)
    have hz := Shape.reshapeEquiv_cons_one (n := 1) (d := ![32000]) Facts₀.squeezes_S1x32000_S32000.numel_eq z
    match a with
    | ⟨0, _⟩ =>
      show j + 1 * ((Shape.reshapeEquiv Facts₀.squeezes_S1x32000_S32000.numel_eq z) (0 : Fin 2)).val = j
      rw [hz]; show j + 1 * 0 = j; omega
    | ⟨1, _⟩ =>
      show 0 + 1 * ((Shape.reshapeEquiv Facts₀.squeezes_S1x32000_S32000.numel_eq z) (1 : Fin 2)).val = (z 0).val
      rw [hz]; show 0 + 1 * (z 0).val = (z 0).val; omega
  have h3 := h1.trans ((hp z).trans h2.symm)
  rw [View.read_apply, View.read_apply] at h3
  exact (cast_inj _).mp h3

/-- The thirty-two counters at zero, one by one. -/
abbrev semsL (c : Dev nD) : sProp 𝕄 := iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0 ∗ semVal ((c : Thread nD τ), osem0 24) 0 ∗ semVal ((c : Thread nD τ), osem0 25) 0 ∗ semVal ((c : Thread nD τ), osem0 26) 0 ∗ semVal ((c : Thread nD τ), osem0 27) 0 ∗ semVal ((c : Thread nD τ), osem0 28) 0 ∗ semVal ((c : Thread nD τ), osem0 29) 0 ∗ semVal ((c : Thread nD τ), osem0 30) 0 ∗ semVal ((c : Thread nD τ), osem0 31) 0)

theorem semsL_eq (c : Dev nD) : (sems0 (F := F) c) = semsL c :=
  Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)

set_option maxHeartbeats 4000000 in
/-- From the table held whole at `T`, the source held whole at `S`, the output block's buffer at anything, the thirty-two
    counters at zero and the core owing nothing, with every table word a row number of the source: the body at point `t`
    runs to its return with the table and the source as they were, the counters at zero, the core owing nothing, and the
    output block at the gathered rows. The source is read by the thirty-two copies at once, each on its own cell's read
    share; the output block is held row by row, each copy landing in its own row; after the last wait the rows are put
    together and each row's payload is read as the source's row the table names. -/
theorem gather_run (c : Dev nD) (t : Fin grid0.N) (M3 : Memref sig .tc .vmem S32x32000 .f32) (h3 : M3.IsWhole)
    (T : S256.Idx → Elt F .i32) (S : S4000x32000.Idx → Elt F .f32)
    (hT : ∀ k : Fin 256, (T (ix1 k)).toNat < 4000)
    (W : Waits sig Unit) (Q : PUnit → sProp 𝕄) :
    iprop((((c : Thread nD τ).loc main_v2) ↦{fullShare} T) ∗ (((c : Thread nD τ).loc main_v3) ↦{fullShare} S)
      ∗ (∃ d, owns (c : Thread nD τ) M3 fullShare d) ∗ sems0 c ∗ owes (c : Thread nD τ) 0 W
      ∗ (iprop((((c : Thread nD τ).loc main_v2) ↦{fullShare} T) ∗ (((c : Thread nD τ).loc main_v3) ↦{fullShare} S)
            ∗ owns (c : Thread nD τ) M3 fullShare (gathv T S t.val) ∗ sems0 c ∗ ∃ W', owes (c : Thread nD τ) 0 W') -∗ Q ⟨⟩))
    ⊢ wp frame (wpE (defs₀ (F := F)) Variants.none c none) Set.univ
        (cc0__gather_kernel (grid0.coords t) (Memref.whole main_v2) (Memref.isWhole_whole _) (Memref.whole main_v3) (Memref.isWhole_whole _) M3 h3 cc0_scratch0) Q := by
  have ht8 : t.val < 8 := lt_of_lt_of_eq t.isLt N_0
  unfold owns
  iintro ⟨HT0, HS0', ⟨%d, %f3, %hf3, H3⟩, Hsems, HO, Hk⟩
  ihave HT := (show ((((c : Thread nD τ).loc main_v2) ↦{fullShare} T : sProp 𝕄)) ⊢ ((Memref.whole main_v2).view.loc (c : Thread nD τ) ↦{fullShare} T) from .rfl) $$ HT0
  ihave HS := (show ((((c : Thread nD τ).loc main_v3) ↦{fullShare} S : sProp 𝕄)) ⊢ ((Memref.whole main_v3).view.loc (c : Thread nD τ) ↦{fullShare} S) from .rfl) $$ HS0'
  ihave Hsems' := (Entails.of_eq (semsL_eq c)) $$ Hsems
  icases Hsems' with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩
  ihave HS' := (src_split c S) $$ HS
  icases HS' with ⟨HSr, HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33⟩
  ihave H3' := (Entails.of_eq (dst_rows_chain c M3 f3)) $$ H3
  icases H3' with ⟨R0, R1, R2, R3, R4, R5, R6, R7, R8, R9, R10, R11, R12, R13, R14, R15, R16, R17, R18, R19, R20, R21, R22, R23, R24, R25, R26, R27, R28, R29, R30, R31⟩
  sl_exec (disch := first | exact And.intro (offs_inb _ (lt_of_tbl hT _)) (offs_inb _ (lt_of_tbl hT _)) | exact offs_inb _ (lt_of_tbl hT _))
  sl_step
  have hp0 : ∀ z : S32000.Idx, gather_run.sl.dma1 t T S hT z = gathv T S t.val (ix2 (0 : Fin 32) (⟨(z 0).val, (z 0).isLt⟩ : Fin 32000)) := fun z =>
    row_payload T S t.val 0 (tblIdx_lt t.val ht8 0) hT (gather_run.sl.r t T)
      (word_at t T 0 (k0_off1 (grid0.coords t)) _ _
        (show (Scalar.indexCast (Scalar.addi (Scalar.muli (BitVec.ofNat 32 (grid0.coords t 0).val) 32#32) (BitVec.ofNat 32 0))).toNat = 32 * t.val + 0 by
          rw [wordIdx _ 0 (by rw [coords0]; exact ht8) (by decide), coords0]) (tblIdx_lt t.val ht8 0))
      _ _ _ z
  have hp1 : ∀ z : S32000.Idx, gather_run.sl.dma2 t T S hT z = gathv T S t.val (ix2 (1 : Fin 32) (⟨(z 0).val, (z 0).isLt⟩ : Fin 32000)) := fun z =>
    row_payload T S t.val 1 (tblIdx_lt t.val ht8 1) hT (gather_run.sl.r_1 t T)
      (word_at t T 1 (k0_off3 (grid0.coords t)) _ _
        (show (Scalar.indexCast (Scalar.addi (Scalar.muli (BitVec.ofNat 32 (grid0.coords t 0).val) 32#32) (BitVec.ofNat 32 1))).toNat = 32 * t.val + 1 by
          rw [wordIdx _ 1 (by rw [coords0]; exact ht8) (by decide), coords0]) (tblIdx_lt t.val ht8 1))
      _ _ _ z
  have hp2 : ∀ z : S32000.Idx, gather_run.sl.dma3 t T S hT z = gathv T S t.val (ix2 (2 : Fin 32) (⟨(z 0).val, (z 0).isLt⟩ : Fin 32000)) := fun z =>
    row_payload T S t.val 2 (tblIdx_lt t.val ht8 2) hT (gather_run.sl.r_2 t T)
      (word_at t T 2 (k0_off5 (grid0.coords t)) _ _
        (show (Scalar.indexCast (Scalar.addi (Scalar.muli (BitVec.ofNat 32 (grid0.coords t 0).val) 32#32) (BitVec.ofNat 32 2))).toNat = 32 * t.val + 2 by
          rw [wordIdx _ 2 (by rw [coords0]; exact ht8) (by decide), coords0]) (tblIdx_lt t.val ht8 2))
      _ _ _ z
  have hp3 : ∀ z : S32000.Idx, gather_run.sl.dma4 t T S hT z = gathv T S t.val (ix2 (3 : Fin 32) (⟨(z 0).val, (z 0).isLt⟩ : Fin 32000)) := fun z =>
    row_payload T S t.val 3 (tblIdx_lt t.val ht8 3) hT (gather_run.sl.r_3 t T)
      (word_at t T 3 (k0_off7 (grid0.coords t)) _ _
        (show (Scalar.indexCast (Scalar.addi (Scalar.muli (BitVec.ofNat 32 (grid0.coords t 0).val) 32#32) (BitVec.ofNat 32 3))).toNat = 32 * t.val + 3 by
          rw [wordIdx _ 3 (by rw [coords0]; exact ht8) (by decide), coords0]) (tblIdx_lt t.val ht8 3))
      _ _ _ z
  have hp4 : ∀ z : S32000.Idx, gather_run.sl.dma5 t T S hT z = gathv T S t.val (ix2 (4 : Fin 32) (⟨(z 0).val, (z 0).isLt⟩ : Fin 32000)) := fun z =>
    row_payload T S t.val 4 (tblIdx_lt t.val ht8 4) hT (gather_run.sl.r_4 t T)
      (word_at t T 4 (k0_off9 (grid0.coords t)) _ _
        (show (Scalar.indexCast (Scalar.addi (Scalar.muli (BitVec.ofNat 32 (grid0.coords t 0).val) 32#32) (BitVec.ofNat 32 4))).toNat = 32 * t.val + 4 by
          rw [wordIdx _ 4 (by rw [coords0]; exact ht8) (by decide), coords0]) (tblIdx_lt t.val ht8 4))
      _ _ _ z
  have hp5 : ∀ z : S32000.Idx, gather_run.sl.dma6 t T S hT z = gathv T S t.val (ix2 (5 : Fin 32) (⟨(z 0).val, (z 0).isLt⟩ : Fin 32000)) := fun z =>
    row_payload T S t.val 5 (tblIdx_lt t.val ht8 5) hT (gather_run.sl.r_5 t T)
      (word_at t T 5 (k0_off11 (grid0.coords t)) _ _
        (show (Scalar.indexCast (Scalar.addi (Scalar.muli (BitVec.ofNat 32 (grid0.coords t 0).val) 32#32) (BitVec.ofNat 32 5))).toNat = 32 * t.val + 5 by
          rw [wordIdx _ 5 (by rw [coords0]; exact ht8) (by decide), coords0]) (tblIdx_lt t.val ht8 5))
      _ _ _ z
  have hp6 : ∀ z : S32000.Idx, gather_run.sl.dma7 t T S hT z = gathv T S t.val (ix2 (6 : Fin 32) (⟨(z 0).val, (z 0).isLt⟩ : Fin 32000)) := fun z =>
    row_payload T S t.val 6 (tblIdx_lt t.val ht8 6) hT (gather_run.sl.r_6 t T)
      (word_at t T 6 (k0_off13 (grid0.coords t)) _ _
        (show (Scalar.indexCast (Scalar.addi (Scalar.muli (BitVec.ofNat 32 (grid0.coords t 0).val) 32#32) (BitVec.ofNat 32 6))).toNat = 32 * t.val + 6 by
          rw [wordIdx _ 6 (by rw [coords0]; exact ht8) (by decide), coords0]) (tblIdx_lt t.val ht8 6))
      _ _ _ z
  have hp7 : ∀ z : S32000.Idx, gather_run.sl.dma8 t T S hT z = gathv T S t.val (ix2 (7 : Fin 32) (⟨(z 0).val, (z 0).isLt⟩ : Fin 32000)) := fun z =>
    row_payload T S t.val 7 (tblIdx_lt t.val ht8 7) hT (gather_run.sl.r_7 t T)
      (word_at t T 7 (k0_off15 (grid0.coords t)) _ _
        (show (Scalar.indexCast (Scalar.addi (Scalar.muli (BitVec.ofNat 32 (grid0.coords t 0).val) 32#32) (BitVec.ofNat 32 7))).toNat = 32 * t.val + 7 by
          rw [wordIdx _ 7 (by rw [coords0]; exact ht8) (by decide), coords0]) (tblIdx_lt t.val ht8 7))
      _ _ _ z
  have hp8 : ∀ z : S32000.Idx, gather_run.sl.dma9 t T S hT z = gathv T S t.val (ix2 (8 : Fin 32) (⟨(z 0).val, (z 0).isLt⟩ : Fin 32000)) := fun z =>
    row_payload T S t.val 8 (tblIdx_lt t.val ht8 8) hT (gather_run.sl.r_8 t T)
      (word_at t T 8 (k0_off17 (grid0.coords t)) _ _
        (show (Scalar.indexCast (Scalar.addi (Scalar.muli (BitVec.ofNat 32 (grid0.coords t 0).val) 32#32) (BitVec.ofNat 32 8))).toNat = 32 * t.val + 8 by
          rw [wordIdx _ 8 (by rw [coords0]; exact ht8) (by decide), coords0]) (tblIdx_lt t.val ht8 8))
      _ _ _ z
  have hp9 : ∀ z : S32000.Idx, gather_run.sl.dma10 t T S hT z = gathv T S t.val (ix2 (9 : Fin 32) (⟨(z 0).val, (z 0).isLt⟩ : Fin 32000)) := fun z =>
    row_payload T S t.val 9 (tblIdx_lt t.val ht8 9) hT (gather_run.sl.r_9 t T)
      (word_at t T 9 (k0_off19 (grid0.coords t)) _ _
        (show (Scalar.indexCast (Scalar.addi (Scalar.muli (BitVec.ofNat 32 (grid0.coords t 0).val) 32#32) (BitVec.ofNat 32 9))).toNat = 32 * t.val + 9 by
          rw [wordIdx _ 9 (by rw [coords0]; exact ht8) (by decide), coords0]) (tblIdx_lt t.val ht8 9))
      _ _ _ z
  have hp10 : ∀ z : S32000.Idx, gather_run.sl.dma11 t T S hT z = gathv T S t.val (ix2 (10 : Fin 32) (⟨(z 0).val, (z 0).isLt⟩ : Fin 32000)) := fun z =>
    row_payload T S t.val 10 (tblIdx_lt t.val ht8 10) hT (gather_run.sl.r_10 t T)
      (word_at t T 10 (k0_off21 (grid0.coords t)) _ _
        (show (Scalar.indexCast (Scalar.addi (Scalar.muli (BitVec.ofNat 32 (grid0.coords t 0).val) 32#32) (BitVec.ofNat 32 10))).toNat = 32 * t.val + 10 by
          rw [wordIdx _ 10 (by rw [coords0]; exact ht8) (by decide), coords0]) (tblIdx_lt t.val ht8 10))
      _ _ _ z
  have hp11 : ∀ z : S32000.Idx, gather_run.sl.dma12 t T S hT z = gathv T S t.val (ix2 (11 : Fin 32) (⟨(z 0).val, (z 0).isLt⟩ : Fin 32000)) := fun z =>
    row_payload T S t.val 11 (tblIdx_lt t.val ht8 11) hT (gather_run.sl.r_11 t T)
      (word_at t T 11 (k0_off23 (grid0.coords t)) _ _
        (show (Scalar.indexCast (Scalar.addi (Scalar.muli (BitVec.ofNat 32 (grid0.coords t 0).val) 32#32) (BitVec.ofNat 32 11))).toNat = 32 * t.val + 11 by
          rw [wordIdx _ 11 (by rw [coords0]; exact ht8) (by decide), coords0]) (tblIdx_lt t.val ht8 11))
      _ _ _ z
  have hp12 : ∀ z : S32000.Idx, gather_run.sl.dma13 t T S hT z = gathv T S t.val (ix2 (12 : Fin 32) (⟨(z 0).val, (z 0).isLt⟩ : Fin 32000)) := fun z =>
    row_payload T S t.val 12 (tblIdx_lt t.val ht8 12) hT (gather_run.sl.r_12 t T)
      (word_at t T 12 (k0_off25 (grid0.coords t)) _ _
        (show (Scalar.indexCast (Scalar.addi (Scalar.muli (BitVec.ofNat 32 (grid0.coords t 0).val) 32#32) (BitVec.ofNat 32 12))).toNat = 32 * t.val + 12 by
          rw [wordIdx _ 12 (by rw [coords0]; exact ht8) (by decide), coords0]) (tblIdx_lt t.val ht8 12))
      _ _ _ z
  have hp13 : ∀ z : S32000.Idx, gather_run.sl.dma14 t T S hT z = gathv T S t.val (ix2 (13 : Fin 32) (⟨(z 0).val, (z 0).isLt⟩ : Fin 32000)) := fun z =>
    row_payload T S t.val 13 (tblIdx_lt t.val ht8 13) hT (gather_run.sl.r_13 t T)
      (word_at t T 13 (k0_off27 (grid0.coords t)) _ _
        (show (Scalar.indexCast (Scalar.addi (Scalar.muli (BitVec.ofNat 32 (grid0.coords t 0).val) 32#32) (BitVec.ofNat 32 13))).toNat = 32 * t.val + 13 by
          rw [wordIdx _ 13 (by rw [coords0]; exact ht8) (by decide), coords0]) (tblIdx_lt t.val ht8 13))
      _ _ _ z
  have hp14 : ∀ z : S32000.Idx, gather_run.sl.dma15 t T S hT z = gathv T S t.val (ix2 (14 : Fin 32) (⟨(z 0).val, (z 0).isLt⟩ : Fin 32000)) := fun z =>
    row_payload T S t.val 14 (tblIdx_lt t.val ht8 14) hT (gather_run.sl.r_14 t T)
      (word_at t T 14 (k0_off29 (grid0.coords t)) _ _
        (show (Scalar.indexCast (Scalar.addi (Scalar.muli (BitVec.ofNat 32 (grid0.coords t 0).val) 32#32) (BitVec.ofNat 32 14))).toNat = 32 * t.val + 14 by
          rw [wordIdx _ 14 (by rw [coords0]; exact ht8) (by decide), coords0]) (tblIdx_lt t.val ht8 14))
      _ _ _ z
  have hp15 : ∀ z : S32000.Idx, gather_run.sl.dma16 t T S hT z = gathv T S t.val (ix2 (15 : Fin 32) (⟨(z 0).val, (z 0).isLt⟩ : Fin 32000)) := fun z =>
    row_payload T S t.val 15 (tblIdx_lt t.val ht8 15) hT (gather_run.sl.r_15 t T)
      (word_at t T 15 (k0_off31 (grid0.coords t)) _ _
        (show (Scalar.indexCast (Scalar.addi (Scalar.muli (BitVec.ofNat 32 (grid0.coords t 0).val) 32#32) (BitVec.ofNat 32 15))).toNat = 32 * t.val + 15 by
          rw [wordIdx _ 15 (by rw [coords0]; exact ht8) (by decide), coords0]) (tblIdx_lt t.val ht8 15))
      _ _ _ z
  have hp16 : ∀ z : S32000.Idx, gather_run.sl.dma17 t T S hT z = gathv T S t.val (ix2 (16 : Fin 32) (⟨(z 0).val, (z 0).isLt⟩ : Fin 32000)) := fun z =>
    row_payload T S t.val 16 (tblIdx_lt t.val ht8 16) hT (gather_run.sl.r_16 t T)
      (word_at t T 16 (k0_off33 (grid0.coords t)) _ _
        (show (Scalar.indexCast (Scalar.addi (Scalar.muli (BitVec.ofNat 32 (grid0.coords t 0).val) 32#32) (BitVec.ofNat 32 16))).toNat = 32 * t.val + 16 by
          rw [wordIdx _ 16 (by rw [coords0]; exact ht8) (by decide), coords0]) (tblIdx_lt t.val ht8 16))
      _ _ _ z
  have hp17 : ∀ z : S32000.Idx, gather_run.sl.dma18 t T S hT z = gathv T S t.val (ix2 (17 : Fin 32) (⟨(z 0).val, (z 0).isLt⟩ : Fin 32000)) := fun z =>
    row_payload T S t.val 17 (tblIdx_lt t.val ht8 17) hT (gather_run.sl.r_17 t T)
      (word_at t T 17 (k0_off35 (grid0.coords t)) _ _
        (show (Scalar.indexCast (Scalar.addi (Scalar.muli (BitVec.ofNat 32 (grid0.coords t 0).val) 32#32) (BitVec.ofNat 32 17))).toNat = 32 * t.val + 17 by
          rw [wordIdx _ 17 (by rw [coords0]; exact ht8) (by decide), coords0]) (tblIdx_lt t.val ht8 17))
      _ _ _ z
  have hp18 : ∀ z : S32000.Idx, gather_run.sl.dma19 t T S hT z = gathv T S t.val (ix2 (18 : Fin 32) (⟨(z 0).val, (z 0).isLt⟩ : Fin 32000)) := fun z =>
    row_payload T S t.val 18 (tblIdx_lt t.val ht8 18) hT (gather_run.sl.r_18 t T)
      (word_at t T 18 (k0_off37 (grid0.coords t)) _ _
        (show (Scalar.indexCast (Scalar.addi (Scalar.muli (BitVec.ofNat 32 (grid0.coords t 0).val) 32#32) (BitVec.ofNat 32 18))).toNat = 32 * t.val + 18 by
          rw [wordIdx _ 18 (by rw [coords0]; exact ht8) (by decide), coords0]) (tblIdx_lt t.val ht8 18))
      _ _ _ z
  have hp19 : ∀ z : S32000.Idx, gather_run.sl.dma20 t T S hT z = gathv T S t.val (ix2 (19 : Fin 32) (⟨(z 0).val, (z 0).isLt⟩ : Fin 32000)) := fun z =>
    row_payload T S t.val 19 (tblIdx_lt t.val ht8 19) hT (gather_run.sl.r_19 t T)
      (word_at t T 19 (k0_off39 (grid0.coords t)) _ _
        (show (Scalar.indexCast (Scalar.addi (Scalar.muli (BitVec.ofNat 32 (grid0.coords t 0).val) 32#32) (BitVec.ofNat 32 19))).toNat = 32 * t.val + 19 by
          rw [wordIdx _ 19 (by rw [coords0]; exact ht8) (by decide), coords0]) (tblIdx_lt t.val ht8 19))
      _ _ _ z
  have hp20 : ∀ z : S32000.Idx, gather_run.sl.dma21 t T S hT z = gathv T S t.val (ix2 (20 : Fin 32) (⟨(z 0).val, (z 0).isLt⟩ : Fin 32000)) := fun z =>
    row_payload T S t.val 20 (tblIdx_lt t.val ht8 20) hT (gather_run.sl.r_20 t T)
      (word_at t T 20 (k0_off41 (grid0.coords t)) _ _
        (show (Scalar.indexCast (Scalar.addi (Scalar.muli (BitVec.ofNat 32 (grid0.coords t 0).val) 32#32) (BitVec.ofNat 32 20))).toNat = 32 * t.val + 20 by
          rw [wordIdx _ 20 (by rw [coords0]; exact ht8) (by decide), coords0]) (tblIdx_lt t.val ht8 20))
      _ _ _ z
  have hp21 : ∀ z : S32000.Idx, gather_run.sl.dma22 t T S hT z = gathv T S t.val (ix2 (21 : Fin 32) (⟨(z 0).val, (z 0).isLt⟩ : Fin 32000)) := fun z =>
    row_payload T S t.val 21 (tblIdx_lt t.val ht8 21) hT (gather_run.sl.r_21 t T)
      (word_at t T 21 (k0_off43 (grid0.coords t)) _ _
        (show (Scalar.indexCast (Scalar.addi (Scalar.muli (BitVec.ofNat 32 (grid0.coords t 0).val) 32#32) (BitVec.ofNat 32 21))).toNat = 32 * t.val + 21 by
          rw [wordIdx _ 21 (by rw [coords0]; exact ht8) (by decide), coords0]) (tblIdx_lt t.val ht8 21))
      _ _ _ z
  have hp22 : ∀ z : S32000.Idx, gather_run.sl.dma23 t T S hT z = gathv T S t.val (ix2 (22 : Fin 32) (⟨(z 0).val, (z 0).isLt⟩ : Fin 32000)) := fun z =>
    row_payload T S t.val 22 (tblIdx_lt t.val ht8 22) hT (gather_run.sl.r_22 t T)
      (word_at t T 22 (k0_off45 (grid0.coords t)) _ _
        (show (Scalar.indexCast (Scalar.addi (Scalar.muli (BitVec.ofNat 32 (grid0.coords t 0).val) 32#32) (BitVec.ofNat 32 22))).toNat = 32 * t.val + 22 by
          rw [wordIdx _ 22 (by rw [coords0]; exact ht8) (by decide), coords0]) (tblIdx_lt t.val ht8 22))
      _ _ _ z
  have hp23 : ∀ z : S32000.Idx, gather_run.sl.dma24 t T S hT z = gathv T S t.val (ix2 (23 : Fin 32) (⟨(z 0).val, (z 0).isLt⟩ : Fin 32000)) := fun z =>
    row_payload T S t.val 23 (tblIdx_lt t.val ht8 23) hT (gather_run.sl.r_23 t T)
      (word_at t T 23 (k0_off47 (grid0.coords t)) _ _
        (show (Scalar.indexCast (Scalar.addi (Scalar.muli (BitVec.ofNat 32 (grid0.coords t 0).val) 32#32) (BitVec.ofNat 32 23))).toNat = 32 * t.val + 23 by
          rw [wordIdx _ 23 (by rw [coords0]; exact ht8) (by decide), coords0]) (tblIdx_lt t.val ht8 23))
      _ _ _ z
  have hp24 : ∀ z : S32000.Idx, gather_run.sl.dma25 t T S hT z = gathv T S t.val (ix2 (24 : Fin 32) (⟨(z 0).val, (z 0).isLt⟩ : Fin 32000)) := fun z =>
    row_payload T S t.val 24 (tblIdx_lt t.val ht8 24) hT (gather_run.sl.r_24 t T)
      (word_at t T 24 (k0_off49 (grid0.coords t)) _ _
        (show (Scalar.indexCast (Scalar.addi (Scalar.muli (BitVec.ofNat 32 (grid0.coords t 0).val) 32#32) (BitVec.ofNat 32 24))).toNat = 32 * t.val + 24 by
          rw [wordIdx _ 24 (by rw [coords0]; exact ht8) (by decide), coords0]) (tblIdx_lt t.val ht8 24))
      _ _ _ z
  have hp25 : ∀ z : S32000.Idx, gather_run.sl.dma26 t T S hT z = gathv T S t.val (ix2 (25 : Fin 32) (⟨(z 0).val, (z 0).isLt⟩ : Fin 32000)) := fun z =>
    row_payload T S t.val 25 (tblIdx_lt t.val ht8 25) hT (gather_run.sl.r_25 t T)
      (word_at t T 25 (k0_off51 (grid0.coords t)) _ _
        (show (Scalar.indexCast (Scalar.addi (Scalar.muli (BitVec.ofNat 32 (grid0.coords t 0).val) 32#32) (BitVec.ofNat 32 25))).toNat = 32 * t.val + 25 by
          rw [wordIdx _ 25 (by rw [coords0]; exact ht8) (by decide), coords0]) (tblIdx_lt t.val ht8 25))
      _ _ _ z
  have hp26 : ∀ z : S32000.Idx, gather_run.sl.dma27 t T S hT z = gathv T S t.val (ix2 (26 : Fin 32) (⟨(z 0).val, (z 0).isLt⟩ : Fin 32000)) := fun z =>
    row_payload T S t.val 26 (tblIdx_lt t.val ht8 26) hT (gather_run.sl.r_26 t T)
      (word_at t T 26 (k0_off53 (grid0.coords t)) _ _
        (show (Scalar.indexCast (Scalar.addi (Scalar.muli (BitVec.ofNat 32 (grid0.coords t 0).val) 32#32) (BitVec.ofNat 32 26))).toNat = 32 * t.val + 26 by
          rw [wordIdx _ 26 (by rw [coords0]; exact ht8) (by decide), coords0]) (tblIdx_lt t.val ht8 26))
      _ _ _ z
  have hp27 : ∀ z : S32000.Idx, gather_run.sl.dma28 t T S hT z = gathv T S t.val (ix2 (27 : Fin 32) (⟨(z 0).val, (z 0).isLt⟩ : Fin 32000)) := fun z =>
    row_payload T S t.val 27 (tblIdx_lt t.val ht8 27) hT (gather_run.sl.r_27 t T)
      (word_at t T 27 (k0_off55 (grid0.coords t)) _ _
        (show (Scalar.indexCast (Scalar.addi (Scalar.muli (BitVec.ofNat 32 (grid0.coords t 0).val) 32#32) (BitVec.ofNat 32 27))).toNat = 32 * t.val + 27 by
          rw [wordIdx _ 27 (by rw [coords0]; exact ht8) (by decide), coords0]) (tblIdx_lt t.val ht8 27))
      _ _ _ z
  have hp28 : ∀ z : S32000.Idx, gather_run.sl.dma29 t T S hT z = gathv T S t.val (ix2 (28 : Fin 32) (⟨(z 0).val, (z 0).isLt⟩ : Fin 32000)) := fun z =>
    row_payload T S t.val 28 (tblIdx_lt t.val ht8 28) hT (gather_run.sl.r_28 t T)
      (word_at t T 28 (k0_off57 (grid0.coords t)) _ _
        (show (Scalar.indexCast (Scalar.addi (Scalar.muli (BitVec.ofNat 32 (grid0.coords t 0).val) 32#32) (BitVec.ofNat 32 28))).toNat = 32 * t.val + 28 by
          rw [wordIdx _ 28 (by rw [coords0]; exact ht8) (by decide), coords0]) (tblIdx_lt t.val ht8 28))
      _ _ _ z
  have hp29 : ∀ z : S32000.Idx, gather_run.sl.dma30 t T S hT z = gathv T S t.val (ix2 (29 : Fin 32) (⟨(z 0).val, (z 0).isLt⟩ : Fin 32000)) := fun z =>
    row_payload T S t.val 29 (tblIdx_lt t.val ht8 29) hT (gather_run.sl.r_29 t T)
      (word_at t T 29 (k0_off59 (grid0.coords t)) _ _
        (show (Scalar.indexCast (Scalar.addi (Scalar.muli (BitVec.ofNat 32 (grid0.coords t 0).val) 32#32) (BitVec.ofNat 32 29))).toNat = 32 * t.val + 29 by
          rw [wordIdx _ 29 (by rw [coords0]; exact ht8) (by decide), coords0]) (tblIdx_lt t.val ht8 29))
      _ _ _ z
  have hp30 : ∀ z : S32000.Idx, gather_run.sl.dma31 t T S hT z = gathv T S t.val (ix2 (30 : Fin 32) (⟨(z 0).val, (z 0).isLt⟩ : Fin 32000)) := fun z =>
    row_payload T S t.val 30 (tblIdx_lt t.val ht8 30) hT (gather_run.sl.r_30 t T)
      (word_at t T 30 (k0_off61 (grid0.coords t)) _ _
        (show (Scalar.indexCast (Scalar.addi (Scalar.muli (BitVec.ofNat 32 (grid0.coords t 0).val) 32#32) (BitVec.ofNat 32 30))).toNat = 32 * t.val + 30 by
          rw [wordIdx _ 30 (by rw [coords0]; exact ht8) (by decide), coords0]) (tblIdx_lt t.val ht8 30))
      _ _ _ z
  have hp31 : ∀ z : S32000.Idx, gather_run.sl.dma32 t T S hT z = gathv T S t.val (ix2 (31 : Fin 32) (⟨(z 0).val, (z 0).isLt⟩ : Fin 32000)) := fun z =>
    row_payload T S t.val 31 (tblIdx_lt t.val ht8 31) hT (gather_run.sl.r_31 t T)
      (word_at t T 31 (k0_off63 (grid0.coords t)) _ _
        (show (Scalar.indexCast (Scalar.addi (Scalar.muli (BitVec.ofNat 32 (grid0.coords t 0).val) 32#32) (BitVec.ofNat 32 31))).toNat = 32 * t.val + 31 by
          rw [wordIdx _ 31 (by rw [coords0]; exact ht8) (by decide), coords0]) (tblIdx_lt t.val ht8 31))
      _ _ _ z
  ihave R0' := (Entails.of_eq (row_settle c M3 f3 0 (by decide) _ _ (gathv T S t.val) hp0)) $$ R0
  ihave R1' := (Entails.of_eq (row_settle c M3 f3 1 (by decide) _ _ (gathv T S t.val) hp1)) $$ R1
  ihave R2' := (Entails.of_eq (row_settle c M3 f3 2 (by decide) _ _ (gathv T S t.val) hp2)) $$ R2
  ihave R3' := (Entails.of_eq (row_settle c M3 f3 3 (by decide) _ _ (gathv T S t.val) hp3)) $$ R3
  ihave R4' := (Entails.of_eq (row_settle c M3 f3 4 (by decide) _ _ (gathv T S t.val) hp4)) $$ R4
  ihave R5' := (Entails.of_eq (row_settle c M3 f3 5 (by decide) _ _ (gathv T S t.val) hp5)) $$ R5
  ihave R6' := (Entails.of_eq (row_settle c M3 f3 6 (by decide) _ _ (gathv T S t.val) hp6)) $$ R6
  ihave R7' := (Entails.of_eq (row_settle c M3 f3 7 (by decide) _ _ (gathv T S t.val) hp7)) $$ R7
  ihave R8' := (Entails.of_eq (row_settle c M3 f3 8 (by decide) _ _ (gathv T S t.val) hp8)) $$ R8
  ihave R9' := (Entails.of_eq (row_settle c M3 f3 9 (by decide) _ _ (gathv T S t.val) hp9)) $$ R9
  ihave R10' := (Entails.of_eq (row_settle c M3 f3 10 (by decide) _ _ (gathv T S t.val) hp10)) $$ R10
  ihave R11' := (Entails.of_eq (row_settle c M3 f3 11 (by decide) _ _ (gathv T S t.val) hp11)) $$ R11
  ihave R12' := (Entails.of_eq (row_settle c M3 f3 12 (by decide) _ _ (gathv T S t.val) hp12)) $$ R12
  ihave R13' := (Entails.of_eq (row_settle c M3 f3 13 (by decide) _ _ (gathv T S t.val) hp13)) $$ R13
  ihave R14' := (Entails.of_eq (row_settle c M3 f3 14 (by decide) _ _ (gathv T S t.val) hp14)) $$ R14
  ihave R15' := (Entails.of_eq (row_settle c M3 f3 15 (by decide) _ _ (gathv T S t.val) hp15)) $$ R15
  ihave R16' := (Entails.of_eq (row_settle c M3 f3 16 (by decide) _ _ (gathv T S t.val) hp16)) $$ R16
  ihave R17' := (Entails.of_eq (row_settle c M3 f3 17 (by decide) _ _ (gathv T S t.val) hp17)) $$ R17
  ihave R18' := (Entails.of_eq (row_settle c M3 f3 18 (by decide) _ _ (gathv T S t.val) hp18)) $$ R18
  ihave R19' := (Entails.of_eq (row_settle c M3 f3 19 (by decide) _ _ (gathv T S t.val) hp19)) $$ R19
  ihave R20' := (Entails.of_eq (row_settle c M3 f3 20 (by decide) _ _ (gathv T S t.val) hp20)) $$ R20
  ihave R21' := (Entails.of_eq (row_settle c M3 f3 21 (by decide) _ _ (gathv T S t.val) hp21)) $$ R21
  ihave R22' := (Entails.of_eq (row_settle c M3 f3 22 (by decide) _ _ (gathv T S t.val) hp22)) $$ R22
  ihave R23' := (Entails.of_eq (row_settle c M3 f3 23 (by decide) _ _ (gathv T S t.val) hp23)) $$ R23
  ihave R24' := (Entails.of_eq (row_settle c M3 f3 24 (by decide) _ _ (gathv T S t.val) hp24)) $$ R24
  ihave R25' := (Entails.of_eq (row_settle c M3 f3 25 (by decide) _ _ (gathv T S t.val) hp25)) $$ R25
  ihave R26' := (Entails.of_eq (row_settle c M3 f3 26 (by decide) _ _ (gathv T S t.val) hp26)) $$ R26
  ihave R27' := (Entails.of_eq (row_settle c M3 f3 27 (by decide) _ _ (gathv T S t.val) hp27)) $$ R27
  ihave R28' := (Entails.of_eq (row_settle c M3 f3 28 (by decide) _ _ (gathv T S t.val) hp28)) $$ R28
  ihave R29' := (Entails.of_eq (row_settle c M3 f3 29 (by decide) _ _ (gathv T S t.val) hp29)) $$ R29
  ihave R30' := (Entails.of_eq (row_settle c M3 f3 30 (by decide) _ _ (gathv T S t.val) hp30)) $$ R30
  ihave R31' := (Entails.of_eq (row_settle c M3 f3 31 (by decide) _ _ (gathv T S t.val) hp31)) $$ R31
  iapply Hk
  isplitl [HT]; · iexact HT
  isplitl [HSr HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33]
  · iapply (src_join c S)
    isplitl [HSr]; · iexact HSr
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    isplitl [HS25]; · iexact HS25
    isplitl [HS26]; · iexact HS26
    isplitl [HS27]; · iexact HS27
    isplitl [HS28]; · iexact HS28
    isplitl [HS29]; · iexact HS29
    isplitl [HS30]; · iexact HS30
    isplitl [HS31]; · iexact HS31
    isplitl [HS32]; · iexact HS32
    iexact HS33
  isplitl [R0' R1' R2' R3' R4' R5' R6' R7' R8' R9' R10' R11' R12' R13' R14' R15' R16' R17' R18' R19' R20' R21' R22' R23' R24' R25' R26' R27' R28' R29' R30' R31']
  · iexists (M3.view.write (Elt F) f3 (gathv T S t.val) Finset.univ)
    isplitr; · ipureintro; exact View.read_write_univ _ _
    iapply (Entails.of_eq (dst_rows_chain c M3 (M3.view.write (Elt F) f3 (gathv T S t.val) Finset.univ)).symm)
    isplitl [R0']; · iexact R0'
    isplitl [R1']; · iexact R1'
    isplitl [R2']; · iexact R2'
    isplitl [R3']; · iexact R3'
    isplitl [R4']; · iexact R4'
    isplitl [R5']; · iexact R5'
    isplitl [R6']; · iexact R6'
    isplitl [R7']; · iexact R7'
    isplitl [R8']; · iexact R8'
    isplitl [R9']; · iexact R9'
    isplitl [R10']; · iexact R10'
    isplitl [R11']; · iexact R11'
    isplitl [R12']; · iexact R12'
    isplitl [R13']; · iexact R13'
    isplitl [R14']; · iexact R14'
    isplitl [R15']; · iexact R15'
    isplitl [R16']; · iexact R16'
    isplitl [R17']; · iexact R17'
    isplitl [R18']; · iexact R18'
    isplitl [R19']; · iexact R19'
    isplitl [R20']; · iexact R20'
    isplitl [R21']; · iexact R21'
    isplitl [R22']; · iexact R22'
    isplitl [R23']; · iexact R23'
    isplitl [R24']; · iexact R24'
    isplitl [R25']; · iexact R25'
    isplitl [R26']; · iexact R26'
    isplitl [R27']; · iexact R27'
    isplitl [R28']; · iexact R28'
    isplitl [R29']; · iexact R29'
    isplitl [R30']; · iexact R30'
    iexact R31'
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · iapply (Entails.of_eq (semsL_eq c).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.KernelIdeal.Hand

end
-- ==== Proof.Region0.lean ====
/-
  The gather region's proof data and invariant at any buffer contents at entry: the table's contents, the block each
  point leaves, the body obligation from the body's run, and the invariant's two ends.
-/
import proofs.«424303_j34282428957025_2_alg».proof.Proof.Gather

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MM F

/-- The TensorCore's buffer contents when the region is entered, per core. -/
abbrev Vals (F : FTy → Type) [FloatOps F] : Type := (c : Dev nD) → (b : Ref sig .tc) → Buf (Elt F) ((c : Thread nD τ).loc b)

variable (V : Vals F)

/-- The index table's contents at entry (one core: core 0's). -/
def tbl0 : pre0.Contents (Elt F) := fun | ⟨0, _⟩ => V 0 main_v2

/-- Every contents of the table is admissible: the pipeline's side condition on them is trivial. -/
def adm0 : (pcfg0 (F := F)).Adm := ⟨tbl0 V, trivial⟩

/-- Every table word is a row number of the source. -/
def Ok0 : Prop := ∀ k : Fin 256, ((V 0 main_v2 : S256.Idx → Elt F .i32) (ix1 k)).toNat < 4000

/-- The region's invariant: the source whole at its entry contents, the table whole at its contents, the thirty-two own
    counters at zero, and the scoped buffers no window stages. -/
def Φ0 (c : Dev nD) : sProp 𝕄 :=
  iprop((((c : Thread nD τ).loc main_v3) ↦{fullShare} V c main_v3) ∗ (((c : Thread nD τ).loc main_v2) ↦{fullShare} V 0 main_v2)
    ∗ sems0 c ∗ Pipeline.scopedRest (Ix := Unit) (Name := ℕ) (U := UC) (Lvl := ℕ) (Val := Elt F) spec0 c)

/-- The proof data on core `c`: the output array at its entry contents; after the body at point `t` the staging buffer
    holds the rows the table names there; the invariant; the full share; nothing owed. -/
def dat0 (c : Dev nD) : Pipeline.Dat τ (Elt F) Unit ℕ UC ℕ (cfg0 (adm0 V)) c where
  A w := V c (Pipeline.arrRef spec0 w)
  after w t := match w with | ⟨0, _⟩ => gathv (V 0 main_v2) (V c main_v3) t.val
  Φ _ := Φ0 V c
  q _ := fullShare
  owed _ := 0

/-- The layout the launch needs of the kernel's own semaphores: scoped, distinct, and no staging semaphore. -/
theorem ownSemFacts0 : Pipeline.OwnSemFacts spec0 osem0 := by decide

/-- What the region's entry hands the invariant besides the table and the scoped rest: the source and the own counters. -/
def X0 (c : Dev nD) : sProp 𝕄 := iprop((((c : Thread nD τ).loc main_v3) ↦{fullShare} V c main_v3) ∗ sems0 c)
/-- What the invariant gives back at the end: the source and the table. -/
def Y0 (c : Dev nD) : sProp 𝕄 :=
  iprop((((c : Thread nD τ).loc main_v3) ↦{fullShare} V c main_v3) ∗ (((c : Thread nD τ).loc main_v2) ↦{fullShare} V 0 main_v2))

/-- The staging buffer after the body at point `t`, read at a row and a column. -/
theorem after0_apply (hok : Ok0 V) (c : Dev nD) (t : Fin (cfg0 (adm0 V)).N) (j : Fin 32) (v : Fin 32000) (hj : 32 * t.val + j.val < 256) :
    (dat0 V c).after 0 t (ix2 j v)
      = (V c main_v3 : S4000x32000.Idx → Elt F .f32) (ix2 (⟨((V 0 main_v2 : S256.Idx → Elt F .i32) (ix1 (⟨32 * t.val + j.val, hj⟩ : Fin 256))).toNat, hok _⟩ : Fin 4000) v) := by
  dsimp only [dat0]
  exact gathv_apply _ _ _ j v hj (hok _)

/-- The body obligation: the invariant and the staging buffer taken apart, the body's run applied, its post reassembled. -/
theorem body_obligation0 (hok : Ok0 V) (c : Dev nD) : Pipeline.BodyObligation (dat0 V c) (defs₀ (F := F)) 𝒱₀ () Set.univ := fun t => by
  rw [bigSep_W0, bigSep_W0]
  dsimp only [dat0]
  unfold Φ0 Pipeline.Dat.owesAt Pipeline.owesWithin
  dsimp only
  iintro ⟨⟨HS, HT, Hsems, Hr⟩, ⟨%W, %hW, HO⟩, ⟨%d, Hd⟩⟩
  iapply (gather_run c t (spec0_0.stage ((cfg0 (adm0 V)).slots t 0)) (hstage0_0 (((cfg0 (adm0 V)).slots t 0).cast nbuf0_0)) (V 0 main_v2) (V c main_v3) hok W)
  isplitl [HT]; · iexact HT
  isplitl [HS]; · iexact HS
  isplitl [Hd]; · iexists _; iexact Hd
  isplitl [Hsems]; · iexact Hsems
  isplitl [HO]; · iexact HO
  iintro ⟨HT, HS, Hd, Hsems, ⟨%W', HO⟩⟩
  isplitl [HS HT Hsems Hr]
  · isplitl [HS]; · iexact HS
    isplitl [HT]; · iexact HT
    isplitl [Hsems]; · iexact Hsems
    iexact Hr
  isplitl [HO]
  · iexists W'; isplitr; · ipureintro; exact fun _ _ => Or.inl trivial
    iexact HO
  iexact Hd

/-- The invariant at the first point. -/
theorem hin0 (c : Dev nD) :
    iprop(X0 V c ∗ Pipeline.prefHeld pre0 c (fun _ => fullShare) (adm0 V).1 ∗ Pipeline.scopedRest spec0 c) ⊢ (dat0 V c).Φ 0 := by
  dsimp only [dat0]
  unfold Φ0 X0 Pipeline.prefHeld
  rw [bigSep_W0]
  iintro ⟨⟨HS, Hsems⟩, HT, Hr⟩
  isplitl [HS]; · iexact HS
  isplitl [HT]; · iexact HT
  isplitl [Hsems]; · iexact Hsems
  iexact Hr

/-- The invariant at the last point gives back the source, the table, the own counters at zero and the scoped rest. -/
theorem hout0 (c : Dev nD) :
    (dat0 V c).Φ (Fin.last _) ⊢ iprop(Y0 V c ∗ Pipeline.ownSems0 osem0 c ∗ Pipeline.scopedRest spec0 c) := by
  dsimp only [dat0]
  unfold Φ0 Y0
  iintro ⟨HS, HT, Hsems, Hr⟩
  isplitl [HS HT]
  · isplitl [HS]; · iexact HS
    iexact HT
  isplitl [Hsems]; · iexact Hsems
  iexact Hr

end Cert.KernelIdeal.Hand

end
-- ==== Proof.HostValues.lean ====
/-
  What the two host stretches leave in the buffers the kernel regions read, index by index, and the array the gather
  region leaves.

  Before the first region the host computes the combined index table (word k = 8 · author word k + role word k) and
  reshapes the author array (500, 8, 32000) to (4000, 32000): row 8 a + r of the reshaped array is row (a, r). With the
  author words below 500 and the role words below 8 the table's words are below 4000 and the products do not wrap.
  Between the regions the host computes the one-hot array of the role words: entry (b, r) is the conversion of the bit
  "role word b = r". No stretch writes an argument. The gather region writes, at every grid point t, rows 32 t to
  32 t + 31 of its output; row b is covered by point b / 32, so the output ends holding, in row b, the row of the
  reshaped array that table word b names.
-/
import proofs.«424303_j34282428957025_2_alg».proof.Proof.Common
import proofs.«424303_j34282428957025_2_alg».proof.Proof.Region0
import proofs.«424303_j34282428957025_2_alg».proof.Proof.Gen.KernelIdeal.Regions
import Idealize.ShloMosaic.Lib.Pipeline.Value
import Idealize.ShloMosaic.Lib.IdealHost
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (outs : Outs (F := F))

/-! ## The index table -/
/-- The table's word at row `k`: eight times the author's index plus the role's. -/
def tableWord (x0 x2 : S256.Idx → BitVec 32) (k : Fin 256) : BitVec 32 := x0 (ix1 k) * 8#32 + x2 (ix1 k)

/-- The combined index table as the host computes it. -/
theorem V1_main_v2 (c : Dev nD) :
    (V1 m c (Proc.devRef .tc main_v2) : S256.Idx → BitVec 32)
      = addi (muli (m ((c : Thread nD τ).loc main_arg0) : S256.Idx → BitVec 32) (broadcastInDim S256 ![] bcast_S_S256 (constantI S_ 32 8#32)))
          (m ((c : Thread nD τ).loc main_arg2) : S256.Idx → BitVec 32) := by
  show StableHlo.after hostOps0 _ (Proc.devRef .tc main_v2) = _
  after_results

/-- The table's word at row `k`, as the region finds it. -/
theorem V1_table (c : Dev nD) (k : Fin 256) :
    (V1 m c (Proc.devRef .tc main_v2) : S256.Idx → BitVec 32) (ix1 k)
      = tableWord (m ((c : Thread nD τ).loc main_arg0)) (m ((c : Thread nD τ).loc main_arg2)) k := by
  rw [V1_main_v2]
  rfl

/-- With the author words below 500 and the role words below 8 the table's word is below 4000, and is 8 · author + role
    as a natural number: neither the product nor the sum wraps. -/
theorem tableWord_lt (x0 x2 : S256.Idx → BitVec 32) (hm : ∀ b : Fin 256, (x0 (ix1 b)).toNat < 500) (hr : ∀ b : Fin 256, (x2 (ix1 b)).toNat < 8)
    (k : Fin 256) : (tableWord x0 x2 k).toNat < 4000 ∧ (tableWord x0 x2 k).toNat = 8 * (x0 (ix1 k)).toNat + (x2 (ix1 k)).toNat := by
  have h0 := hm k
  have h2 := hr k
  unfold tableWord
  rw [BitVec.toNat_add, BitVec.toNat_mul]
  have e8 : (8#32 : BitVec 32).toNat = 8 := rfl
  rw [e8]
  have h1 : (x0 (ix1 k)).toNat * 8 % 2 ^ 32 = (x0 (ix1 k)).toNat * 8 := Nat.mod_eq_of_lt (by omega)
  rw [h1]
  have h3 : ((x0 (ix1 k)).toNat * 8 + (x2 (ix1 k)).toNat) % 2 ^ 32 = (x0 (ix1 k)).toNat * 8 + (x2 (ix1 k)).toNat := Nat.mod_eq_of_lt (by omega)
  rw [h3]
  omega

/-- So every table word is a row number of the reshaped source. -/
theorem ok0_of_idx
    (hm : ∀ b : Fin 256, ((m (((0 : Dev nD) : Thread nD τ).loc main_arg0) : S256.Idx → BitVec 32) (ix1 b)).toNat < 500)
    (hr : ∀ b : Fin 256, ((m (((0 : Dev nD) : Thread nD τ).loc main_arg2) : S256.Idx → BitVec 32) (ix1 b)).toNat < 8) :
    Ok0 (F := F) (fun c b => V1 m c b) := by
  intro k
  show ((V1 m 0 (Proc.devRef .tc main_v2) : S256.Idx → BitVec 32) (ix1 k)).toNat < 4000
  rw [V1_table]
  exact (tableWord_lt _ _ hm hr k).1

/-! ## The reshaped source -/
/-- The reshaped source array as the host computes it. -/
theorem V1_main_v3 (c : Dev nD) :
    (V1 m c (Proc.devRef .tc main_v3) : S4000x32000.Idx → F .f32)
      = shapeCast S4000x32000 (m ((c : Thread nD τ).loc main_arg5) : S500x8x32000.Idx → F .f32) shapeCasts_S500x8x32000_S4000x32000 := by
  show StableHlo.after hostOps0 _ (Proc.devRef .tc main_v3) = _
  after_results
  rfl

/-- Row `8 a + r` of the reshaped array is row `(a, r)` of the three-axis one. -/
theorem reshape_read (x : S500x8x32000.Idx → F .f32) (a : Fin 500) (r : Fin 8) (v : Fin 32000) (q : Fin 4000) (hq : q.val = 8 * a.val + r.val) :
    shapeCast S4000x32000 x shapeCasts_S500x8x32000_S4000x32000 (ix2 q v) = x (ix3 a r v) := by
  refine shapeCast_apply x _ (ix2 q v) (ix3 a r v) ?_
  rw [Shape.rowMajor_val_three, Shape.rowMajor_val_two]
  show (a.val * 8 + r.val) * 32000 + v.val = q.val * 32000 + v.val
  rw [hq]; ring

/-- The reshaped source, as the first region finds it, read at row `8 a + r`. -/
theorem V1_source (c : Dev nD) (a : Fin 500) (r : Fin 8) (v : Fin 32000) (q : Fin 4000) (hq : q.val = 8 * a.val + r.val) :
    (V1 m c (Proc.devRef .tc main_v3) : S4000x32000.Idx → F .f32) (ix2 q v)
      = (m ((c : Thread nD τ).loc main_arg5) : S500x8x32000.Idx → F .f32) (ix3 a r v) := by
  rw [V1_main_v3]
  exact reshape_read _ a r v q hq

/-! ## The one-hot array -/
/-- The one-hot array as the host computes it. -/
theorem V3_main_v5 (c : Dev nD) :
    (V3 m outs c (Proc.devRef .tc main_v5) : S256x8.Idx → F .f32)
      = uitofp .f32 (cmpi .eq
          (broadcastInDim S256x8 ![0, 1] bcast_S256x1_S256x8_0_1 (broadcastInDim S256x1 ![0] bcast_S256_S256x1_0 (V2 m outs c (Proc.devRef .tc main_arg2) : S256.Idx → BitVec 32)))
          (broadcastInDim S256x8 ![0, 1] bcast_S1x8_S256x8_0_1 (iotaInDim S1x8 32 1))) := by
  show StableHlo.after hostOps1 _ (Proc.devRef .tc main_v5) = _
  after_results
  rfl

/-- The comparison of a row's word with the column's number, converted, read at a row and a column. -/
theorem onehot_read (x : S256.Idx → BitVec 32) (b : Fin 256) (r : Fin 8) :
    (uitofp .f32 (cmpi .eq
          (broadcastInDim S256x8 ![0, 1] bcast_S256x1_S256x8_0_1 (broadcastInDim S256x1 ![0] bcast_S256_S256x1_0 x))
          (broadcastInDim S256x8 ![0, 1] bcast_S1x8_S256x8_0_1 (iotaInDim S1x8 32 1))) : S256x8.Idx → F .f32) (ix2 b r)
      = FloatOps.uitofp .f32 (IntOp.cmpi .eq (x (ix1 b)) (BitVec.ofNat 32 r.val)) := by
  show FloatOps.uitofp .f32 (IntOp.cmpi .eq (broadcastInDim S256x8 ![0, 1] bcast_S256x1_S256x8_0_1 (broadcastInDim S256x1 ![0] bcast_S256_S256x1_0 x) (ix2 b r)) (broadcastInDim S256x8 ![0, 1] bcast_S1x8_S256x8_0_1 (iotaInDim S1x8 32 1) (ix2 b r))) = _
  have e1 : broadcastInDim S256x8 ![0, 1] bcast_S256x1_S256x8_0_1 (broadcastInDim S256x1 ![0] bcast_S256_S256x1_0 x) (ix2 b r) = x (ix1 b) := by
    refine (broadcastInDim_apply _ _ _ (ix2 b r) (ix2 b (0 : Fin 1)) ?_).trans ?_
    · intro a; match a with | ⟨0, _⟩ => rfl | ⟨1, _⟩ => rfl
    · refine broadcastInDim_apply _ _ _ _ (ix1 b) ?_
      intro a; match a with | ⟨0, _⟩ => rfl
  have e2 : broadcastInDim S256x8 ![0, 1] bcast_S1x8_S256x8_0_1 (iotaInDim S1x8 32 1) (ix2 b r) = BitVec.ofNat 32 r.val := by
    refine (broadcastInDim_apply _ _ _ (ix2 b r) (ix2 (0 : Fin 1) r) ?_).trans ?_
    · intro a; match a with | ⟨0, _⟩ => rfl | ⟨1, _⟩ => rfl
    · rfl
  rw [e1, e2]

/-- The one-hot array, as the second region finds it, read at a row and a column. -/
theorem V3_onehot (c : Dev nD) (b : Fin 256) (r : Fin 8) :
    (V3 m outs c (Proc.devRef .tc main_v5) : S256x8.Idx → F .f32) (ix2 b r)
      = FloatOps.uitofp .f32 (IntOp.cmpi .eq ((m ((c : Thread nD τ).loc main_arg2) : S256.Idx → BitVec 32) (ix1 b)) (BitVec.ofNat 32 r.val)) := by
  rw [V3_main_v5, onehot_read]
  have e : V2 m outs c (Proc.devRef .tc main_arg2) = m ((c : Thread nD τ).loc main_arg2) :=
    (V2_of m outs c main_arg2 (by decide)).trans ((V1_of m c main_arg2 (by decide)).trans rfl)
  rw [e]

/-! ## What else the second region reads: the arguments as launched, the gathered rows as the first region left them -/
/-- The arguments the second region reads hold their launch contents. -/
theorem V3_main_arg1 (c : Dev nD) : V3 m outs c (Proc.devRef .tc main_arg1) = m ((c : Thread nD τ).loc main_arg1) :=
  (V3_of m outs c main_arg1 (by decide)).trans <| (V2_of m outs c main_arg1 (by decide)).trans <| (V1_of m c main_arg1 (by decide)).trans rfl
theorem V3_main_arg3 (c : Dev nD) : V3 m outs c (Proc.devRef .tc main_arg3) = m ((c : Thread nD τ).loc main_arg3) :=
  (V3_of m outs c main_arg3 (by decide)).trans <| (V2_of m outs c main_arg3 (by decide)).trans <| (V1_of m c main_arg3 (by decide)).trans rfl
theorem V3_main_arg4 (c : Dev nD) : V3 m outs c (Proc.devRef .tc main_arg4) = m ((c : Thread nD τ).loc main_arg4) :=
  (V3_of m outs c main_arg4 (by decide)).trans <| (V2_of m outs c main_arg4 (by decide)).trans <| (V1_of m c main_arg4 (by decide)).trans rfl
theorem V3_main_arg6 (c : Dev nD) : V3 m outs c (Proc.devRef .tc main_arg6) = m ((c : Thread nD τ).loc main_arg6) :=
  (V3_of m outs c main_arg6 (by decide)).trans <| (V2_of m outs c main_arg6 (by decide)).trans <| (V1_of m c main_arg6 (by decide)).trans rfl
/-- The second region finds in the gather's output array what the first region left there. -/
theorem V3_main_v4 (c : Dev nD) : V3 m outs c (Proc.devRef .tc main_v4) = outs 2 main_v4 c := by
  refine (V3_of m outs c main_v4 (by decide)).trans ?_
  simp only [V2, Function.update_of_ne (StableHlo.devRef_ne_of_ne (show main_v4 ≠ main_v3 by decide) : (Proc.devRef .tc main_v4 : DevRef τ sig) ≠ Proc.devRef .tc main_v3), Function.update_self]

/-! ## The gathered array -/
/-- The array the table `T` selects out of the rows of `S`. -/
def gathered (T : S256.Idx → BitVec 32) (S : S4000x32000.Idx → F .f32) (hT : ∀ k : Fin 256, (T (ix1 k)).toNat < 4000) : S256x32000.Idx → F .f32 :=
  fun idx => S (ix2 (⟨(T (ix1 (⟨(idx 0).val, (idx 0).isLt⟩ : Fin 256))).toNat, hT _⟩ : Fin 4000) (⟨(idx 1).val, (idx 1).isLt⟩ : Fin 32000))

/-- The selected array read at a row and a column. -/
theorem gathered_apply (T : S256.Idx → BitVec 32) (S : S4000x32000.Idx → F .f32) (hT : ∀ k : Fin 256, (T (ix1 k)).toNat < 4000)
    (idx : S256x32000.Idx) (k : Fin 256) (v : Fin 32000) (h0 : (idx 0).val = k.val) (h1 : (idx 1).val = v.val) :
    gathered T S hT idx = S (ix2 (⟨(T (ix1 k)).toNat, hT k⟩ : Fin 4000) v) := by
  obtain rfl : k = ⟨(idx 0).val, (idx 0).isLt⟩ := Fin.ext h0.symm
  obtain rfl : v = ⟨(idx 1).val, (idx 1).isLt⟩ := Fin.ext h1.symm
  rfl

/-- The output window's block index at point `t` is `(t, 0)`. -/
theorem idx_facts0 : ∀ t : Fin grid0.N, cc0_transform_1 (grid0.coords t) (0 : Fin 2) = t.val ∧ cc0_transform_1 (grid0.coords t) (1 : Fin 2) = 0 := by
  decide +kernel

/-- Every point writes its block back: the block index moves with the point. -/
theorem flush0 (a : (pcfg0 (F := F)).Adm) (t : Fin (cfg0 a).N) : ((cfg0 a).win 0).flush t = true := by
  have ht : t.val < grid0.N := t.isLt
  unfold Pipeline.Window.flush
  rw [Bool.and_eq_true]
  refine ⟨rfl, ?_⟩
  rw [Bool.or_eq_true, decide_eq_true_eq, decide_eq_true_eq]
  by_cases h : t.val + 1 = grid0.N
  · exact Or.inl h
  · have h' : t.val + 1 < grid0.N := by omega
    refine Or.inr ⟨h', fun e => ?_⟩
    have e0 : cc0_transform_1 (grid0.coords ⟨t.val + 1, h'⟩) (0 : Fin 2) = cc0_transform_1 (grid0.coords ⟨t.val, ht⟩) (0 : Fin 2) := congrFun e (0 : Fin 2)
    have f1 : cc0_transform_1 (grid0.coords ⟨t.val + 1, h'⟩) (0 : Fin 2) = t.val + 1 := (idx_facts0 ⟨t.val + 1, h'⟩).1
    have f0 : cc0_transform_1 (grid0.coords ⟨t.val, ht⟩) (0 : Fin 2) = t.val := (idx_facts0 ⟨t.val, ht⟩).1
    rw [f1, f0] at e0
    exact absurd e0 (by show t.val + 1 ≠ t.val; omega)

section Cover
variable (a : (pcfg0 (F := F)).Adm) (c : Dev nD) (dat : Pipeline.Dat τ (Elt F) Unit ℕ UC ℕ (cfg0 a) c)
    (T : S256.Idx → BitVec 32) (S : S4000x32000.Idx → F .f32) (hT : ∀ k : Fin 256, (T (ix1 k)).toNat < 4000)

/-- The block a point leaves, read at any block index. -/
theorem after_at (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v))
    (t : Fin (cfg0 a).N) (x : S32x32000.Idx) (hx : 32 * t.val + (x 0).val < 256) :
    dat.after 0 t x = S (ix2 (⟨(T (ix1 (⟨32 * t.val + (x 0).val, hx⟩ : Fin 256))).toNat, hT _⟩ : Fin 4000) (⟨(x 1).val, (x 1).isLt⟩ : Fin 32000)) := by
  have ex : x = ix2 (⟨(x 0).val, (x 0).isLt⟩ : Fin 32) (⟨(x 1).val, (x 1).isLt⟩ : Fin 32000) := by
    funext b; match b with | ⟨0, _⟩ => rfl | ⟨1, _⟩ => rfl
  exact (congrArg (dat.after 0 t) ex).trans (hafter t ⟨(x 0).val, (x 0).isLt⟩ ⟨(x 1).val, (x 1).isLt⟩ hx)

/-- What point `t` writes back is block `t` of the gathered array. -/
theorem flushed0_eq (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v))
    (t : Fin (cfg0 a).N) :
    dat.flushed 0 t = (((cfg0 a).win 0).blk t).view.read (Elt F) (gathered T S hT) := by
  have ht : t.val < grid0.N := t.isLt
  have hN := N_0
  have f0 : cc0_transform_1 (grid0.coords ⟨t.val, ht⟩) (0 : Fin 2) = t.val := (idx_facts0 ⟨t.val, ht⟩).1
  have f1 : cc0_transform_1 (grid0.coords ⟨t.val, ht⟩) (1 : Fin 2) = 0 := (idx_facts0 ⟨t.val, ht⟩).2
  refine funext fun (j : S32x32000.Idx) => ?_
  have hj0 : (j 0).val < 32 := (j 0).isLt
  have hj1 : (j 1).val < 32000 := (j 1).isLt
  show dat.after 0 t (((cfg0 a).win 0).xinj ((cfg0 a).grid.coords t) j) = gathered T S hT ((((cfg0 a).win 0).blk t).view.emb j)
  refine (after_at a c dat T S hT hafter t _ (by show 32 * t.val + (j 0).val < 256; omega)).trans ?_
  refine (gathered_apply T S hT _ _ _ ?_ ?_).symm
  · show cc0_transform_1 (grid0.coords ⟨t.val, ht⟩) (0 : Fin 2) * 32 + 1 * (j 0).val = 32 * t.val + (j 0).val
    rw [f0]; omega
  · show cc0_transform_1 (grid0.coords ⟨t.val, ht⟩) (1 : Fin 2) * 32000 + 1 * (j 1).val = (j 1).val
    rw [f1]; omega

/-- Membership in a unit-stride rectangle of the output array, by coordinates. -/
theorem mem_blk_of (i : main_v4.ty.shape.Idx) (off size : Fin main_v4.ty.shape.rank → Nat) (inb : ∀ b, off b + size b ≤ main_v4.ty.shape.size b)
    (h : ∀ b, off b ≤ (i b).val ∧ (i b).val < off b + size b) :
    i ∈ ((View.whole main_v4).slice (Rect.unit off size inb)).set := by
  rw [View.set_slice_whole, Rect.mem_set_unit]; exact h

/-- Row `b` of the array is in the block of point `b / 32`. -/
theorem cover0 (i : S256x32000.Idx) :
    ∃ t : Fin (cfg0 a).N, ((cfg0 a).win 0).flush t = true ∧ i ∈ (((cfg0 a).win 0).blk t).view.set := by
  have hi0 : (i 0).val < 256 := (i 0).isLt
  have hi1 : (i 1).val < 32000 := (i 1).isLt
  have hN := N_0
  have hq : (i 0).val / 32 < grid0.N := by omega
  have f0 : cc0_transform_1 (grid0.coords ⟨(i 0).val / 32, hq⟩) (0 : Fin 2) = (i 0).val / 32 := (idx_facts0 ⟨(i 0).val / 32, hq⟩).1
  have f1 : cc0_transform_1 (grid0.coords ⟨(i 0).val / 32, hq⟩) (1 : Fin 2) = 0 := (idx_facts0 ⟨(i 0).val / 32, hq⟩).2
  refine ⟨⟨(i 0).val / 32, hq⟩, flush0 a _, ?_⟩
  show i ∈ ((View.whole main_v4).slice (((cfg0 a).win 0).rect ⟨(i 0).val / 32, hq⟩)).set
  refine mem_blk_of i _ _ _ ?_
  intro b
  match b with
  | ⟨0, _⟩ =>
    show cc0_transform_1 (grid0.coords ⟨(i 0).val / 32, hq⟩) (0 : Fin 2) * 32 ≤ (i 0).val ∧ (i 0).val < cc0_transform_1 (grid0.coords ⟨(i 0).val / 32, hq⟩) (0 : Fin 2) * 32 + 32
    rw [f0]; show (i 0).val / 32 * 32 ≤ (i 0).val ∧ (i 0).val < (i 0).val / 32 * 32 + 32; omega
  | ⟨1, _⟩ =>
    show cc0_transform_1 (grid0.coords ⟨(i 0).val / 32, hq⟩) (1 : Fin 2) * 32000 ≤ (i 1).val ∧ (i 1).val < cc0_transform_1 (grid0.coords ⟨(i 0).val / 32, hq⟩) (1 : Fin 2) * 32000 + 32000
    rw [f1]; omega

/-- THE ARRAY after the gather region's run, for any proof data whose block after point `t` is rows `32 t … 32 t + 31` of the
    selection: the selection, whole. -/
theorem gathered_array_of (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v)) :
    dat.arrAt 0 (cfg0 a).N = gathered T S hT :=
  dat.arrAt_eq_of_cover 0 (gathered T S hT) (fun t _ => flushed0_eq a c dat T S hT hafter t) (cover0 a)

end Cover

/-- The gather region's output array after its run. -/
theorem gathered_array (V : Vals F) (hok : Ok0 V) (c : Dev nD) :
    (dat0 V c).arrAt 0 (cfg0 (adm0 V)).N = gathered (V 0 main_v2) (V c main_v3) hok :=
  gathered_array_of (adm0 V) c (dat0 V c) (V 0 main_v2) (V c main_v3) hok (after0_apply V hok c)

end Cert.KernelIdeal.Hand

end
-- ==== Proof.FusedVals.lean ====
/-
  The fused kernel's values at a grid point, as pure functions of what its buffers read: the tile's masked logits, the
  running row maximum and row sum after a tile, the output block after a tile's columns are stored, and the output block
  after the last tile's normalisation of its ten column tiles.
-/
import proofs.«424303_j34282428957025_2_alg».proof.Proof.Common

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The branch conditions -/

/-- "The vocabulary tile is the first of its half" (j = 0), as the body computes the word. -/
abbrev IsFirst1 (t : Fin cfg1.N) : Prop :=
  Scalar.cmpi .ne (Scalar.extui (Scalar.cmpi .eq (BitVec.ofNat 32 ((grid1.coords t) 1).val) 0#32)) 0#32 = 1#1
/-- "The vocabulary tile is the last of its half" (j = 9), as the body computes the word. -/
abbrev IsLast1 (t : Fin cfg1.N) : Prop :=
  Scalar.cmpi .ne (Scalar.extui (Scalar.cmpi .eq (BitVec.ofNat 32 ((grid1.coords t) 1).val) 9#32)) 0#32 = 1#1

/-! ## The rectangles -/

/-- The whole (128, 1) scratch block. -/
abbrev rS : Rect S128x1 := Rect.unit (s := S128x1) ![0, 0] S128x1.size inb_S128x1_S128x1_0_0

/-- The columns of tile `t`'s vocabulary slice in the (128, 32000) output block: [3200 j, 3200 j + 3200). -/
abbrev tileR (t : Fin cfg1.N) : Rect S128x32000 :=
  Rect.unit (s := S128x32000) (k1_off1 (grid1.coords t)) S128x3200.size (k1_off1_inb (grid1.coords t))

/-- The ten column tiles of the output block. -/
abbrev R0 : Rect S128x32000 := Rect.unit (s := S128x32000) ![0, 0] S128x3200.size inb_S128x32000_S128x3200_0_0
abbrev R1 : Rect S128x32000 := Rect.unit (s := S128x32000) ![0, 3200] S128x3200.size inb_S128x32000_S128x3200_0_3200
abbrev R2 : Rect S128x32000 := Rect.unit (s := S128x32000) ![0, 6400] S128x3200.size inb_S128x32000_S128x3200_0_6400
abbrev R3 : Rect S128x32000 := Rect.unit (s := S128x32000) ![0, 9600] S128x3200.size inb_S128x32000_S128x3200_0_9600
abbrev R4 : Rect S128x32000 := Rect.unit (s := S128x32000) ![0, 12800] S128x3200.size inb_S128x32000_S128x3200_0_12800
abbrev R5 : Rect S128x32000 := Rect.unit (s := S128x32000) ![0, 16000] S128x3200.size inb_S128x32000_S128x3200_0_16000
abbrev R6 : Rect S128x32000 := Rect.unit (s := S128x32000) ![0, 19200] S128x3200.size inb_S128x32000_S128x3200_0_19200
abbrev R7 : Rect S128x32000 := Rect.unit (s := S128x32000) ![0, 22400] S128x3200.size inb_S128x32000_S128x3200_0_22400
abbrev R8 : Rect S128x32000 := Rect.unit (s := S128x32000) ![0, 25600] S128x3200.size inb_S128x32000_S128x3200_0_25600
abbrev R9 : Rect S128x32000 := Rect.unit (s := S128x32000) ![0, 28800] S128x3200.size inb_S128x32000_S128x3200_0_28800

/-! ## The values -/

/-- The tile's masked logits (128, 3200): background + author row + persona term, −100 where the role's mask is off;
    from what the six input blocks read (z, persona, background, mask, author rows, one-hot role). -/
def logitsv (x0 : Vec F S128x64 .f32) (x1 : Vec F S64x8x3200 .f32) (x2 : Vec F S8x3200 .f32) (x3 : Vec F S8x3200 .i32)
    (x4 : Vec F S128x3200 .f32) (x5 : Vec F S128x8 .f32) : FVec F S128x3200 .f32 :=
  k1_pay37 (k1_pay21 x5) (k1_pay22 x0) x2 (k1_pay23 x3)
    (k1_pay33 (k1_pay21 x5) x2 (k1_pay26 x5 x2) (k1_pay28 x5) (k1_pay29 x2))
    (k1_pay34 (k1_pay21 x5) (k1_pay23 x3) (k1_pay27 x5 x3) (k1_pay28 x5))
    (k1_pay35 (k1_pay21 x5)) (k1_pay36 x2) x1 x4

/-- The row maximum of a tile's logits, as a (128, 1) column. -/
def rowMaxv (lg : FVec F S128x3200 .f32) : FVec F S128x1 .f32 :=
  shapeCast S128x1 (multiReduction .maximumf [1] S128 lg 0xFF800000#32 reduces_S128x3200_S128 (.inl rfl) rfl) shapeCasts_S128_S128x1

/-- The running maximum after a tile: max of the old maximum `m` and the tile's row maximum. -/
def mNew (m : Vec F S128x1 .f32) (lg : FVec F S128x3200 .f32) : Vec F S128x1 .f32 :=
  k1_pay3 (rowMaxv lg) m

/-- The running sum after a tile: l · exp(m − m') + Σ exp(logits − m'), m' the new maximum. -/
def lNew (m l : Vec F S128x1 .f32) (lg : FVec F S128x3200 .f32) : Vec F S128x1 .f32 :=
  k1_pay2 lg (rowMaxv lg) m l m

/-- What a first tile resets the running maximum to (−∞) -/
def mReset : Vec F S128x1 .f32 := k1_pay19 (F := F)
/-- and the running sum to (0). -/
def lReset : Vec F S128x1 .f32 := k1_pay20 (F := F)

/-- The output block with tile `t`'s columns overwritten by the tile's logits. -/
def setTile (o : Vec F S128x32000 .f32) (t : Fin cfg1.N) (lg : FVec F S128x3200 .f32) : Vec F S128x32000 .f32 :=
  (tileR t).overlay o lg

/-- One column tile normalised: (tile − m) − log l, `m`, `l` broadcast along the columns. -/
def finTile (m l : Vec F S128x1 .f32) (tl : Vec F S128x3200 .f32) : FVec F S128x3200 .f32 :=
  k1_pay6 m l tl

/-- The output block after the last tile's normalisation: each of its ten column tiles rewritten from what the block held. -/
def finalv (o : Vec F S128x32000 .f32) (m l : Vec F S128x1 .f32) : Vec F S128x32000 .f32 :=
  View.canon [⟨R9, finTile m l (View.ld o R9)⟩, ⟨R8, finTile m l (View.ld o R8)⟩, ⟨R7, finTile m l (View.ld o R7)⟩,
    ⟨R6, finTile m l (View.ld o R6)⟩, ⟨R5, finTile m l (View.ld o R5)⟩, ⟨R4, finTile m l (View.ld o R4)⟩,
    ⟨R3, finTile m l (View.ld o R3)⟩, ⟨R2, finTile m l (View.ld o R2)⟩, ⟨R1, finTile m l (View.ld o R1)⟩,
    ⟨R0, finTile m l (View.ld o R0)⟩]

/-! ## The payloads' other spellings -/

theorem k1_pay38_eq (v4 : FVec F S128x8 .f32) (v6 : FVec F S128x64 .bf16) (v7 : Vec F S8x3200 .f32) (v9 : FVec F S8x3200 .f32)
    (v94 v101 : FVec F S128x3200 .f32) (v102 : FVec F S128x1 .f32) (v104 : FVec F S3200 .f32) (v139 : Vec F S64x8x3200 .f32)
    (v143 : Vec F S128x3200 .f32) :
    k1_pay38 v4 v6 v7 v9 v94 v101 v102 v104 v139 v143 = rowMaxv (k1_pay37 v4 v6 v7 v9 v94 v101 v102 v104 v139 v143) := rfl

theorem k1_pay7_eq (m l : Vec F S128x1 .f32) (tl : Vec F S128x3200 .f32) : k1_pay7 m l tl = finTile m l tl := rfl
theorem k1_pay8_eq (m l : Vec F S128x1 .f32) (tl : Vec F S128x3200 .f32) : k1_pay8 m l tl = finTile m l tl := rfl
theorem k1_pay9_eq (m l : Vec F S128x1 .f32) (tl : Vec F S128x3200 .f32) : k1_pay9 m l tl = finTile m l tl := rfl
theorem k1_pay12_eq (m l : Vec F S128x1 .f32) (tl : Vec F S128x3200 .f32) :
    k1_pay12 (k1_pay5 l) (k1_pay10 tl) (k1_pay11 m) = finTile m l tl := rfl
theorem k1_pay13_eq (m l : Vec F S128x1 .f32) (tl : Vec F S128x3200 .f32) : k1_pay13 m (k1_pay5 l) tl = finTile m l tl := rfl
theorem k1_pay14_eq (m l : Vec F S128x1 .f32) (tl : Vec F S128x3200 .f32) : k1_pay14 m (k1_pay5 l) tl = finTile m l tl := rfl
theorem k1_pay15_eq (m l : Vec F S128x1 .f32) (tl : Vec F S128x3200 .f32) : k1_pay15 m (k1_pay5 l) tl = finTile m l tl := rfl
theorem k1_pay16_eq (m l : Vec F S128x1 .f32) (tl : Vec F S128x3200 .f32) : k1_pay16 m (k1_pay5 l) tl = finTile m l tl := rfl
theorem k1_pay4_eq (m l : Vec F S128x1 .f32) (tl : Vec F S128x3200 .f32) :
    k1_pay4 (k1_pay5 l) (k1_pay17 tl) (k1_pay18 m) = finTile m l tl := rfl

end Cert.KernelIdeal.Hand

end
-- ==== Proof.FusedRuns.lean ====
/-
  The fused kernel's body at a SYMBOLIC grid point: three runs, one per kind of point (first tile of a half, middle tile,
  last tile), the kind given as the two branch conditions. Each leaves the six input blocks as they were, the two scratch
  columns at the updated running maximum and sum, and the output block with the tile's columns stored — after a last tile,
  with its ten column tiles normalised.
-/
import proofs.«424303_j34282428957025_2_alg».proof.Proof.Common
import proofs.«424303_j34282428957025_2_alg».proof.Proof.FusedVals
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Zero offsets, and stores read back -/

theorem hz2 : (![0, 0] : Fin 2 → ℕ) = fun _ => 0 := by funext i; fin_cases i <;> rfl
theorem hz3 : (![0, 0, 0] : Fin 3 → ℕ) = fun _ => 0 := by funext i; fin_cases i <;> rfl

/-- The newest write wins on its rectangle; elsewhere the buffer reads what the earlier writes left. -/
theorem read_writes_cons_eq_overlay {σ : RefSig} {κ : Kind} {sp : Space} {s : Shape} {e : EltTy} {Val : EltTy → Type}
    (v : View σ κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- A newest write through the whole block leaves its payload, whatever was written before. -/
theorem read_writes_cons_unit_zero {σ : RefSig} {κ : Kind} {sp : Space} {S : Shape} {e : EltTy} {Val : EltTy → Type}
    [∀ e, Nonempty (Val e)] (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The last tile -/

/-- At a last tile the vocabulary coordinate is 9. -/
theorem last_coord : ∀ t : Fin grid1.N, IsLast1 t → ((grid1.coords t) 1).val = 9 := by decide +kernel

/-- A load through a rectangle disjoint from an overlaid one reads what was under the overlay. -/
theorem ld_overlay_of_disjoint {S : Shape} {α : Type} (r' r : Rect S) (o : S.Idx → α) (g : r'.shape.Idx → α)
    (h : Disjoint r'.set r.set) : (fun x => r'.overlay o g (r.idx x)) = fun x => o (r.idx x) :=
  funext fun x => Rect.overlay_of_not_mem _ _ _ (Finset.disjoint_right.mp h (r.idx_mem x))

/-- A load through the overlaid rectangle itself reads the overlay. -/
theorem ld_overlay_self {S : Shape} {α : Type} (r : Rect S) (o : S.Idx → α) (g : r.shape.Idx → α) :
    (fun x => r.overlay o g (r.idx x)) = g :=
  funext fun x => Rect.overlay_emb r o g x

section Cols

variable {σ : RefSig} {κ : Kind} {sp : Space} {e : EltTy} {Val : EltTy → Type} (v : View σ κ sp S128x32000 e)
  (f : v.ty.Contents Val)

/-- A load of a column block after a newest write to a column block beside it reads what the earlier writes left. -/
theorem readAt_writes_cons_cols_of_disjoint {off off' size size' : Fin 2 → ℕ}
    {inb : ∀ a, off a + size a ≤ S128x32000.size a} {inb' : ∀ a, off' a + size' a ≤ S128x32000.size a}
    (w : (Rect.unit (s := S128x32000) off size inb).shape.Idx → Val e) (L : List (View.Piece Val S128x32000 e))
    (h : off 1 + size 1 ≤ off' 1 ∨ off' 1 + size' 1 ≤ off 1) :
    v.readAt Val (Rect.unit (s := S128x32000) off' size' inb').toLoadRect
        (v.writes Val f ((⟨Rect.unit (s := S128x32000) off size inb, w⟩ : View.Piece Val S128x32000 e) :: L))
      = v.readAt Val (Rect.unit (s := S128x32000) off' size' inb').toLoadRect (v.writes Val f L) := by
  rw [View.readAt_eq_ld, View.readAt_eq_ld, read_writes_cons_eq_overlay]
  exact ld_overlay_of_disjoint (Rect.unit (s := S128x32000) off size inb) (Rect.unit (s := S128x32000) off' size' inb') _ w
    (Rect.unit_disjoint (s := S128x32000) (inb := inb) (inb' := inb') (1 : Fin 2) h)

/-- A load of the column block the newest write went to reads that write's payload. -/
theorem readAt_writes_cons_cols_self {off size : Fin 2 → ℕ} {inb inb' : ∀ a, off a + size a ≤ S128x32000.size a}
    (w : (Rect.unit (s := S128x32000) off size inb).shape.Idx → Val e) (L : List (View.Piece Val S128x32000 e)) :
    v.readAt Val (Rect.unit (s := S128x32000) off size inb').toLoadRect
        (v.writes Val f ((⟨Rect.unit (s := S128x32000) off size inb, w⟩ : View.Piece Val S128x32000 e) :: L)) = w := by
  rw [View.readAt_eq_ld, read_writes_cons_eq_overlay]
  exact ld_overlay_self _ _ _

end Cols

/-- Where the first pieces cover, the later ones do not show. -/
theorem canon_append_of_cover {s : Shape} {e : EltTy} {Val : EltTy → Type} [∀ e, Nonempty (Val e)]
    (L L' : List (View.Piece Val s e)) (y : s.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      apply ih
      obtain ⟨p', hm, hy'⟩ := h
      rcases List.mem_cons.mp hm with rfl | hm
      · exact absurd hy' hy
      · exact ⟨p', hm, hy'⟩

/-- Writes whose newest pieces cover the buffer leave those pieces' canon. -/
theorem read_writes_append_of_cover {σ : RefSig} {κ : Kind} {sp : Space} {s : Shape} {e : EltTy} {Val : EltTy → Type}
    [∀ e, Nonempty (Val e)] (v : View σ κ sp s e) (f : v.ty.Contents Val) (L L' : List (View.Piece Val s e))
    (h : ∀ y, ∃ p ∈ L, y ∈ p.1.set) : v.read Val (v.writes Val f (L ++ L')) = View.canon L := by
  funext y
  have h' : ∃ p ∈ L ++ L', y ∈ p.1.set := by
    obtain ⟨p, hp, hy⟩ := h y; exact ⟨p, List.mem_append_left _ hp, hy⟩
  rw [View.read_writes_apply_eq_canon v f y (L ++ L') h']
  exact canon_append_of_cover L L' y (h y)

/-- At a last tile the stored columns are the last column tile. -/
theorem setTile_last (o : Vec F S128x32000 .f32) (t : Fin cfg1.N) (lg : FVec F S128x3200 .f32)
    (hj : ((grid1.coords t) 1).val = 9) : setTile o t lg = R9.overlay o lg := by
  have key : ∀ (off : Fin 2 → ℕ) (inb : ∀ a, off a + S128x3200.size a ≤ S128x32000.size a), off = ![0, 28800] →
      (Rect.unit (s := S128x32000) off S128x3200.size inb).overlay o lg = R9.overlay o lg := by
    intro off inb h; subst h; rfl
  exact key _ _ (by rw [k1_off1_eq, hj])

/-- The block normalised after its last column tile was stored: tile 9 from the stored logits, the others from the block. -/
theorem finalv_overlay_last (o : Vec F S128x32000 .f32) (lg : FVec F S128x3200 .f32) (m l : Vec F S128x1 .f32) :
    finalv (R9.overlay o lg) m l
      = View.canon [⟨R9, finTile m l lg⟩, ⟨R8, finTile m l (View.ld o R8)⟩, ⟨R7, finTile m l (View.ld o R7)⟩,
          ⟨R6, finTile m l (View.ld o R6)⟩, ⟨R5, finTile m l (View.ld o R5)⟩, ⟨R4, finTile m l (View.ld o R4)⟩,
          ⟨R3, finTile m l (View.ld o R3)⟩, ⟨R2, finTile m l (View.ld o R2)⟩, ⟨R1, finTile m l (View.ld o R1)⟩,
          ⟨R0, finTile m l (View.ld o R0)⟩] := by
  unfold finalv
  rw [show View.ld (R9.overlay o lg) R9 = lg from ld_overlay_self R9 o lg,
    show View.ld (R9.overlay o lg) R8 = View.ld o R8 from ld_overlay_of_disjoint R9 R8 o lg (Rect.unit_disjoint (s := S128x32000) (1 : Fin 2) (by decide)),
    show View.ld (R9.overlay o lg) R7 = View.ld o R7 from ld_overlay_of_disjoint R9 R7 o lg (Rect.unit_disjoint (s := S128x32000) (1 : Fin 2) (by decide)),
    show View.ld (R9.overlay o lg) R6 = View.ld o R6 from ld_overlay_of_disjoint R9 R6 o lg (Rect.unit_disjoint (s := S128x32000) (1 : Fin 2) (by decide)),
    show View.ld (R9.overlay o lg) R5 = View.ld o R5 from ld_overlay_of_disjoint R9 R5 o lg (Rect.unit_disjoint (s := S128x32000) (1 : Fin 2) (by decide)),
    show View.ld (R9.overlay o lg) R4 = View.ld o R4 from ld_overlay_of_disjoint R9 R4 o lg (Rect.unit_disjoint (s := S128x32000) (1 : Fin 2) (by decide)),
    show View.ld (R9.overlay o lg) R3 = View.ld o R3 from ld_overlay_of_disjoint R9 R3 o lg (Rect.unit_disjoint (s := S128x32000) (1 : Fin 2) (by decide)),
    show View.ld (R9.overlay o lg) R2 = View.ld o R2 from ld_overlay_of_disjoint R9 R2 o lg (Rect.unit_disjoint (s := S128x32000) (1 : Fin 2) (by decide)),
    show View.ld (R9.overlay o lg) R1 = View.ld o R1 from ld_overlay_of_disjoint R9 R1 o lg (Rect.unit_disjoint (s := S128x32000) (1 : Fin 2) (by decide)),
    show View.ld (R9.overlay o lg) R0 = View.ld o R0 from ld_overlay_of_disjoint R9 R0 o lg (Rect.unit_disjoint (s := S128x32000) (1 : Fin 2) (by decide))]

/-! ## The runs -/

section Runs

local notation "𝕄" => MM F

variable (c : Dev nD) (t : Fin cfg1.N)
  (M0 : Memref sig .tc .vmem S128x64 .f32) (h0 : M0.IsWhole) (M1 : Memref sig .tc .vmem S64x8x3200 .f32) (h1 : M1.IsWhole)
  (M2 : Memref sig .tc .vmem S8x3200 .f32) (h2 : M2.IsWhole) (M3 : Memref sig .tc .vmem S8x3200 .i32) (h3 : M3.IsWhole)
  (M4 : Memref sig .tc .vmem S128x3200 .f32) (h4 : M4.IsWhole) (M5 : Memref sig .tc .vmem S128x8 .f32) (h5 : M5.IsWhole)
  (M6 : Memref sig .tc .vmem S128x32000 .f32) (h6 : M6.IsWhole)
  (x0 : Vec F S128x64 .f32) (x1 : Vec F S64x8x3200 .f32) (x2 : Vec F S8x3200 .f32) (x3 : Vec F S8x3200 .i32)
  (x4 : Vec F S128x3200 .f32) (x5 : Vec F S128x8 .f32) (o : Vec F S128x32000 .f32) (m l : Vec F S128x1 .f32)

/-- The running-maximum scratch memref (whole). -/
abbrev mM : Memref sig .tc .vmem S128x1 .f32 := Memref.whole cc1_scratch0
/-- The running-sum scratch memref (whole). -/
abbrev lM : Memref sig .tc .vmem S128x1 .f32 := Memref.whole cc1_scratch1

/-- The six input blocks held at what they read: the body's loads read them back and leave them as they are. -/
abbrev Ins : sProp 𝕄 :=
  iprop(owns (c : Thread nD τ) M0 fullShare x0 ∗ owns (c : Thread nD τ) M1 fullShare x1 ∗ owns (c : Thread nD τ) M2 fullShare x2
    ∗ owns (c : Thread nD τ) M3 fullShare x3 ∗ owns (c : Thread nD τ) M4 fullShare x4 ∗ owns (c : Thread nD τ) M5 fullShare x5)

local notation "FK" => cc1__fused_kernel (grid1.coords t) M0 h0 M1 h1 M2 h2 M3 h3 M4 h4 M5 h5 M6 h6 (Memref.whole cc1_scratch0) (Memref.isWhole_whole _) (Memref.whole cc1_scratch1) (Memref.isWhole_whole _)
local notation "LG" => logitsv x0 x1 x2 x3 x4 x5

/-- A first tile (j = 0): the scratches, whatever they held, are reset and updated; the tile's columns are stored. -/
theorem run_first (hF : IsFirst1 t) (hL : ¬ IsLast1 t) (Q : PUnit → sProp 𝕄) :
    iprop(Ins c M0 M1 M2 M3 M4 M5 x0 x1 x2 x3 x4 x5 ∗ owns (c : Thread nD τ) M6 fullShare o
      ∗ (∃ a, owns (c : Thread nD τ) mM fullShare a) ∗ (∃ a, owns (c : Thread nD τ) lM fullShare a)
      ∗ (iprop(Ins c M0 M1 M2 M3 M4 M5 x0 x1 x2 x3 x4 x5 ∗ owns (c : Thread nD τ) M6 fullShare (setTile o t LG)
          ∗ owns (c : Thread nD τ) mM fullShare (mNew mReset LG) ∗ owns (c : Thread nD τ) lM fullShare (lNew mReset lReset LG)) -∗ Q ⟨⟩))
      ⊢ wp frame (wpE (defs₀ (F := F)) 𝒱₀ c none) Set.univ FK Q := by
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%am, %fm, %hfm, Hm⟩, ⟨%al, %fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    rw [read_writes_cons_eq_overlay]
    sl_unfold_run_names
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2, View.readCov_unit_zero (S := S128x1) _ hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
    View.ld_unit_zero (S := S8x3200) hz2, View.ld_unit_zero (S := S128x3200) hz2, View.ld_unit_zero (S := S128x8) hz2,
    View.ld_unit_zero (S := S128x1) hz2, View.readCov_unit_zero (S := S128x1) _ hz2]
  rfl

/-- A middle tile: the scratches at `m`, `l` are updated; the tile's columns are stored. -/
theorem run_mid (hF : ¬ IsFirst1 t) (hL : ¬ IsLast1 t) (Q : PUnit → sProp 𝕄) :
    iprop(Ins c M0 M1 M2 M3 M4 M5 x0 x1 x2 x3 x4 x5 ∗ owns (c : Thread nD τ) M6 fullShare o
      ∗ owns (c : Thread nD τ) mM fullShare m ∗ owns (c : Thread nD τ) lM fullShare l
      ∗ (iprop(Ins c M0 M1 M2 M3 M4 M5 x0 x1 x2 x3 x4 x5 ∗ owns (c : Thread nD τ) M6 fullShare (setTile o t LG)
          ∗ owns (c : Thread nD τ) mM fullShare (mNew m LG) ∗ owns (c : Thread nD τ) lM fullShare (lNew m l LG)) -∗ Q ⟨⟩))
      ⊢ wp frame (wpE (defs₀ (F := F)) 𝒱₀ c none) Set.univ FK Q := by
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%fm, %hfm, Hm⟩, ⟨%fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    rw [read_writes_cons_eq_overlay]
    sl_unfold_run_names
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
  rfl

/-- A last tile (j = 9): as a middle tile, then the block's ten column tiles are normalised by the final maximum and sum. -/
theorem run_last (hF : ¬ IsFirst1 t) (hL : IsLast1 t) (Q : PUnit → sProp 𝕄) :
    iprop(Ins c M0 M1 M2 M3 M4 M5 x0 x1 x2 x3 x4 x5 ∗ owns (c : Thread nD τ) M6 fullShare o
      ∗ owns (c : Thread nD τ) mM fullShare m ∗ owns (c : Thread nD τ) lM fullShare l
      ∗ (iprop(Ins c M0 M1 M2 M3 M4 M5 x0 x1 x2 x3 x4 x5
          ∗ owns (c : Thread nD τ) M6 fullShare (finalv (setTile o t LG) (mNew m LG) (lNew m l LG))
          ∗ owns (c : Thread nD τ) mM fullShare (mNew m LG) ∗ owns (c : Thread nD τ) lM fullShare (lNew m l LG)) -∗ Q ⟨⟩))
      ⊢ wp frame (wpE (defs₀ (F := F)) 𝒱₀ c none) Set.univ FK Q := by
  have hj : ((grid1.coords t) 1).val = 9 := last_coord t hL
  have hoff : k1_off1 (grid1.coords t) = ![0, 28800] := by rw [k1_off1_eq, hj]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%fm, %hfm, Hm⟩, ⟨%fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    sl_unfold_run_names
    erw [View.Piece.cons_unit_congr (s := S128x32000) (e := EltTy.f32) (Val' := Elt F) (size := S128x3200.size) hoff (k1_off1_inb (grid1.coords t))]
    simp (disch := decide) only [readAt_writes_cons_cols_of_disjoint, readAt_writes_cons_cols_self, View.writes_nil]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2, View.readCov_unit_zero (S := S128x1) _ hz2]
    rw [setTile_last _ t _ hj, finalv_overlay_last]
    refine (read_writes_append_of_cover M6.view f6 [_, _, _, _, _, _, _, _, _, _] [_] ?_).trans ?_
    · exact View.cover_of_tiled _ S128x3200.size (by rfl)
    · rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
  rfl

end Runs

end Cert.KernelIdeal.Hand

end
-- ==== Proof.Region1.lean ====
/-
  REGION 1 (the fused kernel's pipeline): the kinds of grid point; the windows' blocks read off the buffers the region is
  entered with; the running maximum and running sum after each point, by recursion on the point; the invariant carried
  between points and its two ends; the relational proof data (an input's staging buffer is left as found, the output's is
  left at a function of what was found there, since at a half's first tile it arrives at contents nothing names and the
  tile overwrites only its own columns); the body obligation, by the point's kind; the output's staging buffer after each
  point in closed form over the contents it held when the half began.
-/
import proofs.«424303_j34282428957025_2_alg».proof.Proof.Common
import proofs.«424303_j34282428957025_2_alg».proof.Proof.FusedVals
import proofs.«424303_j34282428957025_2_alg».proof.Proof.FusedRuns

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MM F

/-! ## The kinds of point -/

theorem N_twenty : cfg1.N = 20 := N_1

/-- A point is its half's first vocabulary tile iff its number is ≡ 0 (mod 10), the last iff ≡ 9. -/
theorem isFirst1_iff : ∀ t : Fin cfg1.N, IsFirst1 t ↔ t.val % 10 = 0 :=
  (by decide +kernel : ∀ t : Fin grid1.N, (Scalar.cmpi .ne (Scalar.extui (Scalar.cmpi .eq (BitVec.ofNat 32 ((grid1.coords t) 1).val) 0#32)) 0#32 = 1#1) ↔ t.val % 10 = 0)
theorem isLast1_iff : ∀ t : Fin cfg1.N, IsLast1 t ↔ t.val % 10 = 9 :=
  (by decide +kernel : ∀ t : Fin grid1.N, (Scalar.cmpi .ne (Scalar.extui (Scalar.cmpi .eq (BitVec.ofNat 32 ((grid1.coords t) 1).val) 9#32)) 0#32 = 1#1) ↔ t.val % 10 = 9)

/-- The output window is written back exactly at a half's last tile. -/
theorem flush6_of_last (t : Fin cfg1.N) (h : t.val % 10 = 9) : (cfg1.win 6).flush t = true := (flush1_6 t).mpr h
theorem flush6_of_not_last (t : Fin cfg1.N) (h : t.val % 10 ≠ 9) : (cfg1.win 6).flush t = false :=
  Bool.eq_false_iff.mpr fun hf => h ((flush1_6 t).mp hf)

section Entry

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's masked logits at point t, from the six input blocks there. -/
def lgA (c : Dev nD) (t : Fin cfg1.N) : FVec F S128x3200 .f32 :=
  logitsv (iblk1 V c 0 t) (iblk1 V c 1 t) (iblk1 V c 2 t) (iblk1 V c 3 t) (iblk1 V c 4 t) (iblk1 V c 5 t)

/-! ## The running maximum and running sum after each point -/

/-- The running maximum after point k: a half's first tile starts from the reset value, any other from what the
    point before left. -/
def mA (c : Dev nD) : (k : ℕ) → k < cfg1.N → Vec F S128x1 .f32
  | 0, hk => mNew mReset (lgA V c ⟨0, hk⟩)
  | k + 1, hk => if (k + 1) % 10 = 0 then mNew mReset (lgA V c ⟨k + 1, hk⟩)
      else mNew (mA c k (Nat.lt_of_succ_lt hk)) (lgA V c ⟨k + 1, hk⟩)

/-- The running sum after point k, likewise (it reads the running maximum the point found). -/
def lA (c : Dev nD) : (k : ℕ) → k < cfg1.N → Vec F S128x1 .f32
  | 0, hk => lNew mReset lReset (lgA V c ⟨0, hk⟩)
  | k + 1, hk => if (k + 1) % 10 = 0 then lNew mReset lReset (lgA V c ⟨k + 1, hk⟩)
      else lNew (mA V c k (Nat.lt_of_succ_lt hk)) (lA c k (Nat.lt_of_succ_lt hk)) (lgA V c ⟨k + 1, hk⟩)

theorem mA_first (c : Dev nD) (t : Fin cfg1.N) (h : t.val % 10 = 0) : mA V c t.val t.isLt = mNew mReset (lgA V c t) := by
  obtain ⟨k, hk⟩ := t
  cases k with
  | zero => rfl
  | succ k => show (if (k + 1) % 10 = 0 then _ else _) = _; rw [if_pos h]

theorem mA_step (c : Dev nD) (t : Fin cfg1.N) (h : t.val % 10 ≠ 0) (hp : t.val - 1 < cfg1.N) :
    mA V c t.val t.isLt = mNew (mA V c (t.val - 1) hp) (lgA V c t) := by
  obtain ⟨k, hk⟩ := t
  cases k with
  | zero => exact absurd rfl h
  | succ k => show (if (k + 1) % 10 = 0 then _ else _) = _; rw [if_neg h]; rfl

theorem lA_first (c : Dev nD) (t : Fin cfg1.N) (h : t.val % 10 = 0) : lA V c t.val t.isLt = lNew mReset lReset (lgA V c t) := by
  obtain ⟨k, hk⟩ := t
  cases k with
  | zero => rfl
  | succ k => show (if (k + 1) % 10 = 0 then _ else _) = _; rw [if_pos h]

theorem lA_step (c : Dev nD) (t : Fin cfg1.N) (h : t.val % 10 ≠ 0) (hp : t.val - 1 < cfg1.N) :
    lA V c t.val t.isLt = lNew (mA V c (t.val - 1) hp) (lA V c (t.val - 1) hp) (lgA V c t) := by
  obtain ⟨k, hk⟩ := t
  cases k with
  | zero => exact absurd rfl h
  | succ k => show (if (k + 1) % 10 = 0 then _ else _) = _; rw [if_neg h]; rfl

/-- The scratches BEFORE point t at a tile that is not its half's first: what the point before left. -/
abbrev mB (c : Dev nD) (t : Fin cfg1.N) (_h : t.val % 10 ≠ 0) : Vec F S128x1 .f32 :=
  mA V c (t.val - 1) (Nat.lt_of_le_of_lt (Nat.sub_le _ _) t.isLt)
abbrev lB (c : Dev nD) (t : Fin cfg1.N) (_h : t.val % 10 ≠ 0) : Vec F S128x1 .f32 :=
  lA V c (t.val - 1) (Nat.lt_of_le_of_lt (Nat.sub_le _ _) t.isLt)

/-! ## The invariant carried between points -/

/-- Before point k (k = 0 … 20): each scratch at anything before a half's first tile and after the last half,
    else at what the point before left. -/
def mPart (c : Dev nD) (k : Fin (cfg1.N + 1)) : sProp 𝕄 :=
  if h : k.val % 10 = 0 then iprop(∃ a, owns (c : Thread nD τ) mM fullShare a)
  else owns (c : Thread nD τ) mM fullShare (mA V c (k.val - 1) (by have := k.isLt; omega))
def lPart (c : Dev nD) (k : Fin (cfg1.N + 1)) : sProp 𝕄 :=
  if h : k.val % 10 = 0 then iprop(∃ a, owns (c : Thread nD τ) lM fullShare a)
  else owns (c : Thread nD τ) lM fullShare (lA V c (k.val - 1) (by have := k.isLt; omega))

/-- The scoped buffers the region does not stage and does not use: the gather kernel's two staging buffers. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f))

/-- The invariant before point k: the two scratches by the point's kind, the generator register at anything, the idle
    scoped buffers. -/
def Φ1 (c : Dev nD) (k : Fin (cfg1.N + 1)) : sProp 𝕄 :=
  iprop(mPart V c k ∗ lPart V c k ∗ (∃ r, prngReg c r) ∗ idleBufs c)

theorem mPart_zero (c : Dev nD) : mPart V c 0 = iprop(∃ a, owns (c : Thread nD τ) mM fullShare a) := by
  unfold mPart; exact dif_pos (by decide)
theorem lPart_zero (c : Dev nD) : lPart V c 0 = iprop(∃ a, owns (c : Thread nD τ) lM fullShare a) := by
  unfold lPart; exact dif_pos (by decide)
theorem mPart_last (c : Dev nD) : mPart V c (Fin.last cfg1.N) = iprop(∃ a, owns (c : Thread nD τ) mM fullShare a) := by
  unfold mPart; exact dif_pos (by decide)
theorem lPart_last (c : Dev nD) : lPart V c (Fin.last cfg1.N) = iprop(∃ a, owns (c : Thread nD τ) lM fullShare a) := by
  unfold lPart; exact dif_pos (by decide)

/-- The invariant before and after point t, by the point's kind. -/
theorem Φ1_pre_first (c : Dev nD) (t : Fin cfg1.N) (h : t.val % 10 = 0) :
    Φ1 V c t.castSucc = iprop((∃ a, owns (c : Thread nD τ) mM fullShare a) ∗ (∃ a, owns (c : Thread nD τ) lM fullShare a)
      ∗ (∃ r, prngReg c r) ∗ idleBufs c) := by
  unfold Φ1 mPart lPart; rw [dif_pos (by exact h), dif_pos (by exact h)]
theorem Φ1_pre_other (c : Dev nD) (t : Fin cfg1.N) (h : t.val % 10 ≠ 0) :
    Φ1 V c t.castSucc = iprop(owns (c : Thread nD τ) mM fullShare (mB V c t h) ∗ owns (c : Thread nD τ) lM fullShare (lB V c t h)
      ∗ (∃ r, prngReg c r) ∗ idleBufs c) := by
  unfold Φ1 mPart lPart; rw [dif_neg (by exact h), dif_neg (by exact h)]; rfl
theorem Φ1_post_last (c : Dev nD) (t : Fin cfg1.N) (h : t.val % 10 = 9) :
    Φ1 V c t.succ = iprop((∃ a, owns (c : Thread nD τ) mM fullShare a) ∗ (∃ a, owns (c : Thread nD τ) lM fullShare a)
      ∗ (∃ r, prngReg c r) ∗ idleBufs c) := by
  unfold Φ1 mPart lPart
  rw [dif_pos (by show (t.val + 1) % 10 = 0; omega), dif_pos (by show (t.val + 1) % 10 = 0; omega)]
theorem Φ1_post_other (c : Dev nD) (t : Fin cfg1.N) (h : t.val % 10 ≠ 9) :
    Φ1 V c t.succ = iprop(owns (c : Thread nD τ) mM fullShare (mA V c t.val t.isLt) ∗ owns (c : Thread nD τ) lM fullShare (lA V c t.val t.isLt)
      ∗ (∃ r, prngReg c r) ∗ idleBufs c) := by
  unfold Φ1 mPart lPart
  rw [dif_neg (by show ¬ (t.val + 1) % 10 = 0; omega), dif_neg (by show ¬ (t.val + 1) % 10 = 0; omega)]; rfl

/-! ## The invariant's two ends -/

/-- The invariant at the first point, from the generator register, anything else handed along (the region has no
    prefetched table) and the scoped buffers no window stages. -/
theorem hin1 (c : Dev nD) (P : sProp 𝕄) :
    iprop((∃ r, prngReg c r) ∗ P ∗ Pipeline.scopedRest (Ix := Unit) (Name := ℕ) (U := UC) (Lvl := ℕ) (Val := Elt F) spec1 c) ⊢ Φ1 V c 0 := by
  rw [scopedRest1_eq]
  unfold Φ1 idleBufs; rw [mPart_zero, lPart_zero]
  iintro ⟨Hp, -, H0, H1, ⟨%fm, Hm⟩, ⟨%fl, Hl⟩⟩
  isplitl [Hm]
  · iexists fm; rw [owns_whole_eq]; iexists fm; isplitr; (· ipureintro; rfl); iexact Hm
  isplitl [Hl]
  · iexists fl; rw [owns_whole_eq]; iexists fl; isplitr; (· ipureintro; rfl); iexact Hl
  isplitl [Hp]; · iexact Hp
  isplitl [H0]; · iexact H0
  iexact H1

/-- The invariant at the last point gives back the generator register, no semaphore of the kernel's own, and those
    scoped buffers. -/
theorem hout1 (c : Dev nD) :
    Φ1 V c (Fin.last cfg1.N) ⊢ iprop((∃ r, prngReg c r) ∗ Pipeline.ownSems0 (fun k : PEmpty => k.elim) c
      ∗ Pipeline.scopedRest (Ix := Unit) (Name := ℕ) (U := UC) (Lvl := ℕ) (Val := Elt F) spec1 c) := by
  rw [scopedRest1_eq, Pipeline.ownSems0_none]
  unfold Φ1 idleBufs; rw [mPart_last, lPart_last]; simp only [owns_whole_eq]
  iintro ⟨⟨%a, %fm, %hfm, Hm⟩, ⟨%b, %fl, %hfl, Hl⟩, Hp, H0, H1⟩
  isplitl [Hp]; · iexact Hp
  isplitr; · iempintro
  isplitl [H0]; · iexact H0
  isplitl [H1]; · iexact H1
  isplitl [Hm]; · iexists fm; iexact Hm
  iexists fl; iexact Hl

end Entry

section Data

variable (V : (c : Dev nD) → (b : Ref sig .tc) → Buf (Elt F) ((c : Thread nD τ).loc b))

/-! ## What a point makes of the output's staging buffer -/

/-- The output's staging buffer after point t, from what the point found there: the tile's columns overwritten by its
    logits, and at a half's last tile every column tile then normalised by the running maximum and sum the point leaves. -/
def oStep (c : Dev nD) (t : Fin cfg1.N) (Y : Vec F S128x32000 .f32) : Vec F S128x32000 .f32 :=
  if t.val % 10 = 9 then finalv (setTile Y t (lgA V c t)) (mA V c t.val t.isLt) (lA V c t.val t.isLt)
  else setTile Y t (lgA V c t)

theorem oStep_last (c : Dev nD) (t : Fin cfg1.N) (Y : Vec F S128x32000 .f32) (h : t.val % 10 = 9) :
    oStep V c t Y = finalv (setTile Y t (lgA V c t)) (mA V c t.val t.isLt) (lA V c t.val t.isLt) := if_pos h
theorem oStep_other (c : Dev nD) (t : Fin cfg1.N) (Y : Vec F S128x32000 .f32) (h : t.val % 10 ≠ 9) :
    oStep V c t Y = setTile Y t (lgA V c t) := if_neg h

/-! ## The proof data -/

/-- Region 1's proof data on core c, relational: the arrays as the region finds them; an input's staging buffer is left as
    found; the output's is left at oStep of what was found; the invariant Φ1; full shares; nothing owed. -/
def rdat1 (c : Dev nD) : RDat τ (Elt F) Unit ℕ UC ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = oStep V c t Y
  Φ k := Φ1 V c k
  q _ := fullShare
  owed _ := 0

theorem A_eq1 (c : Dev nD) (w : Fin cfg1.W) : (rdat1 V c).A w = V c (Pipeline.arrRef spec1 w) := by dsimp only [rdat1]
theorem Φ_eq1 (c : Dev nD) (k : Fin (cfg1.N + 1)) : (rdat1 V c).Φ k = Φ1 V c k := rfl
theorem q_eq1 (c : Dev nD) (w : Fin cfg1.W) : (rdat1 V c).q w = fullShare := rfl
theorem owed_eq1 (c : Dev nD) (k : Fin (cfg1.N + 1)) : (rdat1 V c).owed k = 0 := rfl

/-- The windows' relations, one by one. -/
theorem after1_0 (c : Dev nD) (t : Fin cfg1.N) (Y X) : (rdat1 V c).after 0 t Y X ↔ X = Y := by dsimp only [rdat1]; exact Iff.rfl
theorem after1_1 (c : Dev nD) (t : Fin cfg1.N) (Y X) : (rdat1 V c).after 1 t Y X ↔ X = Y := by dsimp only [rdat1]; exact Iff.rfl
theorem after1_2 (c : Dev nD) (t : Fin cfg1.N) (Y X) : (rdat1 V c).after 2 t Y X ↔ X = Y := by dsimp only [rdat1]; exact Iff.rfl
theorem after1_3 (c : Dev nD) (t : Fin cfg1.N) (Y X) : (rdat1 V c).after 3 t Y X ↔ X = Y := by dsimp only [rdat1]; exact Iff.rfl
theorem after1_4 (c : Dev nD) (t : Fin cfg1.N) (Y X) : (rdat1 V c).after 4 t Y X ↔ X = Y := by dsimp only [rdat1]; exact Iff.rfl
theorem after1_5 (c : Dev nD) (t : Fin cfg1.N) (Y X) : (rdat1 V c).after 5 t Y X ↔ X = Y := by dsimp only [rdat1]; exact Iff.rfl
theorem after1_6 (c : Dev nD) (t : Fin cfg1.N) (Y X : Vec F S128x32000 .f32) : (rdat1 V c).after 6 t Y X ↔ X = oStep V c t Y := by dsimp only [rdat1]; exact Iff.rfl

/-! ## What the body finds in each input window's staging buffer: the window's block -/

theorem finds1_1 (c : Dev nD) (t : Fin cfg1.N) (Y) (h : (rdat1 V c).Finds 1 t Y) : Y = iblk1 V c 1 t := by
  obtain ⟨d, hd⟩ := ((rdat1 V c).finds_of_fetch (fetch1_1 t) Y).mp h
  rw [hd]; unfold RDat.fetched RDat.blockOf iblk1; dsimp only [rdat1]; rfl
theorem finds1_2 (c : Dev nD) (t : Fin cfg1.N) (Y) (h : (rdat1 V c).Finds 2 t Y) : Y = iblk1 V c 2 t := by
  obtain ⟨d, hd⟩ := ((rdat1 V c).finds_of_fetch (fetch1_2 t) Y).mp h
  rw [hd]; unfold RDat.fetched RDat.blockOf iblk1; dsimp only [rdat1]; rfl
theorem finds1_3 (c : Dev nD) (t : Fin cfg1.N) (Y) (h : (rdat1 V c).Finds 3 t Y) : Y = iblk1 V c 3 t := by
  obtain ⟨d, hd⟩ := ((rdat1 V c).finds_of_fetch (fetch1_3 t) Y).mp h
  rw [hd]; unfold RDat.fetched RDat.blockOf iblk1; dsimp only [rdat1]; rfl
theorem finds1_4 (c : Dev nD) (t : Fin cfg1.N) (Y) (h : (rdat1 V c).Finds 4 t Y) : Y = iblk1 V c 4 t := by
  obtain ⟨d, hd⟩ := ((rdat1 V c).finds_of_fetch (fetch1_4 t) Y).mp h
  rw [hd]; unfold RDat.fetched RDat.blockOf iblk1; dsimp only [rdat1]; rfl
/-- Windows 0 and 5 are fetched only at a half's first tile; the body leaves them as found and their block index does not
    move within a half, so they hold their block at every point. -/
theorem finds1_0 (c : Dev nD) (t : Fin cfg1.N) (Y) (h : (rdat1 V c).Finds 0 t Y) : Y = iblk1 V c 0 t := by
  obtain ⟨d, hd⟩ := (rdat1 V c).finds_in_eq_fetched 0 rfl (fun _ _ _ => rfl) (fun t Y X hX => (after1_0 V c t Y X).mp hX) t Y h
  rw [hd]; unfold RDat.fetched RDat.blockOf iblk1; dsimp only [rdat1]; rfl
theorem finds1_5 (c : Dev nD) (t : Fin cfg1.N) (Y) (h : (rdat1 V c).Finds 5 t Y) : Y = iblk1 V c 5 t := by
  obtain ⟨d, hd⟩ := (rdat1 V c).finds_in_eq_fetched 5 rfl (fun _ _ _ => rfl) (fun t Y X hX => (after1_5 V c t Y X).mp hX) t Y h
  rw [hd]; unfold RDat.fetched RDat.blockOf iblk1; dsimp only [rdat1]; rfl

/-! ## What the body finds in, and leaves in, the output's staging buffer -/

/-- The output window is never fetched. -/
theorem fetch6 (t : Fin cfg1.N) : (cfg1.win 6).fetch t = false := (cfg1.win 6).fetch_out rfl t

/-- At a half's first tile the output's staging buffer may hold anything. -/
theorem finds1_6_first (c : Dev nD) (t : Fin cfg1.N) (h : t.val % 10 = 0) (Y) : (rdat1 V c).Finds 6 t Y := by
  by_cases h0 : t.val = 0
  · exact (rdat1 V c).finds_zero (fetch6 t) h0 Y
  · exact ((rdat1 V c).finds_of_pos (fetch6 t) h0 Y).mpr (.inl (flush6_of_last _ (by show (t.val - 1) % 10 = 9; omega)))
/-- At any other tile it holds what the point before left. -/
theorem finds1_6_other (c : Dev nD) (t : Fin cfg1.N) (h : t.val % 10 ≠ 0) (Y) :
    (rdat1 V c).Finds 6 t Y ↔ (rdat1 V c).Leaves 6 ⟨t.val - 1, Nat.lt_of_le_of_lt (Nat.sub_le _ _) t.isLt⟩ Y := by
  rw [(rdat1 V c).finds_of_pos (fetch6 t) (fun h0 => h (by rw [h0])) Y,
    flush6_of_not_last ⟨t.val - 1, Nat.lt_of_le_of_lt (Nat.sub_le _ _) t.isLt⟩ (by show (t.val - 1) % 10 ≠ 9; omega)]
  exact ⟨fun h' => h'.resolve_left Bool.false_ne_true, .inr⟩
/-- What the body leaves there: oStep of something it may have found. -/
theorem leaves1_6 (c : Dev nD) (t : Fin cfg1.N) (X : Vec F S128x32000 .f32) :
    (rdat1 V c).Leaves 6 t X ↔ ∃ Y, (rdat1 V c).Finds 6 t Y ∧ X = oStep V c t Y := by
  unfold RDat.Leaves; exact exists_congr fun Y => and_congr_right fun _ => after1_6 V c t Y X

/-! ## The body obligation -/

theorem body_obligation1 (c : Dev nD) : (rdat1 V c).BodyObligation (defs₀ (F := F)) 𝒱₀ () Set.univ := fun t Y hY => by
  rw [bigSep_W1, bigSep_W1]
  have e0 := finds1_0 V c t (Y 0) (hY 0)
  have e1 := finds1_1 V c t (Y 1) (hY 1)
  have e2 := finds1_2 V c t (Y 2) (hY 2)
  have e3 := finds1_3 V c t (Y 3) (hY 3)
  have e4 := finds1_4 V c t (Y 4) (hY 4)
  have e5 := finds1_5 V c t (Y 5) (hY 5)
  rw [show (rdat1 V c).owesAt () t.succ = (rdat1 V c).owesAt () t.castSucc from rfl, Φ_eq1, Φ_eq1, e0, e1, e2, e3, e4, e5]
  simp only [after1_0, after1_1, after1_2, after1_3, after1_4, after1_5, after1_6]
  have hN := N_twenty
  by_cases hL : IsLast1 t
  · -- a half's last tile: not its first
    have h9 : t.val % 10 = 9 := (isLast1_iff t).mp hL
    have h1 : t.val % 10 ≠ 0 := by omega
    have hF : ¬ IsFirst1 t := fun h => h1 ((isFirst1_iff t).mp h)
    have hp : t.val - 1 < cfg1.N := Nat.lt_of_le_of_lt (Nat.sub_le _ _) t.isLt
    rw [Φ1_pre_other V c t h1, Φ1_post_last V c t h9]
    iintro ⟨⟨Hm, Hl, Hp, Hi⟩, HO, H0, H1, H2, H3, H4, H5, H6⟩
    iapply (run_last c t (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3))
      (st1_4 t) (hstage1_4 ((cfg1.slots t 4).cast nbuf1_4)) (st1_5 t) (hstage1_5 ((cfg1.slots t 5).cast nbuf1_5))
      (st1_6 t) (hstage1_6 ((cfg1.slots t 6).cast nbuf1_6))
      (iblk1 V c 0 t) (iblk1 V c 1 t) (iblk1 V c 2 t) (iblk1 V c 3 t) (iblk1 V c 4 t) (iblk1 V c 5 t) (Y 6) (mB V c t h1) (lB V c t h1) hF hL _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [Hm]; · iexact Hm
    isplitl [Hl]; · iexact Hl
    iintro ⟨⟨H0, H1, H2, H3, H4, H5⟩, H6, Hm, Hl⟩
    isplitl [Hm Hl Hp Hi]
    · isplitl [Hm]; · iexists _; iexact Hm
      isplitl [Hl]; · iexists _; iexact Hl
      isplitl [Hp]; · iexact Hp
      iexact Hi
    isplitl [HO]; · iexact HO
    isplitl [H0]; · iexists _; isplitr; (· ipureintro; rfl); iexact H0
    isplitl [H1]; · iexists _; isplitr; (· ipureintro; rfl); iexact H1
    isplitl [H2]; · iexists _; isplitr; (· ipureintro; rfl); iexact H2
    isplitl [H3]; · iexists _; isplitr; (· ipureintro; rfl); iexact H3
    isplitl [H4]; · iexists _; isplitr; (· ipureintro; rfl); iexact H4
    isplitl [H5]; · iexists _; isplitr; (· ipureintro; rfl); iexact H5
    iexists _; isplitr; swap; (· iexact H6)
    ipureintro
    exact ((oStep_last V c t (Y 6) h9).trans (congrArg₂ (finalv (setTile (Y 6) t (lgA V c t))) (mA_step V c t h1 hp) (lA_step V c t h1 hp))).symm
  · have h9 : t.val % 10 ≠ 9 := fun h => hL ((isLast1_iff t).mpr h)
    by_cases hF : IsFirst1 t
    · -- a half's first tile
      have h0 : t.val % 10 = 0 := (isFirst1_iff t).mp hF
      rw [Φ1_pre_first V c t h0, Φ1_post_other V c t h9, mA_first V c t h0, lA_first V c t h0]
      iintro ⟨⟨Hm, Hl, Hp, Hi⟩, HO, H0, H1, H2, H3, H4, H5, H6⟩
      iapply (run_first c t (st1_0 t) (hstage1_0 ((cfg1.slots t 0).cast nbuf1_0)) (st1_1 t) (hstage1_1 ((cfg1.slots t 1).cast nbuf1_1))
        (st1_2 t) (hstage1_2 ((cfg1.slots t 2).cast nbuf1_2)) (st1_3 t) (hstage1_3 ((cfg1.slots t 3).cast nbuf1_3))
        (st1_4 t) (hstage1_4 ((cfg1.slots t 4).cast nbuf1_4)) (st1_5 t) (hstage1_5 ((cfg1.slots t 5).cast nbuf1_5))
        (st1_6 t) (hstage1_6 ((cfg1.slots t 6).cast nbuf1_6))
        (iblk1 V c 0 t) (iblk1 V c 1 t) (iblk1 V c 2 t) (iblk1 V c 3 t) (iblk1 V c 4 t) (iblk1 V c 5 t) (Y 6) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Hm]; · iexact Hm
      isplitl [Hl]; · iexact Hl
      iintro ⟨⟨H0, H1, H2, H3, H4, H5⟩, H6, Hm, Hl⟩
      isplitl [Hm Hl Hp Hi]
      · isplitl [Hm]; · iexact Hm
        isplitl [Hl]; · iexact Hl
        isplitl [Hp]; · iexact Hp
        iexact Hi
      isplitl [HO]; · iexact HO
      isplitl [H0]; · iexists _; isplitr; (· ipureintro; rfl); iexact H0
      isplitl [H1]; · iexists _; isplitr; (· ipureintro; rfl); iexact H1
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      iexists _; isplitr; swap; (· iexact H6)
      ipureintro
      exact (oStep_other V c t _ h9).symm
    · -- a middle tile
      have h1 : t.val % 10 ≠ 0 := fun h => hF ((isFirst1_iff t).mpr h)
      have hp : t.val - 1 < cfg1.N := Nat.lt_of_le_of_lt (Nat.sub_le _ _) t.isLt
      rw [Φ1_pre_other V c t h1, Φ1_post_other V c t h9, mA_step V c t h1 hp, lA_step V c t h1 hp]
      iintro ⟨⟨Hm, Hl, Hp, Hi⟩, HO, H0, H1, H2, H3, H4, H5, H6⟩
      iapply (run_mid c t (st1_0 t) (hstage1_0 ((cfg1.slots t 0).cast nbuf1_0)) (st1_1 t) (hstage1_1 ((cfg1.slots t 1).cast nbuf1_1))
        (st1_2 t) (hstage1_2 ((cfg1.slots t 2).cast nbuf1_2)) (st1_3 t) (hstage1_3 ((cfg1.slots t 3).cast nbuf1_3))
        (st1_4 t) (hstage1_4 ((cfg1.slots t 4).cast nbuf1_4)) (st1_5 t) (hstage1_5 ((cfg1.slots t 5).cast nbuf1_5))
        (st1_6 t) (hstage1_6 ((cfg1.slots t 6).cast nbuf1_6))
        (iblk1 V c 0 t) (iblk1 V c 1 t) (iblk1 V c 2 t) (iblk1 V c 3 t) (iblk1 V c 4 t) (iblk1 V c 5 t) (Y 6) (mB V c t h1) (lB V c t h1) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Hm]; · iexact Hm
      isplitl [Hl]; · iexact Hl
      iintro ⟨⟨H0, H1, H2, H3, H4, H5⟩, H6, Hm, Hl⟩
      isplitl [Hm Hl Hp Hi]
      · isplitl [Hm]; · iexact Hm
        isplitl [Hl]; · iexact Hl
        isplitl [Hp]; · iexact Hp
        iexact Hi
      isplitl [HO]; · iexact HO
      isplitl [H0]; · iexists _; isplitr; (· ipureintro; rfl); iexact H0
      isplitl [H1]; · iexists _; isplitr; (· ipureintro; rfl); iexact H1
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      iexists _; isplitr; swap; (· iexact H6)
      ipureintro
      exact (oStep_other V c t _ h9).symm

/-! ## The output's staging buffer after each point, in closed form -/

/-- The output's staging buffer after point k, if it held d when k's half began: a half's first tile steps from d,
    any other from what the point before left. -/
def oA (c : Dev nD) (d : Vec F S128x32000 .f32) : (k : ℕ) → k < cfg1.N → Vec F S128x32000 .f32
  | 0, hk => oStep V c ⟨0, hk⟩ d
  | k + 1, hk => if (k + 1) % 10 = 0 then oStep V c ⟨k + 1, hk⟩ d
      else oStep V c ⟨k + 1, hk⟩ (oA c d k (Nat.lt_of_succ_lt hk))

theorem oA_first (c : Dev nD) (d : Vec F S128x32000 .f32) (t : Fin cfg1.N) (h : t.val % 10 = 0) :
    oA V c d t.val t.isLt = oStep V c t d := by
  obtain ⟨k, hk⟩ := t
  cases k with
  | zero => rfl
  | succ k => show (if (k + 1) % 10 = 0 then _ else _) = _; rw [if_pos h]

theorem oA_step (c : Dev nD) (d : Vec F S128x32000 .f32) (t : Fin cfg1.N) (h : t.val % 10 ≠ 0) (hp : t.val - 1 < cfg1.N) :
    oA V c d t.val t.isLt = oStep V c t (oA V c d (t.val - 1) hp) := by
  obtain ⟨k, hk⟩ := t
  cases k with
  | zero => exact absurd rfl h
  | succ k => show (if (k + 1) % 10 = 0 then _ else _) = _; rw [if_neg h]; rfl

/-- Whatever the body may leave in the output's staging buffer at point t is oA of SOME contents d at the half's start. -/
theorem leaves1_6_oA (c : Dev nD) (t : Fin cfg1.N) (X : Vec F S128x32000 .f32) (hX : (rdat1 V c).Leaves 6 t X) :
    ∃ d, X = oA V c d t.val t.isLt := by
  suffices H : ∀ n (t : Fin cfg1.N), t.val = n → ∀ X : Vec F S128x32000 .f32, (rdat1 V c).Leaves 6 t X → ∃ d, X = oA V c d t.val t.isLt from
    H t.val t rfl X hX
  intro n
  induction n using Nat.strong_induction_on with
  | _ n ih =>
    intro t hn X hX
    obtain ⟨Y, hY, rfl⟩ := (leaves1_6 V c t X).mp hX
    by_cases h : t.val % 10 = 0
    · exact ⟨Y, (oA_first V c Y t h).symm⟩
    · have hp : t.val - 1 < cfg1.N := Nat.lt_of_le_of_lt (Nat.sub_le _ _) t.isLt
      have h0 : t.val ≠ 0 := fun e => h (by rw [e])
      obtain ⟨d, hd⟩ := ih (t.val - 1) (by omega) ⟨t.val - 1, hp⟩ rfl Y ((finds1_6_other V c t h Y).mp hY)
      exact ⟨d, ((oA_step V c d t h hp).trans (congrArg (oStep V c t) hd.symm)).symm⟩

end Data

end Cert.KernelIdeal.Hand

end
-- ==== Proof.Bits.Common.lean ====
/-
  The setting the two kernel regions' runs share: the resource algebra (the pipeline library's rounds copy beside the
  counters the kernel's own transfers take their tokens from), no variants, no levels (no core owes another anything).
-/
import proofs.«424303_j34282428957025_2_alg».proof.Proof.Gen.Kernel
import proofs.«424303_j34282428957025_2_alg».proof.Proof.Gen.Kernel.Skeleton
import proofs.«424303_j34282428957025_2_alg».proof.Proof.Gen.Kernel.Launch
import proofs.«424303_j34282428957025_2_alg».proof.Proof.Gen.Kernel.Points
import Idealize.ShloMosaic.Lib.Writes
import Idealize.ShloMosaic.Lib.Pipeline.FrameBody
import Idealize.ShloMosaic.Lib.Pipeline.Kit
import Idealize.ShloMosaic.Lib.Pipeline.Regions
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the transfers' counters. -/
abbrev UC : Type := UR sig nD τ × Counters

/-- The model's resource algebra at this program. -/
abbrev MM (F : FTy → Type) : Type := MT nD τ sig Unit (Elt F) ℕ UC ℕ

/-- The pipeline library's algebra is the left component. -/
abbrev EP : Emb (UR sig nD τ) (MM F) := embL

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between @main's items: the core's generator register at some state and its `owes`, at nothing. -/
abbrev Rest (c : Dev nD) : sProp (MM F) :=
  iprop((∃ r, prngReg c r) ∗ ∃ W, owes (c : Thread nD τ) (0 : CellTallies nD τ sig Unit) W)

end Cert.Kernel.Hand

end
-- ==== Proof.Bits.Gather.lean ====
/-
  The gather region's body at a symbolic grid point: thirty-two rows of the source array, each named by a word of the
  index table, are copied into the thirty-two rows of the output block, every copy on a semaphore of its own, and all
  are awaited before the body returns. The block it leaves is the table-indexed selection of rows of the source.
-/
import proofs.«424303_j34282428957025_2_alg».proof.Proof.Bits.Common
import Idealize.ShloMosaic.Lib.ValueIdx
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MM F

/-- The kernel's own semaphores: the thirty-two cells of its scratch array, the pool's 2 to 33. -/
abbrev osem0 : Fin 32 → SemLoc sig := fun | 0 => .dma 2 | 1 => .dma 3 | 2 => .dma 4 | 3 => .dma 5 | 4 => .dma 6 | 5 => .dma 7 | 6 => .dma 8 | 7 => .dma 9 | 8 => .dma 10 | 9 => .dma 11 | 10 => .dma 12 | 11 => .dma 13 | 12 => .dma 14 | 13 => .dma 15 | 14 => .dma 16 | 15 => .dma 17 | 16 => .dma 18 | 17 => .dma 19 | 18 => .dma 20 | 19 => .dma 21 | 20 => .dma 22 | 21 => .dma 23 | 22 => .dma 24 | 23 => .dma 25 | 24 => .dma 26 | 25 => .dma 27 | 26 => .dma 28 | 27 => .dma 29 | 28 => .dma 30 | 29 => .dma 31 | 30 => .dma 32 | 31 => .dma 33 | ⟨_ + 32, h⟩ => absurd h (Nat.not_lt.2 (Nat.le_add_left _ _))

/-- The thirty-two counters at zero. -/
abbrev sems0 (c : Dev nD) : sProp 𝕄 := Pipeline.ownSems0 osem0 c

/-- A table word's position: point `n` reads the words `32 n` to `32 n + 31`. -/
theorem tblIdx_lt (n : ℕ) (hn : n < 8) (j : Fin 32) : 32 * n + j.val < 256 := by
  have := j.isLt; omega

/-- The block point `n` gathers: row `j` is the row of the source `S` that the table `T` names at position `32 n + j`
    (positions and row numbers read modulo the extents, so that the block is defined at every table). -/
def gathv (T : S256.Idx → Elt F .i32) (S : S4000x32000.Idx → Elt F .f32) (n : ℕ) : S32x32000.Idx → Elt F .f32 :=
  fun x => S (ix2 (⟨(T (ix1 (⟨(32 * n + (x 0).val) % 256, Nat.mod_lt _ (by decide)⟩ : Fin 256))).toNat % 4000, Nat.mod_lt _ (by decide)⟩ : Fin 4000)
    (⟨(x 1).val, (x 1).isLt⟩ : Fin 32000))

/-- The gathered block read at a row and a column, at a table whose word there is a row number of the source. -/
theorem gathv_apply (T : S256.Idx → Elt F .i32) (S : S4000x32000.Idx → Elt F .f32) (n : ℕ) (j : Fin 32) (v : Fin 32000)
    (hj : 32 * n + j.val < 256) (hT : (T (ix1 (⟨32 * n + j.val, hj⟩ : Fin 256))).toNat < 4000) :
    gathv T S n (ix2 j v) = S (ix2 (⟨(T (ix1 (⟨32 * n + j.val, hj⟩ : Fin 256))).toNat, hT⟩ : Fin 4000) v) := by
  unfold gathv
  have hp : (⟨(32 * n + j.val) % 256, Nat.mod_lt _ (by decide)⟩ : Fin 256) = ⟨32 * n + j.val, hj⟩ := Fin.ext (Nat.mod_eq_of_lt hj)
  refine congrArg S (congrArg₂ ix2 (Fin.ext ?_) (Fin.ext rfl))
  show (T (ix1 (⟨(32 * n + j.val) % 256, Nat.mod_lt _ (by decide)⟩ : Fin 256))).toNat % 4000 = (T (ix1 (⟨32 * n + j.val, hj⟩ : Fin 256))).toNat
  rw [hp]
  exact Nat.mod_eq_of_lt hT

omit [FloatOps F] in
/-- A word below 4000 names a row of the source: its row window lies inside the array. -/
theorem offs_inb (w : BitVec 32) (h : w.toNat < 4000) : ∀ a, (![w.toNat, 0] : Fin 2 → ℕ) a + S1x32000.size a ≤ S4000x32000.size a := by
  intro a
  match a with
  | ⟨0, _⟩ => show w.toNat + 1 ≤ 4000; omega
  | ⟨1, _⟩ => show 0 + 32000 ≤ 32000; omega

omit [FloatOps F] in
/-- Every word of a table whose words are row numbers is one, at whatever index it is read. -/
theorem lt_of_tbl {T : S256.Idx → Elt F .i32} (hT : ∀ k : Fin 256, (T (ix1 k)).toNat < 4000) (x : S256.Idx) : (T x).toNat < 4000 := by
  rw [eq_ix1 x]; exact hT _

/-! ## The source read by thirty-two copies at once: one read share per semaphore cell -/

/-- The source held at the read share of cell `i`. -/
abbrev srcTok (c : Dev nD) (S : S4000x32000.Idx → Elt F .f32) (i : Fin 34) : sProp 𝕄 :=
  (Memref.whole main_v3).view.loc (c : Thread nD τ) ↦{Transfers.shareTok fullShare 34 i} S

/-- The source as the remainder and the thirty-four cells' read shares (the copies complete on cells 2 to 33). -/
abbrev srcToks (c : Dev nD) (S : S4000x32000.Idx → Elt F .f32) : sProp 𝕄 :=
  iprop(((Memref.whole main_v3).view.loc (c : Thread nD τ) ↦{Transfers.shareDrop fullShare 34} S) ∗ srcTok c S 0 ∗ srcTok c S 1 ∗ srcTok c S 2 ∗ srcTok c S 3 ∗ srcTok c S 4 ∗ srcTok c S 5 ∗ srcTok c S 6 ∗ srcTok c S 7 ∗ srcTok c S 8 ∗ srcTok c S 9 ∗ srcTok c S 10 ∗ srcTok c S 11 ∗ srcTok c S 12 ∗ srcTok c S 13 ∗ srcTok c S 14 ∗ srcTok c S 15 ∗ srcTok c S 16 ∗ srcTok c S 17 ∗ srcTok c S 18 ∗ srcTok c S 19 ∗ srcTok c S 20 ∗ srcTok c S 21 ∗ srcTok c S 22 ∗ srcTok c S 23 ∗ srcTok c S 24 ∗ srcTok c S 25 ∗ srcTok c S 26 ∗ srcTok c S 27 ∗ srcTok c S 28 ∗ srcTok c S 29 ∗ srcTok c S 30 ∗ srcTok c S 31 ∗ srcTok c S 32 ∗ srcTok c S 33)

theorem srcToks_eq (c : Dev nD) (S : S4000x32000.Idx → Elt F .f32) :
    (iprop(((Memref.whole main_v3).view.loc (c : Thread nD τ) ↦{Transfers.shareDrop fullShare 34} S)
      ∗ bigSep Finset.univ (fun i : Fin 34 => (Memref.whole main_v3).view.loc (c : Thread nD τ) ↦{Transfers.shareTok fullShare 34 i} S)) : sProp 𝕄)
      = srcToks c S := by
  rw [bigSep_univ_eq_bigSepL [(0 : Fin 34), (1 : Fin 34), (2 : Fin 34), (3 : Fin 34), (4 : Fin 34), (5 : Fin 34), (6 : Fin 34), (7 : Fin 34), (8 : Fin 34), (9 : Fin 34), (10 : Fin 34), (11 : Fin 34), (12 : Fin 34), (13 : Fin 34), (14 : Fin 34), (15 : Fin 34), (16 : Fin 34), (17 : Fin 34), (18 : Fin 34), (19 : Fin 34), (20 : Fin 34), (21 : Fin 34), (22 : Fin 34), (23 : Fin 34), (24 : Fin 34), (25 : Fin 34), (26 : Fin 34), (27 : Fin 34), (28 : Fin 34), (29 : Fin 34), (30 : Fin 34), (31 : Fin 34), (32 : Fin 34), (33 : Fin 34)] (by decide) (by decide)]
  rfl

theorem src_split (c : Dev nD) (S : S4000x32000.Idx → Elt F .f32) :
    ((Memref.whole main_v3).view.loc (c : Thread nD τ) ↦{fullShare} S : sProp 𝕄) ⊢ srcToks c S :=
  (Transfers.pointsTo_toks_split (Ix := Unit) (Name := ℕ) (U := UC) (Lvl := ℕ) fullShare 34).trans (Entails.of_eq (srcToks_eq c S))

theorem src_join (c : Dev nD) (S : S4000x32000.Idx → Elt F .f32) :
    srcToks c S ⊢ ((Memref.whole main_v3).view.loc (c : Thread nD τ) ↦{fullShare} S : sProp 𝕄) :=
  (Entails.of_eq (srcToks_eq c S).symm).trans (Transfers.pointsTo_toks_join (Ix := Unit) (Name := ℕ) (U := UC) (Lvl := ℕ) fullShare 34)

/-! ## The output block row by row -/

/-- Row `j` of the output block, as the body names it: the one-row window at row `j`, its unit axis dropped. -/
abbrev rowM (M3 : Memref sig .tc .vmem S32x32000 .f32) (j : ℕ) (h : ∀ a, (![j, 0] : Fin 2 → ℕ) a + S1x32000.size a ≤ S32x32000.size a) :
    Memref sig .tc .vmem S32000 .f32 :=
  (M3.slice (Rect.unit (s := S32x32000) ![j, 0] S1x32000.size h) (fun _ => rfl)).squeeze S32000 Facts₀.squeezes_S1x32000_S32000

omit [FloatOps F] in
theorem row_inb (j : Fin 32) : ∀ a, (![j.val, 0] : Fin 2 → ℕ) a + S1x32000.size a ≤ S32x32000.size a := by
  intro a
  have := j.isLt
  match a with
  | ⟨0, _⟩ => show j.val + 1 ≤ 32; omega
  | ⟨1, _⟩ => show 0 + 32000 ≤ 32000; omega

/-- Row `j` at an index of the row type. -/
abbrev rowK (M3 : Memref sig .tc .vmem S32x32000 .f32) (j : Fin 32) : Memref sig .tc .vmem S32000 .f32 := rowM M3 j.val (row_inb j)

omit [FloatOps F] in
theorem unit_congr2 {s : Shape} {off off' size size' : Fin s.rank → ℕ} (ho : off = off') (hs : size = size')
    (p : ∀ a, off a + size a ≤ s.size a) (p' : ∀ a, off' a + size' a ≤ s.size a) : Rect.unit off size p = Rect.unit off' size' p' := by
  subst ho; subst hs; rfl

omit [FloatOps F] in
/-- The row rectangle of the block along its first axis is the body's one-row window. -/
theorem rowRect_eq (k : Fin 32) : S32x32000.rowRect (0 : Fin 2) k = Rect.unit (s := S32x32000) ![k.val, 0] S1x32000.size (row_inb k) := by
  unfold Shape.rowRect
  refine unit_congr2 ?_ ?_ _ _
  · funext b; match b with | ⟨0, _⟩ => rfl | ⟨1, _⟩ => rfl
  · funext b; match b with | ⟨0, _⟩ => rfl | ⟨1, _⟩ => rfl

omit [FloatOps F] in
/-- Row `k`'s elements are the elements of the block's view under its row rectangle `k`. -/
theorem rowset_eq (M3 : Memref sig .tc .vmem S32x32000 .f32) (k : Fin 32) :
    (M3.view.slice (S32x32000.rowRect (0 : Fin 2) k)).set = (rowK M3 k).view.set := by
  rw [rowRect_eq]
  simp only [rowK, rowM, Memref.view_squeeze, Memref.view_slice, View.set_reshape]

/-- The block's buffer held by its own elements is its thirty-two rows, each held by its own. -/
theorem dst_rows (c : Dev nD) (M3 : Memref sig .tc .vmem S32x32000 .f32) (f : Buf (Elt F) (M3.view.loc (c : Thread nD τ))) :
    (M3.view.loc (c : Thread nD τ) ↦[M3.view.set]{fullShare} f : sProp 𝕄)
      = bigSep Finset.univ (fun k : Fin 32 => (rowK M3 k).view.loc (c : Thread nD τ) ↦[(rowK M3 k).view.set]{fullShare} f) := by
  refine (pointsTo_rows (Ix := Unit) (Name := ℕ) (U := UC) (Lvl := ℕ) (c : Thread nD τ) M3.view (0 : Fin 2) fullShare f).trans ?_
  show bigSep (Finset.univ : Finset (Fin 32)) (fun k : Fin 32 =>
    (M3.view.loc (c : Thread nD τ) ↦[(M3.view.slice (S32x32000.rowRect (0 : Fin 2) k)).set]{fullShare} f : sProp 𝕄)) = _
  exact bigSep_congr fun k _ => by rw [rowset_eq]

/-- The rows one by one, as the body names them. -/
abbrev rowsAt (c : Dev nD) (M3 : Memref sig .tc .vmem S32x32000 .f32) (f : Buf (Elt F) (M3.view.loc (c : Thread nD τ))) : sProp 𝕄 :=
  iprop(((rowM M3 0 Facts₀.inb_S32x32000_S1x32000_0_0).view.loc (c : Thread nD τ) ↦[(rowM M3 0 Facts₀.inb_S32x32000_S1x32000_0_0).view.set]{fullShare} f)
    ∗ ((rowM M3 1 Facts₀.inb_S32x32000_S1x32000_1_0).view.loc (c : Thread nD τ) ↦[(rowM M3 1 Facts₀.inb_S32x32000_S1x32000_1_0).view.set]{fullShare} f)
    ∗ ((rowM M3 2 Facts₀.inb_S32x32000_S1x32000_2_0).view.loc (c : Thread nD τ) ↦[(rowM M3 2 Facts₀.inb_S32x32000_S1x32000_2_0).view.set]{fullShare} f)
    ∗ ((rowM M3 3 Facts₀.inb_S32x32000_S1x32000_3_0).view.loc (c : Thread nD τ) ↦[(rowM M3 3 Facts₀.inb_S32x32000_S1x32000_3_0).view.set]{fullShare} f)
    ∗ ((rowM M3 4 Facts₀.inb_S32x32000_S1x32000_4_0).view.loc (c : Thread nD τ) ↦[(rowM M3 4 Facts₀.inb_S32x32000_S1x32000_4_0).view.set]{fullShare} f)
    ∗ ((rowM M3 5 Facts₀.inb_S32x32000_S1x32000_5_0).view.loc (c : Thread nD τ) ↦[(rowM M3 5 Facts₀.inb_S32x32000_S1x32000_5_0).view.set]{fullShare} f)
    ∗ ((rowM M3 6 Facts₀.inb_S32x32000_S1x32000_6_0).view.loc (c : Thread nD τ) ↦[(rowM M3 6 Facts₀.inb_S32x32000_S1x32000_6_0).view.set]{fullShare} f)
    ∗ ((rowM M3 7 Facts₀.inb_S32x32000_S1x32000_7_0).view.loc (c : Thread nD τ) ↦[(rowM M3 7 Facts₀.inb_S32x32000_S1x32000_7_0).view.set]{fullShare} f)
    ∗ ((rowM M3 8 Facts₀.inb_S32x32000_S1x32000_8_0).view.loc (c : Thread nD τ) ↦[(rowM M3 8 Facts₀.inb_S32x32000_S1x32000_8_0).view.set]{fullShare} f)
    ∗ ((rowM M3 9 Facts₀.inb_S32x32000_S1x32000_9_0).view.loc (c : Thread nD τ) ↦[(rowM M3 9 Facts₀.inb_S32x32000_S1x32000_9_0).view.set]{fullShare} f)
    ∗ ((rowM M3 10 Facts₀.inb_S32x32000_S1x32000_10_0).view.loc (c : Thread nD τ) ↦[(rowM M3 10 Facts₀.inb_S32x32000_S1x32000_10_0).view.set]{fullShare} f)
    ∗ ((rowM M3 11 Facts₀.inb_S32x32000_S1x32000_11_0).view.loc (c : Thread nD τ) ↦[(rowM M3 11 Facts₀.inb_S32x32000_S1x32000_11_0).view.set]{fullShare} f)
    ∗ ((rowM M3 12 Facts₀.inb_S32x32000_S1x32000_12_0).view.loc (c : Thread nD τ) ↦[(rowM M3 12 Facts₀.inb_S32x32000_S1x32000_12_0).view.set]{fullShare} f)
    ∗ ((rowM M3 13 Facts₀.inb_S32x32000_S1x32000_13_0).view.loc (c : Thread nD τ) ↦[(rowM M3 13 Facts₀.inb_S32x32000_S1x32000_13_0).view.set]{fullShare} f)
    ∗ ((rowM M3 14 Facts₀.inb_S32x32000_S1x32000_14_0).view.loc (c : Thread nD τ) ↦[(rowM M3 14 Facts₀.inb_S32x32000_S1x32000_14_0).view.set]{fullShare} f)
    ∗ ((rowM M3 15 Facts₀.inb_S32x32000_S1x32000_15_0).view.loc (c : Thread nD τ) ↦[(rowM M3 15 Facts₀.inb_S32x32000_S1x32000_15_0).view.set]{fullShare} f)
    ∗ ((rowM M3 16 Facts₀.inb_S32x32000_S1x32000_16_0).view.loc (c : Thread nD τ) ↦[(rowM M3 16 Facts₀.inb_S32x32000_S1x32000_16_0).view.set]{fullShare} f)
    ∗ ((rowM M3 17 Facts₀.inb_S32x32000_S1x32000_17_0).view.loc (c : Thread nD τ) ↦[(rowM M3 17 Facts₀.inb_S32x32000_S1x32000_17_0).view.set]{fullShare} f)
    ∗ ((rowM M3 18 Facts₀.inb_S32x32000_S1x32000_18_0).view.loc (c : Thread nD τ) ↦[(rowM M3 18 Facts₀.inb_S32x32000_S1x32000_18_0).view.set]{fullShare} f)
    ∗ ((rowM M3 19 Facts₀.inb_S32x32000_S1x32000_19_0).view.loc (c : Thread nD τ) ↦[(rowM M3 19 Facts₀.inb_S32x32000_S1x32000_19_0).view.set]{fullShare} f)
    ∗ ((rowM M3 20 Facts₀.inb_S32x32000_S1x32000_20_0).view.loc (c : Thread nD τ) ↦[(rowM M3 20 Facts₀.inb_S32x32000_S1x32000_20_0).view.set]{fullShare} f)
    ∗ ((rowM M3 21 Facts₀.inb_S32x32000_S1x32000_21_0).view.loc (c : Thread nD τ) ↦[(rowM M3 21 Facts₀.inb_S32x32000_S1x32000_21_0).view.set]{fullShare} f)
    ∗ ((rowM M3 22 Facts₀.inb_S32x32000_S1x32000_22_0).view.loc (c : Thread nD τ) ↦[(rowM M3 22 Facts₀.inb_S32x32000_S1x32000_22_0).view.set]{fullShare} f)
    ∗ ((rowM M3 23 Facts₀.inb_S32x32000_S1x32000_23_0).view.loc (c : Thread nD τ) ↦[(rowM M3 23 Facts₀.inb_S32x32000_S1x32000_23_0).view.set]{fullShare} f)
    ∗ ((rowM M3 24 Facts₀.inb_S32x32000_S1x32000_24_0).view.loc (c : Thread nD τ) ↦[(rowM M3 24 Facts₀.inb_S32x32000_S1x32000_24_0).view.set]{fullShare} f)
    ∗ ((rowM M3 25 Facts₀.inb_S32x32000_S1x32000_25_0).view.loc (c : Thread nD τ) ↦[(rowM M3 25 Facts₀.inb_S32x32000_S1x32000_25_0).view.set]{fullShare} f)
    ∗ ((rowM M3 26 Facts₀.inb_S32x32000_S1x32000_26_0).view.loc (c : Thread nD τ) ↦[(rowM M3 26 Facts₀.inb_S32x32000_S1x32000_26_0).view.set]{fullShare} f)
    ∗ ((rowM M3 27 Facts₀.inb_S32x32000_S1x32000_27_0).view.loc (c : Thread nD τ) ↦[(rowM M3 27 Facts₀.inb_S32x32000_S1x32000_27_0).view.set]{fullShare} f)
    ∗ ((rowM M3 28 Facts₀.inb_S32x32000_S1x32000_28_0).view.loc (c : Thread nD τ) ↦[(rowM M3 28 Facts₀.inb_S32x32000_S1x32000_28_0).view.set]{fullShare} f)
    ∗ ((rowM M3 29 Facts₀.inb_S32x32000_S1x32000_29_0).view.loc (c : Thread nD τ) ↦[(rowM M3 29 Facts₀.inb_S32x32000_S1x32000_29_0).view.set]{fullShare} f)
    ∗ ((rowM M3 30 Facts₀.inb_S32x32000_S1x32000_30_0).view.loc (c : Thread nD τ) ↦[(rowM M3 30 Facts₀.inb_S32x32000_S1x32000_30_0).view.set]{fullShare} f)
    ∗ ((rowM M3 31 Facts₀.inb_S32x32000_S1x32000_31_0).view.loc (c : Thread nD τ) ↦[(rowM M3 31 Facts₀.inb_S32x32000_S1x32000_31_0).view.set]{fullShare} f))

theorem dst_rows_chain (c : Dev nD) (M3 : Memref sig .tc .vmem S32x32000 .f32) (f : Buf (Elt F) (M3.view.loc (c : Thread nD τ))) :
    (M3.view.loc (c : Thread nD τ) ↦[M3.view.set]{fullShare} f : sProp 𝕄) = rowsAt c M3 f := by
  rw [dst_rows, bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide)]
  rfl

/-! ## The words read and the rows copied -/

omit [FloatOps F] in
/-- The table position the body computes for its `j`-th word at point `n`. -/
theorem wordIdx (n j : ℕ) (hn : n < 8) (hj : j < 32) :
    (Scalar.indexCast (Scalar.addi (Scalar.muli (BitVec.ofNat 32 n) 32#32) (BitVec.ofNat 32 j))).toNat = 32 * n + j := by
  show ((BitVec.ofNat 32 n * 32#32 + BitVec.ofNat 32 j : BitVec 32)).toNat = _
  simp only [BitVec.toNat_add, BitVec.toNat_mul, BitVec.toNat_ofNat, Nat.reducePow]
  omega

omit [FloatOps F] in
/-- The grid's one coordinate is the point's number. -/
theorem coords0 (t : Fin grid0.N) : (grid0.coords t 0).val = t.val := by
  obtain rfl | rfl | rfl | rfl | rfl | rfl | rfl | rfl := fin_N0 t <;> rfl

omit [FloatOps F] in
/-- A scalar load of the table at a one-element window reads the word at the window's offset. -/
theorem word_eq (T : S256.Idx → Elt F .i32) (off : Fin 1 → ℕ) (inb : ∀ a, off a + S1.size a ≤ S256.size a) (hf : 0 < S1.numel)
    (hlt : off 0 < 256) :
    View.readAt (Elt F) (Memref.whole main_v2).view (Rect.unit (s := S256) off S1.size inb).toLoadRect T (Shape.Idx.first hf)
      = T (ix1 (⟨off 0, hlt⟩ : Fin 256)) := by
  show T _ = T _
  refine congrArg T (funext fun a => ?_)
  match a with
  | ⟨0, _⟩ => exact Fin.ext (by show off 0 + 1 * 0 = off 0; omega)

omit [FloatOps F] in
/-- A row of the source, named by a word, read at a column. -/
theorem srcRow_read (S : S4000x32000.Idx → Elt F .f32) (w : BitVec 32)
    (hw : ∀ a, (![w.toNat, 0] : Fin 2 → ℕ) a + S1x32000.size a ≤ S4000x32000.size a)
    (hs : ∀ a, (Rect.unit (s := S4000x32000) ![w.toNat, 0] S1x32000.size hw).stride a = 1) (sq : S1x32000.Squeezes S32000) (hlt : w.toNat < 4000)
    (z : S32000.Idx) :
    View.read (Elt F) (((Memref.whole main_v3).slice (Rect.unit (s := S4000x32000) ![w.toNat, 0] S1x32000.size hw) hs).squeeze S32000 sq).view S z
      = S (ix2 (⟨w.toNat, hlt⟩ : Fin 4000) (⟨(z 0).val, (z 0).isLt⟩ : Fin 32000)) := by
  show S _ = S _
  refine congrArg S (funext fun a => Fin.ext ?_)
  have hz := Shape.reshapeEquiv_cons_one (n := 1) (d := ![32000]) sq.numel_eq z
  match a with
  | ⟨0, _⟩ =>
    show w.toNat + 1 * ((Shape.reshapeEquiv sq.numel_eq z) (0 : Fin 2)).val = w.toNat
    rw [hz]; show w.toNat + 1 * 0 = w.toNat; omega
  | ⟨1, _⟩ =>
    show 0 + 1 * ((Shape.reshapeEquiv sq.numel_eq z) (1 : Fin 2)).val = (z 0).val
    rw [hz]; show 0 + 1 * (z 0).val = (z 0).val; omega

omit [FloatOps F] in
/-- The `j`-th word the body loads at point `t` is the table's word at position `32 t + j`. -/
theorem word_at (t : Fin grid0.N) (T : S256.Idx → Elt F .i32) (j : Fin 32) (off : Fin 1 → ℕ) (inb : ∀ a, off a + S1.size a ≤ S256.size a)
    (hf : 0 < S1.numel) (hoff : off 0 = 32 * t.val + j.val) (hj : 32 * t.val + j.val < 256) :
    View.readAt (Elt F) (Memref.whole main_v2).view (Rect.unit (s := S256) off S1.size inb).toLoadRect T (Shape.Idx.first hf)
      = T (ix1 (⟨32 * t.val + j.val, hj⟩ : Fin 256)) := by
  rw [word_eq T off inb hf (by rw [hoff]; exact hj)]
  exact congrArg T (congrArg ix1 (Fin.ext hoff))

/-- The payload of the `j`-th copy — the source's row named by the word `w` — is row `j` of the gathered block. -/
theorem row_payload (T : S256.Idx → Elt F .i32) (S : S4000x32000.Idx → Elt F .f32) (n : ℕ) (j : Fin 32) (hj : 32 * n + j.val < 256)
    (hT : ∀ k : Fin 256, (T (ix1 k)).toNat < 4000) (w : BitVec 32) (hw_eq : w = T (ix1 (⟨32 * n + j.val, hj⟩ : Fin 256)))
    (hw : ∀ a, (![w.toNat, 0] : Fin 2 → ℕ) a + S1x32000.size a ≤ S4000x32000.size a)
    (hs : ∀ a, (Rect.unit (s := S4000x32000) ![w.toNat, 0] S1x32000.size hw).stride a = 1) (sq : S1x32000.Squeezes S32000) (z : S32000.Idx) :
    View.read (Elt F) (((Memref.whole main_v3).slice (Rect.unit (s := S4000x32000) ![w.toNat, 0] S1x32000.size hw) hs).squeeze S32000 sq).view S z
      = gathv T S n (ix2 j (⟨(z 0).val, (z 0).isLt⟩ : Fin 32000)) := by
  subst hw_eq
  rw [srcRow_read S _ hw hs sq (hT _) z, gathv_apply T S n j _ hj (hT _)]

/-- A row left at the listed whole write of a payload that is row `j` of a block `X` holds, on the row's elements, what
    the block written whole through the block's view holds. -/
theorem row_settle (c : Dev nD) (M3 : Memref sig .tc .vmem S32x32000 .f32) (f3 : Buf (Elt F) (M3.view.loc (c : Thread nD τ))) (j : ℕ) (hj : j < 32)
    (h : ∀ a, (![j, 0] : Fin 2 → ℕ) a + S1x32000.size a ≤ S32x32000.size a)
    (p : S32000.Idx → Elt F .f32) (X : S32x32000.Idx → Elt F .f32)
    (hp : ∀ z : S32000.Idx, p z = X (ix2 (⟨j, hj⟩ : Fin 32) (⟨(z 0).val, (z 0).isLt⟩ : Fin 32000))) :
    (((rowM M3 j h).view.loc (c : Thread nD τ) ↦[(rowM M3 j h).view.set]{fullShare} ((rowM M3 j h).view.writes (Elt F) f3 [⟨Rect.whole S32000, p⟩])) : sProp 𝕄)
      = ((rowM M3 j h).view.loc (c : Thread nD τ) ↦[(rowM M3 j h).view.set]{fullShare} (M3.view.write (Elt F) f3 X Finset.univ)) := by
  refine pointsTo_congr fun i hi => ?_
  obtain ⟨z, -, rfl⟩ := Finset.mem_map.mp hi
  have h1 : (rowM M3 j h).view.read (Elt F) ((rowM M3 j h).view.writes (Elt F) f3 [⟨Rect.whole S32000, p⟩]) z = p z :=
    congrFun (View.read_writes_whole _ _ _) z
  have h2 : (rowM M3 j h).view.read (Elt F) (M3.view.write (Elt F) f3 X Finset.univ) z = X (ix2 (⟨j, hj⟩ : Fin 32) (⟨(z 0).val, (z 0).isLt⟩ : Fin 32000)) := by
    have e : (rowM M3 j h).view.read (Elt F) (M3.view.write (Elt F) f3 X Finset.univ) z
        = M3.view.read (Elt F) (M3.view.write (Elt F) f3 X Finset.univ)
            ((Rect.unit (s := S32x32000) ![j, 0] S1x32000.size h).emb (Shape.reshapeEquiv Facts₀.squeezes_S1x32000_S32000.numel_eq z)) := rfl
    rw [e, View.read_write_univ]
    refine congrArg X (funext fun a => Fin.ext ?_)
    have hz := Shape.reshapeEquiv_cons_one (n := 1) (d := ![32000]) Facts₀.squeezes_S1x32000_S32000.numel_eq z
    match a with
    | ⟨0, _⟩ =>
      show j + 1 * ((Shape.reshapeEquiv Facts₀.squeezes_S1x32000_S32000.numel_eq z) (0 : Fin 2)).val = j
      rw [hz]; show j + 1 * 0 = j; omega
    | ⟨1, _⟩ =>
      show 0 + 1 * ((Shape.reshapeEquiv Facts₀.squeezes_S1x32000_S32000.numel_eq z) (1 : Fin 2)).val = (z 0).val
      rw [hz]; show 0 + 1 * (z 0).val = (z 0).val; omega
  have h3 := h1.trans ((hp z).trans h2.symm)
  rw [View.read_apply, View.read_apply] at h3
  exact (cast_inj _).mp h3

/-- The thirty-two counters at zero, one by one. -/
abbrev semsL (c : Dev nD) : sProp 𝕄 := iprop(semVal ((c : Thread nD τ), osem0 0) 0 ∗ semVal ((c : Thread nD τ), osem0 1) 0 ∗ semVal ((c : Thread nD τ), osem0 2) 0 ∗ semVal ((c : Thread nD τ), osem0 3) 0 ∗ semVal ((c : Thread nD τ), osem0 4) 0 ∗ semVal ((c : Thread nD τ), osem0 5) 0 ∗ semVal ((c : Thread nD τ), osem0 6) 0 ∗ semVal ((c : Thread nD τ), osem0 7) 0 ∗ semVal ((c : Thread nD τ), osem0 8) 0 ∗ semVal ((c : Thread nD τ), osem0 9) 0 ∗ semVal ((c : Thread nD τ), osem0 10) 0 ∗ semVal ((c : Thread nD τ), osem0 11) 0 ∗ semVal ((c : Thread nD τ), osem0 12) 0 ∗ semVal ((c : Thread nD τ), osem0 13) 0 ∗ semVal ((c : Thread nD τ), osem0 14) 0 ∗ semVal ((c : Thread nD τ), osem0 15) 0 ∗ semVal ((c : Thread nD τ), osem0 16) 0 ∗ semVal ((c : Thread nD τ), osem0 17) 0 ∗ semVal ((c : Thread nD τ), osem0 18) 0 ∗ semVal ((c : Thread nD τ), osem0 19) 0 ∗ semVal ((c : Thread nD τ), osem0 20) 0 ∗ semVal ((c : Thread nD τ), osem0 21) 0 ∗ semVal ((c : Thread nD τ), osem0 22) 0 ∗ semVal ((c : Thread nD τ), osem0 23) 0 ∗ semVal ((c : Thread nD τ), osem0 24) 0 ∗ semVal ((c : Thread nD τ), osem0 25) 0 ∗ semVal ((c : Thread nD τ), osem0 26) 0 ∗ semVal ((c : Thread nD τ), osem0 27) 0 ∗ semVal ((c : Thread nD τ), osem0 28) 0 ∗ semVal ((c : Thread nD τ), osem0 29) 0 ∗ semVal ((c : Thread nD τ), osem0 30) 0 ∗ semVal ((c : Thread nD τ), osem0 31) 0)

theorem semsL_eq (c : Dev nD) : (sems0 (F := F) c) = semsL c :=
  Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)

set_option maxHeartbeats 4000000 in
/-- From the table held whole at `T`, the source held whole at `S`, the output block's buffer at anything, the thirty-two
    counters at zero and the core owing nothing, with every table word a row number of the source: the body at point `t`
    runs to its return with the table and the source as they were, the counters at zero, the core owing nothing, and the
    output block at the gathered rows. The source is read by the thirty-two copies at once, each on its own cell's read
    share; the output block is held row by row, each copy landing in its own row; after the last wait the rows are put
    together and each row's payload is read as the source's row the table names. -/
theorem gather_run (c : Dev nD) (t : Fin grid0.N) (M3 : Memref sig .tc .vmem S32x32000 .f32) (h3 : M3.IsWhole)
    (T : S256.Idx → Elt F .i32) (S : S4000x32000.Idx → Elt F .f32)
    (hT : ∀ k : Fin 256, (T (ix1 k)).toNat < 4000)
    (W : Waits sig Unit) (Q : PUnit → sProp 𝕄) :
    iprop((((c : Thread nD τ).loc main_v2) ↦{fullShare} T) ∗ (((c : Thread nD τ).loc main_v3) ↦{fullShare} S)
      ∗ (∃ d, owns (c : Thread nD τ) M3 fullShare d) ∗ sems0 c ∗ owes (c : Thread nD τ) 0 W
      ∗ (iprop((((c : Thread nD τ).loc main_v2) ↦{fullShare} T) ∗ (((c : Thread nD τ).loc main_v3) ↦{fullShare} S)
            ∗ owns (c : Thread nD τ) M3 fullShare (gathv T S t.val) ∗ sems0 c ∗ ∃ W', owes (c : Thread nD τ) 0 W') -∗ Q ⟨⟩))
    ⊢ wp frame (wpE (defs₀ (F := F)) Variants.none c none) Set.univ
        (cc0__gather_kernel (grid0.coords t) (Memref.whole main_v2) (Memref.isWhole_whole _) (Memref.whole main_v3) (Memref.isWhole_whole _) M3 h3 cc0_scratch0) Q := by
  have ht8 : t.val < 8 := lt_of_lt_of_eq t.isLt N_0
  unfold owns
  iintro ⟨HT0, HS0', ⟨%d, %f3, %hf3, H3⟩, Hsems, HO, Hk⟩
  ihave HT := (show ((((c : Thread nD τ).loc main_v2) ↦{fullShare} T : sProp 𝕄)) ⊢ ((Memref.whole main_v2).view.loc (c : Thread nD τ) ↦{fullShare} T) from .rfl) $$ HT0
  ihave HS := (show ((((c : Thread nD τ).loc main_v3) ↦{fullShare} S : sProp 𝕄)) ⊢ ((Memref.whole main_v3).view.loc (c : Thread nD τ) ↦{fullShare} S) from .rfl) $$ HS0'
  ihave Hsems' := (Entails.of_eq (semsL_eq c)) $$ Hsems
  icases Hsems' with ⟨Hd0, Hd1, Hd2, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31⟩
  ihave HS' := (src_split c S) $$ HS
  icases HS' with ⟨HSr, HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33⟩
  ihave H3' := (Entails.of_eq (dst_rows_chain c M3 f3)) $$ H3
  icases H3' with ⟨R0, R1, R2, R3, R4, R5, R6, R7, R8, R9, R10, R11, R12, R13, R14, R15, R16, R17, R18, R19, R20, R21, R22, R23, R24, R25, R26, R27, R28, R29, R30, R31⟩
  sl_exec (disch := first | exact And.intro (offs_inb _ (lt_of_tbl hT _)) (offs_inb _ (lt_of_tbl hT _)) | exact offs_inb _ (lt_of_tbl hT _))
  sl_step
  have hp0 : ∀ z : S32000.Idx, gather_run.sl.dma1 t T S hT z = gathv T S t.val (ix2 (0 : Fin 32) (⟨(z 0).val, (z 0).isLt⟩ : Fin 32000)) := fun z =>
    row_payload T S t.val 0 (tblIdx_lt t.val ht8 0) hT (gather_run.sl.r t T)
      (word_at t T 0 (k0_off1 (grid0.coords t)) _ _
        (show (Scalar.indexCast (Scalar.addi (Scalar.muli (BitVec.ofNat 32 (grid0.coords t 0).val) 32#32) (BitVec.ofNat 32 0))).toNat = 32 * t.val + 0 by
          rw [wordIdx _ 0 (by rw [coords0]; exact ht8) (by decide), coords0]) (tblIdx_lt t.val ht8 0))
      _ _ _ z
  have hp1 : ∀ z : S32000.Idx, gather_run.sl.dma2 t T S hT z = gathv T S t.val (ix2 (1 : Fin 32) (⟨(z 0).val, (z 0).isLt⟩ : Fin 32000)) := fun z =>
    row_payload T S t.val 1 (tblIdx_lt t.val ht8 1) hT (gather_run.sl.r_1 t T)
      (word_at t T 1 (k0_off3 (grid0.coords t)) _ _
        (show (Scalar.indexCast (Scalar.addi (Scalar.muli (BitVec.ofNat 32 (grid0.coords t 0).val) 32#32) (BitVec.ofNat 32 1))).toNat = 32 * t.val + 1 by
          rw [wordIdx _ 1 (by rw [coords0]; exact ht8) (by decide), coords0]) (tblIdx_lt t.val ht8 1))
      _ _ _ z
  have hp2 : ∀ z : S32000.Idx, gather_run.sl.dma3 t T S hT z = gathv T S t.val (ix2 (2 : Fin 32) (⟨(z 0).val, (z 0).isLt⟩ : Fin 32000)) := fun z =>
    row_payload T S t.val 2 (tblIdx_lt t.val ht8 2) hT (gather_run.sl.r_2 t T)
      (word_at t T 2 (k0_off5 (grid0.coords t)) _ _
        (show (Scalar.indexCast (Scalar.addi (Scalar.muli (BitVec.ofNat 32 (grid0.coords t 0).val) 32#32) (BitVec.ofNat 32 2))).toNat = 32 * t.val + 2 by
          rw [wordIdx _ 2 (by rw [coords0]; exact ht8) (by decide), coords0]) (tblIdx_lt t.val ht8 2))
      _ _ _ z
  have hp3 : ∀ z : S32000.Idx, gather_run.sl.dma4 t T S hT z = gathv T S t.val (ix2 (3 : Fin 32) (⟨(z 0).val, (z 0).isLt⟩ : Fin 32000)) := fun z =>
    row_payload T S t.val 3 (tblIdx_lt t.val ht8 3) hT (gather_run.sl.r_3 t T)
      (word_at t T 3 (k0_off7 (grid0.coords t)) _ _
        (show (Scalar.indexCast (Scalar.addi (Scalar.muli (BitVec.ofNat 32 (grid0.coords t 0).val) 32#32) (BitVec.ofNat 32 3))).toNat = 32 * t.val + 3 by
          rw [wordIdx _ 3 (by rw [coords0]; exact ht8) (by decide), coords0]) (tblIdx_lt t.val ht8 3))
      _ _ _ z
  have hp4 : ∀ z : S32000.Idx, gather_run.sl.dma5 t T S hT z = gathv T S t.val (ix2 (4 : Fin 32) (⟨(z 0).val, (z 0).isLt⟩ : Fin 32000)) := fun z =>
    row_payload T S t.val 4 (tblIdx_lt t.val ht8 4) hT (gather_run.sl.r_4 t T)
      (word_at t T 4 (k0_off9 (grid0.coords t)) _ _
        (show (Scalar.indexCast (Scalar.addi (Scalar.muli (BitVec.ofNat 32 (grid0.coords t 0).val) 32#32) (BitVec.ofNat 32 4))).toNat = 32 * t.val + 4 by
          rw [wordIdx _ 4 (by rw [coords0]; exact ht8) (by decide), coords0]) (tblIdx_lt t.val ht8 4))
      _ _ _ z
  have hp5 : ∀ z : S32000.Idx, gather_run.sl.dma6 t T S hT z = gathv T S t.val (ix2 (5 : Fin 32) (⟨(z 0).val, (z 0).isLt⟩ : Fin 32000)) := fun z =>
    row_payload T S t.val 5 (tblIdx_lt t.val ht8 5) hT (gather_run.sl.r_5 t T)
      (word_at t T 5 (k0_off11 (grid0.coords t)) _ _
        (show (Scalar.indexCast (Scalar.addi (Scalar.muli (BitVec.ofNat 32 (grid0.coords t 0).val) 32#32) (BitVec.ofNat 32 5))).toNat = 32 * t.val + 5 by
          rw [wordIdx _ 5 (by rw [coords0]; exact ht8) (by decide), coords0]) (tblIdx_lt t.val ht8 5))
      _ _ _ z
  have hp6 : ∀ z : S32000.Idx, gather_run.sl.dma7 t T S hT z = gathv T S t.val (ix2 (6 : Fin 32) (⟨(z 0).val, (z 0).isLt⟩ : Fin 32000)) := fun z =>
    row_payload T S t.val 6 (tblIdx_lt t.val ht8 6) hT (gather_run.sl.r_6 t T)
      (word_at t T 6 (k0_off13 (grid0.coords t)) _ _
        (show (Scalar.indexCast (Scalar.addi (Scalar.muli (BitVec.ofNat 32 (grid0.coords t 0).val) 32#32) (BitVec.ofNat 32 6))).toNat = 32 * t.val + 6 by
          rw [wordIdx _ 6 (by rw [coords0]; exact ht8) (by decide), coords0]) (tblIdx_lt t.val ht8 6))
      _ _ _ z
  have hp7 : ∀ z : S32000.Idx, gather_run.sl.dma8 t T S hT z = gathv T S t.val (ix2 (7 : Fin 32) (⟨(z 0).val, (z 0).isLt⟩ : Fin 32000)) := fun z =>
    row_payload T S t.val 7 (tblIdx_lt t.val ht8 7) hT (gather_run.sl.r_7 t T)
      (word_at t T 7 (k0_off15 (grid0.coords t)) _ _
        (show (Scalar.indexCast (Scalar.addi (Scalar.muli (BitVec.ofNat 32 (grid0.coords t 0).val) 32#32) (BitVec.ofNat 32 7))).toNat = 32 * t.val + 7 by
          rw [wordIdx _ 7 (by rw [coords0]; exact ht8) (by decide), coords0]) (tblIdx_lt t.val ht8 7))
      _ _ _ z
  have hp8 : ∀ z : S32000.Idx, gather_run.sl.dma9 t T S hT z = gathv T S t.val (ix2 (8 : Fin 32) (⟨(z 0).val, (z 0).isLt⟩ : Fin 32000)) := fun z =>
    row_payload T S t.val 8 (tblIdx_lt t.val ht8 8) hT (gather_run.sl.r_8 t T)
      (word_at t T 8 (k0_off17 (grid0.coords t)) _ _
        (show (Scalar.indexCast (Scalar.addi (Scalar.muli (BitVec.ofNat 32 (grid0.coords t 0).val) 32#32) (BitVec.ofNat 32 8))).toNat = 32 * t.val + 8 by
          rw [wordIdx _ 8 (by rw [coords0]; exact ht8) (by decide), coords0]) (tblIdx_lt t.val ht8 8))
      _ _ _ z
  have hp9 : ∀ z : S32000.Idx, gather_run.sl.dma10 t T S hT z = gathv T S t.val (ix2 (9 : Fin 32) (⟨(z 0).val, (z 0).isLt⟩ : Fin 32000)) := fun z =>
    row_payload T S t.val 9 (tblIdx_lt t.val ht8 9) hT (gather_run.sl.r_9 t T)
      (word_at t T 9 (k0_off19 (grid0.coords t)) _ _
        (show (Scalar.indexCast (Scalar.addi (Scalar.muli (BitVec.ofNat 32 (grid0.coords t 0).val) 32#32) (BitVec.ofNat 32 9))).toNat = 32 * t.val + 9 by
          rw [wordIdx _ 9 (by rw [coords0]; exact ht8) (by decide), coords0]) (tblIdx_lt t.val ht8 9))
      _ _ _ z
  have hp10 : ∀ z : S32000.Idx, gather_run.sl.dma11 t T S hT z = gathv T S t.val (ix2 (10 : Fin 32) (⟨(z 0).val, (z 0).isLt⟩ : Fin 32000)) := fun z =>
    row_payload T S t.val 10 (tblIdx_lt t.val ht8 10) hT (gather_run.sl.r_10 t T)
      (word_at t T 10 (k0_off21 (grid0.coords t)) _ _
        (show (Scalar.indexCast (Scalar.addi (Scalar.muli (BitVec.ofNat 32 (grid0.coords t 0).val) 32#32) (BitVec.ofNat 32 10))).toNat = 32 * t.val + 10 by
          rw [wordIdx _ 10 (by rw [coords0]; exact ht8) (by decide), coords0]) (tblIdx_lt t.val ht8 10))
      _ _ _ z
  have hp11 : ∀ z : S32000.Idx, gather_run.sl.dma12 t T S hT z = gathv T S t.val (ix2 (11 : Fin 32) (⟨(z 0).val, (z 0).isLt⟩ : Fin 32000)) := fun z =>
    row_payload T S t.val 11 (tblIdx_lt t.val ht8 11) hT (gather_run.sl.r_11 t T)
      (word_at t T 11 (k0_off23 (grid0.coords t)) _ _
        (show (Scalar.indexCast (Scalar.addi (Scalar.muli (BitVec.ofNat 32 (grid0.coords t 0).val) 32#32) (BitVec.ofNat 32 11))).toNat = 32 * t.val + 11 by
          rw [wordIdx _ 11 (by rw [coords0]; exact ht8) (by decide), coords0]) (tblIdx_lt t.val ht8 11))
      _ _ _ z
  have hp12 : ∀ z : S32000.Idx, gather_run.sl.dma13 t T S hT z = gathv T S t.val (ix2 (12 : Fin 32) (⟨(z 0).val, (z 0).isLt⟩ : Fin 32000)) := fun z =>
    row_payload T S t.val 12 (tblIdx_lt t.val ht8 12) hT (gather_run.sl.r_12 t T)
      (word_at t T 12 (k0_off25 (grid0.coords t)) _ _
        (show (Scalar.indexCast (Scalar.addi (Scalar.muli (BitVec.ofNat 32 (grid0.coords t 0).val) 32#32) (BitVec.ofNat 32 12))).toNat = 32 * t.val + 12 by
          rw [wordIdx _ 12 (by rw [coords0]; exact ht8) (by decide), coords0]) (tblIdx_lt t.val ht8 12))
      _ _ _ z
  have hp13 : ∀ z : S32000.Idx, gather_run.sl.dma14 t T S hT z = gathv T S t.val (ix2 (13 : Fin 32) (⟨(z 0).val, (z 0).isLt⟩ : Fin 32000)) := fun z =>
    row_payload T S t.val 13 (tblIdx_lt t.val ht8 13) hT (gather_run.sl.r_13 t T)
      (word_at t T 13 (k0_off27 (grid0.coords t)) _ _
        (show (Scalar.indexCast (Scalar.addi (Scalar.muli (BitVec.ofNat 32 (grid0.coords t 0).val) 32#32) (BitVec.ofNat 32 13))).toNat = 32 * t.val + 13 by
          rw [wordIdx _ 13 (by rw [coords0]; exact ht8) (by decide), coords0]) (tblIdx_lt t.val ht8 13))
      _ _ _ z
  have hp14 : ∀ z : S32000.Idx, gather_run.sl.dma15 t T S hT z = gathv T S t.val (ix2 (14 : Fin 32) (⟨(z 0).val, (z 0).isLt⟩ : Fin 32000)) := fun z =>
    row_payload T S t.val 14 (tblIdx_lt t.val ht8 14) hT (gather_run.sl.r_14 t T)
      (word_at t T 14 (k0_off29 (grid0.coords t)) _ _
        (show (Scalar.indexCast (Scalar.addi (Scalar.muli (BitVec.ofNat 32 (grid0.coords t 0).val) 32#32) (BitVec.ofNat 32 14))).toNat = 32 * t.val + 14 by
          rw [wordIdx _ 14 (by rw [coords0]; exact ht8) (by decide), coords0]) (tblIdx_lt t.val ht8 14))
      _ _ _ z
  have hp15 : ∀ z : S32000.Idx, gather_run.sl.dma16 t T S hT z = gathv T S t.val (ix2 (15 : Fin 32) (⟨(z 0).val, (z 0).isLt⟩ : Fin 32000)) := fun z =>
    row_payload T S t.val 15 (tblIdx_lt t.val ht8 15) hT (gather_run.sl.r_15 t T)
      (word_at t T 15 (k0_off31 (grid0.coords t)) _ _
        (show (Scalar.indexCast (Scalar.addi (Scalar.muli (BitVec.ofNat 32 (grid0.coords t 0).val) 32#32) (BitVec.ofNat 32 15))).toNat = 32 * t.val + 15 by
          rw [wordIdx _ 15 (by rw [coords0]; exact ht8) (by decide), coords0]) (tblIdx_lt t.val ht8 15))
      _ _ _ z
  have hp16 : ∀ z : S32000.Idx, gather_run.sl.dma17 t T S hT z = gathv T S t.val (ix2 (16 : Fin 32) (⟨(z 0).val, (z 0).isLt⟩ : Fin 32000)) := fun z =>
    row_payload T S t.val 16 (tblIdx_lt t.val ht8 16) hT (gather_run.sl.r_16 t T)
      (word_at t T 16 (k0_off33 (grid0.coords t)) _ _
        (show (Scalar.indexCast (Scalar.addi (Scalar.muli (BitVec.ofNat 32 (grid0.coords t 0).val) 32#32) (BitVec.ofNat 32 16))).toNat = 32 * t.val + 16 by
          rw [wordIdx _ 16 (by rw [coords0]; exact ht8) (by decide), coords0]) (tblIdx_lt t.val ht8 16))
      _ _ _ z
  have hp17 : ∀ z : S32000.Idx, gather_run.sl.dma18 t T S hT z = gathv T S t.val (ix2 (17 : Fin 32) (⟨(z 0).val, (z 0).isLt⟩ : Fin 32000)) := fun z =>
    row_payload T S t.val 17 (tblIdx_lt t.val ht8 17) hT (gather_run.sl.r_17 t T)
      (word_at t T 17 (k0_off35 (grid0.coords t)) _ _
        (show (Scalar.indexCast (Scalar.addi (Scalar.muli (BitVec.ofNat 32 (grid0.coords t 0).val) 32#32) (BitVec.ofNat 32 17))).toNat = 32 * t.val + 17 by
          rw [wordIdx _ 17 (by rw [coords0]; exact ht8) (by decide), coords0]) (tblIdx_lt t.val ht8 17))
      _ _ _ z
  have hp18 : ∀ z : S32000.Idx, gather_run.sl.dma19 t T S hT z = gathv T S t.val (ix2 (18 : Fin 32) (⟨(z 0).val, (z 0).isLt⟩ : Fin 32000)) := fun z =>
    row_payload T S t.val 18 (tblIdx_lt t.val ht8 18) hT (gather_run.sl.r_18 t T)
      (word_at t T 18 (k0_off37 (grid0.coords t)) _ _
        (show (Scalar.indexCast (Scalar.addi (Scalar.muli (BitVec.ofNat 32 (grid0.coords t 0).val) 32#32) (BitVec.ofNat 32 18))).toNat = 32 * t.val + 18 by
          rw [wordIdx _ 18 (by rw [coords0]; exact ht8) (by decide), coords0]) (tblIdx_lt t.val ht8 18))
      _ _ _ z
  have hp19 : ∀ z : S32000.Idx, gather_run.sl.dma20 t T S hT z = gathv T S t.val (ix2 (19 : Fin 32) (⟨(z 0).val, (z 0).isLt⟩ : Fin 32000)) := fun z =>
    row_payload T S t.val 19 (tblIdx_lt t.val ht8 19) hT (gather_run.sl.r_19 t T)
      (word_at t T 19 (k0_off39 (grid0.coords t)) _ _
        (show (Scalar.indexCast (Scalar.addi (Scalar.muli (BitVec.ofNat 32 (grid0.coords t 0).val) 32#32) (BitVec.ofNat 32 19))).toNat = 32 * t.val + 19 by
          rw [wordIdx _ 19 (by rw [coords0]; exact ht8) (by decide), coords0]) (tblIdx_lt t.val ht8 19))
      _ _ _ z
  have hp20 : ∀ z : S32000.Idx, gather_run.sl.dma21 t T S hT z = gathv T S t.val (ix2 (20 : Fin 32) (⟨(z 0).val, (z 0).isLt⟩ : Fin 32000)) := fun z =>
    row_payload T S t.val 20 (tblIdx_lt t.val ht8 20) hT (gather_run.sl.r_20 t T)
      (word_at t T 20 (k0_off41 (grid0.coords t)) _ _
        (show (Scalar.indexCast (Scalar.addi (Scalar.muli (BitVec.ofNat 32 (grid0.coords t 0).val) 32#32) (BitVec.ofNat 32 20))).toNat = 32 * t.val + 20 by
          rw [wordIdx _ 20 (by rw [coords0]; exact ht8) (by decide), coords0]) (tblIdx_lt t.val ht8 20))
      _ _ _ z
  have hp21 : ∀ z : S32000.Idx, gather_run.sl.dma22 t T S hT z = gathv T S t.val (ix2 (21 : Fin 32) (⟨(z 0).val, (z 0).isLt⟩ : Fin 32000)) := fun z =>
    row_payload T S t.val 21 (tblIdx_lt t.val ht8 21) hT (gather_run.sl.r_21 t T)
      (word_at t T 21 (k0_off43 (grid0.coords t)) _ _
        (show (Scalar.indexCast (Scalar.addi (Scalar.muli (BitVec.ofNat 32 (grid0.coords t 0).val) 32#32) (BitVec.ofNat 32 21))).toNat = 32 * t.val + 21 by
          rw [wordIdx _ 21 (by rw [coords0]; exact ht8) (by decide), coords0]) (tblIdx_lt t.val ht8 21))
      _ _ _ z
  have hp22 : ∀ z : S32000.Idx, gather_run.sl.dma23 t T S hT z = gathv T S t.val (ix2 (22 : Fin 32) (⟨(z 0).val, (z 0).isLt⟩ : Fin 32000)) := fun z =>
    row_payload T S t.val 22 (tblIdx_lt t.val ht8 22) hT (gather_run.sl.r_22 t T)
      (word_at t T 22 (k0_off45 (grid0.coords t)) _ _
        (show (Scalar.indexCast (Scalar.addi (Scalar.muli (BitVec.ofNat 32 (grid0.coords t 0).val) 32#32) (BitVec.ofNat 32 22))).toNat = 32 * t.val + 22 by
          rw [wordIdx _ 22 (by rw [coords0]; exact ht8) (by decide), coords0]) (tblIdx_lt t.val ht8 22))
      _ _ _ z
  have hp23 : ∀ z : S32000.Idx, gather_run.sl.dma24 t T S hT z = gathv T S t.val (ix2 (23 : Fin 32) (⟨(z 0).val, (z 0).isLt⟩ : Fin 32000)) := fun z =>
    row_payload T S t.val 23 (tblIdx_lt t.val ht8 23) hT (gather_run.sl.r_23 t T)
      (word_at t T 23 (k0_off47 (grid0.coords t)) _ _
        (show (Scalar.indexCast (Scalar.addi (Scalar.muli (BitVec.ofNat 32 (grid0.coords t 0).val) 32#32) (BitVec.ofNat 32 23))).toNat = 32 * t.val + 23 by
          rw [wordIdx _ 23 (by rw [coords0]; exact ht8) (by decide), coords0]) (tblIdx_lt t.val ht8 23))
      _ _ _ z
  have hp24 : ∀ z : S32000.Idx, gather_run.sl.dma25 t T S hT z = gathv T S t.val (ix2 (24 : Fin 32) (⟨(z 0).val, (z 0).isLt⟩ : Fin 32000)) := fun z =>
    row_payload T S t.val 24 (tblIdx_lt t.val ht8 24) hT (gather_run.sl.r_24 t T)
      (word_at t T 24 (k0_off49 (grid0.coords t)) _ _
        (show (Scalar.indexCast (Scalar.addi (Scalar.muli (BitVec.ofNat 32 (grid0.coords t 0).val) 32#32) (BitVec.ofNat 32 24))).toNat = 32 * t.val + 24 by
          rw [wordIdx _ 24 (by rw [coords0]; exact ht8) (by decide), coords0]) (tblIdx_lt t.val ht8 24))
      _ _ _ z
  have hp25 : ∀ z : S32000.Idx, gather_run.sl.dma26 t T S hT z = gathv T S t.val (ix2 (25 : Fin 32) (⟨(z 0).val, (z 0).isLt⟩ : Fin 32000)) := fun z =>
    row_payload T S t.val 25 (tblIdx_lt t.val ht8 25) hT (gather_run.sl.r_25 t T)
      (word_at t T 25 (k0_off51 (grid0.coords t)) _ _
        (show (Scalar.indexCast (Scalar.addi (Scalar.muli (BitVec.ofNat 32 (grid0.coords t 0).val) 32#32) (BitVec.ofNat 32 25))).toNat = 32 * t.val + 25 by
          rw [wordIdx _ 25 (by rw [coords0]; exact ht8) (by decide), coords0]) (tblIdx_lt t.val ht8 25))
      _ _ _ z
  have hp26 : ∀ z : S32000.Idx, gather_run.sl.dma27 t T S hT z = gathv T S t.val (ix2 (26 : Fin 32) (⟨(z 0).val, (z 0).isLt⟩ : Fin 32000)) := fun z =>
    row_payload T S t.val 26 (tblIdx_lt t.val ht8 26) hT (gather_run.sl.r_26 t T)
      (word_at t T 26 (k0_off53 (grid0.coords t)) _ _
        (show (Scalar.indexCast (Scalar.addi (Scalar.muli (BitVec.ofNat 32 (grid0.coords t 0).val) 32#32) (BitVec.ofNat 32 26))).toNat = 32 * t.val + 26 by
          rw [wordIdx _ 26 (by rw [coords0]; exact ht8) (by decide), coords0]) (tblIdx_lt t.val ht8 26))
      _ _ _ z
  have hp27 : ∀ z : S32000.Idx, gather_run.sl.dma28 t T S hT z = gathv T S t.val (ix2 (27 : Fin 32) (⟨(z 0).val, (z 0).isLt⟩ : Fin 32000)) := fun z =>
    row_payload T S t.val 27 (tblIdx_lt t.val ht8 27) hT (gather_run.sl.r_27 t T)
      (word_at t T 27 (k0_off55 (grid0.coords t)) _ _
        (show (Scalar.indexCast (Scalar.addi (Scalar.muli (BitVec.ofNat 32 (grid0.coords t 0).val) 32#32) (BitVec.ofNat 32 27))).toNat = 32 * t.val + 27 by
          rw [wordIdx _ 27 (by rw [coords0]; exact ht8) (by decide), coords0]) (tblIdx_lt t.val ht8 27))
      _ _ _ z
  have hp28 : ∀ z : S32000.Idx, gather_run.sl.dma29 t T S hT z = gathv T S t.val (ix2 (28 : Fin 32) (⟨(z 0).val, (z 0).isLt⟩ : Fin 32000)) := fun z =>
    row_payload T S t.val 28 (tblIdx_lt t.val ht8 28) hT (gather_run.sl.r_28 t T)
      (word_at t T 28 (k0_off57 (grid0.coords t)) _ _
        (show (Scalar.indexCast (Scalar.addi (Scalar.muli (BitVec.ofNat 32 (grid0.coords t 0).val) 32#32) (BitVec.ofNat 32 28))).toNat = 32 * t.val + 28 by
          rw [wordIdx _ 28 (by rw [coords0]; exact ht8) (by decide), coords0]) (tblIdx_lt t.val ht8 28))
      _ _ _ z
  have hp29 : ∀ z : S32000.Idx, gather_run.sl.dma30 t T S hT z = gathv T S t.val (ix2 (29 : Fin 32) (⟨(z 0).val, (z 0).isLt⟩ : Fin 32000)) := fun z =>
    row_payload T S t.val 29 (tblIdx_lt t.val ht8 29) hT (gather_run.sl.r_29 t T)
      (word_at t T 29 (k0_off59 (grid0.coords t)) _ _
        (show (Scalar.indexCast (Scalar.addi (Scalar.muli (BitVec.ofNat 32 (grid0.coords t 0).val) 32#32) (BitVec.ofNat 32 29))).toNat = 32 * t.val + 29 by
          rw [wordIdx _ 29 (by rw [coords0]; exact ht8) (by decide), coords0]) (tblIdx_lt t.val ht8 29))
      _ _ _ z
  have hp30 : ∀ z : S32000.Idx, gather_run.sl.dma31 t T S hT z = gathv T S t.val (ix2 (30 : Fin 32) (⟨(z 0).val, (z 0).isLt⟩ : Fin 32000)) := fun z =>
    row_payload T S t.val 30 (tblIdx_lt t.val ht8 30) hT (gather_run.sl.r_30 t T)
      (word_at t T 30 (k0_off61 (grid0.coords t)) _ _
        (show (Scalar.indexCast (Scalar.addi (Scalar.muli (BitVec.ofNat 32 (grid0.coords t 0).val) 32#32) (BitVec.ofNat 32 30))).toNat = 32 * t.val + 30 by
          rw [wordIdx _ 30 (by rw [coords0]; exact ht8) (by decide), coords0]) (tblIdx_lt t.val ht8 30))
      _ _ _ z
  have hp31 : ∀ z : S32000.Idx, gather_run.sl.dma32 t T S hT z = gathv T S t.val (ix2 (31 : Fin 32) (⟨(z 0).val, (z 0).isLt⟩ : Fin 32000)) := fun z =>
    row_payload T S t.val 31 (tblIdx_lt t.val ht8 31) hT (gather_run.sl.r_31 t T)
      (word_at t T 31 (k0_off63 (grid0.coords t)) _ _
        (show (Scalar.indexCast (Scalar.addi (Scalar.muli (BitVec.ofNat 32 (grid0.coords t 0).val) 32#32) (BitVec.ofNat 32 31))).toNat = 32 * t.val + 31 by
          rw [wordIdx _ 31 (by rw [coords0]; exact ht8) (by decide), coords0]) (tblIdx_lt t.val ht8 31))
      _ _ _ z
  ihave R0' := (Entails.of_eq (row_settle c M3 f3 0 (by decide) _ _ (gathv T S t.val) hp0)) $$ R0
  ihave R1' := (Entails.of_eq (row_settle c M3 f3 1 (by decide) _ _ (gathv T S t.val) hp1)) $$ R1
  ihave R2' := (Entails.of_eq (row_settle c M3 f3 2 (by decide) _ _ (gathv T S t.val) hp2)) $$ R2
  ihave R3' := (Entails.of_eq (row_settle c M3 f3 3 (by decide) _ _ (gathv T S t.val) hp3)) $$ R3
  ihave R4' := (Entails.of_eq (row_settle c M3 f3 4 (by decide) _ _ (gathv T S t.val) hp4)) $$ R4
  ihave R5' := (Entails.of_eq (row_settle c M3 f3 5 (by decide) _ _ (gathv T S t.val) hp5)) $$ R5
  ihave R6' := (Entails.of_eq (row_settle c M3 f3 6 (by decide) _ _ (gathv T S t.val) hp6)) $$ R6
  ihave R7' := (Entails.of_eq (row_settle c M3 f3 7 (by decide) _ _ (gathv T S t.val) hp7)) $$ R7
  ihave R8' := (Entails.of_eq (row_settle c M3 f3 8 (by decide) _ _ (gathv T S t.val) hp8)) $$ R8
  ihave R9' := (Entails.of_eq (row_settle c M3 f3 9 (by decide) _ _ (gathv T S t.val) hp9)) $$ R9
  ihave R10' := (Entails.of_eq (row_settle c M3 f3 10 (by decide) _ _ (gathv T S t.val) hp10)) $$ R10
  ihave R11' := (Entails.of_eq (row_settle c M3 f3 11 (by decide) _ _ (gathv T S t.val) hp11)) $$ R11
  ihave R12' := (Entails.of_eq (row_settle c M3 f3 12 (by decide) _ _ (gathv T S t.val) hp12)) $$ R12
  ihave R13' := (Entails.of_eq (row_settle c M3 f3 13 (by decide) _ _ (gathv T S t.val) hp13)) $$ R13
  ihave R14' := (Entails.of_eq (row_settle c M3 f3 14 (by decide) _ _ (gathv T S t.val) hp14)) $$ R14
  ihave R15' := (Entails.of_eq (row_settle c M3 f3 15 (by decide) _ _ (gathv T S t.val) hp15)) $$ R15
  ihave R16' := (Entails.of_eq (row_settle c M3 f3 16 (by decide) _ _ (gathv T S t.val) hp16)) $$ R16
  ihave R17' := (Entails.of_eq (row_settle c M3 f3 17 (by decide) _ _ (gathv T S t.val) hp17)) $$ R17
  ihave R18' := (Entails.of_eq (row_settle c M3 f3 18 (by decide) _ _ (gathv T S t.val) hp18)) $$ R18
  ihave R19' := (Entails.of_eq (row_settle c M3 f3 19 (by decide) _ _ (gathv T S t.val) hp19)) $$ R19
  ihave R20' := (Entails.of_eq (row_settle c M3 f3 20 (by decide) _ _ (gathv T S t.val) hp20)) $$ R20
  ihave R21' := (Entails.of_eq (row_settle c M3 f3 21 (by decide) _ _ (gathv T S t.val) hp21)) $$ R21
  ihave R22' := (Entails.of_eq (row_settle c M3 f3 22 (by decide) _ _ (gathv T S t.val) hp22)) $$ R22
  ihave R23' := (Entails.of_eq (row_settle c M3 f3 23 (by decide) _ _ (gathv T S t.val) hp23)) $$ R23
  ihave R24' := (Entails.of_eq (row_settle c M3 f3 24 (by decide) _ _ (gathv T S t.val) hp24)) $$ R24
  ihave R25' := (Entails.of_eq (row_settle c M3 f3 25 (by decide) _ _ (gathv T S t.val) hp25)) $$ R25
  ihave R26' := (Entails.of_eq (row_settle c M3 f3 26 (by decide) _ _ (gathv T S t.val) hp26)) $$ R26
  ihave R27' := (Entails.of_eq (row_settle c M3 f3 27 (by decide) _ _ (gathv T S t.val) hp27)) $$ R27
  ihave R28' := (Entails.of_eq (row_settle c M3 f3 28 (by decide) _ _ (gathv T S t.val) hp28)) $$ R28
  ihave R29' := (Entails.of_eq (row_settle c M3 f3 29 (by decide) _ _ (gathv T S t.val) hp29)) $$ R29
  ihave R30' := (Entails.of_eq (row_settle c M3 f3 30 (by decide) _ _ (gathv T S t.val) hp30)) $$ R30
  ihave R31' := (Entails.of_eq (row_settle c M3 f3 31 (by decide) _ _ (gathv T S t.val) hp31)) $$ R31
  iapply Hk
  isplitl [HT]; · iexact HT
  isplitl [HSr HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33]
  · iapply (src_join c S)
    isplitl [HSr]; · iexact HSr
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    isplitl [HS25]; · iexact HS25
    isplitl [HS26]; · iexact HS26
    isplitl [HS27]; · iexact HS27
    isplitl [HS28]; · iexact HS28
    isplitl [HS29]; · iexact HS29
    isplitl [HS30]; · iexact HS30
    isplitl [HS31]; · iexact HS31
    isplitl [HS32]; · iexact HS32
    iexact HS33
  isplitl [R0' R1' R2' R3' R4' R5' R6' R7' R8' R9' R10' R11' R12' R13' R14' R15' R16' R17' R18' R19' R20' R21' R22' R23' R24' R25' R26' R27' R28' R29' R30' R31']
  · iexists (M3.view.write (Elt F) f3 (gathv T S t.val) Finset.univ)
    isplitr; · ipureintro; exact View.read_write_univ _ _
    iapply (Entails.of_eq (dst_rows_chain c M3 (M3.view.write (Elt F) f3 (gathv T S t.val) Finset.univ)).symm)
    isplitl [R0']; · iexact R0'
    isplitl [R1']; · iexact R1'
    isplitl [R2']; · iexact R2'
    isplitl [R3']; · iexact R3'
    isplitl [R4']; · iexact R4'
    isplitl [R5']; · iexact R5'
    isplitl [R6']; · iexact R6'
    isplitl [R7']; · iexact R7'
    isplitl [R8']; · iexact R8'
    isplitl [R9']; · iexact R9'
    isplitl [R10']; · iexact R10'
    isplitl [R11']; · iexact R11'
    isplitl [R12']; · iexact R12'
    isplitl [R13']; · iexact R13'
    isplitl [R14']; · iexact R14'
    isplitl [R15']; · iexact R15'
    isplitl [R16']; · iexact R16'
    isplitl [R17']; · iexact R17'
    isplitl [R18']; · iexact R18'
    isplitl [R19']; · iexact R19'
    isplitl [R20']; · iexact R20'
    isplitl [R21']; · iexact R21'
    isplitl [R22']; · iexact R22'
    isplitl [R23']; · iexact R23'
    isplitl [R24']; · iexact R24'
    isplitl [R25']; · iexact R25'
    isplitl [R26']; · iexact R26'
    isplitl [R27']; · iexact R27'
    isplitl [R28']; · iexact R28'
    isplitl [R29']; · iexact R29'
    isplitl [R30']; · iexact R30'
    iexact R31'
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · iapply (Entails.of_eq (semsL_eq c).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexists _; iexact HO

end Cert.Kernel.Hand

end
-- ==== Proof.Bits.Region0.lean ====
/-
  The gather region's proof data and invariant at any buffer contents at entry: the table's contents, the block each
  point leaves, the body obligation from the body's run, and the invariant's two ends.
-/
import proofs.«424303_j34282428957025_2_alg».proof.Proof.Bits.Gather

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MM F

/-- The TensorCore's buffer contents when the region is entered, per core. -/
abbrev Vals (F : FTy → Type) [FloatOps F] : Type := (c : Dev nD) → (b : Ref sig .tc) → Buf (Elt F) ((c : Thread nD τ).loc b)

variable (V : Vals F)

/-- The index table's contents at entry (one core: core 0's). -/
def tbl0 : pre0.Contents (Elt F) := fun | ⟨0, _⟩ => V 0 main_v2

/-- Every contents of the table is admissible: the pipeline's side condition on them is trivial. -/
def adm0 : (pcfg0 (F := F)).Adm := ⟨tbl0 V, trivial⟩

/-- Every table word is a row number of the source. -/
def Ok0 : Prop := ∀ k : Fin 256, ((V 0 main_v2 : S256.Idx → Elt F .i32) (ix1 k)).toNat < 4000

/-- The region's invariant: the source whole at its entry contents, the table whole at its contents, the thirty-two own
    counters at zero, and the scoped buffers no window stages. -/
def Φ0 (c : Dev nD) : sProp 𝕄 :=
  iprop((((c : Thread nD τ).loc main_v3) ↦{fullShare} V c main_v3) ∗ (((c : Thread nD τ).loc main_v2) ↦{fullShare} V 0 main_v2)
    ∗ sems0 c ∗ Pipeline.scopedRest (Ix := Unit) (Name := ℕ) (U := UC) (Lvl := ℕ) (Val := Elt F) spec0 c)

/-- The proof data on core `c`: the output array at its entry contents; after the body at point `t` the staging buffer
    holds the rows the table names there; the invariant; the full share; nothing owed. -/
def dat0 (c : Dev nD) : Pipeline.Dat τ (Elt F) Unit ℕ UC ℕ (cfg0 (adm0 V)) c where
  A w := V c (Pipeline.arrRef spec0 w)
  after w t := match w with | ⟨0, _⟩ => gathv (V 0 main_v2) (V c main_v3) t.val
  Φ _ := Φ0 V c
  q _ := fullShare
  owed _ := 0

/-- The layout the launch needs of the kernel's own semaphores: scoped, distinct, and no staging semaphore. -/
theorem ownSemFacts0 : Pipeline.OwnSemFacts spec0 osem0 := by decide

/-- What the region's entry hands the invariant besides the table and the scoped rest: the source and the own counters. -/
def X0 (c : Dev nD) : sProp 𝕄 := iprop((((c : Thread nD τ).loc main_v3) ↦{fullShare} V c main_v3) ∗ sems0 c)
/-- What the invariant gives back at the end: the source and the table. -/
def Y0 (c : Dev nD) : sProp 𝕄 :=
  iprop((((c : Thread nD τ).loc main_v3) ↦{fullShare} V c main_v3) ∗ (((c : Thread nD τ).loc main_v2) ↦{fullShare} V 0 main_v2))

/-- The staging buffer after the body at point `t`, read at a row and a column. -/
theorem after0_apply (hok : Ok0 V) (c : Dev nD) (t : Fin (cfg0 (adm0 V)).N) (j : Fin 32) (v : Fin 32000) (hj : 32 * t.val + j.val < 256) :
    (dat0 V c).after 0 t (ix2 j v)
      = (V c main_v3 : S4000x32000.Idx → Elt F .f32) (ix2 (⟨((V 0 main_v2 : S256.Idx → Elt F .i32) (ix1 (⟨32 * t.val + j.val, hj⟩ : Fin 256))).toNat, hok _⟩ : Fin 4000) v) := by
  dsimp only [dat0]
  exact gathv_apply _ _ _ j v hj (hok _)

/-- The body obligation: the invariant and the staging buffer taken apart, the body's run applied, its post reassembled. -/
theorem body_obligation0 (hok : Ok0 V) (c : Dev nD) : Pipeline.BodyObligation (dat0 V c) (defs₀ (F := F)) 𝒱₀ () Set.univ := fun t => by
  rw [bigSep_W0, bigSep_W0]
  dsimp only [dat0]
  unfold Φ0 Pipeline.Dat.owesAt Pipeline.owesWithin
  dsimp only
  iintro ⟨⟨HS, HT, Hsems, Hr⟩, ⟨%W, %hW, HO⟩, ⟨%d, Hd⟩⟩
  iapply (gather_run c t (spec0_0.stage ((cfg0 (adm0 V)).slots t 0)) (hstage0_0 (((cfg0 (adm0 V)).slots t 0).cast nbuf0_0)) (V 0 main_v2) (V c main_v3) hok W)
  isplitl [HT]; · iexact HT
  isplitl [HS]; · iexact HS
  isplitl [Hd]; · iexists _; iexact Hd
  isplitl [Hsems]; · iexact Hsems
  isplitl [HO]; · iexact HO
  iintro ⟨HT, HS, Hd, Hsems, ⟨%W', HO⟩⟩
  isplitl [HS HT Hsems Hr]
  · isplitl [HS]; · iexact HS
    isplitl [HT]; · iexact HT
    isplitl [Hsems]; · iexact Hsems
    iexact Hr
  isplitl [HO]
  · iexists W'; isplitr; · ipureintro; exact fun _ _ => Or.inl trivial
    iexact HO
  iexact Hd

/-- The invariant at the first point. -/
theorem hin0 (c : Dev nD) :
    iprop(X0 V c ∗ Pipeline.prefHeld pre0 c (fun _ => fullShare) (adm0 V).1 ∗ Pipeline.scopedRest spec0 c) ⊢ (dat0 V c).Φ 0 := by
  dsimp only [dat0]
  unfold Φ0 X0 Pipeline.prefHeld
  rw [bigSep_W0]
  iintro ⟨⟨HS, Hsems⟩, HT, Hr⟩
  isplitl [HS]; · iexact HS
  isplitl [HT]; · iexact HT
  isplitl [Hsems]; · iexact Hsems
  iexact Hr

/-- The invariant at the last point gives back the source, the table, the own counters at zero and the scoped rest. -/
theorem hout0 (c : Dev nD) :
    (dat0 V c).Φ (Fin.last _) ⊢ iprop(Y0 V c ∗ Pipeline.ownSems0 osem0 c ∗ Pipeline.scopedRest spec0 c) := by
  dsimp only [dat0]
  unfold Φ0 Y0
  iintro ⟨HS, HT, Hsems, Hr⟩
  isplitl [HS HT]
  · isplitl [HS]; · iexact HS
    iexact HT
  isplitl [Hsems]; · iexact Hsems
  iexact Hr

end Cert.Kernel.Hand

end
-- ==== Proof.Bits.HostValues.lean ====
/-
  What the two host stretches leave in the buffers the kernel regions read, index by index, and the array the gather
  region leaves.

  Before the first region the host computes the combined index table (word k = 8 · author word k + role word k) and
  reshapes the author array (500, 8, 32000) to (4000, 32000): row 8 a + r of the reshaped array is row (a, r). With the
  author words below 500 and the role words below 8 the table's words are below 4000 and the products do not wrap.
  Between the regions the host computes the one-hot array of the role words: entry (b, r) is the conversion of the bit
  "role word b = r". No stretch writes an argument. The gather region writes, at every grid point t, rows 32 t to
  32 t + 31 of its output; row b is covered by point b / 32, so the output ends holding, in row b, the row of the
  reshaped array that table word b names.
-/
import proofs.«424303_j34282428957025_2_alg».proof.Proof.Bits.Common
import proofs.«424303_j34282428957025_2_alg».proof.Proof.Bits.Region0
import proofs.«424303_j34282428957025_2_alg».proof.Proof.Gen.Kernel.Regions
import Idealize.ShloMosaic.Lib.Pipeline.Value
import Idealize.ShloMosaic.Lib.IdealHost
import Idealize.ShloMosaic.Lib.ValueIdx

noncomputable section

namespace Cert.Kernel.Hand

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (outs : Outs (F := F))

/-! ## The index table -/
/-- The table's word at row `k`: eight times the author's index plus the role's. -/
def tableWord (x0 x2 : S256.Idx → BitVec 32) (k : Fin 256) : BitVec 32 := x0 (ix1 k) * 8#32 + x2 (ix1 k)

/-- The combined index table as the host computes it. -/
theorem V1_main_v2 (c : Dev nD) :
    (V1 m c (Proc.devRef .tc main_v2) : S256.Idx → BitVec 32)
      = addi (muli (m ((c : Thread nD τ).loc main_arg0) : S256.Idx → BitVec 32) (broadcastInDim S256 ![] bcast_S_S256 (constantI S_ 32 8#32)))
          (m ((c : Thread nD τ).loc main_arg2) : S256.Idx → BitVec 32) := by
  show StableHlo.after hostOps0 _ (Proc.devRef .tc main_v2) = _
  after_results

/-- The table's word at row `k`, as the region finds it. -/
theorem V1_table (c : Dev nD) (k : Fin 256) :
    (V1 m c (Proc.devRef .tc main_v2) : S256.Idx → BitVec 32) (ix1 k)
      = tableWord (m ((c : Thread nD τ).loc main_arg0)) (m ((c : Thread nD τ).loc main_arg2)) k := by
  rw [V1_main_v2]
  rfl

/-- With the author words below 500 and the role words below 8 the table's word is below 4000, and is 8 · author + role
    as a natural number: neither the product nor the sum wraps. -/
theorem tableWord_lt (x0 x2 : S256.Idx → BitVec 32) (hm : ∀ b : Fin 256, (x0 (ix1 b)).toNat < 500) (hr : ∀ b : Fin 256, (x2 (ix1 b)).toNat < 8)
    (k : Fin 256) : (tableWord x0 x2 k).toNat < 4000 ∧ (tableWord x0 x2 k).toNat = 8 * (x0 (ix1 k)).toNat + (x2 (ix1 k)).toNat := by
  have h0 := hm k
  have h2 := hr k
  unfold tableWord
  rw [BitVec.toNat_add, BitVec.toNat_mul]
  have e8 : (8#32 : BitVec 32).toNat = 8 := rfl
  rw [e8]
  have h1 : (x0 (ix1 k)).toNat * 8 % 2 ^ 32 = (x0 (ix1 k)).toNat * 8 := Nat.mod_eq_of_lt (by omega)
  rw [h1]
  have h3 : ((x0 (ix1 k)).toNat * 8 + (x2 (ix1 k)).toNat) % 2 ^ 32 = (x0 (ix1 k)).toNat * 8 + (x2 (ix1 k)).toNat := Nat.mod_eq_of_lt (by omega)
  rw [h3]
  omega

/-- So every table word is a row number of the reshaped source. -/
theorem ok0_of_idx
    (hm : ∀ b : Fin 256, ((m (((0 : Dev nD) : Thread nD τ).loc main_arg0) : S256.Idx → BitVec 32) (ix1 b)).toNat < 500)
    (hr : ∀ b : Fin 256, ((m (((0 : Dev nD) : Thread nD τ).loc main_arg2) : S256.Idx → BitVec 32) (ix1 b)).toNat < 8) :
    Ok0 (F := F) (fun c b => V1 m c b) := by
  intro k
  show ((V1 m 0 (Proc.devRef .tc main_v2) : S256.Idx → BitVec 32) (ix1 k)).toNat < 4000
  rw [V1_table]
  exact (tableWord_lt _ _ hm hr k).1

/-! ## The reshaped source -/
/-- The reshaped source array as the host computes it. -/
theorem V1_main_v3 (c : Dev nD) :
    (V1 m c (Proc.devRef .tc main_v3) : S4000x32000.Idx → F .f32)
      = shapeCast S4000x32000 (m ((c : Thread nD τ).loc main_arg5) : S500x8x32000.Idx → F .f32) shapeCasts_S500x8x32000_S4000x32000 := by
  show StableHlo.after hostOps0 _ (Proc.devRef .tc main_v3) = _
  after_results
  rfl

/-- Row `8 a + r` of the reshaped array is row `(a, r)` of the three-axis one. -/
theorem reshape_read (x : S500x8x32000.Idx → F .f32) (a : Fin 500) (r : Fin 8) (v : Fin 32000) (q : Fin 4000) (hq : q.val = 8 * a.val + r.val) :
    shapeCast S4000x32000 x shapeCasts_S500x8x32000_S4000x32000 (ix2 q v) = x (ix3 a r v) := by
  refine shapeCast_apply x _ (ix2 q v) (ix3 a r v) ?_
  rw [Shape.rowMajor_val_three, Shape.rowMajor_val_two]
  show (a.val * 8 + r.val) * 32000 + v.val = q.val * 32000 + v.val
  rw [hq]; ring

/-- The reshaped source, as the first region finds it, read at row `8 a + r`. -/
theorem V1_source (c : Dev nD) (a : Fin 500) (r : Fin 8) (v : Fin 32000) (q : Fin 4000) (hq : q.val = 8 * a.val + r.val) :
    (V1 m c (Proc.devRef .tc main_v3) : S4000x32000.Idx → F .f32) (ix2 q v)
      = (m ((c : Thread nD τ).loc main_arg5) : S500x8x32000.Idx → F .f32) (ix3 a r v) := by
  rw [V1_main_v3]
  exact reshape_read _ a r v q hq

/-! ## The one-hot array -/
/-- The one-hot array as the host computes it. -/
theorem V3_main_v5 (c : Dev nD) :
    (V3 m outs c (Proc.devRef .tc main_v5) : S256x8.Idx → F .f32)
      = uitofp .f32 (cmpi .eq
          (broadcastInDim S256x8 ![0, 1] bcast_S256x1_S256x8_0_1 (broadcastInDim S256x1 ![0] bcast_S256_S256x1_0 (V2 m outs c (Proc.devRef .tc main_arg2) : S256.Idx → BitVec 32)))
          (broadcastInDim S256x8 ![0, 1] bcast_S1x8_S256x8_0_1 (iotaInDim S1x8 32 1))) := by
  show StableHlo.after hostOps1 _ (Proc.devRef .tc main_v5) = _
  after_results
  rfl

/-- The comparison of a row's word with the column's number, converted, read at a row and a column. -/
theorem onehot_read (x : S256.Idx → BitVec 32) (b : Fin 256) (r : Fin 8) :
    (uitofp .f32 (cmpi .eq
          (broadcastInDim S256x8 ![0, 1] bcast_S256x1_S256x8_0_1 (broadcastInDim S256x1 ![0] bcast_S256_S256x1_0 x))
          (broadcastInDim S256x8 ![0, 1] bcast_S1x8_S256x8_0_1 (iotaInDim S1x8 32 1))) : S256x8.Idx → F .f32) (ix2 b r)
      = FloatOps.uitofp .f32 (IntOp.cmpi .eq (x (ix1 b)) (BitVec.ofNat 32 r.val)) := by
  show FloatOps.uitofp .f32 (IntOp.cmpi .eq (broadcastInDim S256x8 ![0, 1] bcast_S256x1_S256x8_0_1 (broadcastInDim S256x1 ![0] bcast_S256_S256x1_0 x) (ix2 b r)) (broadcastInDim S256x8 ![0, 1] bcast_S1x8_S256x8_0_1 (iotaInDim S1x8 32 1) (ix2 b r))) = _
  have e1 : broadcastInDim S256x8 ![0, 1] bcast_S256x1_S256x8_0_1 (broadcastInDim S256x1 ![0] bcast_S256_S256x1_0 x) (ix2 b r) = x (ix1 b) := by
    refine (broadcastInDim_apply _ _ _ (ix2 b r) (ix2 b (0 : Fin 1)) ?_).trans ?_
    · intro a; match a with | ⟨0, _⟩ => rfl | ⟨1, _⟩ => rfl
    · refine broadcastInDim_apply _ _ _ _ (ix1 b) ?_
      intro a; match a with | ⟨0, _⟩ => rfl
  have e2 : broadcastInDim S256x8 ![0, 1] bcast_S1x8_S256x8_0_1 (iotaInDim S1x8 32 1) (ix2 b r) = BitVec.ofNat 32 r.val := by
    refine (broadcastInDim_apply _ _ _ (ix2 b r) (ix2 (0 : Fin 1) r) ?_).trans ?_
    · intro a; match a with | ⟨0, _⟩ => rfl | ⟨1, _⟩ => rfl
    · rfl
  rw [e1, e2]

/-- The one-hot array, as the second region finds it, read at a row and a column. -/
theorem V3_onehot (c : Dev nD) (b : Fin 256) (r : Fin 8) :
    (V3 m outs c (Proc.devRef .tc main_v5) : S256x8.Idx → F .f32) (ix2 b r)
      = FloatOps.uitofp .f32 (IntOp.cmpi .eq ((m ((c : Thread nD τ).loc main_arg2) : S256.Idx → BitVec 32) (ix1 b)) (BitVec.ofNat 32 r.val)) := by
  rw [V3_main_v5, onehot_read]
  have e : V2 m outs c (Proc.devRef .tc main_arg2) = m ((c : Thread nD τ).loc main_arg2) :=
    (V2_of m outs c main_arg2 (by decide)).trans ((V1_of m c main_arg2 (by decide)).trans rfl)
  rw [e]

/-! ## What else the second region reads: the arguments as launched, the gathered rows as the first region left them -/
/-- The arguments the second region reads hold their launch contents. -/
theorem V3_main_arg1 (c : Dev nD) : V3 m outs c (Proc.devRef .tc main_arg1) = m ((c : Thread nD τ).loc main_arg1) :=
  (V3_of m outs c main_arg1 (by decide)).trans <| (V2_of m outs c main_arg1 (by decide)).trans <| (V1_of m c main_arg1 (by decide)).trans rfl
theorem V3_main_arg3 (c : Dev nD) : V3 m outs c (Proc.devRef .tc main_arg3) = m ((c : Thread nD τ).loc main_arg3) :=
  (V3_of m outs c main_arg3 (by decide)).trans <| (V2_of m outs c main_arg3 (by decide)).trans <| (V1_of m c main_arg3 (by decide)).trans rfl
theorem V3_main_arg4 (c : Dev nD) : V3 m outs c (Proc.devRef .tc main_arg4) = m ((c : Thread nD τ).loc main_arg4) :=
  (V3_of m outs c main_arg4 (by decide)).trans <| (V2_of m outs c main_arg4 (by decide)).trans <| (V1_of m c main_arg4 (by decide)).trans rfl
theorem V3_main_arg6 (c : Dev nD) : V3 m outs c (Proc.devRef .tc main_arg6) = m ((c : Thread nD τ).loc main_arg6) :=
  (V3_of m outs c main_arg6 (by decide)).trans <| (V2_of m outs c main_arg6 (by decide)).trans <| (V1_of m c main_arg6 (by decide)).trans rfl
/-- The second region finds in the gather's output array what the first region left there. -/
theorem V3_main_v4 (c : Dev nD) : V3 m outs c (Proc.devRef .tc main_v4) = outs 2 main_v4 c := by
  refine (V3_of m outs c main_v4 (by decide)).trans ?_
  simp only [V2, Function.update_of_ne (StableHlo.devRef_ne_of_ne (show main_v4 ≠ main_v3 by decide) : (Proc.devRef .tc main_v4 : DevRef τ sig) ≠ Proc.devRef .tc main_v3), Function.update_self]

/-! ## The gathered array -/
/-- The array the table `T` selects out of the rows of `S`. -/
def gathered (T : S256.Idx → BitVec 32) (S : S4000x32000.Idx → F .f32) (hT : ∀ k : Fin 256, (T (ix1 k)).toNat < 4000) : S256x32000.Idx → F .f32 :=
  fun idx => S (ix2 (⟨(T (ix1 (⟨(idx 0).val, (idx 0).isLt⟩ : Fin 256))).toNat, hT _⟩ : Fin 4000) (⟨(idx 1).val, (idx 1).isLt⟩ : Fin 32000))

/-- The selected array read at a row and a column. -/
theorem gathered_apply (T : S256.Idx → BitVec 32) (S : S4000x32000.Idx → F .f32) (hT : ∀ k : Fin 256, (T (ix1 k)).toNat < 4000)
    (idx : S256x32000.Idx) (k : Fin 256) (v : Fin 32000) (h0 : (idx 0).val = k.val) (h1 : (idx 1).val = v.val) :
    gathered T S hT idx = S (ix2 (⟨(T (ix1 k)).toNat, hT k⟩ : Fin 4000) v) := by
  obtain rfl : k = ⟨(idx 0).val, (idx 0).isLt⟩ := Fin.ext h0.symm
  obtain rfl : v = ⟨(idx 1).val, (idx 1).isLt⟩ := Fin.ext h1.symm
  rfl

/-- The output window's block index at point `t` is `(t, 0)`. -/
theorem idx_facts0 : ∀ t : Fin grid0.N, cc0_transform_1 (grid0.coords t) (0 : Fin 2) = t.val ∧ cc0_transform_1 (grid0.coords t) (1 : Fin 2) = 0 := by
  decide +kernel

/-- Every point writes its block back: the block index moves with the point. -/
theorem flush0 (a : (pcfg0 (F := F)).Adm) (t : Fin (cfg0 a).N) : ((cfg0 a).win 0).flush t = true := by
  have ht : t.val < grid0.N := t.isLt
  unfold Pipeline.Window.flush
  rw [Bool.and_eq_true]
  refine ⟨rfl, ?_⟩
  rw [Bool.or_eq_true, decide_eq_true_eq, decide_eq_true_eq]
  by_cases h : t.val + 1 = grid0.N
  · exact Or.inl h
  · have h' : t.val + 1 < grid0.N := by omega
    refine Or.inr ⟨h', fun e => ?_⟩
    have e0 : cc0_transform_1 (grid0.coords ⟨t.val + 1, h'⟩) (0 : Fin 2) = cc0_transform_1 (grid0.coords ⟨t.val, ht⟩) (0 : Fin 2) := congrFun e (0 : Fin 2)
    have f1 : cc0_transform_1 (grid0.coords ⟨t.val + 1, h'⟩) (0 : Fin 2) = t.val + 1 := (idx_facts0 ⟨t.val + 1, h'⟩).1
    have f0 : cc0_transform_1 (grid0.coords ⟨t.val, ht⟩) (0 : Fin 2) = t.val := (idx_facts0 ⟨t.val, ht⟩).1
    rw [f1, f0] at e0
    exact absurd e0 (by show t.val + 1 ≠ t.val; omega)

section Cover
variable (a : (pcfg0 (F := F)).Adm) (c : Dev nD) (dat : Pipeline.Dat τ (Elt F) Unit ℕ UC ℕ (cfg0 a) c)
    (T : S256.Idx → BitVec 32) (S : S4000x32000.Idx → F .f32) (hT : ∀ k : Fin 256, (T (ix1 k)).toNat < 4000)

/-- The block a point leaves, read at any block index. -/
theorem after_at (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v))
    (t : Fin (cfg0 a).N) (x : S32x32000.Idx) (hx : 32 * t.val + (x 0).val < 256) :
    dat.after 0 t x = S (ix2 (⟨(T (ix1 (⟨32 * t.val + (x 0).val, hx⟩ : Fin 256))).toNat, hT _⟩ : Fin 4000) (⟨(x 1).val, (x 1).isLt⟩ : Fin 32000)) := by
  have ex : x = ix2 (⟨(x 0).val, (x 0).isLt⟩ : Fin 32) (⟨(x 1).val, (x 1).isLt⟩ : Fin 32000) := by
    funext b; match b with | ⟨0, _⟩ => rfl | ⟨1, _⟩ => rfl
  exact (congrArg (dat.after 0 t) ex).trans (hafter t ⟨(x 0).val, (x 0).isLt⟩ ⟨(x 1).val, (x 1).isLt⟩ hx)

/-- What point `t` writes back is block `t` of the gathered array. -/
theorem flushed0_eq (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v))
    (t : Fin (cfg0 a).N) :
    dat.flushed 0 t = (((cfg0 a).win 0).blk t).view.read (Elt F) (gathered T S hT) := by
  have ht : t.val < grid0.N := t.isLt
  have hN := N_0
  have f0 : cc0_transform_1 (grid0.coords ⟨t.val, ht⟩) (0 : Fin 2) = t.val := (idx_facts0 ⟨t.val, ht⟩).1
  have f1 : cc0_transform_1 (grid0.coords ⟨t.val, ht⟩) (1 : Fin 2) = 0 := (idx_facts0 ⟨t.val, ht⟩).2
  refine funext fun (j : S32x32000.Idx) => ?_
  have hj0 : (j 0).val < 32 := (j 0).isLt
  have hj1 : (j 1).val < 32000 := (j 1).isLt
  show dat.after 0 t (((cfg0 a).win 0).xinj ((cfg0 a).grid.coords t) j) = gathered T S hT ((((cfg0 a).win 0).blk t).view.emb j)
  refine (after_at a c dat T S hT hafter t _ (by show 32 * t.val + (j 0).val < 256; omega)).trans ?_
  refine (gathered_apply T S hT _ _ _ ?_ ?_).symm
  · show cc0_transform_1 (grid0.coords ⟨t.val, ht⟩) (0 : Fin 2) * 32 + 1 * (j 0).val = 32 * t.val + (j 0).val
    rw [f0]; omega
  · show cc0_transform_1 (grid0.coords ⟨t.val, ht⟩) (1 : Fin 2) * 32000 + 1 * (j 1).val = (j 1).val
    rw [f1]; omega

/-- Membership in a unit-stride rectangle of the output array, by coordinates. -/
theorem mem_blk_of (i : main_v4.ty.shape.Idx) (off size : Fin main_v4.ty.shape.rank → Nat) (inb : ∀ b, off b + size b ≤ main_v4.ty.shape.size b)
    (h : ∀ b, off b ≤ (i b).val ∧ (i b).val < off b + size b) :
    i ∈ ((View.whole main_v4).slice (Rect.unit off size inb)).set := by
  rw [View.set_slice_whole, Rect.mem_set_unit]; exact h

/-- Row `b` of the array is in the block of point `b / 32`. -/
theorem cover0 (i : S256x32000.Idx) :
    ∃ t : Fin (cfg0 a).N, ((cfg0 a).win 0).flush t = true ∧ i ∈ (((cfg0 a).win 0).blk t).view.set := by
  have hi0 : (i 0).val < 256 := (i 0).isLt
  have hi1 : (i 1).val < 32000 := (i 1).isLt
  have hN := N_0
  have hq : (i 0).val / 32 < grid0.N := by omega
  have f0 : cc0_transform_1 (grid0.coords ⟨(i 0).val / 32, hq⟩) (0 : Fin 2) = (i 0).val / 32 := (idx_facts0 ⟨(i 0).val / 32, hq⟩).1
  have f1 : cc0_transform_1 (grid0.coords ⟨(i 0).val / 32, hq⟩) (1 : Fin 2) = 0 := (idx_facts0 ⟨(i 0).val / 32, hq⟩).2
  refine ⟨⟨(i 0).val / 32, hq⟩, flush0 a _, ?_⟩
  show i ∈ ((View.whole main_v4).slice (((cfg0 a).win 0).rect ⟨(i 0).val / 32, hq⟩)).set
  refine mem_blk_of i _ _ _ ?_
  intro b
  match b with
  | ⟨0, _⟩ =>
    show cc0_transform_1 (grid0.coords ⟨(i 0).val / 32, hq⟩) (0 : Fin 2) * 32 ≤ (i 0).val ∧ (i 0).val < cc0_transform_1 (grid0.coords ⟨(i 0).val / 32, hq⟩) (0 : Fin 2) * 32 + 32
    rw [f0]; show (i 0).val / 32 * 32 ≤ (i 0).val ∧ (i 0).val < (i 0).val / 32 * 32 + 32; omega
  | ⟨1, _⟩ =>
    show cc0_transform_1 (grid0.coords ⟨(i 0).val / 32, hq⟩) (1 : Fin 2) * 32000 ≤ (i 1).val ∧ (i 1).val < cc0_transform_1 (grid0.coords ⟨(i 0).val / 32, hq⟩) (1 : Fin 2) * 32000 + 32000
    rw [f1]; omega

/-- THE ARRAY after the gather region's run, for any proof data whose block after point `t` is rows `32 t … 32 t + 31` of the
    selection: the selection, whole. -/
theorem gathered_array_of (hafter : ∀ (t : Fin (cfg0 a).N) (j : Fin 32) (v : Fin 32000) (hj : 32 * t.val + j.val < 256),
      dat.after 0 t (ix2 j v) = S (ix2 (⟨(T (ix1 (⟨32 * t.val + j.val, hj⟩ : Fin 256))).toNat, hT _⟩ : Fin 4000) v)) :
    dat.arrAt 0 (cfg0 a).N = gathered T S hT :=
  dat.arrAt_eq_of_cover 0 (gathered T S hT) (fun t _ => flushed0_eq a c dat T S hT hafter t) (cover0 a)

end Cover

/-- The gather region's output array after its run. -/
theorem gathered_array (V : Vals F) (hok : Ok0 V) (c : Dev nD) :
    (dat0 V c).arrAt 0 (cfg0 (adm0 V)).N = gathered (V 0 main_v2) (V c main_v3) hok :=
  gathered_array_of (adm0 V) c (dat0 V c) (V 0 main_v2) (V c main_v3) hok (after0_apply V hok c)

end Cert.Kernel.Hand

end
-- ==== Proof.Bits.FusedVals.lean ====
/-
  The fused kernel's values at a grid point, as pure functions of what its buffers read: the tile's masked logits, the
  running row maximum and row sum after a tile, the output block after a tile's columns are stored, and the output block
  after the last tile's normalisation of its ten column tiles.
-/
import proofs.«424303_j34282428957025_2_alg».proof.Proof.Bits.Common

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The branch conditions -/

/-- "The vocabulary tile is the first of its half" (j = 0), as the body computes the word. -/
abbrev IsFirst1 (t : Fin cfg1.N) : Prop :=
  Scalar.cmpi .ne (Scalar.extui (Scalar.cmpi .eq (BitVec.ofNat 32 ((grid1.coords t) 1).val) 0#32)) 0#32 = 1#1
/-- "The vocabulary tile is the last of its half" (j = 9), as the body computes the word. -/
abbrev IsLast1 (t : Fin cfg1.N) : Prop :=
  Scalar.cmpi .ne (Scalar.extui (Scalar.cmpi .eq (BitVec.ofNat 32 ((grid1.coords t) 1).val) 9#32)) 0#32 = 1#1

/-! ## The rectangles -/

/-- The whole (128, 1) scratch block. -/
abbrev rS : Rect S128x1 := Rect.unit (s := S128x1) ![0, 0] S128x1.size inb_S128x1_S128x1_0_0

/-- The columns of tile `t`'s vocabulary slice in the (128, 32000) output block: [3200 j, 3200 j + 3200). -/
abbrev tileR (t : Fin cfg1.N) : Rect S128x32000 :=
  Rect.unit (s := S128x32000) (k1_off1 (grid1.coords t)) S128x3200.size (k1_off1_inb (grid1.coords t))

/-- The ten column tiles of the output block. -/
abbrev R0 : Rect S128x32000 := Rect.unit (s := S128x32000) ![0, 0] S128x3200.size inb_S128x32000_S128x3200_0_0
abbrev R1 : Rect S128x32000 := Rect.unit (s := S128x32000) ![0, 3200] S128x3200.size inb_S128x32000_S128x3200_0_3200
abbrev R2 : Rect S128x32000 := Rect.unit (s := S128x32000) ![0, 6400] S128x3200.size inb_S128x32000_S128x3200_0_6400
abbrev R3 : Rect S128x32000 := Rect.unit (s := S128x32000) ![0, 9600] S128x3200.size inb_S128x32000_S128x3200_0_9600
abbrev R4 : Rect S128x32000 := Rect.unit (s := S128x32000) ![0, 12800] S128x3200.size inb_S128x32000_S128x3200_0_12800
abbrev R5 : Rect S128x32000 := Rect.unit (s := S128x32000) ![0, 16000] S128x3200.size inb_S128x32000_S128x3200_0_16000
abbrev R6 : Rect S128x32000 := Rect.unit (s := S128x32000) ![0, 19200] S128x3200.size inb_S128x32000_S128x3200_0_19200
abbrev R7 : Rect S128x32000 := Rect.unit (s := S128x32000) ![0, 22400] S128x3200.size inb_S128x32000_S128x3200_0_22400
abbrev R8 : Rect S128x32000 := Rect.unit (s := S128x32000) ![0, 25600] S128x3200.size inb_S128x32000_S128x3200_0_25600
abbrev R9 : Rect S128x32000 := Rect.unit (s := S128x32000) ![0, 28800] S128x3200.size inb_S128x32000_S128x3200_0_28800

/-! ## The values -/

/-- The tile's masked logits (128, 3200): background + author row + persona term, −100 where the role's mask is off;
    from what the six input blocks read (z, persona, background, mask, author rows, one-hot role). -/
def logitsv (x0 : Vec F S128x64 .f32) (x1 : Vec F S64x8x3200 .f32) (x2 : Vec F S8x3200 .f32) (x3 : Vec F S8x3200 .i32)
    (x4 : Vec F S128x3200 .f32) (x5 : Vec F S128x8 .f32) : FVec F S128x3200 .f32 :=
  k1_pay37 (k1_pay21 x5) (k1_pay22 x0) x2 (k1_pay23 x3)
    (k1_pay33 (k1_pay21 x5) x2 (k1_pay26 x5 x2) (k1_pay28 x5) (k1_pay29 x2))
    (k1_pay34 (k1_pay21 x5) (k1_pay23 x3) (k1_pay27 x5 x3) (k1_pay28 x5))
    (k1_pay35 (k1_pay21 x5)) (k1_pay36 x2) x1 x4

/-- The row maximum of a tile's logits, as a (128, 1) column. -/
def rowMaxv (lg : FVec F S128x3200 .f32) : FVec F S128x1 .f32 :=
  shapeCast S128x1 (multiReduction .maximumf [1] S128 lg 0xFF800000#32 reduces_S128x3200_S128 (.inl rfl) rfl) shapeCasts_S128_S128x1

/-- The running maximum after a tile: max of the old maximum `m` and the tile's row maximum. -/
def mNew (m : Vec F S128x1 .f32) (lg : FVec F S128x3200 .f32) : Vec F S128x1 .f32 :=
  k1_pay3 (rowMaxv lg) m

/-- The running sum after a tile: l · exp(m − m') + Σ exp(logits − m'), m' the new maximum. -/
def lNew (m l : Vec F S128x1 .f32) (lg : FVec F S128x3200 .f32) : Vec F S128x1 .f32 :=
  k1_pay2 lg (rowMaxv lg) m l m

/-- What a first tile resets the running maximum to (−∞) -/
def mReset : Vec F S128x1 .f32 := k1_pay19 (F := F)
/-- and the running sum to (0). -/
def lReset : Vec F S128x1 .f32 := k1_pay20 (F := F)

/-- The output block with tile `t`'s columns overwritten by the tile's logits. -/
def setTile (o : Vec F S128x32000 .f32) (t : Fin cfg1.N) (lg : FVec F S128x3200 .f32) : Vec F S128x32000 .f32 :=
  (tileR t).overlay o lg

/-- One column tile normalised: (tile − m) − log l, `m`, `l` broadcast along the columns. -/
def finTile (m l : Vec F S128x1 .f32) (tl : Vec F S128x3200 .f32) : FVec F S128x3200 .f32 :=
  k1_pay6 m l tl

/-- The output block after the last tile's normalisation: each of its ten column tiles rewritten from what the block held. -/
def finalv (o : Vec F S128x32000 .f32) (m l : Vec F S128x1 .f32) : Vec F S128x32000 .f32 :=
  View.canon [⟨R9, finTile m l (View.ld o R9)⟩, ⟨R8, finTile m l (View.ld o R8)⟩, ⟨R7, finTile m l (View.ld o R7)⟩,
    ⟨R6, finTile m l (View.ld o R6)⟩, ⟨R5, finTile m l (View.ld o R5)⟩, ⟨R4, finTile m l (View.ld o R4)⟩,
    ⟨R3, finTile m l (View.ld o R3)⟩, ⟨R2, finTile m l (View.ld o R2)⟩, ⟨R1, finTile m l (View.ld o R1)⟩,
    ⟨R0, finTile m l (View.ld o R0)⟩]

/-! ## The payloads' other spellings -/

theorem k1_pay38_eq (v4 : FVec F S128x8 .f32) (v6 : FVec F S128x64 .bf16) (v7 : Vec F S8x3200 .f32) (v9 : FVec F S8x3200 .f32)
    (v94 v101 : FVec F S128x3200 .f32) (v102 : FVec F S128x1 .f32) (v104 : FVec F S3200 .f32) (v139 : Vec F S64x8x3200 .f32)
    (v143 : Vec F S128x3200 .f32) :
    k1_pay38 v4 v6 v7 v9 v94 v101 v102 v104 v139 v143 = rowMaxv (k1_pay37 v4 v6 v7 v9 v94 v101 v102 v104 v139 v143) := rfl

theorem k1_pay7_eq (m l : Vec F S128x1 .f32) (tl : Vec F S128x3200 .f32) : k1_pay7 m l tl = finTile m l tl := rfl
theorem k1_pay8_eq (m l : Vec F S128x1 .f32) (tl : Vec F S128x3200 .f32) : k1_pay8 m l tl = finTile m l tl := rfl
theorem k1_pay9_eq (m l : Vec F S128x1 .f32) (tl : Vec F S128x3200 .f32) : k1_pay9 m l tl = finTile m l tl := rfl
theorem k1_pay12_eq (m l : Vec F S128x1 .f32) (tl : Vec F S128x3200 .f32) :
    k1_pay12 (k1_pay5 l) (k1_pay10 tl) (k1_pay11 m) = finTile m l tl := rfl
theorem k1_pay13_eq (m l : Vec F S128x1 .f32) (tl : Vec F S128x3200 .f32) : k1_pay13 m (k1_pay5 l) tl = finTile m l tl := rfl
theorem k1_pay14_eq (m l : Vec F S128x1 .f32) (tl : Vec F S128x3200 .f32) : k1_pay14 m (k1_pay5 l) tl = finTile m l tl := rfl
theorem k1_pay15_eq (m l : Vec F S128x1 .f32) (tl : Vec F S128x3200 .f32) : k1_pay15 m (k1_pay5 l) tl = finTile m l tl := rfl
theorem k1_pay16_eq (m l : Vec F S128x1 .f32) (tl : Vec F S128x3200 .f32) : k1_pay16 m (k1_pay5 l) tl = finTile m l tl := rfl
theorem k1_pay4_eq (m l : Vec F S128x1 .f32) (tl : Vec F S128x3200 .f32) :
    k1_pay4 (k1_pay5 l) (k1_pay17 tl) (k1_pay18 m) = finTile m l tl := rfl

end Cert.Kernel.Hand

end
-- ==== Proof.Bits.FusedRuns.lean ====
/-
  The fused kernel's body at a SYMBOLIC grid point: three runs, one per kind of point (first tile of a half, middle tile,
  last tile), the kind given as the two branch conditions. Each leaves the six input blocks as they were, the two scratch
  columns at the updated running maximum and sum, and the output block with the tile's columns stored — after a last tile,
  with its ten column tiles normalised.
-/
import proofs.«424303_j34282428957025_2_alg».proof.Proof.Bits.Common
import proofs.«424303_j34282428957025_2_alg».proof.Proof.Bits.FusedVals
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Zero offsets, and stores read back -/

theorem hz2 : (![0, 0] : Fin 2 → ℕ) = fun _ => 0 := by funext i; fin_cases i <;> rfl
theorem hz3 : (![0, 0, 0] : Fin 3 → ℕ) = fun _ => 0 := by funext i; fin_cases i <;> rfl

/-- The newest write wins on its rectangle; elsewhere the buffer reads what the earlier writes left. -/
theorem read_writes_cons_eq_overlay {σ : RefSig} {κ : Kind} {sp : Space} {s : Shape} {e : EltTy} {Val : EltTy → Type}
    (v : View σ κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · have hy' : y ∉ Finset.univ.map p.1.emb := by rwa [Rect.map_emb_univ]
    rw [View.writes_cons, View.read_slice_write_of_not_mem p.1 _ _ _ hy', Rect.overlay_of_not_mem _ _ _ hy]

/-- A newest write through the whole block leaves its payload, whatever was written before. -/
theorem read_writes_cons_unit_zero {σ : RefSig} {κ : Kind} {sp : Space} {S : Shape} {e : EltTy} {Val : EltTy → Type}
    [∀ e, Nonempty (Val e)] (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The last tile -/

/-- At a last tile the vocabulary coordinate is 9. -/
theorem last_coord : ∀ t : Fin grid1.N, IsLast1 t → ((grid1.coords t) 1).val = 9 := by decide +kernel

/-- A load through a rectangle disjoint from an overlaid one reads what was under the overlay. -/
theorem ld_overlay_of_disjoint {S : Shape} {α : Type} (r' r : Rect S) (o : S.Idx → α) (g : r'.shape.Idx → α)
    (h : Disjoint r'.set r.set) : (fun x => r'.overlay o g (r.idx x)) = fun x => o (r.idx x) :=
  funext fun x => Rect.overlay_of_not_mem _ _ _ (Finset.disjoint_right.mp h (r.idx_mem x))

/-- A load through the overlaid rectangle itself reads the overlay. -/
theorem ld_overlay_self {S : Shape} {α : Type} (r : Rect S) (o : S.Idx → α) (g : r.shape.Idx → α) :
    (fun x => r.overlay o g (r.idx x)) = g :=
  funext fun x => Rect.overlay_emb r o g x

section Cols

variable {σ : RefSig} {κ : Kind} {sp : Space} {e : EltTy} {Val : EltTy → Type} (v : View σ κ sp S128x32000 e)
  (f : v.ty.Contents Val)

/-- A load of a column block after a newest write to a column block beside it reads what the earlier writes left. -/
theorem readAt_writes_cons_cols_of_disjoint {off off' size size' : Fin 2 → ℕ}
    {inb : ∀ a, off a + size a ≤ S128x32000.size a} {inb' : ∀ a, off' a + size' a ≤ S128x32000.size a}
    (w : (Rect.unit (s := S128x32000) off size inb).shape.Idx → Val e) (L : List (View.Piece Val S128x32000 e))
    (h : off 1 + size 1 ≤ off' 1 ∨ off' 1 + size' 1 ≤ off 1) :
    v.readAt Val (Rect.unit (s := S128x32000) off' size' inb').toLoadRect
        (v.writes Val f ((⟨Rect.unit (s := S128x32000) off size inb, w⟩ : View.Piece Val S128x32000 e) :: L))
      = v.readAt Val (Rect.unit (s := S128x32000) off' size' inb').toLoadRect (v.writes Val f L) := by
  rw [View.readAt_eq_ld, View.readAt_eq_ld, read_writes_cons_eq_overlay]
  exact ld_overlay_of_disjoint (Rect.unit (s := S128x32000) off size inb) (Rect.unit (s := S128x32000) off' size' inb') _ w
    (Rect.unit_disjoint (s := S128x32000) (inb := inb) (inb' := inb') (1 : Fin 2) h)

/-- A load of the column block the newest write went to reads that write's payload. -/
theorem readAt_writes_cons_cols_self {off size : Fin 2 → ℕ} {inb inb' : ∀ a, off a + size a ≤ S128x32000.size a}
    (w : (Rect.unit (s := S128x32000) off size inb).shape.Idx → Val e) (L : List (View.Piece Val S128x32000 e)) :
    v.readAt Val (Rect.unit (s := S128x32000) off size inb').toLoadRect
        (v.writes Val f ((⟨Rect.unit (s := S128x32000) off size inb, w⟩ : View.Piece Val S128x32000 e) :: L)) = w := by
  rw [View.readAt_eq_ld, read_writes_cons_eq_overlay]
  exact ld_overlay_self _ _ _

end Cols

/-- Where the first pieces cover, the later ones do not show. -/
theorem canon_append_of_cover {s : Shape} {e : EltTy} {Val : EltTy → Type} [∀ e, Nonempty (Val e)]
    (L L' : List (View.Piece Val s e)) (y : s.Idx) (h : ∃ p ∈ L, y ∈ p.1.set) :
    View.canon (L ++ L') y = View.canon L y := by
  induction L with
  | nil => obtain ⟨_, hm, _⟩ := h; exact absurd hm List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      apply ih
      obtain ⟨p', hm, hy'⟩ := h
      rcases List.mem_cons.mp hm with rfl | hm
      · exact absurd hy' hy
      · exact ⟨p', hm, hy'⟩

/-- Writes whose newest pieces cover the buffer leave those pieces' canon. -/
theorem read_writes_append_of_cover {σ : RefSig} {κ : Kind} {sp : Space} {s : Shape} {e : EltTy} {Val : EltTy → Type}
    [∀ e, Nonempty (Val e)] (v : View σ κ sp s e) (f : v.ty.Contents Val) (L L' : List (View.Piece Val s e))
    (h : ∀ y, ∃ p ∈ L, y ∈ p.1.set) : v.read Val (v.writes Val f (L ++ L')) = View.canon L := by
  funext y
  have h' : ∃ p ∈ L ++ L', y ∈ p.1.set := by
    obtain ⟨p, hp, hy⟩ := h y; exact ⟨p, List.mem_append_left _ hp, hy⟩
  rw [View.read_writes_apply_eq_canon v f y (L ++ L') h']
  exact canon_append_of_cover L L' y (h y)

/-- At a last tile the stored columns are the last column tile. -/
theorem setTile_last (o : Vec F S128x32000 .f32) (t : Fin cfg1.N) (lg : FVec F S128x3200 .f32)
    (hj : ((grid1.coords t) 1).val = 9) : setTile o t lg = R9.overlay o lg := by
  have key : ∀ (off : Fin 2 → ℕ) (inb : ∀ a, off a + S128x3200.size a ≤ S128x32000.size a), off = ![0, 28800] →
      (Rect.unit (s := S128x32000) off S128x3200.size inb).overlay o lg = R9.overlay o lg := by
    intro off inb h; subst h; rfl
  exact key _ _ (by rw [k1_off1_eq, hj])

/-- The block normalised after its last column tile was stored: tile 9 from the stored logits, the others from the block. -/
theorem finalv_overlay_last (o : Vec F S128x32000 .f32) (lg : FVec F S128x3200 .f32) (m l : Vec F S128x1 .f32) :
    finalv (R9.overlay o lg) m l
      = View.canon [⟨R9, finTile m l lg⟩, ⟨R8, finTile m l (View.ld o R8)⟩, ⟨R7, finTile m l (View.ld o R7)⟩,
          ⟨R6, finTile m l (View.ld o R6)⟩, ⟨R5, finTile m l (View.ld o R5)⟩, ⟨R4, finTile m l (View.ld o R4)⟩,
          ⟨R3, finTile m l (View.ld o R3)⟩, ⟨R2, finTile m l (View.ld o R2)⟩, ⟨R1, finTile m l (View.ld o R1)⟩,
          ⟨R0, finTile m l (View.ld o R0)⟩] := by
  unfold finalv
  rw [show View.ld (R9.overlay o lg) R9 = lg from ld_overlay_self R9 o lg,
    show View.ld (R9.overlay o lg) R8 = View.ld o R8 from ld_overlay_of_disjoint R9 R8 o lg (Rect.unit_disjoint (s := S128x32000) (1 : Fin 2) (by decide)),
    show View.ld (R9.overlay o lg) R7 = View.ld o R7 from ld_overlay_of_disjoint R9 R7 o lg (Rect.unit_disjoint (s := S128x32000) (1 : Fin 2) (by decide)),
    show View.ld (R9.overlay o lg) R6 = View.ld o R6 from ld_overlay_of_disjoint R9 R6 o lg (Rect.unit_disjoint (s := S128x32000) (1 : Fin 2) (by decide)),
    show View.ld (R9.overlay o lg) R5 = View.ld o R5 from ld_overlay_of_disjoint R9 R5 o lg (Rect.unit_disjoint (s := S128x32000) (1 : Fin 2) (by decide)),
    show View.ld (R9.overlay o lg) R4 = View.ld o R4 from ld_overlay_of_disjoint R9 R4 o lg (Rect.unit_disjoint (s := S128x32000) (1 : Fin 2) (by decide)),
    show View.ld (R9.overlay o lg) R3 = View.ld o R3 from ld_overlay_of_disjoint R9 R3 o lg (Rect.unit_disjoint (s := S128x32000) (1 : Fin 2) (by decide)),
    show View.ld (R9.overlay o lg) R2 = View.ld o R2 from ld_overlay_of_disjoint R9 R2 o lg (Rect.unit_disjoint (s := S128x32000) (1 : Fin 2) (by decide)),
    show View.ld (R9.overlay o lg) R1 = View.ld o R1 from ld_overlay_of_disjoint R9 R1 o lg (Rect.unit_disjoint (s := S128x32000) (1 : Fin 2) (by decide)),
    show View.ld (R9.overlay o lg) R0 = View.ld o R0 from ld_overlay_of_disjoint R9 R0 o lg (Rect.unit_disjoint (s := S128x32000) (1 : Fin 2) (by decide))]

/-! ## The runs -/

section Runs

local notation "𝕄" => MM F

variable (c : Dev nD) (t : Fin cfg1.N)
  (M0 : Memref sig .tc .vmem S128x64 .f32) (h0 : M0.IsWhole) (M1 : Memref sig .tc .vmem S64x8x3200 .f32) (h1 : M1.IsWhole)
  (M2 : Memref sig .tc .vmem S8x3200 .f32) (h2 : M2.IsWhole) (M3 : Memref sig .tc .vmem S8x3200 .i32) (h3 : M3.IsWhole)
  (M4 : Memref sig .tc .vmem S128x3200 .f32) (h4 : M4.IsWhole) (M5 : Memref sig .tc .vmem S128x8 .f32) (h5 : M5.IsWhole)
  (M6 : Memref sig .tc .vmem S128x32000 .f32) (h6 : M6.IsWhole)
  (x0 : Vec F S128x64 .f32) (x1 : Vec F S64x8x3200 .f32) (x2 : Vec F S8x3200 .f32) (x3 : Vec F S8x3200 .i32)
  (x4 : Vec F S128x3200 .f32) (x5 : Vec F S128x8 .f32) (o : Vec F S128x32000 .f32) (m l : Vec F S128x1 .f32)

/-- The running-maximum scratch memref (whole). -/
abbrev mM : Memref sig .tc .vmem S128x1 .f32 := Memref.whole cc1_scratch0
/-- The running-sum scratch memref (whole). -/
abbrev lM : Memref sig .tc .vmem S128x1 .f32 := Memref.whole cc1_scratch1

/-- The six input blocks held at what they read: the body's loads read them back and leave them as they are. -/
abbrev Ins : sProp 𝕄 :=
  iprop(owns (c : Thread nD τ) M0 fullShare x0 ∗ owns (c : Thread nD τ) M1 fullShare x1 ∗ owns (c : Thread nD τ) M2 fullShare x2
    ∗ owns (c : Thread nD τ) M3 fullShare x3 ∗ owns (c : Thread nD τ) M4 fullShare x4 ∗ owns (c : Thread nD τ) M5 fullShare x5)

local notation "FK" => cc1__fused_kernel (grid1.coords t) M0 h0 M1 h1 M2 h2 M3 h3 M4 h4 M5 h5 M6 h6 (Memref.whole cc1_scratch0) (Memref.isWhole_whole _) (Memref.whole cc1_scratch1) (Memref.isWhole_whole _)
local notation "LG" => logitsv x0 x1 x2 x3 x4 x5

/-- A first tile (j = 0): the scratches, whatever they held, are reset and updated; the tile's columns are stored. -/
theorem run_first (hF : IsFirst1 t) (hL : ¬ IsLast1 t) (Q : PUnit → sProp 𝕄) :
    iprop(Ins c M0 M1 M2 M3 M4 M5 x0 x1 x2 x3 x4 x5 ∗ owns (c : Thread nD τ) M6 fullShare o
      ∗ (∃ a, owns (c : Thread nD τ) mM fullShare a) ∗ (∃ a, owns (c : Thread nD τ) lM fullShare a)
      ∗ (iprop(Ins c M0 M1 M2 M3 M4 M5 x0 x1 x2 x3 x4 x5 ∗ owns (c : Thread nD τ) M6 fullShare (setTile o t LG)
          ∗ owns (c : Thread nD τ) mM fullShare (mNew mReset LG) ∗ owns (c : Thread nD τ) lM fullShare (lNew mReset lReset LG)) -∗ Q ⟨⟩))
      ⊢ wp frame (wpE (defs₀ (F := F)) 𝒱₀ c none) Set.univ FK Q := by
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%am, %fm, %hfm, Hm⟩, ⟨%al, %fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    rw [read_writes_cons_eq_overlay]
    sl_unfold_run_names
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2, View.readCov_unit_zero (S := S128x1) _ hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
    View.ld_unit_zero (S := S8x3200) hz2, View.ld_unit_zero (S := S128x3200) hz2, View.ld_unit_zero (S := S128x8) hz2,
    View.ld_unit_zero (S := S128x1) hz2, View.readCov_unit_zero (S := S128x1) _ hz2]
  rfl

/-- A middle tile: the scratches at `m`, `l` are updated; the tile's columns are stored. -/
theorem run_mid (hF : ¬ IsFirst1 t) (hL : ¬ IsLast1 t) (Q : PUnit → sProp 𝕄) :
    iprop(Ins c M0 M1 M2 M3 M4 M5 x0 x1 x2 x3 x4 x5 ∗ owns (c : Thread nD τ) M6 fullShare o
      ∗ owns (c : Thread nD τ) mM fullShare m ∗ owns (c : Thread nD τ) lM fullShare l
      ∗ (iprop(Ins c M0 M1 M2 M3 M4 M5 x0 x1 x2 x3 x4 x5 ∗ owns (c : Thread nD τ) M6 fullShare (setTile o t LG)
          ∗ owns (c : Thread nD τ) mM fullShare (mNew m LG) ∗ owns (c : Thread nD τ) lM fullShare (lNew m l LG)) -∗ Q ⟨⟩))
      ⊢ wp frame (wpE (defs₀ (F := F)) 𝒱₀ c none) Set.univ FK Q := by
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%fm, %hfm, Hm⟩, ⟨%fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    rw [read_writes_cons_eq_overlay]
    sl_unfold_run_names
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
  rfl

/-- A last tile (j = 9): as a middle tile, then the block's ten column tiles are normalised by the final maximum and sum. -/
theorem run_last (hF : ¬ IsFirst1 t) (hL : IsLast1 t) (Q : PUnit → sProp 𝕄) :
    iprop(Ins c M0 M1 M2 M3 M4 M5 x0 x1 x2 x3 x4 x5 ∗ owns (c : Thread nD τ) M6 fullShare o
      ∗ owns (c : Thread nD τ) mM fullShare m ∗ owns (c : Thread nD τ) lM fullShare l
      ∗ (iprop(Ins c M0 M1 M2 M3 M4 M5 x0 x1 x2 x3 x4 x5
          ∗ owns (c : Thread nD τ) M6 fullShare (finalv (setTile o t LG) (mNew m LG) (lNew m l LG))
          ∗ owns (c : Thread nD τ) mM fullShare (mNew m LG) ∗ owns (c : Thread nD τ) lM fullShare (lNew m l LG)) -∗ Q ⟨⟩))
      ⊢ wp frame (wpE (defs₀ (F := F)) 𝒱₀ c none) Set.univ FK Q := by
  have hj : ((grid1.coords t) 1).val = 9 := last_coord t hL
  have hoff : k1_off1 (grid1.coords t) = ![0, 28800] := by rw [k1_off1_eq, hj]
  unfold Ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%fm, %hfm, Hm⟩, ⟨%fl, %hfl, Hl⟩, Hk⟩
  subst hf0 hf1 hf2 hf3 hf4 hf5 hf6 hfm hfl
  sl_exec! (disch := assumption)
  sl_step
  iapply Hk
  isplitl [H0 H1 H2 H3 H4 H5]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro
    sl_unfold_run_names
    erw [View.Piece.cons_unit_congr (s := S128x32000) (e := EltTy.f32) (Val' := Elt F) (size := S128x3200.size) hoff (k1_off1_inb (grid1.coords t))]
    simp (disch := decide) only [readAt_writes_cons_cols_of_disjoint, readAt_writes_cons_cols_self, View.writes_nil]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2, View.readCov_unit_zero (S := S128x1) _ hz2]
    rw [setTile_last _ t _ hj, finalv_overlay_last]
    refine (read_writes_append_of_cover M6.view f6 [_, _, _, _, _, _, _, _, _, _] [_] ?_).trans ?_
    · exact View.cover_of_tiled _ S128x3200.size (by rfl)
    · rfl
  isplitl [Hm]
  · iexists _; isplitr; swap; (· iexact Hm); ipureintro
    sl_unfold_run_names
    rw [read_writes_cons_unit_zero _ _ hz2]
    simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
    rfl
  iexists _; isplitr; swap; (· iexact Hl); ipureintro
  sl_unfold_run_names
  rw [read_writes_cons_unit_zero _ _ hz2]
  simp only [View.readAt_eq_ld, View.ld_unit_zero (S := S128x64) hz2, View.ld_unit_zero (S := S64x8x3200) hz3,
      View.ld_unit_zero (S := S8x3200) hz2, View.ld_unit_zero (S := S128x3200) hz2, View.ld_unit_zero (S := S128x8) hz2,
      View.ld_unit_zero (S := S128x1) hz2]
  rfl

end Runs

end Cert.Kernel.Hand

end
-- ==== Proof.Bits.Region1.lean ====
/-
  REGION 1 (the fused kernel's pipeline): the kinds of grid point; the windows' blocks read off the buffers the region is
  entered with; the running maximum and running sum after each point, by recursion on the point; the invariant carried
  between points and its two ends; the relational proof data (an input's staging buffer is left as found, the output's is
  left at a function of what was found there, since at a half's first tile it arrives at contents nothing names and the
  tile overwrites only its own columns); the body obligation, by the point's kind; the output's staging buffer after each
  point in closed form over the contents it held when the half began.
-/
import proofs.«424303_j34282428957025_2_alg».proof.Proof.Bits.Common
import proofs.«424303_j34282428957025_2_alg».proof.Proof.Bits.FusedVals
import proofs.«424303_j34282428957025_2_alg».proof.Proof.Bits.FusedRuns

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MM F

/-! ## The kinds of point -/

theorem N_twenty : cfg1.N = 20 := N_1

/-- A point is its half's first vocabulary tile iff its number is ≡ 0 (mod 10), the last iff ≡ 9. -/
theorem isFirst1_iff : ∀ t : Fin cfg1.N, IsFirst1 t ↔ t.val % 10 = 0 :=
  (by decide +kernel : ∀ t : Fin grid1.N, (Scalar.cmpi .ne (Scalar.extui (Scalar.cmpi .eq (BitVec.ofNat 32 ((grid1.coords t) 1).val) 0#32)) 0#32 = 1#1) ↔ t.val % 10 = 0)
theorem isLast1_iff : ∀ t : Fin cfg1.N, IsLast1 t ↔ t.val % 10 = 9 :=
  (by decide +kernel : ∀ t : Fin grid1.N, (Scalar.cmpi .ne (Scalar.extui (Scalar.cmpi .eq (BitVec.ofNat 32 ((grid1.coords t) 1).val) 9#32)) 0#32 = 1#1) ↔ t.val % 10 = 9)

/-- The output window is written back exactly at a half's last tile. -/
theorem flush6_of_last (t : Fin cfg1.N) (h : t.val % 10 = 9) : (cfg1.win 6).flush t = true := (flush1_6 t).mpr h
theorem flush6_of_not_last (t : Fin cfg1.N) (h : t.val % 10 ≠ 9) : (cfg1.win 6).flush t = false :=
  Bool.eq_false_iff.mpr fun hf => h ((flush1_6 t).mp hf)

section Entry

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's masked logits at point t, from the six input blocks there. -/
def lgA (c : Dev nD) (t : Fin cfg1.N) : FVec F S128x3200 .f32 :=
  logitsv (iblk1 V c 0 t) (iblk1 V c 1 t) (iblk1 V c 2 t) (iblk1 V c 3 t) (iblk1 V c 4 t) (iblk1 V c 5 t)

/-! ## The running maximum and running sum after each point -/

/-- The running maximum after point k: a half's first tile starts from the reset value, any other from what the
    point before left. -/
def mA (c : Dev nD) : (k : ℕ) → k < cfg1.N → Vec F S128x1 .f32
  | 0, hk => mNew mReset (lgA V c ⟨0, hk⟩)
  | k + 1, hk => if (k + 1) % 10 = 0 then mNew mReset (lgA V c ⟨k + 1, hk⟩)
      else mNew (mA c k (Nat.lt_of_succ_lt hk)) (lgA V c ⟨k + 1, hk⟩)

/-- The running sum after point k, likewise (it reads the running maximum the point found). -/
def lA (c : Dev nD) : (k : ℕ) → k < cfg1.N → Vec F S128x1 .f32
  | 0, hk => lNew mReset lReset (lgA V c ⟨0, hk⟩)
  | k + 1, hk => if (k + 1) % 10 = 0 then lNew mReset lReset (lgA V c ⟨k + 1, hk⟩)
      else lNew (mA V c k (Nat.lt_of_succ_lt hk)) (lA c k (Nat.lt_of_succ_lt hk)) (lgA V c ⟨k + 1, hk⟩)

theorem mA_first (c : Dev nD) (t : Fin cfg1.N) (h : t.val % 10 = 0) : mA V c t.val t.isLt = mNew mReset (lgA V c t) := by
  obtain ⟨k, hk⟩ := t
  cases k with
  | zero => rfl
  | succ k => show (if (k + 1) % 10 = 0 then _ else _) = _; rw [if_pos h]

theorem mA_step (c : Dev nD) (t : Fin cfg1.N) (h : t.val % 10 ≠ 0) (hp : t.val - 1 < cfg1.N) :
    mA V c t.val t.isLt = mNew (mA V c (t.val - 1) hp) (lgA V c t) := by
  obtain ⟨k, hk⟩ := t
  cases k with
  | zero => exact absurd rfl h
  | succ k => show (if (k + 1) % 10 = 0 then _ else _) = _; rw [if_neg h]; rfl

theorem lA_first (c : Dev nD) (t : Fin cfg1.N) (h : t.val % 10 = 0) : lA V c t.val t.isLt = lNew mReset lReset (lgA V c t) := by
  obtain ⟨k, hk⟩ := t
  cases k with
  | zero => rfl
  | succ k => show (if (k + 1) % 10 = 0 then _ else _) = _; rw [if_pos h]

theorem lA_step (c : Dev nD) (t : Fin cfg1.N) (h : t.val % 10 ≠ 0) (hp : t.val - 1 < cfg1.N) :
    lA V c t.val t.isLt = lNew (mA V c (t.val - 1) hp) (lA V c (t.val - 1) hp) (lgA V c t) := by
  obtain ⟨k, hk⟩ := t
  cases k with
  | zero => exact absurd rfl h
  | succ k => show (if (k + 1) % 10 = 0 then _ else _) = _; rw [if_neg h]; rfl

/-- The scratches BEFORE point t at a tile that is not its half's first: what the point before left. -/
abbrev mB (c : Dev nD) (t : Fin cfg1.N) (_h : t.val % 10 ≠ 0) : Vec F S128x1 .f32 :=
  mA V c (t.val - 1) (Nat.lt_of_le_of_lt (Nat.sub_le _ _) t.isLt)
abbrev lB (c : Dev nD) (t : Fin cfg1.N) (_h : t.val % 10 ≠ 0) : Vec F S128x1 .f32 :=
  lA V c (t.val - 1) (Nat.lt_of_le_of_lt (Nat.sub_le _ _) t.isLt)

/-! ## The invariant carried between points -/

/-- Before point k (k = 0 … 20): each scratch at anything before a half's first tile and after the last half,
    else at what the point before left. -/
def mPart (c : Dev nD) (k : Fin (cfg1.N + 1)) : sProp 𝕄 :=
  if h : k.val % 10 = 0 then iprop(∃ a, owns (c : Thread nD τ) mM fullShare a)
  else owns (c : Thread nD τ) mM fullShare (mA V c (k.val - 1) (by have := k.isLt; omega))
def lPart (c : Dev nD) (k : Fin (cfg1.N + 1)) : sProp 𝕄 :=
  if h : k.val % 10 = 0 then iprop(∃ a, owns (c : Thread nD τ) lM fullShare a)
  else owns (c : Thread nD τ) lM fullShare (lA V c (k.val - 1) (by have := k.isLt; omega))

/-- The scoped buffers the region does not stage and does not use: the gather kernel's two staging buffers. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f))

/-- The invariant before point k: the two scratches by the point's kind, the generator register at anything, the idle
    scoped buffers. -/
def Φ1 (c : Dev nD) (k : Fin (cfg1.N + 1)) : sProp 𝕄 :=
  iprop(mPart V c k ∗ lPart V c k ∗ (∃ r, prngReg c r) ∗ idleBufs c)

theorem mPart_zero (c : Dev nD) : mPart V c 0 = iprop(∃ a, owns (c : Thread nD τ) mM fullShare a) := by
  unfold mPart; exact dif_pos (by decide)
theorem lPart_zero (c : Dev nD) : lPart V c 0 = iprop(∃ a, owns (c : Thread nD τ) lM fullShare a) := by
  unfold lPart; exact dif_pos (by decide)
theorem mPart_last (c : Dev nD) : mPart V c (Fin.last cfg1.N) = iprop(∃ a, owns (c : Thread nD τ) mM fullShare a) := by
  unfold mPart; exact dif_pos (by decide)
theorem lPart_last (c : Dev nD) : lPart V c (Fin.last cfg1.N) = iprop(∃ a, owns (c : Thread nD τ) lM fullShare a) := by
  unfold lPart; exact dif_pos (by decide)

/-- The invariant before and after point t, by the point's kind. -/
theorem Φ1_pre_first (c : Dev nD) (t : Fin cfg1.N) (h : t.val % 10 = 0) :
    Φ1 V c t.castSucc = iprop((∃ a, owns (c : Thread nD τ) mM fullShare a) ∗ (∃ a, owns (c : Thread nD τ) lM fullShare a)
      ∗ (∃ r, prngReg c r) ∗ idleBufs c) := by
  unfold Φ1 mPart lPart; rw [dif_pos (by exact h), dif_pos (by exact h)]
theorem Φ1_pre_other (c : Dev nD) (t : Fin cfg1.N) (h : t.val % 10 ≠ 0) :
    Φ1 V c t.castSucc = iprop(owns (c : Thread nD τ) mM fullShare (mB V c t h) ∗ owns (c : Thread nD τ) lM fullShare (lB V c t h)
      ∗ (∃ r, prngReg c r) ∗ idleBufs c) := by
  unfold Φ1 mPart lPart; rw [dif_neg (by exact h), dif_neg (by exact h)]; rfl
theorem Φ1_post_last (c : Dev nD) (t : Fin cfg1.N) (h : t.val % 10 = 9) :
    Φ1 V c t.succ = iprop((∃ a, owns (c : Thread nD τ) mM fullShare a) ∗ (∃ a, owns (c : Thread nD τ) lM fullShare a)
      ∗ (∃ r, prngReg c r) ∗ idleBufs c) := by
  unfold Φ1 mPart lPart
  rw [dif_pos (by show (t.val + 1) % 10 = 0; omega), dif_pos (by show (t.val + 1) % 10 = 0; omega)]
theorem Φ1_post_other (c : Dev nD) (t : Fin cfg1.N) (h : t.val % 10 ≠ 9) :
    Φ1 V c t.succ = iprop(owns (c : Thread nD τ) mM fullShare (mA V c t.val t.isLt) ∗ owns (c : Thread nD τ) lM fullShare (lA V c t.val t.isLt)
      ∗ (∃ r, prngReg c r) ∗ idleBufs c) := by
  unfold Φ1 mPart lPart
  rw [dif_neg (by show ¬ (t.val + 1) % 10 = 0; omega), dif_neg (by show ¬ (t.val + 1) % 10 = 0; omega)]; rfl

/-! ## The invariant's two ends -/

/-- The invariant at the first point, from the generator register, anything else handed along (the region has no
    prefetched table) and the scoped buffers no window stages. -/
theorem hin1 (c : Dev nD) (P : sProp 𝕄) :
    iprop((∃ r, prngReg c r) ∗ P ∗ Pipeline.scopedRest (Ix := Unit) (Name := ℕ) (U := UC) (Lvl := ℕ) (Val := Elt F) spec1 c) ⊢ Φ1 V c 0 := by
  rw [scopedRest1_eq]
  unfold Φ1 idleBufs; rw [mPart_zero, lPart_zero]
  iintro ⟨Hp, -, H0, H1, ⟨%fm, Hm⟩, ⟨%fl, Hl⟩⟩
  isplitl [Hm]
  · iexists fm; rw [owns_whole_eq]; iexists fm; isplitr; (· ipureintro; rfl); iexact Hm
  isplitl [Hl]
  · iexists fl; rw [owns_whole_eq]; iexists fl; isplitr; (· ipureintro; rfl); iexact Hl
  isplitl [Hp]; · iexact Hp
  isplitl [H0]; · iexact H0
  iexact H1

/-- The invariant at the last point gives back the generator register, no semaphore of the kernel's own, and those
    scoped buffers. -/
theorem hout1 (c : Dev nD) :
    Φ1 V c (Fin.last cfg1.N) ⊢ iprop((∃ r, prngReg c r) ∗ Pipeline.ownSems0 (fun k : PEmpty => k.elim) c
      ∗ Pipeline.scopedRest (Ix := Unit) (Name := ℕ) (U := UC) (Lvl := ℕ) (Val := Elt F) spec1 c) := by
  rw [scopedRest1_eq, Pipeline.ownSems0_none]
  unfold Φ1 idleBufs; rw [mPart_last, lPart_last]; simp only [owns_whole_eq]
  iintro ⟨⟨%a, %fm, %hfm, Hm⟩, ⟨%b, %fl, %hfl, Hl⟩, Hp, H0, H1⟩
  isplitl [Hp]; · iexact Hp
  isplitr; · iempintro
  isplitl [H0]; · iexact H0
  isplitl [H1]; · iexact H1
  isplitl [Hm]; · iexists fm; iexact Hm
  iexists fl; iexact Hl

end Entry

section Data

variable (V : (c : Dev nD) → (b : Ref sig .tc) → Buf (Elt F) ((c : Thread nD τ).loc b))

/-! ## What a point makes of the output's staging buffer -/

/-- The output's staging buffer after point t, from what the point found there: the tile's columns overwritten by its
    logits, and at a half's last tile every column tile then normalised by the running maximum and sum the point leaves. -/
def oStep (c : Dev nD) (t : Fin cfg1.N) (Y : Vec F S128x32000 .f32) : Vec F S128x32000 .f32 :=
  if t.val % 10 = 9 then finalv (setTile Y t (lgA V c t)) (mA V c t.val t.isLt) (lA V c t.val t.isLt)
  else setTile Y t (lgA V c t)

theorem oStep_last (c : Dev nD) (t : Fin cfg1.N) (Y : Vec F S128x32000 .f32) (h : t.val % 10 = 9) :
    oStep V c t Y = finalv (setTile Y t (lgA V c t)) (mA V c t.val t.isLt) (lA V c t.val t.isLt) := if_pos h
theorem oStep_other (c : Dev nD) (t : Fin cfg1.N) (Y : Vec F S128x32000 .f32) (h : t.val % 10 ≠ 9) :
    oStep V c t Y = setTile Y t (lgA V c t) := if_neg h

/-! ## The proof data -/

/-- Region 1's proof data on core c, relational: the arrays as the region finds them; an input's staging buffer is left as
    found; the output's is left at oStep of what was found; the invariant Φ1; full shares; nothing owed. -/
def rdat1 (c : Dev nD) : RDat τ (Elt F) Unit ℕ UC ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = oStep V c t Y
  Φ k := Φ1 V c k
  q _ := fullShare
  owed _ := 0

theorem A_eq1 (c : Dev nD) (w : Fin cfg1.W) : (rdat1 V c).A w = V c (Pipeline.arrRef spec1 w) := by dsimp only [rdat1]
theorem Φ_eq1 (c : Dev nD) (k : Fin (cfg1.N + 1)) : (rdat1 V c).Φ k = Φ1 V c k := rfl
theorem q_eq1 (c : Dev nD) (w : Fin cfg1.W) : (rdat1 V c).q w = fullShare := rfl
theorem owed_eq1 (c : Dev nD) (k : Fin (cfg1.N + 1)) : (rdat1 V c).owed k = 0 := rfl

/-- The windows' relations, one by one. -/
theorem after1_0 (c : Dev nD) (t : Fin cfg1.N) (Y X) : (rdat1 V c).after 0 t Y X ↔ X = Y := by dsimp only [rdat1]; exact Iff.rfl
theorem after1_1 (c : Dev nD) (t : Fin cfg1.N) (Y X) : (rdat1 V c).after 1 t Y X ↔ X = Y := by dsimp only [rdat1]; exact Iff.rfl
theorem after1_2 (c : Dev nD) (t : Fin cfg1.N) (Y X) : (rdat1 V c).after 2 t Y X ↔ X = Y := by dsimp only [rdat1]; exact Iff.rfl
theorem after1_3 (c : Dev nD) (t : Fin cfg1.N) (Y X) : (rdat1 V c).after 3 t Y X ↔ X = Y := by dsimp only [rdat1]; exact Iff.rfl
theorem after1_4 (c : Dev nD) (t : Fin cfg1.N) (Y X) : (rdat1 V c).after 4 t Y X ↔ X = Y := by dsimp only [rdat1]; exact Iff.rfl
theorem after1_5 (c : Dev nD) (t : Fin cfg1.N) (Y X) : (rdat1 V c).after 5 t Y X ↔ X = Y := by dsimp only [rdat1]; exact Iff.rfl
theorem after1_6 (c : Dev nD) (t : Fin cfg1.N) (Y X : Vec F S128x32000 .f32) : (rdat1 V c).after 6 t Y X ↔ X = oStep V c t Y := by dsimp only [rdat1]; exact Iff.rfl

/-! ## What the body finds in each input window's staging buffer: the window's block -/

theorem finds1_1 (c : Dev nD) (t : Fin cfg1.N) (Y) (h : (rdat1 V c).Finds 1 t Y) : Y = iblk1 V c 1 t := by
  obtain ⟨d, hd⟩ := ((rdat1 V c).finds_of_fetch (fetch1_1 t) Y).mp h
  rw [hd]; unfold RDat.fetched RDat.blockOf iblk1; dsimp only [rdat1]; rfl
theorem finds1_2 (c : Dev nD) (t : Fin cfg1.N) (Y) (h : (rdat1 V c).Finds 2 t Y) : Y = iblk1 V c 2 t := by
  obtain ⟨d, hd⟩ := ((rdat1 V c).finds_of_fetch (fetch1_2 t) Y).mp h
  rw [hd]; unfold RDat.fetched RDat.blockOf iblk1; dsimp only [rdat1]; rfl
theorem finds1_3 (c : Dev nD) (t : Fin cfg1.N) (Y) (h : (rdat1 V c).Finds 3 t Y) : Y = iblk1 V c 3 t := by
  obtain ⟨d, hd⟩ := ((rdat1 V c).finds_of_fetch (fetch1_3 t) Y).mp h
  rw [hd]; unfold RDat.fetched RDat.blockOf iblk1; dsimp only [rdat1]; rfl
theorem finds1_4 (c : Dev nD) (t : Fin cfg1.N) (Y) (h : (rdat1 V c).Finds 4 t Y) : Y = iblk1 V c 4 t := by
  obtain ⟨d, hd⟩ := ((rdat1 V c).finds_of_fetch (fetch1_4 t) Y).mp h
  rw [hd]; unfold RDat.fetched RDat.blockOf iblk1; dsimp only [rdat1]; rfl
/-- Windows 0 and 5 are fetched only at a half's first tile; the body leaves them as found and their block index does not
    move within a half, so they hold their block at every point. -/
theorem finds1_0 (c : Dev nD) (t : Fin cfg1.N) (Y) (h : (rdat1 V c).Finds 0 t Y) : Y = iblk1 V c 0 t := by
  obtain ⟨d, hd⟩ := (rdat1 V c).finds_in_eq_fetched 0 rfl (fun _ _ _ => rfl) (fun t Y X hX => (after1_0 V c t Y X).mp hX) t Y h
  rw [hd]; unfold RDat.fetched RDat.blockOf iblk1; dsimp only [rdat1]; rfl
theorem finds1_5 (c : Dev nD) (t : Fin cfg1.N) (Y) (h : (rdat1 V c).Finds 5 t Y) : Y = iblk1 V c 5 t := by
  obtain ⟨d, hd⟩ := (rdat1 V c).finds_in_eq_fetched 5 rfl (fun _ _ _ => rfl) (fun t Y X hX => (after1_5 V c t Y X).mp hX) t Y h
  rw [hd]; unfold RDat.fetched RDat.blockOf iblk1; dsimp only [rdat1]; rfl

/-! ## What the body finds in, and leaves in, the output's staging buffer -/

/-- The output window is never fetched. -/
theorem fetch6 (t : Fin cfg1.N) : (cfg1.win 6).fetch t = false := (cfg1.win 6).fetch_out rfl t

/-- At a half's first tile the output's staging buffer may hold anything. -/
theorem finds1_6_first (c : Dev nD) (t : Fin cfg1.N) (h : t.val % 10 = 0) (Y) : (rdat1 V c).Finds 6 t Y := by
  by_cases h0 : t.val = 0
  · exact (rdat1 V c).finds_zero (fetch6 t) h0 Y
  · exact ((rdat1 V c).finds_of_pos (fetch6 t) h0 Y).mpr (.inl (flush6_of_last _ (by show (t.val - 1) % 10 = 9; omega)))
/-- At any other tile it holds what the point before left. -/
theorem finds1_6_other (c : Dev nD) (t : Fin cfg1.N) (h : t.val % 10 ≠ 0) (Y) :
    (rdat1 V c).Finds 6 t Y ↔ (rdat1 V c).Leaves 6 ⟨t.val - 1, Nat.lt_of_le_of_lt (Nat.sub_le _ _) t.isLt⟩ Y := by
  rw [(rdat1 V c).finds_of_pos (fetch6 t) (fun h0 => h (by rw [h0])) Y,
    flush6_of_not_last ⟨t.val - 1, Nat.lt_of_le_of_lt (Nat.sub_le _ _) t.isLt⟩ (by show (t.val - 1) % 10 ≠ 9; omega)]
  exact ⟨fun h' => h'.resolve_left Bool.false_ne_true, .inr⟩
/-- What the body leaves there: oStep of something it may have found. -/
theorem leaves1_6 (c : Dev nD) (t : Fin cfg1.N) (X : Vec F S128x32000 .f32) :
    (rdat1 V c).Leaves 6 t X ↔ ∃ Y, (rdat1 V c).Finds 6 t Y ∧ X = oStep V c t Y := by
  unfold RDat.Leaves; exact exists_congr fun Y => and_congr_right fun _ => after1_6 V c t Y X

/-! ## The body obligation -/

theorem body_obligation1 (c : Dev nD) : (rdat1 V c).BodyObligation (defs₀ (F := F)) 𝒱₀ () Set.univ := fun t Y hY => by
  rw [bigSep_W1, bigSep_W1]
  have e0 := finds1_0 V c t (Y 0) (hY 0)
  have e1 := finds1_1 V c t (Y 1) (hY 1)
  have e2 := finds1_2 V c t (Y 2) (hY 2)
  have e3 := finds1_3 V c t (Y 3) (hY 3)
  have e4 := finds1_4 V c t (Y 4) (hY 4)
  have e5 := finds1_5 V c t (Y 5) (hY 5)
  rw [show (rdat1 V c).owesAt () t.succ = (rdat1 V c).owesAt () t.castSucc from rfl, Φ_eq1, Φ_eq1, e0, e1, e2, e3, e4, e5]
  simp only [after1_0, after1_1, after1_2, after1_3, after1_4, after1_5, after1_6]
  have hN := N_twenty
  by_cases hL : IsLast1 t
  · -- a half's last tile: not its first
    have h9 : t.val % 10 = 9 := (isLast1_iff t).mp hL
    have h1 : t.val % 10 ≠ 0 := by omega
    have hF : ¬ IsFirst1 t := fun h => h1 ((isFirst1_iff t).mp h)
    have hp : t.val - 1 < cfg1.N := Nat.lt_of_le_of_lt (Nat.sub_le _ _) t.isLt
    rw [Φ1_pre_other V c t h1, Φ1_post_last V c t h9]
    iintro ⟨⟨Hm, Hl, Hp, Hi⟩, HO, H0, H1, H2, H3, H4, H5, H6⟩
    iapply (run_last c t (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3))
      (st1_4 t) (hstage1_4 ((cfg1.slots t 4).cast nbuf1_4)) (st1_5 t) (hstage1_5 ((cfg1.slots t 5).cast nbuf1_5))
      (st1_6 t) (hstage1_6 ((cfg1.slots t 6).cast nbuf1_6))
      (iblk1 V c 0 t) (iblk1 V c 1 t) (iblk1 V c 2 t) (iblk1 V c 3 t) (iblk1 V c 4 t) (iblk1 V c 5 t) (Y 6) (mB V c t h1) (lB V c t h1) hF hL _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [Hm]; · iexact Hm
    isplitl [Hl]; · iexact Hl
    iintro ⟨⟨H0, H1, H2, H3, H4, H5⟩, H6, Hm, Hl⟩
    isplitl [Hm Hl Hp Hi]
    · isplitl [Hm]; · iexists _; iexact Hm
      isplitl [Hl]; · iexists _; iexact Hl
      isplitl [Hp]; · iexact Hp
      iexact Hi
    isplitl [HO]; · iexact HO
    isplitl [H0]; · iexists _; isplitr; (· ipureintro; rfl); iexact H0
    isplitl [H1]; · iexists _; isplitr; (· ipureintro; rfl); iexact H1
    isplitl [H2]; · iexists _; isplitr; (· ipureintro; rfl); iexact H2
    isplitl [H3]; · iexists _; isplitr; (· ipureintro; rfl); iexact H3
    isplitl [H4]; · iexists _; isplitr; (· ipureintro; rfl); iexact H4
    isplitl [H5]; · iexists _; isplitr; (· ipureintro; rfl); iexact H5
    iexists _; isplitr; swap; (· iexact H6)
    ipureintro
    exact ((oStep_last V c t (Y 6) h9).trans (congrArg₂ (finalv (setTile (Y 6) t (lgA V c t))) (mA_step V c t h1 hp) (lA_step V c t h1 hp))).symm
  · have h9 : t.val % 10 ≠ 9 := fun h => hL ((isLast1_iff t).mpr h)
    by_cases hF : IsFirst1 t
    · -- a half's first tile
      have h0 : t.val % 10 = 0 := (isFirst1_iff t).mp hF
      rw [Φ1_pre_first V c t h0, Φ1_post_other V c t h9, mA_first V c t h0, lA_first V c t h0]
      iintro ⟨⟨Hm, Hl, Hp, Hi⟩, HO, H0, H1, H2, H3, H4, H5, H6⟩
      iapply (run_first c t (st1_0 t) (hstage1_0 ((cfg1.slots t 0).cast nbuf1_0)) (st1_1 t) (hstage1_1 ((cfg1.slots t 1).cast nbuf1_1))
        (st1_2 t) (hstage1_2 ((cfg1.slots t 2).cast nbuf1_2)) (st1_3 t) (hstage1_3 ((cfg1.slots t 3).cast nbuf1_3))
        (st1_4 t) (hstage1_4 ((cfg1.slots t 4).cast nbuf1_4)) (st1_5 t) (hstage1_5 ((cfg1.slots t 5).cast nbuf1_5))
        (st1_6 t) (hstage1_6 ((cfg1.slots t 6).cast nbuf1_6))
        (iblk1 V c 0 t) (iblk1 V c 1 t) (iblk1 V c 2 t) (iblk1 V c 3 t) (iblk1 V c 4 t) (iblk1 V c 5 t) (Y 6) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Hm]; · iexact Hm
      isplitl [Hl]; · iexact Hl
      iintro ⟨⟨H0, H1, H2, H3, H4, H5⟩, H6, Hm, Hl⟩
      isplitl [Hm Hl Hp Hi]
      · isplitl [Hm]; · iexact Hm
        isplitl [Hl]; · iexact Hl
        isplitl [Hp]; · iexact Hp
        iexact Hi
      isplitl [HO]; · iexact HO
      isplitl [H0]; · iexists _; isplitr; (· ipureintro; rfl); iexact H0
      isplitl [H1]; · iexists _; isplitr; (· ipureintro; rfl); iexact H1
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      iexists _; isplitr; swap; (· iexact H6)
      ipureintro
      exact (oStep_other V c t _ h9).symm
    · -- a middle tile
      have h1 : t.val % 10 ≠ 0 := fun h => hF ((isFirst1_iff t).mpr h)
      have hp : t.val - 1 < cfg1.N := Nat.lt_of_le_of_lt (Nat.sub_le _ _) t.isLt
      rw [Φ1_pre_other V c t h1, Φ1_post_other V c t h9, mA_step V c t h1 hp, lA_step V c t h1 hp]
      iintro ⟨⟨Hm, Hl, Hp, Hi⟩, HO, H0, H1, H2, H3, H4, H5, H6⟩
      iapply (run_mid c t (st1_0 t) (hstage1_0 ((cfg1.slots t 0).cast nbuf1_0)) (st1_1 t) (hstage1_1 ((cfg1.slots t 1).cast nbuf1_1))
        (st1_2 t) (hstage1_2 ((cfg1.slots t 2).cast nbuf1_2)) (st1_3 t) (hstage1_3 ((cfg1.slots t 3).cast nbuf1_3))
        (st1_4 t) (hstage1_4 ((cfg1.slots t 4).cast nbuf1_4)) (st1_5 t) (hstage1_5 ((cfg1.slots t 5).cast nbuf1_5))
        (st1_6 t) (hstage1_6 ((cfg1.slots t 6).cast nbuf1_6))
        (iblk1 V c 0 t) (iblk1 V c 1 t) (iblk1 V c 2 t) (iblk1 V c 3 t) (iblk1 V c 4 t) (iblk1 V c 5 t) (Y 6) (mB V c t h1) (lB V c t h1) hF hL _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      isplitl [Hm]; · iexact Hm
      isplitl [Hl]; · iexact Hl
      iintro ⟨⟨H0, H1, H2, H3, H4, H5⟩, H6, Hm, Hl⟩
      isplitl [Hm Hl Hp Hi]
      · isplitl [Hm]; · iexact Hm
        isplitl [Hl]; · iexact Hl
        isplitl [Hp]; · iexact Hp
        iexact Hi
      isplitl [HO]; · iexact HO
      isplitl [H0]; · iexists _; isplitr; (· ipureintro; rfl); iexact H0
      isplitl [H1]; · iexists _; isplitr; (· ipureintro; rfl); iexact H1
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      iexists _; isplitr; swap; (· iexact H6)
      ipureintro
      exact (oStep_other V c t _ h9).symm

/-! ## The output's staging buffer after each point, in closed form -/

/-- The output's staging buffer after point k, if it held d when k's half began: a half's first tile steps from d,
    any other from what the point before left. -/
def oA (c : Dev nD) (d : Vec F S128x32000 .f32) : (k : ℕ) → k < cfg1.N → Vec F S128x32000 .f32
  | 0, hk => oStep V c ⟨0, hk⟩ d
  | k + 1, hk => if (k + 1) % 10 = 0 then oStep V c ⟨k + 1, hk⟩ d
      else oStep V c ⟨k + 1, hk⟩ (oA c d k (Nat.lt_of_succ_lt hk))

theorem oA_first (c : Dev nD) (d : Vec F S128x32000 .f32) (t : Fin cfg1.N) (h : t.val % 10 = 0) :
    oA V c d t.val t.isLt = oStep V c t d := by
  obtain ⟨k, hk⟩ := t
  cases k with
  | zero => rfl
  | succ k => show (if (k + 1) % 10 = 0 then _ else _) = _; rw [if_pos h]

theorem oA_step (c : Dev nD) (d : Vec F S128x32000 .f32) (t : Fin cfg1.N) (h : t.val % 10 ≠ 0) (hp : t.val - 1 < cfg1.N) :
    oA V c d t.val t.isLt = oStep V c t (oA V c d (t.val - 1) hp) := by
  obtain ⟨k, hk⟩ := t
  cases k with
  | zero => exact absurd rfl h
  | succ k => show (if (k + 1) % 10 = 0 then _ else _) = _; rw [if_neg h]; rfl

/-- Whatever the body may leave in the output's staging buffer at point t is oA of SOME contents d at the half's start. -/
theorem leaves1_6_oA (c : Dev nD) (t : Fin cfg1.N) (X : Vec F S128x32000 .f32) (hX : (rdat1 V c).Leaves 6 t X) :
    ∃ d, X = oA V c d t.val t.isLt := by
  suffices H : ∀ n (t : Fin cfg1.N), t.val = n → ∀ X : Vec F S128x32000 .f32, (rdat1 V c).Leaves 6 t X → ∃ d, X = oA V c d t.val t.isLt from
    H t.val t rfl X hX
  intro n
  induction n using Nat.strong_induction_on with
  | _ n ih =>
    intro t hn X hX
    obtain ⟨Y, hY, rfl⟩ := (leaves1_6 V c t X).mp hX
    by_cases h : t.val % 10 = 0
    · exact ⟨Y, (oA_first V c Y t h).symm⟩
    · have hp : t.val - 1 < cfg1.N := Nat.lt_of_le_of_lt (Nat.sub_le _ _) t.isLt
      have h0 : t.val ≠ 0 := fun e => h (by rw [e])
      obtain ⟨d, hd⟩ := ih (t.val - 1) (by omega) ⟨t.val - 1, hp⟩ rfl Y ((finds1_6_other V c t h Y).mp hY)
      exact ⟨d, ((oA_step V c d t h hp).trans (congrArg (oStep V c t) hd.symm)).symm⟩

end Data

end Cert.Kernel.Hand

end
-- ==== Proof.FrameClaims.lean ====
/-
  The two frame claims of the kernel program, over words and over the extended reals: each runs to its end with its
  seven argument arrays unchanged. The precondition bounds the author and role words, so every word of the combined index
  table is a row number of the reshaped source array; the run of the two kernel regions asks nothing else.
-/
import proofs.«424303_j34282428957025_2_alg».proof.Defs
import proofs.«424303_j34282428957025_2_alg».proof.Proof.PreFacts
import proofs.«424303_j34282428957025_2_alg».proof.Proof.HostValues
import proofs.«424303_j34282428957025_2_alg».proof.Proof.RegionsRun
import proofs.«424303_j34282428957025_2_alg».proof.Proof.Bits.HostValues
import proofs.«424303_j34282428957025_2_alg».proof.Proof.Bits.RegionsRun

noncomputable section

namespace Cert.Proof.FrameClaims

open Idealize.ShloMosaic Idealize.SL.Sem

/-- The idealized kernel program runs and leaves its arguments unchanged: the precondition bounds the author and role
    words, so every word of the combined index table is a row number of the reshaped source, which is all the run asks. -/
theorem frame_ki : Cert.frame_KernelIdeal := fun m ρ hpre => by
  obtain ⟨hm, hr, -⟩ := Cert.PreFacts.idx_of_pre (F := Ideal) _ _ _ _ _ _ _ (hpre 0)
  exact Cert.KernelIdeal.Hand.run_frame (F := Ideal) m ρ (Cert.KernelIdeal.Hand.ok0_of_idx m hm hr)

/-- The same of the kernel program over words. -/
theorem frame_k : Cert.frame_Kernel := fun m ρ hpre => by
  obtain ⟨hm, hr, -⟩ := Cert.PreFacts.idx_of_pre (F := Bits) _ _ _ _ _ _ _ (hpre 0)
  exact Cert.Kernel.Hand.run_frame (F := Bits) m ρ (Cert.Kernel.Hand.ok0_of_idx m hm hr)

end Cert.Proof.FrameClaims

end
-- ==== Proof.RefPersona.lean ====
/-
  The reference's persona product, row maximum and index bookkeeping, read at an index over the extended reals:
  the reshaped dot_general at (b, r, v) is the row of z against the persona column (·, r, v); the host's maximum over
  a row from minus infinity is the supremum of the row; and the broadcast index maps of the log-softmax stages.
-/
import proofs.«424303_j34282428957025_2_alg».proof.Proof.RefStages
import proofs.«424303_j34282428957025_2_alg».proof.Proof.Spec
import Idealize.ShloMosaic.Lib.StableHlo.Predicate

noncomputable section

namespace Cert.RefValue

open Cert.ReferenceIdeal Cert.ReferenceIdeal.Gen Cert.ReferenceIdeal.ReadP
open Idealize.ShloMosaic Idealize.ShloMosaic.ValueIdx
open Idealize.ShloMosaic.StableHlo.Predicate

/-! ## The persona product -/

/-- The flattened (256, 256000) position of (b, r, v): row b, column 32000 r + v. -/
theorem idx23 (b : Fin 256) (r : Fin 8) (v : Fin 32000) :
    idx_main_v23 (ix3 b r v) = ix2 b (⟨32000 * r.val + v.val, by omega⟩ : Fin 256000) := by
  funext a
  apply Fin.ext
  match a with
  | ⟨0, _⟩ => show ((b.val * 8 + r.val) * 32000 + v.val) / 256000 = b.val; omega
  | ⟨1, _⟩ => show ((b.val * 8 + r.val) * 32000 + v.val) % 256000 = 32000 * r.val + v.val; omega

/-- Column 32000 r + v of the flattened (64, 256000) persona array is (p, r, v). -/
theorem idx21 (p : Fin 64) (r : Fin 8) (v : Fin 32000) :
    idx_main_v21 (ix2 p (⟨32000 * r.val + v.val, by omega⟩ : Fin 256000)) = ix3 p r v := by
  funext a
  apply Fin.ext
  match a with
  | ⟨0, _⟩ => show (p.val * 256000 + (32000 * r.val + v.val)) / 256000 = p.val; omega
  | ⟨1, _⟩ => show (p.val * 256000 + (32000 * r.val + v.val)) / 32000 % 8 = r.val; omega
  | ⟨2, _⟩ => show (p.val * 256000 + (32000 * r.val + v.val)) % 32000 = v.val; omega

theorem lidx22 (b : Fin 256) (c : Fin 256000) (p : Fin 64) : lidx_main_v22 (ix2 b c) p = ix2 b p := by
  funext a
  apply Fin.ext
  match a with
  | ⟨0, _⟩ => rfl
  | ⟨1, _⟩ => rfl

theorem ridx22 (b : Fin 256) (c : Fin 256000) (p : Fin 64) : ridx_main_v22 (ix2 b c) p = ix2 p c := by
  funext a
  apply Fin.ext
  match a with
  | ⟨0, _⟩ => rfl
  | ⟨1, _⟩ => rfl

/-- The reshaped product at (b, r, v): the row of z against the persona column (·, r, v). -/
theorem v23_apply (x1 : Cert.Spec.ZArr) (x6 : Cert.Spec.PersArr) (b : Fin 256) (r : Fin 8) (v : Fin 32000) :
    val_main_v23 (F := Ideal) x1 x6 (ix3 b r v) = ∑ p : Fin 64, x1 (ix2 b p) * x6 (ix3 p r v) := by
  rw [val_main_v23_apply, idx23, val_main_v22_apply]
  refine Finset.sum_congr rfl fun p _ => ?_
  rw [lidx22, ridx22, val_main_v21_apply, idx21]

/-! ## The row maximum -/

theorem lift_row (h : S256x32000.Reduces [1] S256) (b : Fin 256) (k : Fin 32000) : h.lift (ix1 b) k = ix2 b k :=
  funext fun c => Fin.ext (by match c with | ⟨0, _⟩ => rfl | ⟨1, _⟩ => rfl)

/-- The host's maximum over a row, from minus infinity, is the supremum of the row. -/
theorem rowmax_host (Lg : S256x32000.Idx → EReal) (b : Fin 256) :
    Host.reduce (FloatOps.maximumf (F := Ideal) (φ := .f32)) Lg (val_main_call2_cst (F := Ideal)) reducesTo_S256x32000_S256_d1 h_S_ (ix1 b)
      = Finset.univ.sup fun k : Fin 32000 => Lg (ix2 b k) := by
  have hR : S256x32000.Reduces [1] S256 := by decide
  rw [Host.reduce_eq_fold_single (FloatOps.maximumf (F := Ideal) (φ := .f32)) Lg _ reducesTo_S256x32000_S256_d1 hR h_S_]
  have hbot : (val_main_call2_cst (F := Ideal)) (Shape.Idx.first h_S_) = (⊥ : EReal) := by
    show Ideal.ofBits .f32 0xFF800000#32 = ⊥
    simp [Ideal.ofBits, Ideal.ieee]
  rw [hbot]
  refine (congrArg (fun f : Fin 32000 → EReal => (Finset.univ : Finset (Fin 32000)).fold max (⊥ : EReal) f)
    (funext fun k => congrArg Lg (lift_row hR b k))).trans ?_
  rfl

/-! ## Constants and index maps of the log-softmax stages -/

theorem neg_inf_word : Ideal.ofBits .f32 0xFF800000#32 = (⊥ : EReal) := by
  simp [Ideal.ofBits, Ideal.ieee]

theorem idx_col (b : Fin 256) (v : Fin 32000) : idx_main_call2_v3 (idx_main_call2_v4 (ix2 b v)) = ix1 b :=
  funext fun c => Fin.ext (by match c with | ⟨0, _⟩ => rfl)

theorem idx_col' (b : Fin 256) (v : Fin 32000) : idx_main_call2_v8 (idx_main_call2_v10 (ix2 b v)) = ix1 b :=
  funext fun c => Fin.ext (by match c with | ⟨0, _⟩ => rfl)

theorem idx_row (b : Fin 256) (k : Fin 32000) : idx_main_call2_v7 (ix1 b) k = ix2 b k :=
  funext fun c => Fin.ext (by match c with | ⟨0, _⟩ => rfl | ⟨1, _⟩ => rfl)

end Cert.RefValue

end
-- ==== Proof.RefGather.lean ====
/-
  The reference's index-dependent reads, each at one element, for any operand and any array of index words:
  the wrap-around select of an index word, the three gathers, and the two-piece concatenate of index columns.
-/
import proofs.«424303_j34282428957025_2_alg».proof.Proof.Gen.ReferenceIdeal
import Idealize.ShloMosaic.Lib.ValueIdx
import Idealize.ShloMosaic.Lib.Pipeline.Value
import Idealize.ShloMosaic.Lib.StableHlo.Predicate

noncomputable section

namespace Cert.RefValue

open Cert.ReferenceIdeal Cert.ReferenceIdeal.Gen Idealize.ShloMosaic Idealize.ShloMosaic.ValueIdx
open Idealize.ShloMosaic.StableHlo.Predicate

/-- A word below 2³¹ is not negative as a signed integer: the wrap-around select keeps it. -/
theorem wrap_id (w n : BitVec 32) (hw : w.toNat < 2 ^ 31) :
    Scalar.select (IntOp.cmpi .slt w 0#32) (IntOp.addi w n) w = w := by
  have h : IntOp.cmpi .slt w 0#32 ≠ 1#1 := fun e => by
    have := (slt_iff_toNat hw (by decide)).1 e
    simp at this
  rw [eq_zero_of_ne_one h, select_zero]

/-- The signed reading of a word below 2³¹ is its value. -/
theorem toInt_toNat_small (w : BitVec 32) (hw : w.toNat < 2 ^ 31) : w.toInt.toNat = w.toNat := by
  rw [toInt_eq_toNat_of_lt hw]; rfl

/-- A row gather of an [8, 32000] array at a column of 256 start words: element (b, v) is the array at the row the
    start word of b names, read signed and clamped into [0, 7], and column v. -/
theorem gather_rows_apply {α : Type} (x : S8x32000.Idx → α) (idx : IVec S256x1 32) (b : Fin 256) (v : Fin 32000) :
    Host.gather gather_S8x32000_S256x1_S256x32000_1_0_n_n_0_1_132000 x idx (ix2 b v)
      = x (ix2 ⟨min (idx (ix2 b 0)).toInt.toNat 7, by omega⟩ v) := by
  unfold Host.gather
  congr 1
  funext a
  refine Fin.ext ?_
  match a with
  | ⟨0, _⟩ =>
    show GatherDims.start _ (ix2 b v) idx 0 + GatherDims.batchCoord _ (ix2 b v) 0 + GatherDims.offCoord _ (ix2 b v) 0 = _
    rw [GatherDims.batchCoord_eq_zero _ _ _ (by decide), GatherDims.offCoord_eq_zero _ _ _ (by decide)]
    unfold GatherDims.start
    rw [dif_pos (by decide)]
    show min (idx _).toInt.toNat 7 = min (idx (ix2 b 0)).toInt.toNat 7
    refine congrArg (fun k => min (idx k).toInt.toNat 7) (?_ : _ = ix2 b 0)
    funext a'; refine Fin.ext ?_
    match a' with
    | ⟨0, _⟩ => rfl
    | ⟨1, _⟩ => rfl
  | ⟨1, _⟩ =>
    show GatherDims.start _ (ix2 b v) idx 1 + GatherDims.batchCoord _ (ix2 b v) 1 + GatherDims.offCoord _ (ix2 b v) 1 = _
    rw [GatherDims.batchCoord_eq_zero _ _ _ (by decide)]
    unfold GatherDims.start
    rw [dif_neg (by decide)]
    unfold GatherDims.offCoord
    rw [dif_pos (by decide)]
    simp only [Nat.zero_add]
    rfl

/-- A gather of a [500, 8, 32000] array at 256 pairs of start words: element (b, v) is the array at the two
    coordinates the pair of b names, each read signed and clamped into its axis, and column v. -/
theorem gather_pairs_apply {α : Type} (x : S500x8x32000.Idx → α) (idx : IVec S256x2 32) (b : Fin 256) (v : Fin 32000) :
    Host.gather gather_S500x8x32000_S256x2_S256x32000_1_01_n_n_01_1_1132000 x idx (ix2 b v)
      = x (ix3 ⟨min (idx (ix2 b 0)).toInt.toNat 499, by omega⟩ ⟨min (idx (ix2 b 1)).toInt.toNat 7, by omega⟩ v) := by
  unfold Host.gather
  congr 1
  funext a
  refine Fin.ext ?_
  match a with
  | ⟨0, _⟩ =>
    show GatherDims.start _ (ix2 b v) idx 0 + GatherDims.batchCoord _ (ix2 b v) 0 + GatherDims.offCoord _ (ix2 b v) 0 = _
    rw [GatherDims.batchCoord_eq_zero _ _ _ (by decide), GatherDims.offCoord_eq_zero _ _ _ (by decide)]
    unfold GatherDims.start
    rw [dif_pos (by decide)]
    show min (idx _).toInt.toNat 499 = min (idx (ix2 b 0)).toInt.toNat 499
    refine congrArg (fun k => min (idx k).toInt.toNat 499) (?_ : _ = ix2 b 0)
    funext a'; refine Fin.ext ?_
    match a' with
    | ⟨0, _⟩ => rfl
    | ⟨1, _⟩ => rfl
  | ⟨1, _⟩ =>
    show GatherDims.start _ (ix2 b v) idx 1 + GatherDims.batchCoord _ (ix2 b v) 1 + GatherDims.offCoord _ (ix2 b v) 1 = _
    rw [GatherDims.batchCoord_eq_zero _ _ _ (by decide), GatherDims.offCoord_eq_zero _ _ _ (by decide)]
    unfold GatherDims.start
    rw [dif_pos (by decide)]
    show min (idx _).toInt.toNat 7 = min (idx (ix2 b 1)).toInt.toNat 7
    refine congrArg (fun k => min (idx k).toInt.toNat 7) (?_ : _ = ix2 b 1)
    funext a'; refine Fin.ext ?_
    match a' with
    | ⟨0, _⟩ => rfl
    | ⟨1, _⟩ => rfl
  | ⟨2, _⟩ =>
    show GatherDims.start _ (ix2 b v) idx 2 + GatherDims.batchCoord _ (ix2 b v) 2 + GatherDims.offCoord _ (ix2 b v) 2 = _
    rw [GatherDims.batchCoord_eq_zero _ _ _ (by decide)]
    unfold GatherDims.start
    rw [dif_neg (by decide)]
    unfold GatherDims.offCoord
    rw [dif_pos (by decide)]
    simp only [Nat.zero_add]
    rfl

/-- A gather along the middle axis of a [256, 8, 32000] array, batched over the first axis, at one start word per
    row: element (b, 0, v) is the array at row b, at the coordinate the start word of b names (read signed and clamped
    into [0, 7]), and column v. -/
theorem gather_batched_apply {α : Type} (x : S256x8x32000.Idx → α) (idx : IVec S256x1x1 32) (b : Fin 256) (v : Fin 32000) :
    Host.gather gather_S256x8x32000_S256x1x1_S256x1x32000_2_1_0_0_1_2_1132000 x idx (ix3 b 0 v)
      = x (ix3 b ⟨min (idx (ix3 b 0 0)).toInt.toNat 7, by omega⟩ v) := by
  unfold Host.gather
  congr 1
  funext a
  refine Fin.ext ?_
  match a with
  | ⟨0, _⟩ =>
    show GatherDims.start _ (ix3 b 0 v) idx 0 + GatherDims.batchCoord _ (ix3 b 0 v) 0 + GatherDims.offCoord _ (ix3 b 0 v) 0 = _
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show GatherDims.start _ (ix3 b 0 v) idx 1 + GatherDims.batchCoord _ (ix3 b 0 v) 1 + GatherDims.offCoord _ (ix3 b 0 v) 1 = _
    rw [GatherDims.batchCoord_eq_zero _ _ _ (by decide), GatherDims.offCoord_eq_zero _ _ _ (by decide)]
    unfold GatherDims.start
    rw [dif_pos (by decide)]
    show min (idx _).toInt.toNat 7 = min (idx (ix3 b 0 0)).toInt.toNat 7
    refine congrArg (fun k => min (idx k).toInt.toNat 7) (?_ : _ = ix3 b 0 0)
    funext a'; refine Fin.ext ?_
    match a' with
    | ⟨0, _⟩ => rfl
    | ⟨1, _⟩ => rfl
    | ⟨2, _⟩ => rfl
  | ⟨2, _⟩ =>
    show GatherDims.start _ (ix3 b 0 v) idx 2 + GatherDims.batchCoord _ (ix3 b 0 v) 2 + GatherDims.offCoord _ (ix3 b 0 v) 2 = _
    rw [GatherDims.batchCoord_eq_zero _ _ _ (by decide)]
    unfold GatherDims.start
    rw [dif_neg (by decide)]
    unfold GatherDims.offCoord
    rw [dif_pos (by decide)]
    simp only [Nat.zero_add]
    rfl

/-- Two columns of 256 words joined side by side: column 0 of the result is the first piece. -/
theorem concat_cols_apply0 {α : Type} (p q : S256x1.Idx → α) (h : Shape.Concatenates [S256x1, S256x1] S256x2 1) (b : Fin 256) :
    concatenate S256x2 1 [⟨S256x1, p⟩, ⟨S256x1, q⟩] h (ix2 b 0) = p (ix2 b 0) :=
  concatenate_pair_apply_left 1 p q h (ix2 b 0) rfl (ix2 b 0)
    (fun a => by match a with | ⟨0, _⟩ => rfl | ⟨1, _⟩ => rfl)

/-- … and column 1 is the second piece. -/
theorem concat_cols_apply1 {α : Type} (p q : S256x1.Idx → α) (h : Shape.Concatenates [S256x1, S256x1] S256x2 1) (b : Fin 256) :
    concatenate S256x2 1 [⟨S256x1, p⟩, ⟨S256x1, q⟩] h (ix2 b 1) = q (ix2 b 0) :=
  concatenate_pair_apply_right 1 p q h (ix2 b 1) rfl rfl (ix2 b 0)
    (fun a ha => by match a with | ⟨0, _⟩ => rfl | ⟨1, _⟩ => exact absurd rfl ha)
    rfl

end Cert.RefValue

end
-- ==== Proof.RefGathers.lean ====
/-
  The reference's index-dependent reads, each at one element.

  The reference turns a batch row's role word and author word into array coordinates four times: three gathers
  (background by role, mask by role, author by the pair author and role) and a take along the role axis of the
  persona product. Before each it wraps a negative word around (adds the axis length), and the gathers clamp the
  start word into the axis. For a word w with 0 <= w < n, read as a signed integer, the wrap leaves w alone and the
  clamp into [0, n - 1] is w itself; so each read lands on the row's own role (and author), which is also w modulo n.
  The take's in-range test (0 <= w and w <= 7, folded by and over an axis of length one) is then true, so the take
  returns the gathered value and never its out-of-range fill.
-/
import proofs.«424303_j34282428957025_2_alg».proof.Proof.RefStages
import proofs.«424303_j34282428957025_2_alg».proof.Proof.RefGather
import proofs.«424303_j34282428957025_2_alg».proof.Proof.Spec
import Idealize.ShloMosaic.Lib.ValueIdx
import Idealize.ShloMosaic.Lib.Pipeline.Value
import Idealize.ShloMosaic.Lib.StableHlo.Predicate

noncomputable section

namespace Cert.RefValue

open Cert.ReferenceIdeal Cert.ReferenceIdeal.Gen Cert.ReferenceIdeal.ReadP Idealize.ShloMosaic Idealize.ShloMosaic.ValueIdx
open Idealize.ShloMosaic.StableHlo.Predicate

/-! ## Words in range, and a fold of ones -/

/-- Clamping the signed reading of a word at most n into [0, n] gives the word's value. -/
theorem clamp_small (w : BitVec 32) (n : ℕ) (hw : w.toNat ≤ n) (hn : n < 2 ^ 31) : min w.toInt.toNat n = w.toNat := by
  rw [toInt_toNat_small w (by omega)]
  exact Nat.min_eq_left hw

/-- A fold by and from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by and from the constant 1 over an array of ones is 1 at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_ones x hx _

/-! ## The wrapped index words -/

section Words
variable {F : FTy → Type} [FloatOps F]

/-- The role word wrapped for the background gather is the word. -/
theorem v4_word (x2 : Spec.IVec256) (b : Fin 256) (h : (x2 (ix1 b)).toNat < 2 ^ 31) :
    val_main_v4 (F := F) x2 (ix1 b) = x2 (ix1 b) := by
  rw [val_main_v4_apply, val_main_v1_apply, val_main_v3_apply, val_main_v0_apply, val_main_c_apply]
  exact wrap_id _ _ h

/-- The author word wrapped for the author gather is the word. -/
theorem v11_word (x0 : Spec.IVec256) (b : Fin 256) (h : (x0 (ix1 b)).toNat < 2 ^ 31) :
    val_main_v11 (F := F) x0 (ix1 b) = x0 (ix1 b) := by
  rw [val_main_v11_apply, val_main_v8_apply, val_main_v10_apply, val_main_v7_apply, val_main_c_1_apply]
  exact wrap_id _ _ h

/-- The role word wrapped for the author gather is the word. -/
theorem v16_word (x2 : Spec.IVec256) (b : Fin 256) (h : (x2 (ix1 b)).toNat < 2 ^ 31) :
    val_main_v16 (F := F) x2 (ix1 b) = x2 (ix1 b) := by
  rw [val_main_v16_apply, val_main_v13_apply, val_main_v15_apply, val_main_v12_apply, val_main_c_3_apply]
  exact wrap_id _ _ h

/-- The role word wrapped for the mask gather is the word. -/
theorem v33_word (x2 : Spec.IVec256) (b : Fin 256) (h : (x2 (ix1 b)).toNat < 2 ^ 31) :
    val_main_v33 (F := F) x2 (ix1 b) = x2 (ix1 b) := by
  rw [val_main_v33_apply, val_main_v30_apply, val_main_v32_apply, val_main_v29_apply, val_main_c_5_apply]
  exact wrap_id _ _ h

/-- The role word as the take's (256, 1, 1) index array reads it. -/
theorem v24_word (x2 : Spec.IVec256) (b : Fin 256) (u w : Fin 1) :
    val_main_v24 (F := F) x2 (ix3 b u w) = x2 (ix1 b) := by
  rw [val_main_v24_apply]
  exact congrArg x2 (funext fun a => by match a with | ⟨0, _⟩ => rfl)

/-- The role word wrapped for the take is the word. -/
theorem call0_v4_word (x2 : Spec.IVec256) (b : Fin 256) (u w : Fin 1) (h : (x2 (ix1 b)).toNat < 2 ^ 31) :
    val_main_call0_v4 (F := F) x2 (ix3 b u w) = x2 (ix1 b) := by
  rw [val_main_call0_v4_apply, val_main_call0_v1_apply, val_main_call0_v3_apply, val_main_call0_v0_apply,
    val_main_call0_c_apply, v24_word]
  exact wrap_id _ _ h

/-- The take's in-range test is true at every row. -/
theorem call0_v11_true (x2 : Spec.IVec256) (hr : ∀ b : Fin 256, (x2 (ix1 b)).toNat < 8) (j : S256x1.Idx) :
    val_main_call0_v11 (F := F) x2 j = 1#1 := by
  unfold val_main_call0_v11
  refine reduce_andi_ones _ _ _ _ j (fun i => ?_) (fun k => val_main_call0_c_3_apply k)
  obtain ⟨b, u, w, rfl⟩ : ∃ (b : Fin 256) (u w : Fin 1), i = ix3 b u w := ⟨i 0, i 1, i 2, eq_ix3 i⟩
  have hb := hr b
  have hw : val_main_call0_v4 (F := F) x2 (ix3 b u w) = x2 (ix1 b) := call0_v4_word x2 b u w (by omega)
  rw [val_main_call0_v10_apply, val_main_call0_v6_apply, val_main_call0_v9_apply, hw, val_main_call0_v5_apply,
    val_main_call0_c_2_apply, val_main_call0_v8_apply, val_main_call0_v7_apply, val_main_call0_c_1_apply]
  exact IntOp.andi_eq_one.2 ⟨(sge_iff_toNat (by omega) (by decide)).2 (Nat.zero_le _),
    (sle_iff_toNat (by omega) (by decide)).2 (by show (x2 (ix1 b)).toNat ≤ 7; omega)⟩

end Words

/-! ## The four reads -/

/-- The background gathered by role: row b reads the background at its role. -/
theorem v6_apply (x2 : Spec.IVec256) (x4 : Spec.BgArr) (hr : ∀ b : Fin 256, (x2 (ix1 b)).toNat < 8)
    (b : Fin 256) (v : Fin 32000) :
    val_main_v6 (F := Ideal) x2 x4 (ix2 b v) = x4 (ix2 (Spec.role x2 b) v) := by
  have hb := hr b
  have hw : val_main_v5 (F := Ideal) x2 (ix2 b 0) = x2 (ix1 b) := by
    rw [val_main_v5_apply]
    exact (congrArg (val_main_v4 (F := Ideal) x2) (funext fun a => by match a with | ⟨0, _⟩ => rfl)).trans
      (v4_word x2 b (by omega))
  unfold val_main_v6
  refine (gather_rows_apply x4 (val_main_v5 (F := Ideal) x2) b v).trans ?_
  refine congrArg (fun r => x4 (ix2 r v)) (Fin.ext ?_)
  show min (val_main_v5 (F := Ideal) x2 (ix2 b 0)).toInt.toNat 7 = (x2 (ix1 b)).toNat % 8
  rw [hw, clamp_small _ 7 (by omega) (by decide), Nat.mod_eq_of_lt hb]

/-- The mask gathered by role: row b reads the mask at its role. -/
theorem v35_apply (x2 : Spec.IVec256) (x3 : Spec.MaskArr) (hr : ∀ b : Fin 256, (x2 (ix1 b)).toNat < 8)
    (b : Fin 256) (v : Fin 32000) :
    val_main_v35 (F := Ideal) x2 x3 (ix2 b v) = x3 (ix2 (Spec.role x2 b) v) := by
  have hb := hr b
  have hw : val_main_v34 (F := Ideal) x2 (ix2 b 0) = x2 (ix1 b) := by
    rw [val_main_v34_apply]
    exact (congrArg (val_main_v33 (F := Ideal) x2) (funext fun a => by match a with | ⟨0, _⟩ => rfl)).trans
      (v33_word x2 b (by omega))
  unfold val_main_v35
  refine (gather_rows_apply x3 (val_main_v34 (F := Ideal) x2) b v).trans ?_
  refine congrArg (fun r => x3 (ix2 r v)) (Fin.ext ?_)
  show min (val_main_v34 (F := Ideal) x2 (ix2 b 0)).toInt.toNat 7 = (x2 (ix1 b)).toNat % 8
  rw [hw, clamp_small _ 7 (by omega) (by decide), Nat.mod_eq_of_lt hb]

/-- The author array gathered by the pair (author, role): row b reads it at its author and its role. -/
theorem v20_apply (x0 x2 : Spec.IVec256) (x5 : Spec.AuthArr) (hm : ∀ b : Fin 256, (x0 (ix1 b)).toNat < 500)
    (hr : ∀ b : Fin 256, (x2 (ix1 b)).toNat < 8) (b : Fin 256) (v : Fin 32000) :
    val_main_v20 (F := Ideal) x0 x2 x5 (ix2 b v) = x5 (ix3 (Spec.author x0 b) (Spec.role x2 b) v) := by
  have hb := hr b
  have ha := hm b
  have h0 : val_main_v19 (F := Ideal) x0 x2 (ix2 b 0) = x0 (ix1 b) := by
    unfold val_main_v19
    rw [concat_cols_apply0, val_main_v17_apply]
    exact (congrArg (val_main_v11 (F := Ideal) x0) (funext fun a => by match a with | ⟨0, _⟩ => rfl)).trans
      (v11_word x0 b (by omega))
  have h1 : val_main_v19 (F := Ideal) x0 x2 (ix2 b 1) = x2 (ix1 b) := by
    unfold val_main_v19
    rw [concat_cols_apply1, val_main_v18_apply]
    exact (congrArg (val_main_v16 (F := Ideal) x2) (funext fun a => by match a with | ⟨0, _⟩ => rfl)).trans
      (v16_word x2 b (by omega))
  unfold val_main_v20
  refine (gather_pairs_apply x5 (val_main_v19 (F := Ideal) x0 x2) b v).trans ?_
  refine congrArg₂ (fun a r => x5 (ix3 a r v)) (Fin.ext ?_) (Fin.ext ?_)
  · show min (val_main_v19 (F := Ideal) x0 x2 (ix2 b 0)).toInt.toNat 499 = (x0 (ix1 b)).toNat % 500
    rw [h0, clamp_small _ 499 (by omega) (by decide), Nat.mod_eq_of_lt ha]
  · show min (val_main_v19 (F := Ideal) x0 x2 (ix2 b 1)).toInt.toNat 7 = (x2 (ix1 b)).toNat % 8
    rw [h1, clamp_small _ 7 (by omega) (by decide), Nat.mod_eq_of_lt hb]

/-- The take along the role axis, flattened: row b reads the persona product at its role. -/
theorem v26_apply (x1 : Spec.ZArr) (x2 : Spec.IVec256) (x6 : Spec.PersArr) (hr : ∀ b : Fin 256, (x2 (ix1 b)).toNat < 8)
    (b : Fin 256) (v : Fin 32000) :
    val_main_v26 (F := Ideal) x1 x2 x6 (ix2 b v) = val_main_v23 (F := Ideal) x1 x6 (ix3 b (Spec.role x2 b) v) := by
  have hb := hr b
  have hi : idx_main_v26 (ix2 b v) = ix3 b (0 : Fin 1) v := funext fun a => Fin.ext (by
    have h0 : b.val < 256 := b.isLt
    have h1 : v.val < 32000 := v.isLt
    match a with
    | ⟨0, _⟩ => show (b.val * 32000 + v.val) / 32000 = b.val; omega
    | ⟨1, _⟩ => rfl
    | ⟨2, _⟩ => show (b.val * 32000 + v.val) % 32000 = v.val; omega)
  rw [val_main_v26_apply, hi, val_main_v25_apply, val_main_call0_v13_apply, call0_v11_true x2 hr, select_one]
  unfold val_main_call0_v12
  refine (gather_batched_apply (val_main_v23 (F := Ideal) x1 x6) (val_main_call0_v4 (F := Ideal) x2) b v).trans ?_
  refine congrArg (fun r => val_main_v23 (F := Ideal) x1 x6 (ix3 b r v)) (Fin.ext ?_)
  show min (val_main_call0_v4 (F := Ideal) x2 (ix3 b 0 0)).toInt.toNat 7 = (x2 (ix1 b)).toNat % 8
  rw [call0_v4_word x2 b 0 0 (by omega), clamp_small _ 7 (by omega) (by decide), Nat.mod_eq_of_lt hb]

end Cert.RefValue

end
-- ==== Proof.RefIsG.lean ====
/-
  The reference program computes the specification: its masked logits are the specification's logits, its row maximum
  and row sum of shifted exponentials are the specification's, and its result is the specification's at every index.
-/
import proofs.«424303_j34282428957025_2_alg».proof.Proof.RefPersona
import proofs.«424303_j34282428957025_2_alg».proof.Proof.RefGathers

noncomputable section

namespace Cert.RefValue

open Cert.ReferenceIdeal Cert.ReferenceIdeal.Gen Cert.ReferenceIdeal.ReadP
open Idealize.ShloMosaic Idealize.ShloMosaic.ValueIdx
open Idealize.ShloMosaic.StableHlo.Predicate

/-! ## The logits, the log-softmax, the result -/

section Main

variable (x0 : Cert.Spec.IVec256) (x1 : Cert.Spec.ZArr) (x2 : Cert.Spec.IVec256) (x3 : Cert.Spec.MaskArr)
  (x4 : Cert.Spec.BgArr) (x5 : Cert.Spec.AuthArr) (x6 : Cert.Spec.PersArr)

/-- The masked logits are the specification's. -/
theorem v38_apply (hd : Cert.Spec.Dom x0 x1 x2 x3 x4 x5 x6) (b : Fin 256) (v : Fin 32000) :
    val_main_v38 (F := Ideal) x0 x1 x2 x3 x4 x5 x6 (ix2 b v) = Cert.Spec.logit x0 x1 x2 x3 x4 x5 x6 b v := by
  rw [val_main_v38_apply, val_main_v37_apply, v35_apply x2 x3 hd.hr, val_main_v36_apply, val_main_c_7_apply,
    val_main_call1_v0_apply, val_main_cst_apply, val_main_v28_apply, val_main_v27_apply, v6_apply x2 x4 hd.hr,
    v20_apply x0 x2 x5 hd.hm hd.hr, v26_apply x1 x2 x6 hd.hr, v23_apply]
  unfold Cert.Spec.logit Cert.Spec.persona
  by_cases h : x3 (ix2 (Cert.Spec.role x2 b) v) = 0#32
  · rw [if_pos h, cmpi_eq_iff.2 h, select_one]
    rfl
  · rw [if_neg h, eq_zero_of_ne_one (fun e => h (cmpi_eq_iff.1 e)), select_zero]
    rfl

/-- The row maximum is the specification's. -/
theorem max_apply (hd : Cert.Spec.Dom x0 x1 x2 x3 x4 x5 x6) (b : Fin 256) :
    val_main_call2_v2 (F := Ideal) x0 x1 x2 x3 x4 x5 x6 (ix1 b) = Cert.Spec.rowMax x0 x1 x2 x3 x4 x5 x6 b := by
  have hv0 : val_main_call2_v0 (F := Ideal) x0 x1 x2 x3 x4 x5 x6 (ix1 b) = Cert.Spec.rowMax x0 x1 x2 x3 x4 x5 x6 b := by
    unfold val_main_call2_v0
    rw [rowmax_host]
    unfold Cert.Spec.rowMax
    exact congrArg (Finset.sup Finset.univ) (funext fun k => v38_apply x0 x1 x2 x3 x4 x5 x6 hd b k)
  rw [val_main_call2_v2_apply, val_main_call2_v1_apply, val_main_call2_cst_0_apply, hv0]
  show max (Ideal.ofBits .f32 0xFF800000#32) _ = _
  rw [neg_inf_word]
  exact max_eq_right bot_le

/-- The shifted logits. -/
theorem v5_apply (hd : Cert.Spec.Dom x0 x1 x2 x3 x4 x5 x6) (b : Fin 256) (v : Fin 32000) :
    val_main_call2_v5 (F := Ideal) x0 x1 x2 x3 x4 x5 x6 (ix2 b v)
      = Cert.Spec.logit x0 x1 x2 x3 x4 x5 x6 b v - Cert.Spec.rowMax x0 x1 x2 x3 x4 x5 x6 b := by
  rw [val_main_call2_v5_apply, v38_apply x0 x1 x2 x3 x4 x5 x6 hd, val_main_call2_v4_apply, val_main_call2_v3_apply, idx_col,
    max_apply x0 x1 x2 x3 x4 x5 x6 hd]
  rfl

/-- The row sum of shifted exponentials is the specification's. -/
theorem v7_apply (hd : Cert.Spec.Dom x0 x1 x2 x3 x4 x5 x6) (b : Fin 256) :
    val_main_call2_v7 (F := Ideal) x0 x1 x2 x3 x4 x5 x6 (ix1 b) = Cert.Spec.rowSum x0 x1 x2 x3 x4 x5 x6 b := by
  rw [val_main_call2_v7_apply, val_main_call2_cst_1_apply]
  unfold Cert.Spec.rowSum
  show Ideal.ofBits .f32 0x00000000#32 + _ = _
  rw [Ideal.ofBits_zero_f32, zero_add]
  refine Finset.sum_congr rfl fun k _ => ?_
  rw [idx_row, val_main_call2_v6_apply, v5_apply x0 x1 x2 x3 x4 x5 x6 hd]
  rfl

/-- The result at an index is the specification's. -/
theorem v39_apply (hd : Cert.Spec.Dom x0 x1 x2 x3 x4 x5 x6) (b : Fin 256) (v : Fin 32000) :
    val_main_v39 (F := Ideal) x0 x1 x2 x3 x4 x5 x6 (ix2 b v) = Cert.Spec.out x0 x1 x2 x3 x4 x5 x6 b v := by
  rw [val_main_v39_apply, v5_apply x0 x1 x2 x3 x4 x5 x6 hd, val_main_call2_v10_apply, val_main_call2_v9_apply,
    val_main_call2_v8_apply, idx_col', v7_apply x0 x1 x2 x3 x4 x5 x6 hd]
  unfold Cert.Spec.out
  simp only [Ideal.subf_def, Ideal.hostUnary_log_def]

/-- The reference computes the specification. -/
theorem ref_is_G (hd : Cert.Spec.Dom x0 x1 x2 x3 x4 x5 x6) :
    val_main_v39 (F := Ideal) x0 x1 x2 x3 x4 x5 x6 = Cert.Spec.G x0 x1 x2 x3 x4 x5 x6 := by
  funext j
  obtain ⟨b, v, rfl⟩ : ∃ (b : Fin 256) (v : Fin 32000), j = ix2 b v := ⟨j 0, j 1, eq_ix2 j⟩
  exact (v39_apply x0 x1 x2 x3 x4 x5 x6 hd b v).trans (Cert.Spec.G_ix2 x0 x1 x2 x3 x4 x5 x6 b v).symm

end Main

end Cert.RefValue

end
-- ==== Proof.HostValuesIdeal.lean ====
/-
  The host stretches' values at the ideal instance, against the specification's reading of the index words: the one-hot
  array is one in the column of the row's role and zero elsewhere; the gathered rows are the author array's rows at the
  row's author and role.
-/
import proofs.«424303_j34282428957025_2_alg».proof.Proof.HostValues
import proofs.«424303_j34282428957025_2_alg».proof.Proof.Spec
import Idealize.ShloMosaic.PureOps.Ideal

noncomputable section

namespace Cert.KernelIdeal.FusedValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (outs : Outs (F := Ideal))

/-- The converted comparison bit is one where the two words agree and zero elsewhere. -/
theorem uitofp_cmpi_eq (x y : BitVec 32) :
    (FloatOps.uitofp (F := Ideal) .f32 (IntOp.cmpi .eq x y) : EReal) = if x = y then 1 else 0 := by
  show ((((BitVec.ofBool (x == y)).toNat : ℕ) : ℝ) : EReal) = _
  by_cases h : x = y
  · rw [if_pos h, show (x == y) = true from beq_iff_eq.mpr h]
    show (((1 : ℕ) : ℝ) : EReal) = 1
    norm_num
  · rw [if_neg h, show (x == y) = false from beq_eq_false_iff_ne.mpr h]
    show (((0 : ℕ) : ℝ) : EReal) = 0
    norm_num

/-- A role word below 8 equals the column's number exactly when the column is the row's role. -/
theorem word_eq_iff_role (ridx : Spec.IVec256) (b : Fin 256) (r : Fin 8) (hr : (ridx (ix1 b)).toNat < 8) :
    ridx (ix1 b) = BitVec.ofNat 32 r.val ↔ r = Spec.role ridx b := by
  have hr8 := r.isLt
  constructor
  · intro h
    apply Fin.ext
    show r.val = (ridx (ix1 b)).toNat % 8
    rw [h, BitVec.toNat_ofNat]
    omega
  · intro h
    apply BitVec.eq_of_toNat_eq
    rw [BitVec.toNat_ofNat, h]
    show (ridx (ix1 b)).toNat = (ridx (ix1 b)).toNat % 8 % 2 ^ 32
    omega

/-- The one-hot array the second region reads: one in the column of the row's role, zero elsewhere. -/
theorem V3_onehot_role (c : Dev nD)
    (hr : ∀ b : Fin 256, ((m ((c : Thread nD τ).loc main_arg2) : Spec.IVec256) (ix1 b)).toNat < 8) (b : Fin 256) (r : Fin 8) :
    (V3 m outs c (Proc.devRef .tc main_v5) : S256x8.Idx → EReal) (ix2 b r)
      = (if r = Spec.role (m ((c : Thread nD τ).loc main_arg2)) b then (1 : EReal) else 0) := by
  rw [V3_onehot, uitofp_cmpi_eq]
  exact if_congr (word_eq_iff_role _ b r (hr b)) rfl rfl

/-- The gathered rows are the author's: row `b` of the table-selected array is the row of the author array at the row's
    author and role. -/
theorem gathered_author (c : Dev nD)
    (hm : ∀ b : Fin 256, ((m ((c : Thread nD τ).loc main_arg0) : Spec.IVec256) (ix1 b)).toNat < 500)
    (hr : ∀ b : Fin 256, ((m ((c : Thread nD τ).loc main_arg2) : Spec.IVec256) (ix1 b)).toNat < 8)
    (hok : Ok0 (F := Ideal) (fun c b => V1 m c b))
    (b : Fin 256) (v : Fin 32000) :
    gathered (F := Ideal) (V1 m 0 (Proc.devRef .tc main_v2)) (V1 m c (Proc.devRef .tc main_v3)) hok (ix2 b v)
      = (m ((c : Thread nD τ).loc main_arg5) : Spec.AuthArr)
          (ix3 (Spec.author (m ((c : Thread nD τ).loc main_arg0)) b) (Spec.role (m ((c : Thread nD τ).loc main_arg2)) b) v) := by
  obtain rfl : c = 0 := Subsingleton.elim c 0
  rw [gathered_apply _ _ hok (ix2 b v) b v rfl rfl]
  refine V1_source m 0 _ _ v _ ?_
  show ((V1 m 0 (Proc.devRef .tc main_v2) : S256.Idx → BitVec 32) (ix1 b)).toNat
    = 8 * (((m (((0 : Dev nD) : Thread nD τ).loc main_arg0) : Spec.IVec256) (ix1 b)).toNat % 500)
      + ((m (((0 : Dev nD) : Thread nD τ).loc main_arg2) : Spec.IVec256) (ix1 b)).toNat % 8
  rw [V1_table, (tableWord_lt _ _ hm hr b).2]
  have h0 := hm b
  have h2 := hr b
  omega

/-- What the second region reads as the author rows, given that the first region left the gathered array there. -/
theorem V3_author_rows (c : Dev nD)
    (hm : ∀ b : Fin 256, ((m ((c : Thread nD τ).loc main_arg0) : Spec.IVec256) (ix1 b)).toNat < 500)
    (hr : ∀ b : Fin 256, ((m ((c : Thread nD τ).loc main_arg2) : Spec.IVec256) (ix1 b)).toNat < 8)
    (hok : Ok0 (F := Ideal) (fun c b => V1 m c b))
    (hout : (outs 2 main_v4 c : S256x32000.Idx → EReal) = gathered (F := Ideal) (V1 m 0 (Proc.devRef .tc main_v2)) (V1 m c (Proc.devRef .tc main_v3)) hok)
    (b : Fin 256) (v : Fin 32000) :
    (V3 m outs c (Proc.devRef .tc main_v4) : S256x32000.Idx → EReal) (ix2 b v)
      = (m ((c : Thread nD τ).loc main_arg5) : Spec.AuthArr)
          (ix3 (Spec.author (m ((c : Thread nD τ).loc main_arg0)) b) (Spec.role (m ((c : Thread nD τ).loc main_arg2)) b) v) := by
  rw [V3_main_v4, hout]
  exact gathered_author m c hm hr hok b v

/-! ## Under the specification's domain -/

section Dom
variable (c : Dev nD)
  (hD : Spec.Dom (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)))
include hD

/-- In the domain every table word is a row number of the reshaped source. -/
theorem ok0_of_dom : Ok0 (F := Ideal) (fun c b => V1 m c b) := by
  obtain rfl : c = 0 := Subsingleton.elim c 0
  exact ok0_of_idx m hD.hm hD.hr

/-- In the domain the one-hot array is one in the column of the row's role and zero elsewhere. -/
theorem onehot_of_dom (b : Fin 256) (r : Fin 8) :
    (V3 m outs c (Proc.devRef .tc main_v5) : S256x8.Idx → EReal) (ix2 b r)
      = (if r = Spec.role (m ((c : Thread nD τ).loc main_arg2)) b then (1 : EReal) else 0) :=
  V3_onehot_role m outs c hD.hr b r

/-- In the domain the array the second region reads as the author rows holds, at `(b, v)`, the author array at the row's
    author and role, given that the first region left the gathered array there. -/
theorem author_rows_of_dom (hok : Ok0 (F := Ideal) (fun c b => V1 m c b))
    (hout : (outs 2 main_v4 c : S256x32000.Idx → EReal) = gathered (F := Ideal) (V1 m 0 (Proc.devRef .tc main_v2)) (V1 m c (Proc.devRef .tc main_v3)) hok)
    (b : Fin 256) (v : Fin 32000) :
    (V3 m outs c (Proc.devRef .tc main_v4) : S256x32000.Idx → EReal) (ix2 b v)
      = (m ((c : Thread nD τ).loc main_arg5) : Spec.AuthArr)
          (ix3 (Spec.author (m ((c : Thread nD τ).loc main_arg0)) b) (Spec.role (m ((c : Thread nD τ).loc main_arg2)) b) v) :=
  V3_author_rows m outs c hD.hm hD.hr hok hout b v

end Dom

end Cert.KernelIdeal.FusedValue

end
-- ==== Proof.TileValue.Layout.lean ====
/-
  Layout operations of the fused kernel's tile read at an index, and the tile's row maximum.

  A tile is 128 batch rows by 3200 vocabulary columns. Its body moves small blocks through slices, reshapes and
  broadcasts: column o of the (128, 8) one-hot block spread over the tile's columns reads the block at (b, o); row o
  of an (8, 3200) block spread over the tile's rows reads the block at (o, i). The row maximum of the tile is the
  fold of max from minus infinity over a row, which is the supremum of that row's entries.
-/
import proofs.«424303_j34282428957025_2_alg».proof.Proof.FusedVals
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Idealize.ShloMosaic Idealize.ShloMosaic.ValueIdx Cert.KernelIdeal Cert.KernelIdeal.Gen Cert.KernelIdeal.Hand
open scoped BigOperators

/-! ## Layout operations the tile meets, read at an index -/

section Layout
variable {α : Type}

/-- A vector of length a viewed as an (a, 1) column reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An (a, 1) column broadcast over b columns reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of the (128, 8) one-hot block, broadcast over the tile's columns, reads at (b, i) the block at (b, o). -/
theorem col_apply (o : ℕ) (ho : o < 8) (v : S128x8.Idx → α) (h : S128x8.Slices ![0, o] S128x1) (b : Fin 128) (i : Fin 3200) :
    broadcastTo S128x3200 (extractStridedSlice S128x1 ![0, o] v h) broadcasts_S128x1_S128x3200 (ix2 b i)
      = v (ix2 b (⟨o, ho⟩ : Fin 8)) := by
  refine (broadcastTo_a1_ab_apply _ _ b i).trans ?_
  exact slice2_axis1_apply o v h b (0 : Fin 1) ⟨o, ho⟩ rfl

/-- Row o of an (8, 3200) block, flattened, restored and broadcast over the tile's rows, reads at (b, i) the block
    at (o, i). -/
theorem row_apply (o : ℕ) (ho : o < 8) (v : S8x3200.Idx → α) (h : S8x3200.Slices ![o, 0] S1x3200) (b : Fin 128) (i : Fin 3200) :
    broadcastTo S128x3200 (shapeCast S1x3200 (shapeCast S3200 (extractStridedSlice S1x3200 ![o, 0] v h)
        shapeCasts_S1x3200_S3200) shapeCasts_S3200_S1x3200) broadcasts_S1x3200_S128x3200 (ix2 b i)
      = v (ix2 (⟨o, ho⟩ : Fin 8) i) := by
  refine (broadcastTo_1b_ab_apply _ _ b i).trans ?_
  refine (shapeCast_a_1a_apply _ _ (0 : Fin 1) i).trans ?_
  refine (shapeCast_1a_a_apply _ _ i).trans ?_
  exact slice2_axis0_apply o v h (0 : Fin 1) i ⟨o, ho⟩ rfl

/-- A flattened row restored and broadcast over the tile's rows reads at (b, i) the row at i. -/
theorem flatrow_apply (w : S3200.Idx → α) (b : Fin 128) (i : Fin 3200) :
    broadcastTo S128x3200 (shapeCast S1x3200 w shapeCasts_S3200_S1x3200) broadcasts_S1x3200_S128x3200 (ix2 b i)
      = w (ix1 i) := by
  refine (broadcastTo_1b_ab_apply _ _ b i).trans ?_
  exact shapeCast_a_1a_apply _ _ (0 : Fin 1) i

/-- Row o of an (8, 3200) block, flattened, reads at i the block at (o, i). -/
theorem flat_apply (o : ℕ) (ho : o < 8) (v : S8x3200.Idx → α) (h : S8x3200.Slices ![o, 0] S1x3200) (i : Fin 3200) :
    shapeCast S3200 (extractStridedSlice S1x3200 ![o, 0] v h) shapeCasts_S1x3200_S3200 (ix1 i)
      = v (ix2 (⟨o, ho⟩ : Fin 8) i) := by
  refine (shapeCast_1a_a_apply _ _ i).trans ?_
  exact slice2_axis0_apply o v h (0 : Fin 1) i ⟨o, ho⟩ rfl

/-- A column broadcast over the tile's columns reads at (b, i) the column at b. -/
theorem colb_apply (v : S128x1.Idx → α) (b : Fin 128) (i : Fin 3200) :
    broadcastTo S128x3200 v broadcasts_S128x1_S128x3200 (ix2 b i) = v (ix2 b (0 : Fin 1)) :=
  broadcastTo_a1_ab_apply v _ b i

/-- Column o of the one-hot block reads at (b, 0) the block at (b, o). -/
theorem colx_apply (o : ℕ) (ho : o < 8) (v : S128x8.Idx → α) (h : S128x8.Slices ![0, o] S128x1) (b : Fin 128) :
    extractStridedSlice S128x1 ![0, o] v h (ix2 b (0 : Fin 1)) = v (ix2 b (⟨o, ho⟩ : Fin 8)) :=
  slice2_axis1_apply o v h b (0 : Fin 1) ⟨o, ho⟩ rfl

end Layout

/-! ## The row maximum -/

/-- A tile's row maximum at row b is the supremum of the tile's entries over its columns: the fold of max from
    minus infinity over the row. -/
theorem rowmax_apply (lg : FVec Ideal S128x3200 .f32) (b : Fin 128) :
    rowMaxv (F := Ideal) lg (ix2 b (0 : Fin 1)) = Finset.univ.sup fun i : Fin 3200 => lg (ix2 b i) := by
  unfold rowMaxv
  refine (shapeCast_a_a1_apply _ shapeCasts_S128_S128x1 b (0 : Fin 1)).trans ?_
  refine (Ideal.multiReduction_maximumf_single lg 0xFF800000#32 reduces_S128x3200_S128 (.inl rfl) rfl (ix1 b)).trans ?_
  have hbot : FloatOps.ofBits (F := Ideal) .f32 0xFF800000#32 = (⊥ : EReal) := by
    simp [Ideal.ofBits, Ideal.ieee]
  have hl : ∀ k : Fin 3200, reduces_S128x3200_S128.lift (ix1 b) k = ix2 b k := fun k =>
    funext fun c => Fin.ext (by match c with | ⟨0, _⟩ => rfl | ⟨1, _⟩ => rfl)
  rw [hbot]
  refine (congrArg (fun f : Fin 3200 → EReal => (Finset.univ : Finset (Fin 3200)).fold max (⊥ : EReal) f)
    (funext fun k => congrArg lg (hl k))).trans ?_
  rfl

end Cert.KernelIdeal.TileValue

end
-- ==== Proof.TileValue.Payloads.lean ====
/-
  The fused kernel's payloads that build the tile's masked logits, each read at an index over the extended reals.

  Row b's one-hot columns oh(b, r) weight the eight rows y(r, i) of an (8, 3200) block in a running sum
    0 + oh(b,0) * y(0,i) + oh(b,1) * y(1,i) + ... + oh(b,7) * y(7,i),
  once for the background block and once for the mask words read as floats. The body builds these sums in three
  stretches (roles 0-1, roles 2-5, roles 6-7); each stretch is read here at (b, i) as the stretch before it plus
  its own products. The last stretch ends in the select: where the mask's sum is below one half the entry is the
  fill, else it is the background sum plus the author row plus the persona contraction.
-/
import proofs.«424303_j34282428957025_2_alg».proof.Proof.TileValue.Layout

noncomputable section

namespace Cert.KernelIdeal.TileValue

open Idealize.ShloMosaic Idealize.ShloMosaic.ValueIdx Cert.KernelIdeal Cert.KernelIdeal.Gen Cert.KernelIdeal.Hand
open scoped BigOperators

/-! ## The small payloads at an index -/

/-- The one-hot block restated in its own shape is the block. -/
theorem pay21_eq (v3 : Vec Ideal S128x8 .f32) : k1_pay21 v3 = v3 := shapeCast_self v3 shapeCasts_S128x8_S128x8

/-- Narrowing z to bf16 changes nothing over the extended reals. -/
theorem pay22_apply (v5 : Vec Ideal S128x64 .f32) (j : S128x64.Idx) : k1_pay22 v5 j = v5 j := rfl

/-- The mask words as floats: each word read as a signed integer. -/
theorem pay23_apply (v8 : Vec Ideal S8x3200 .i32) (j : S8x3200.Idx) :
    k1_pay23 v8 j = (((v8 j).toInt : ℝ) : EReal) := rfl

theorem pay24_apply (v3 : Vec Ideal S128x8 .f32) (b : Fin 128) :
    k1_pay24 v3 (ix2 b (0 : Fin 1)) = v3 (ix2 b (0 : Fin 8)) :=
  (colx_apply 0 (by decide) (k1_pay21 v3) slices_S128x8_o0_0_S128x1 b).trans (congrFun (pay21_eq v3) _)

theorem pay25_apply (v3 : Vec Ideal S128x8 .f32) (b : Fin 128) :
    k1_pay25 v3 (ix2 b (0 : Fin 1)) = v3 (ix2 b (1 : Fin 8)) :=
  (colx_apply 1 (by decide) (k1_pay21 v3) slices_S128x8_o0_1_S128x1 b).trans (congrFun (pay21_eq v3) _)

theorem pay28_apply (v3 : Vec Ideal S128x8 .f32) (b : Fin 128) :
    k1_pay28 v3 (ix2 b (0 : Fin 1)) = v3 (ix2 b (2 : Fin 8)) :=
  (colx_apply 2 (by decide) (k1_pay21 v3) slices_S128x8_o0_2_S128x1 b).trans (congrFun (pay21_eq v3) _)

theorem pay30_apply (v4 : FVec Ideal S128x8 .f32) (b : Fin 128) :
    k1_pay30 v4 (ix2 b (0 : Fin 1)) = v4 (ix2 b (3 : Fin 8)) :=
  colx_apply 3 (by decide) v4 slices_S128x8_o0_3_S128x1 b

theorem pay31_apply (v4 : FVec Ideal S128x8 .f32) (b : Fin 128) :
    k1_pay31 v4 (ix2 b (0 : Fin 1)) = v4 (ix2 b (4 : Fin 8)) :=
  colx_apply 4 (by decide) v4 slices_S128x8_o0_4_S128x1 b

theorem pay32_apply (v4 : FVec Ideal S128x8 .f32) (b : Fin 128) :
    k1_pay32 v4 (ix2 b (0 : Fin 1)) = v4 (ix2 b (5 : Fin 8)) :=
  colx_apply 5 (by decide) v4 slices_S128x8_o0_5_S128x1 b

theorem pay35_apply (v4 : FVec Ideal S128x8 .f32) (b : Fin 128) :
    k1_pay35 v4 (ix2 b (0 : Fin 1)) = v4 (ix2 b (6 : Fin 8)) :=
  colx_apply 6 (by decide) v4 slices_S128x8_o0_6_S128x1 b

theorem pay29_apply (v7 : Vec Ideal S8x3200 .f32) (i : Fin 3200) : k1_pay29 v7 (ix1 i) = v7 (ix2 (2 : Fin 8) i) :=
  flat_apply 2 (by decide) v7 slices_S8x3200_o2_0_S1x3200 i

theorem pay36_apply (v7 : Vec Ideal S8x3200 .f32) (i : Fin 3200) : k1_pay36 v7 (ix1 i) = v7 (ix2 (6 : Fin 8) i) :=
  flat_apply 6 (by decide) v7 slices_S8x3200_o6_0_S1x3200 i

/-- The background select-sum after the first two roles. -/
theorem pay26_apply (v3 : Vec Ideal S128x8 .f32) (v7 : Vec Ideal S8x3200 .f32) (b : Fin 128) (i : Fin 3200) :
    k1_pay26 v3 v7 (ix2 b i)
      = (0 + v3 (ix2 b (0 : Fin 8)) * v7 (ix2 (0 : Fin 8) i)) + v3 (ix2 b (1 : Fin 8)) * v7 (ix2 (1 : Fin 8) i) := by
  unfold k1_pay26
  refine congrArg₂ (· + ·) (congrArg₂ (· + ·) Ideal.ofBits_zero_f32 (congrArg₂ (· * ·) ?_ ?_)) (congrArg₂ (· * ·) ?_ ?_)
  · exact (colb_apply (k1_pay24 v3) b i).trans (pay24_apply v3 b)
  · exact row_apply 0 (by decide) v7 slices_S8x3200_o0_0_S1x3200 b i
  · exact (colb_apply (k1_pay25 v3) b i).trans (pay25_apply v3 b)
  · exact row_apply 1 (by decide) v7 slices_S8x3200_o1_0_S1x3200 b i

/-- The mask select-sum after the first two roles. -/
theorem pay27_apply (v3 : Vec Ideal S128x8 .f32) (v8 : Vec Ideal S8x3200 .i32) (b : Fin 128) (i : Fin 3200) :
    k1_pay27 v3 v8 (ix2 b i)
      = (0 + v3 (ix2 b (0 : Fin 8)) * k1_pay23 v8 (ix2 (0 : Fin 8) i))
          + v3 (ix2 b (1 : Fin 8)) * k1_pay23 v8 (ix2 (1 : Fin 8) i) := by
  unfold k1_pay27
  refine congrArg₂ (· + ·) (congrArg₂ (· + ·) Ideal.ofBits_zero_f32 (congrArg₂ (· * ·) ?_ ?_)) (congrArg₂ (· * ·) ?_ ?_)
  · exact (colb_apply (k1_pay24 v3) b i).trans (pay24_apply v3 b)
  · exact row_apply 0 (by decide) (k1_pay23 v8) slices_S8x3200_o0_0_S1x3200 b i
  · exact (colb_apply (k1_pay25 v3) b i).trans (pay25_apply v3 b)
  · exact row_apply 1 (by decide) (k1_pay23 v8) slices_S8x3200_o1_0_S1x3200 b i

/-- The background select-sum through role 5, from the sum through role 1, role 2's column and row. -/
theorem pay33_apply (v4 : FVec Ideal S128x8 .f32) (v7 : Vec Ideal S8x3200 .f32) (v34 : FVec Ideal S128x3200 .f32)
    (v42 : FVec Ideal S128x1 .f32) (v44 : FVec Ideal S3200 .f32) (b : Fin 128) (i : Fin 3200) :
    k1_pay33 v4 v7 v34 v42 v44 (ix2 b i)
      = (((v34 (ix2 b i) + v42 (ix2 b (0 : Fin 1)) * v44 (ix1 i))
            + v4 (ix2 b (3 : Fin 8)) * v7 (ix2 (3 : Fin 8) i))
          + v4 (ix2 b (4 : Fin 8)) * v7 (ix2 (4 : Fin 8) i))
        + v4 (ix2 b (5 : Fin 8)) * v7 (ix2 (5 : Fin 8) i) := by
  unfold k1_pay33
  refine congrArg₂ (· + ·) (congrArg₂ (· + ·) (congrArg₂ (· + ·) (congrArg₂ (· + ·) rfl
    (congrArg₂ (· * ·) ?_ ?_)) (congrArg₂ (· * ·) ?_ ?_)) (congrArg₂ (· * ·) ?_ ?_)) (congrArg₂ (· * ·) ?_ ?_)
  · exact colb_apply v42 b i
  · exact flatrow_apply v44 b i
  · exact (colb_apply (k1_pay30 v4) b i).trans (pay30_apply v4 b)
  · exact row_apply 3 (by decide) v7 slices_S8x3200_o3_0_S1x3200 b i
  · exact (colb_apply (k1_pay31 v4) b i).trans (pay31_apply v4 b)
  · exact row_apply 4 (by decide) v7 slices_S8x3200_o4_0_S1x3200 b i
  · exact (colb_apply (k1_pay32 v4) b i).trans (pay32_apply v4 b)
  · exact row_apply 5 (by decide) v7 slices_S8x3200_o5_0_S1x3200 b i

/-- The mask select-sum through role 5, from the sum through role 1 and role 2's column. -/
theorem pay34_apply (v4 : FVec Ideal S128x8 .f32) (v9 : FVec Ideal S8x3200 .f32) (v41 : FVec Ideal S128x3200 .f32)
    (v42 : FVec Ideal S128x1 .f32) (b : Fin 128) (i : Fin 3200) :
    k1_pay34 v4 v9 v41 v42 (ix2 b i)
      = (((v41 (ix2 b i) + v42 (ix2 b (0 : Fin 1)) * v9 (ix2 (2 : Fin 8) i))
            + v4 (ix2 b (3 : Fin 8)) * v9 (ix2 (3 : Fin 8) i))
          + v4 (ix2 b (4 : Fin 8)) * v9 (ix2 (4 : Fin 8) i))
        + v4 (ix2 b (5 : Fin 8)) * v9 (ix2 (5 : Fin 8) i) := by
  unfold k1_pay34
  refine congrArg₂ (· + ·) (congrArg₂ (· + ·) (congrArg₂ (· + ·) (congrArg₂ (· + ·) rfl
    (congrArg₂ (· * ·) ?_ ?_)) (congrArg₂ (· * ·) ?_ ?_)) (congrArg₂ (· * ·) ?_ ?_)) (congrArg₂ (· * ·) ?_ ?_)
  · exact colb_apply v42 b i
  · exact row_apply 2 (by decide) v9 slices_S8x3200_o2_0_S1x3200 b i
  · exact (colb_apply (k1_pay30 v4) b i).trans (pay30_apply v4 b)
  · exact row_apply 3 (by decide) v9 slices_S8x3200_o3_0_S1x3200 b i
  · exact (colb_apply (k1_pay31 v4) b i).trans (pay31_apply v4 b)
  · exact row_apply 4 (by decide) v9 slices_S8x3200_o4_0_S1x3200 b i
  · exact (colb_apply (k1_pay32 v4) b i).trans (pay32_apply v4 b)
  · exact row_apply 5 (by decide) v9 slices_S8x3200_o5_0_S1x3200 b i

/-- The persona term as the body writes it: z spread over the roles times the one-hot spread over the personas,
    flattened to 512 columns, contracted against the persona block flattened to 512 rows, into a zero accumulator. -/
def personaTerm (v4 : FVec Ideal S128x8 .f32) (v6 : FVec Ideal S128x64 .bf16) (v139 : Vec Ideal S64x8x3200 .f32) :
    FVec Ideal S128x3200 .f32 :=
  matmul dot_S128x512_S512x3200_S128x3200_1_0_0_1_n_n none
    (shapeCast S128x512
      (mulf (broadcastTo S128x64x8 (shapeCast S128x64x1 v6 shapeCasts_S128x64_S128x64x1) broadcasts_S128x64x1_S128x64x8)
        (broadcastTo S128x64x8 (shapeCast S128x1x8 (truncf .bf16 v4 bitsLt_bf16_f32) shapeCasts_S128x8_S128x1x8)
          broadcasts_S128x1x8_S128x64x8))
      shapeCasts_S128x64x8_S128x512)
    (shapeCast S512x3200 (truncf .bf16 v139 bitsLt_bf16_f32) shapeCasts_S64x8x3200_S512x3200)
    (constant (F := Ideal) S128x3200 .f32 0x00000000#32)

/-- The masked logits' payload at (b, i): a select on "mask select-sum below one half" between the fill and
    background select-sum plus author plus persona term. -/
theorem pay37_apply (v4 : FVec Ideal S128x8 .f32) (v6 : FVec Ideal S128x64 .bf16) (v7 : Vec Ideal S8x3200 .f32)
    (v9 : FVec Ideal S8x3200 .f32) (v94 v101 : FVec Ideal S128x3200 .f32) (v102 : FVec Ideal S128x1 .f32)
    (v104 : FVec Ideal S3200 .f32) (v139 : Vec Ideal S64x8x3200 .f32) (v143 : Vec Ideal S128x3200 .f32)
    (b : Fin 128) (i : Fin 3200) :
    k1_pay37 v4 v6 v7 v9 v94 v101 v102 v104 v139 v143 (ix2 b i)
      = Scalar.select
          (Ideal.cmp .olt
            ((v101 (ix2 b i) + v102 (ix2 b (0 : Fin 1)) * v9 (ix2 (6 : Fin 8) i))
              + v4 (ix2 b (7 : Fin 8)) * v9 (ix2 (7 : Fin 8) i))
            (Ideal.ofBits .f32 0x3F000000#32))
          (Ideal.ofBits .f32 0xC2C80000#32)
          ((((v94 (ix2 b i) + v102 (ix2 b (0 : Fin 1)) * v104 (ix1 i))
              + v4 (ix2 b (7 : Fin 8)) * v7 (ix2 (7 : Fin 8) i)) + v143 (ix2 b i))
            + personaTerm v4 v6 v139 (ix2 b i)) := by
  unfold k1_pay37
  refine congrArg₂ (fun (c : BitVec 1) (x : EReal) => Scalar.select c (Ideal.ofBits .f32 0xC2C80000#32) x)
    (congrArg (fun m : EReal => Ideal.cmp .olt m (Ideal.ofBits .f32 0x3F000000#32))
      (congrArg₂ (· + ·) (congrArg₂ (· + ·) rfl (congrArg₂ (· * ·) ?_ ?_)) (congrArg₂ (· * ·) ?_ ?_)))
    (congrArg₂ (· + ·) (congrArg₂ (· + ·) (congrArg₂ (· + ·) (congrArg₂ (· + ·) rfl (congrArg₂ (· * ·) ?_ ?_))
      (congrArg₂ (· * ·) ?_ ?_)) ?_) rfl)
  · exact colb_apply v102 b i
  · exact row_apply 6 (by decide) v9 slices_S8x3200_o6_0_S1x3200 b i
  · exact col_apply 7 (by decide) v4 slices_S128x8_o0_7_S128x1 b i
  · exact row_apply 7 (by decide) v9 slices_S8x3200_o7_0_S1x3200 b i
  · exact colb_apply v102 b i
  · exact flatrow_apply v104 b i
  · exact col_apply 7 (by decide) v4 slices_S128x8_o0_7_S128x1 b i
  · exact row_apply 7 (by decide) v7 slices_S8x3200_o7_0_S1x3200 b i
  · exact congrFun (shapeCast_self v143 shapeCasts_S128x3200_S128x3200) _

end Cert.KernelIdeal.TileValue

end
-- ==== Proof.SumRegroup.lean ====
/-
  Two regroupings of finite sums over the extended reals against a one-hot selector on eight roles:
  a sum over 512 = 64 × 8 flattened (persona, role) pairs collapses to the 64 terms of the selected role, and
  an eightfold running sum of selector-weighted terms is the selected term. Neither needs finiteness:
  `0 * x = 0`, `1 * x = x` and `0 + x = x` hold for every extended real.
-/
import proofs.«424303_j34282428957025_2_alg».proof.Proof.Spec
import Mathlib.Data.EReal.Basic
import Mathlib.Data.EReal.Operations
import Mathlib.Algebra.BigOperators.Group.Finset.Basic
import Mathlib.Algebra.BigOperators.Fin
import Mathlib.Data.Fintype.BigOperators
import Mathlib.Tactic.FinCases

noncomputable section

namespace Cert.SumRegroup

/-- The flattened position of the pair (persona `p`, role `r`). -/
def pairIdx (p : Fin 64) (r : Fin 8) : Fin 512 := ⟨8 * p.val + r.val, by omega⟩

theorem pairIdx_div (p : Fin 64) (r : Fin 8) (h : (pairIdx p r).val / 8 < 64) :
    (⟨(pairIdx p r).val / 8, h⟩ : Fin 64) = p := by
  apply Fin.ext
  show (8 * p.val + r.val) / 8 = p.val
  omega

theorem pairIdx_mod (p : Fin 64) (r : Fin 8) (h : (pairIdx p r).val % 8 < 8) :
    (⟨(pairIdx p r).val % 8, h⟩ : Fin 8) = r := by
  apply Fin.ext
  show (8 * p.val + r.val) % 8 = r.val
  omega

theorem pairIdx_bij : Function.Bijective (fun q : Fin 64 × Fin 8 => pairIdx q.1 q.2) := by
  constructor
  · rintro ⟨a, i⟩ ⟨b, j⟩ h
    have h' : 8 * a.val + i.val = 8 * b.val + j.val := congrArg Fin.val h
    have hab : a.val = b.val := by omega
    have hij : i.val = j.val := by omega
    exact Prod.ext (Fin.ext hab) (Fin.ext hij)
  · intro k
    refine ⟨(⟨k.val / 8, by omega⟩, ⟨k.val % 8, by omega⟩), ?_⟩
    apply Fin.ext
    show 8 * (k.val / 8) + k.val % 8 = k.val
    omega

/-- A sum over the 512 flattened positions is the sum over personas of the sums over roles. -/
theorem sum_pairs (F : Fin 512 → EReal) :
    ∑ k : Fin 512, F k = ∑ p : Fin 64, ∑ r : Fin 8, F (pairIdx p r) := by
  rw [← Fintype.sum_prod_type' (fun p r => F (pairIdx p r))]
  exact (Fintype.sum_bijective _ pairIdx_bij _ _ (fun _ => rfl)).symm

/-- A one-hot weighted sum over the roles is the selected term. -/
theorem sum_onehot (ρ : Fin 8) (oh : Fin 8 → EReal) (hoh : ∀ r, oh r = if r = ρ then 1 else 0)
    (a : EReal) (c : Fin 8 → EReal) : ∑ r : Fin 8, (a * oh r) * c r = a * c ρ := by
  have hterm : ∀ r : Fin 8, (a * oh r) * c r = if r = ρ then a * c r else 0 := by
    intro r
    rw [hoh r]
    split_ifs <;> simp
  simp only [hterm, Finset.sum_ite_eq', Finset.mem_univ, if_true]

/-- The flattened sum over (persona, role) pairs against a one-hot role selector keeps the selected role's terms. -/
theorem sum_regroup (ρ : Fin 8) (z : Fin 64 → EReal) (oh : Fin 8 → EReal)
    (hoh : ∀ r, oh r = if r = ρ then 1 else 0) (pers : Fin 64 → Fin 8 → EReal) :
    ∑ k : Fin 512, (z ⟨k.val / 8, by omega⟩ * oh ⟨k.val % 8, by omega⟩)
        * pers ⟨k.val / 8, by omega⟩ ⟨k.val % 8, by omega⟩
      = ∑ p : Fin 64, z p * pers p ρ := by
  rw [sum_pairs]
  refine Finset.sum_congr rfl fun p _ => ?_
  simp only [pairIdx_div, pairIdx_mod]
  exact sum_onehot ρ oh hoh (z p) (pers p)

/-- The eightfold running sum of selector-weighted terms is the selected term. -/
theorem select_sum (ρ : Fin 8) (oh : Fin 8 → EReal) (hoh : ∀ r, oh r = if r = ρ then 1 else 0)
    (y : Fin 8 → EReal) :
    ((((((((0 + oh 0 * y 0) + oh 1 * y 1) + oh 2 * y 2) + oh 3 * y 3) + oh 4 * y 4) + oh 5 * y 5)
        + oh 6 * y 6) + oh 7 * y 7) = y ρ := by
  simp only [hoh]
  fin_cases ρ <;> simp

end Cert.SumRegroup

end
-- ==== Proof.MatmulRead.lean ====
/-
  The persona matmul of the fused kernel read at an index, over the extended reals: its left operand (the row of z
  against the one-hot role, flattened over 512 = 64 × 8 pairs), its right operand (the persona block flattened the same
  way), and the product as the sum over the 512 pairs.
-/
import proofs.«424303_j34282428957025_2_alg».proof.Proof.Gen.KernelIdeal.Skeleton
import proofs.«424303_j34282428957025_2_alg».proof.Proof.SumRegroup
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Cert.KernelIdeal Cert.KernelIdeal.Gen
open Idealize.ShloMosaic Idealize.ShloMosaic.ValueIdx

/-! ## Layout: a trailing or middle unit axis added, and spread along it -/

/-- A (128, 64) block given a trailing unit axis reads, at (b, p, 0), the block at (b, p). -/
theorem cast_trailing_unit {α : Type} (x : S128x64.Idx → α) (b : Fin 128) (p : Fin 64) :
    shapeCast S128x64x1 x shapeCasts_S128x64_S128x64x1 (ix3 b p (0 : Fin 1)) = x (ix2 b p) :=
  shapeCast_apply x _ (ix3 b p (0 : Fin 1)) (ix2 b p) (by
    rw [Shape.rowMajor_val_two, Shape.rowMajor_val_three]
    show b.val * 64 + p.val = (b.val * 64 + p.val) * 1 + 0
    omega)

/-- A (128, 8) block given a middle unit axis reads, at (b, 0, r), the block at (b, r). -/
theorem cast_middle_unit {α : Type} (x : S128x8.Idx → α) (b : Fin 128) (r : Fin 8) :
    shapeCast S128x1x8 x shapeCasts_S128x8_S128x1x8 (ix3 b (0 : Fin 1) r) = x (ix2 b r) :=
  shapeCast_apply x _ (ix3 b (0 : Fin 1) r) (ix2 b r) (by
    rw [Shape.rowMajor_val_two, Shape.rowMajor_val_three]
    show b.val * 8 + r.val = (b.val * 1 + 0) * 8 + r.val
    omega)

/-- A (128, 64, 1) block spread along its last axis reads, at (b, p, r), the block at (b, p, 0). -/
theorem bcast_last {α : Type} (x : S128x64x1.Idx → α) (b : Fin 128) (p : Fin 64) (r : Fin 8) :
    broadcastTo S128x64x8 x broadcasts_S128x64x1_S128x64x8 (ix3 b p r) = x (ix3 b p (0 : Fin 1)) :=
  broadcastTo_apply x _ (ix3 b p r) (ix3 b p (0 : Fin 1))
    (fun a => by match a with | ⟨0, _⟩ => rfl | ⟨1, _⟩ => rfl | ⟨2, _⟩ => rfl)

/-- A (128, 1, 8) block spread along its middle axis reads, at (b, p, r), the block at (b, 0, r). -/
theorem bcast_middle {α : Type} (x : S128x1x8.Idx → α) (b : Fin 128) (p : Fin 64) (r : Fin 8) :
    broadcastTo S128x64x8 x broadcasts_S128x1x8_S128x64x8 (ix3 b p r) = x (ix3 b (0 : Fin 1) r) :=
  broadcastTo_apply x _ (ix3 b p r) (ix3 b (0 : Fin 1) r)
    (fun a => by match a with | ⟨0, _⟩ => rfl | ⟨1, _⟩ => rfl | ⟨2, _⟩ => rfl)

/-- A (128, 64, 8) block flattened to (128, 512) reads, at (b, k), the block at (b, k / 8, k % 8). -/
theorem flat_pairs {α : Type} (x : S128x64x8.Idx → α) (b : Fin 128) (k : Fin 512) :
    shapeCast S128x512 x shapeCasts_S128x64x8_S128x512 (ix2 b k)
      = x (ix3 b (⟨k.val / 8, by omega⟩ : Fin 64) (⟨k.val % 8, by omega⟩ : Fin 8)) :=
  shapeCast_apply x _ (ix2 b k) (ix3 b (⟨k.val / 8, by omega⟩ : Fin 64) (⟨k.val % 8, by omega⟩ : Fin 8)) (by
    rw [Shape.rowMajor_val_two, Shape.rowMajor_val_three]
    show (b.val * 64 + k.val / 8) * 8 + k.val % 8 = b.val * 512 + k.val
    omega)

/-- A (64, 8, 3200) block flattened to (512, 3200) reads, at (k, i), the block at (k / 8, k % 8, i). -/
theorem flat_rows {α : Type} (x : S64x8x3200.Idx → α) (k : Fin 512) (i : Fin 3200) :
    shapeCast S512x3200 x shapeCasts_S64x8x3200_S512x3200 (ix2 k i)
      = x (ix3 (⟨k.val / 8, by omega⟩ : Fin 64) (⟨k.val % 8, by omega⟩ : Fin 8) i) :=
  shapeCast_apply x _ (ix2 k i) (ix3 (⟨k.val / 8, by omega⟩ : Fin 64) (⟨k.val % 8, by omega⟩ : Fin 8) i) (by
    rw [Shape.rowMajor_val_two, Shape.rowMajor_val_three]
    show (k.val / 8 * 8 + k.val % 8) * 3200 + i.val = k.val * 3200 + i.val
    omega)

/-! ## The two operands -/

/-- The left operand at (b, k): z at (b, k / 8) times the one-hot role at (b, k % 8). -/
theorem mm_lhs_apply (v6 : FVec Ideal S128x64 .bf16) (v132 : FVec Ideal S128x8 .bf16) (b : Fin 128) (k : Fin 512) :
    (shapeCast S128x512
        (mulf (broadcastTo S128x64x8 (shapeCast S128x64x1 v6 shapeCasts_S128x64_S128x64x1) broadcasts_S128x64x1_S128x64x8)
          (broadcastTo S128x64x8 (shapeCast S128x1x8 v132 shapeCasts_S128x8_S128x1x8) broadcasts_S128x1x8_S128x64x8))
        shapeCasts_S128x64x8_S128x512 : FVec Ideal S128x512 .bf16) (ix2 b k)
      = v6 (ix2 b (⟨k.val / 8, by omega⟩ : Fin 64)) * v132 (ix2 b (⟨k.val % 8, by omega⟩ : Fin 8)) := by
  rw [flat_pairs, mulf_apply, bcast_last, bcast_middle, cast_trailing_unit, cast_middle_unit]

/-- The right operand at (k, i): the persona block at (k / 8, k % 8, i); the change of format is the identity. -/
theorem mm_rhs_apply (v139 : Vec Ideal S64x8x3200 .f32) (k : Fin 512) (i : Fin 3200) :
    (shapeCast S512x3200 (truncf .bf16 v139 bitsLt_bf16_f32) shapeCasts_S64x8x3200_S512x3200
        : FVec Ideal S512x3200 .bf16) (ix2 k i)
      = v139 (ix3 (⟨k.val / 8, by omega⟩ : Fin 64) (⟨k.val % 8, by omega⟩ : Fin 8) i) := by
  rw [flat_rows]
  rfl

/-! ## The product -/

theorem mm_lhs_0 (i : S128x3200.Idx) (q : dot_S128x512_S512x3200_S128x3200_1_0_0_1_n_n.contr.Idx) :
    (dot_S128x512_S512x3200_S128x3200_1_0_0_1_n_n.lhsIdx i q 0).val = (i 0).val := by
  unfold DotDims.lhsIdx
  rw [dif_neg (show ¬(0 : Fin S128x512.rank) ∈ dot_S128x512_S512x3200_S128x3200_1_0_0_1_n_n.lhsBatch by decide), dif_pos (show (0 : Fin S128x512.rank) ∈ dot_S128x512_S512x3200_S128x3200_1_0_0_1_n_n.lhsNonContracting by decide)]
  rfl
theorem mm_lhs_1 (i : S128x3200.Idx) (q : dot_S128x512_S512x3200_S128x3200_1_0_0_1_n_n.contr.Idx) :
    (dot_S128x512_S512x3200_S128x3200_1_0_0_1_n_n.lhsIdx i q 1).val = (q ⟨0, by decide⟩).val :=
  dot_S128x512_S512x3200_S128x3200_1_0_0_1_n_n.lhsIdx_val_of_single rfl i q
theorem mm_rhs_0 (i : S128x3200.Idx) (q : dot_S128x512_S512x3200_S128x3200_1_0_0_1_n_n.contr.Idx) :
    (dot_S128x512_S512x3200_S128x3200_1_0_0_1_n_n.rhsIdx i q 0).val = (q ⟨0, by decide⟩).val :=
  dot_S128x512_S512x3200_S128x3200_1_0_0_1_n_n.rhsIdx_val_of_single rfl i q
theorem mm_rhs_1 (i : S128x3200.Idx) (q : dot_S128x512_S512x3200_S128x3200_1_0_0_1_n_n.contr.Idx) :
    (dot_S128x512_S512x3200_S128x3200_1_0_0_1_n_n.rhsIdx i q 1).val = (i 1).val := by
  unfold DotDims.rhsIdx
  rw [dif_neg (show ¬(1 : Fin S512x3200.rank) ∈ dot_S128x512_S512x3200_S128x3200_1_0_0_1_n_n.rhsBatch by decide), dif_pos (show (1 : Fin S512x3200.rank) ∈ dot_S128x512_S512x3200_S128x3200_1_0_0_1_n_n.rhsNonContracting by decide)]
  rfl

/-- The matmul into the zero accumulator at (b, i): the sum over the 512 contraction positions of the products. -/
theorem mm_apply (L : FVec Ideal S128x512 .bf16) (R : FVec Ideal S512x3200 .bf16) (b : Fin 128) (i : Fin 3200) :
    (matmul dot_S128x512_S512x3200_S128x3200_1_0_0_1_n_n none L R (constant (F := Ideal) S128x3200 .f32 0x00000000#32) : FVec Ideal S128x3200 .f32) (ix2 b i)
      = ∑ k : Fin 512, L (ix2 b k) * R (ix2 k i) := by
  simp only [matmul]
  rw [Ideal.matmul_constant_zero_apply, ← Equiv.sum_comp (ValueIdx.contrEquiv1 dot_S128x512_S512x3200_S128x3200_1_0_0_1_n_n 512 rfl rfl).symm]
  refine Finset.sum_congr rfl fun k _ => ?_
  have hk := ValueIdx.contrEquiv1_symm_val dot_S128x512_S512x3200_S128x3200_1_0_0_1_n_n 512 rfl rfl k
  have el : dot_S128x512_S512x3200_S128x3200_1_0_0_1_n_n.lhsIdx (ix2 b i) ((ValueIdx.contrEquiv1 dot_S128x512_S512x3200_S128x3200_1_0_0_1_n_n 512 rfl rfl).symm k) = ix2 b k := funext fun a => Fin.ext (by
    match a with
    | ⟨0, _⟩ => exact mm_lhs_0 _ _
    | ⟨1, _⟩ => exact (mm_lhs_1 _ _).trans hk)
  have er : dot_S128x512_S512x3200_S128x3200_1_0_0_1_n_n.rhsIdx (ix2 b i) ((ValueIdx.contrEquiv1 dot_S128x512_S512x3200_S128x3200_1_0_0_1_n_n 512 rfl rfl).symm k) = ix2 k i := funext fun a => Fin.ext (by
    match a with
    | ⟨0, _⟩ => exact (mm_rhs_0 _ _).trans hk
    | ⟨1, _⟩ => exact mm_rhs_1 _ _)
  rw [el, er]

end Cert.KernelIdeal.TileValue

end
-- ==== Proof.TileValue.lean ====
/-
  The fused kernel's masked logits at an index.

  With row b's one-hot row the indicator of a role rho b and the mask words 0 or 1, the tile's entry at (b, i) is
  the fill where the mask word of role rho b at column i is 0, and otherwise
      (background(rho b, i) + author(b, i)) + sum over p of z(b, p) * persona(p, rho b, i).
  Three collapses give it: the background's and the mask's eightfold select-sums keep the role's row (0 * y = 0,
  1 * y = y, x + 0 = x on every extended real); the contraction over the 512 flattened (persona, role) pairs,
  position k standing for the pair (k / 8, k % 8), keeps the role's 64 terms; and the mask word read as the float 0
  or 1 is compared with one half. No entry needs to be finite.
-/
import proofs.«424303_j34282428957025_2_alg».proof.Proof.TileValue.Payloads
import proofs.«424303_j34282428957025_2_alg».proof.Proof.MatmulRead
import proofs.«424303_j34282428957025_2_alg».proof.Proof.Spec
import proofs.«424303_j34282428957025_2_alg».proof.Proof.SumRegroup

noncomputable section

namespace Cert.KernelIdeal.TileValue

open Idealize.ShloMosaic Idealize.ShloMosaic.ValueIdx Cert.KernelIdeal Cert.KernelIdeal.Gen Cert.KernelIdeal.Hand
open scoped BigOperators

/-! ## The persona contraction at an index -/

/-- The persona term at (b, i) as the sum over the 512 flattened (persona, role) positions: position k stands for
    the pair (k / 8, k % 8), its left factor is z(b, k / 8) * oh(b, k % 8) and its right factor
    persona(k / 8, k % 8, i). -/
theorem personaTerm_apply (v4 : FVec Ideal S128x8 .f32) (v6 : FVec Ideal S128x64 .bf16) (v139 : Vec Ideal S64x8x3200 .f32)
    (b : Fin 128) (i : Fin 3200) :
    personaTerm v4 v6 v139 (ix2 b i)
      = ∑ k : Fin 512, (v6 (ix2 b (⟨k.val / 8, by omega⟩ : Fin 64)) * v4 (ix2 b (⟨k.val % 8, by omega⟩ : Fin 8)))
          * v139 (ix3 (⟨k.val / 8, by omega⟩ : Fin 64) (⟨k.val % 8, by omega⟩ : Fin 8) i) := by
  unfold personaTerm
  refine (mm_apply _ _ b i).trans ?_
  exact Finset.sum_congr rfl fun k _ =>
    congrArg₂ (· * ·) (mm_lhs_apply v6 (truncf .bf16 v4 bitsLt_bf16_f32) b k) (mm_rhs_apply v139 k i)

/-! ## The mask's comparison with one half -/

/-- The f32 word 0x3F000000 is one half. -/
theorem half_eq : Ideal.ofBits .f32 0x3F000000#32 = ((1 / 2 : ℝ) : EReal) := by
  simp [Ideal.ofBits, Ideal.ieee, -EReal.coe_mul]; norm_num

/-- The mask word 0, read as a float, is below one half. -/
theorem cmp_word_zero :
    Ideal.cmp .olt (((0#32 : BitVec 32).toInt : ℝ) : EReal) (Ideal.ofBits .f32 0x3F000000#32) = 1#1 := by
  have h : (0 : EReal) < Ideal.ofBits .f32 0x3F000000#32 := by
    rw [half_eq]
    exact_mod_cast (by norm_num : (0 : ℝ) < 1 / 2)
  simp [Ideal.cmp, h]

/-- The mask word 1, read as a float, is not below one half. -/
theorem cmp_word_one :
    Ideal.cmp .olt (((1#32 : BitVec 32).toInt : ℝ) : EReal) (Ideal.ofBits .f32 0x3F000000#32) = 0#1 := by
  have h : ¬ (1 : EReal) < Ideal.ofBits .f32 0x3F000000#32 := by
    rw [half_eq]
    exact_mod_cast (by norm_num : ¬ (1 : ℝ) < 1 / 2)
  simp [Ideal.cmp, h]

/-! ## The masked logits -/

/-- The masked logits at row b, column i: the fill where the role's mask word is 0, else background plus author
    plus the persona contraction. -/
theorem logits_apply (x0 : Vec Ideal S128x64 .f32) (x1 : Vec Ideal S64x8x3200 .f32) (x2 : Vec Ideal S8x3200 .f32)
    (x3 : Vec Ideal S8x3200 .i32) (x4 : Vec Ideal S128x3200 .f32) (x5 : Vec Ideal S128x8 .f32)
    (ρ : Fin 128 → Fin 8)
    (hoh : ∀ (b : Fin 128) (r : Fin 8), x5 (ix2 b r) = if r = ρ b then (1 : EReal) else 0)
    (hmask : ∀ (r : Fin 8) (i : Fin 3200), x3 (ix2 r i) = 0#32 ∨ x3 (ix2 r i) = 1#32)
    (b : Fin 128) (i : Fin 3200) :
    logitsv (F := Ideal) x0 x1 x2 x3 x4 x5 (ix2 b i)
      = if x3 (ix2 (ρ b) i) = 0#32 then Cert.Spec.fillv
        else (x2 (ix2 (ρ b) i) + x4 (ix2 b i)) + ∑ p : Fin 64, x0 (ix2 b p) * x1 (ix3 p (ρ b) i) := by
  -- the mask's select-sum is the role's word read as a float
  have hM : ((k1_pay34 (k1_pay21 x5) (k1_pay23 x3) (k1_pay27 x5 x3) (k1_pay28 x5) (ix2 b i)
        + k1_pay35 (k1_pay21 x5) (ix2 b (0 : Fin 1)) * k1_pay23 x3 (ix2 (6 : Fin 8) i))
        + k1_pay21 x5 (ix2 b (7 : Fin 8)) * k1_pay23 x3 (ix2 (7 : Fin 8) i))
      = k1_pay23 x3 (ix2 (ρ b) i) := by
    rw [pay34_apply, pay27_apply, pay28_apply, pay35_apply, pay21_eq]
    exact Cert.SumRegroup.select_sum (ρ b) (fun r => x5 (ix2 b r)) (hoh b) (fun r => k1_pay23 x3 (ix2 r i))
  -- the background's select-sum is the role's row
  have hB : ((k1_pay33 (k1_pay21 x5) x2 (k1_pay26 x5 x2) (k1_pay28 x5) (k1_pay29 x2) (ix2 b i)
        + k1_pay35 (k1_pay21 x5) (ix2 b (0 : Fin 1)) * k1_pay36 x2 (ix1 i))
        + k1_pay21 x5 (ix2 b (7 : Fin 8)) * x2 (ix2 (7 : Fin 8) i))
      = x2 (ix2 (ρ b) i) := by
    rw [pay33_apply, pay26_apply, pay28_apply, pay29_apply, pay35_apply, pay36_apply, pay21_eq]
    exact Cert.SumRegroup.select_sum (ρ b) (fun r => x5 (ix2 b r)) (hoh b) (fun r => x2 (ix2 r i))
  -- the persona term keeps the role's slice
  have hP : personaTerm (k1_pay21 x5) (k1_pay22 x0) x1 (ix2 b i) = ∑ p : Fin 64, x0 (ix2 b p) * x1 (ix3 p (ρ b) i) := by
    rw [personaTerm_apply, pay21_eq]
    exact Cert.SumRegroup.sum_regroup (ρ b) (fun p => x0 (ix2 b p)) (fun r => x5 (ix2 b r)) (hoh b)
      (fun p r => x1 (ix3 p r i))
  unfold logitsv
  rw [pay37_apply, hM, hB, hP, pay23_apply]
  rcases hmask (ρ b) i with h0 | h1
  · rw [h0, cmp_word_zero, if_pos rfl]
    rfl
  · rw [h1, cmp_word_one, if_neg (by decide)]
    rfl

end Cert.KernelIdeal.TileValue

end
-- ==== Proof.Softmax.lean ====
/-
  The online (tile-by-tile) log-softmax over one row of 32000 extended reals, all of them real numbers:
  the running maximum and running sum of shifted exponentials after all ten tiles of 3200 columns are the
  row's maximum and its sum of exponentials shifted by that maximum.
-/
import proofs.«424303_j34282428957025_2_alg».proof.Proof.Spec
import Mathlib.Data.EReal.Basic
import Mathlib.Data.EReal.Operations
import Mathlib.Analysis.SpecialFunctions.Log.Basic
import Mathlib.Algebra.BigOperators.Group.Finset.Basic
import Mathlib.Data.Fintype.BigOperators
import Mathlib.Order.Fin.Basic

noncomputable section

namespace Cert.Softmax

open Idealize.ShloMosaic

/-! ### The tiles -/

/-- Column `i` of tile `k`: the tiles are ten consecutive blocks of 3200 columns. -/
def tileIdx (k : Fin 10) (i : Fin 3200) : Fin 32000 := ⟨3200 * k.val + i.val, by omega⟩

/-- One tile's update of the running pair (maximum, sum of exponentials shifted by the maximum). -/
def tileStep (x : Fin 32000 → EReal) (k : Fin 10) (s : EReal × EReal) : EReal × EReal :=
  (max s.1 (Finset.univ.sup fun i : Fin 3200 => x (tileIdx k i)),
   s.2 * Ideal.exp (s.1 - max s.1 (Finset.univ.sup fun i : Fin 3200 => x (tileIdx k i)))
     + ∑ i : Fin 3200, Ideal.exp (x (tileIdx k i) - max s.1 (Finset.univ.sup fun i : Fin 3200 => x (tileIdx k i))))

/-- The running pair after the first `k` tiles (it stops changing after the tenth). -/
def tileML (x : Fin 32000 → EReal) : ℕ → EReal × EReal
  | 0 => (⊥, 0)
  | k + 1 => if h : k < 10 then tileStep x ⟨k, h⟩ (tileML x k) else tileML x k

theorem tileML_zero (x : Fin 32000 → EReal) : tileML x 0 = (⊥, 0) := rfl

theorem tileML_succ (x : Fin 32000 → EReal) (k : ℕ) (h : k < 10) :
    tileML x (k + 1) = tileStep x ⟨k, h⟩ (tileML x k) := by
  rw [tileML, dif_pos h]

/-- Every column lies in exactly one tile: division by 3200 with remainder. -/
theorem tileIdx_surj (v : Fin 32000) : ∃ (k : Fin 10) (i : Fin 3200), tileIdx k i = v := by
  have hv := v.isLt
  refine ⟨⟨v.val / 3200, by omega⟩, ⟨v.val % 3200, by omega⟩, ?_⟩
  apply Fin.ext
  show 3200 * (v.val / 3200) + v.val % 3200 = v.val
  omega

theorem tileIdx_bij : Function.Bijective (fun p : Fin 10 × Fin 3200 => tileIdx p.1 p.2) := by
  constructor
  · rintro ⟨a, i⟩ ⟨b, j⟩ h
    have h' : 3200 * a.val + i.val = 3200 * b.val + j.val := congrArg Fin.val h
    have hi := i.isLt
    have hj := j.isLt
    have hab : a.val = b.val := by omega
    have hij : i.val = j.val := by omega
    exact Prod.ext (Fin.ext hab) (Fin.ext hij)
  · intro v
    obtain ⟨k, i, h⟩ := tileIdx_surj v
    exact ⟨(k, i), h⟩

/-- A sum over the columns is the sum over the tiles of the sums within each tile. -/
theorem sum_tiles (F : Fin 32000 → EReal) :
    ∑ k : Fin 10, ∑ i : Fin 3200, F (tileIdx k i) = ∑ v : Fin 32000, F v := by
  rw [← Fintype.sum_prod_type' (fun k i => F (tileIdx k i))]
  exact Fintype.sum_bijective _ tileIdx_bij _ _ (fun _ => rfl)

/-- The supremum over the columns is the supremum over the tiles of the suprema within each tile. -/
theorem sup_tiles (x : Fin 32000 → EReal) :
    (Finset.univ.sup fun k : Fin 10 => Finset.univ.sup fun i : Fin 3200 => x (tileIdx k i))
      = Finset.univ.sup x := by
  apply le_antisymm
  · exact Finset.sup_le fun k _ => Finset.sup_le fun i _ => Finset.le_sup (f := x) (Finset.mem_univ _)
  · refine Finset.sup_le fun v _ => ?_
    obtain ⟨k, i, rfl⟩ := tileIdx_surj v
    exact le_trans
      (Finset.le_sup (f := fun i : Fin 3200 => x (tileIdx k i)) (Finset.mem_univ i))
      (Finset.le_sup (f := fun k : Fin 10 => Finset.univ.sup fun i : Fin 3200 => x (tileIdx k i))
        (Finset.mem_univ k))

/-! ### Reals inside the extended reals -/

/-- A finite sum of real numbers, taken in the extended reals, is the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The exponential of a difference of reals. -/
theorem exp_coe_sub (a b : ℝ) :
    Ideal.exp ((a : EReal) - (b : EReal)) = ((Real.exp (a - b) : ℝ) : EReal) := by
  rw [← EReal.coe_sub]; rfl

/-- The supremum of a nonempty finite family of reals is a real (it is attained). -/
theorem finset_sup_real {ι : Type} (s : Finset ι) (hs : s.Nonempty) (y : ι → EReal)
    (hy : ∀ i, ∃ r : ℝ, y i = (r : EReal)) : ∃ r : ℝ, s.sup y = (r : EReal) := by
  obtain ⟨i, _, hi⟩ := Finset.exists_mem_eq_sup s hs y
  obtain ⟨r, hr⟩ := hy i
  exact ⟨r, hi.trans hr⟩

/-! ### One step of the online recursion -/

/-- Adding one tile `j` to a set `T` of tiles already absorbed: the new maximum is the maximum over
    `insert j T`, and rescaling the old sum by `exp (m - m')` re-shifts every old term to the new maximum,
    because `exp (a - m) * exp (m - m') = exp (a - m')`. With no tile absorbed yet the old sum is `0`. -/
theorem online_step {J I : Type} [DecidableEq J] [Fintype I] [Nonempty I]
    (f : J → I → ℝ) (T : Finset J) (j : J) (hj : j ∉ T) (m l : EReal)
    (hm : m = T.sup fun j' => Finset.univ.sup fun i => (f j' i : EReal))
    (hl : l = ∑ j' ∈ T, ∑ i, Ideal.exp ((f j' i : EReal) - m)) :
    max m (Finset.univ.sup fun i => (f j i : EReal))
        = (insert j T).sup (fun j' => Finset.univ.sup fun i => (f j' i : EReal))
      ∧ l * Ideal.exp (m - max m (Finset.univ.sup fun i => (f j i : EReal)))
          + ∑ i, Ideal.exp ((f j i : EReal) - max m (Finset.univ.sup fun i => (f j i : EReal)))
        = ∑ j' ∈ insert j T, ∑ i,
            Ideal.exp ((f j' i : EReal) - max m (Finset.univ.sup fun i => (f j i : EReal))) := by
  constructor
  · rw [Finset.sup_insert, hm]; exact max_comm _ _
  · obtain ⟨t, ht⟩ : ∃ t : ℝ, (Finset.univ.sup fun i => (f j i : EReal)) = (t : EReal) :=
      finset_sup_real _ Finset.univ_nonempty _ (fun i => ⟨_, rfl⟩)
    rw [ht, Finset.sum_insert hj, add_comm]
    congr 1
    rcases T.eq_empty_or_nonempty with hT | hT
    · subst hT; simp [hl]
    · obtain ⟨M, hM⟩ : ∃ M : ℝ, m = (M : EReal) := by
        rw [hm]
        exact finset_sup_real _ hT _
          (fun j' => finset_sup_real _ Finset.univ_nonempty _ (fun i => ⟨_, rfl⟩))
      obtain ⟨M', hM'⟩ : ∃ M' : ℝ, max m (t : EReal) = (M' : EReal) := by
        rw [hM]; rcases max_choice (M : EReal) (t : EReal) with h | h <;> exact ⟨_, h⟩
      rw [hM', hl, hM]
      simp only [exp_coe_sub, coe_sum, ← EReal.coe_mul]
      rw [EReal.coe_eq_coe_iff, Finset.sum_mul]
      refine Finset.sum_congr rfl fun j' _ => ?_
      rw [Finset.sum_mul]
      refine Finset.sum_congr rfl fun i _ => ?_
      rw [← Real.exp_add]; congr 1; ring

/-! ### The invariant of the recursion -/

/-- The tiles absorbed after `k` steps. -/
def firstTiles (k : ℕ) : Finset (Fin 10) := Finset.univ.filter fun j => j.val < k

theorem firstTiles_zero : firstTiles 0 = ∅ := by
  ext j; simp [firstTiles]

theorem firstTiles_succ (k : ℕ) (h : k < 10) : firstTiles (k + 1) = insert ⟨k, h⟩ (firstTiles k) := by
  ext j; simp [firstTiles, Fin.ext_iff]; omega

theorem not_mem_firstTiles (k : ℕ) (h : k < 10) : (⟨k, h⟩ : Fin 10) ∉ firstTiles k := by
  simp [firstTiles]

theorem firstTiles_ten : firstTiles 10 = Finset.univ := by
  ext j; simp [firstTiles]

/-- After `k` tiles the running maximum is the maximum over those tiles and the running sum is their sum of
    exponentials shifted by that maximum. -/
theorem tileML_inv (g : Fin 32000 → ℝ) : ∀ k : ℕ, k ≤ 10 →
    (tileML (fun v => (g v : EReal)) k).1
        = (firstTiles k).sup (fun j => Finset.univ.sup fun i : Fin 3200 => (g (tileIdx j i) : EReal))
      ∧ (tileML (fun v => (g v : EReal)) k).2
        = ∑ j ∈ firstTiles k, ∑ i : Fin 3200,
            Ideal.exp ((g (tileIdx j i) : EReal) - (tileML (fun v => (g v : EReal)) k).1)
  | 0, _ => by simp [tileML, firstTiles_zero]
  | k + 1, hk => by
    have h : k < 10 := hk
    obtain ⟨ih1, ih2⟩ := tileML_inv g k (Nat.le_of_lt h)
    have key := online_step (fun j i => g (tileIdx j i)) (firstTiles k) ⟨k, h⟩ (not_mem_firstTiles k h)
      _ _ ih1 ih2
    rw [tileML_succ _ k h, firstTiles_succ k h]
    exact key

/-- After the ten tiles the running pair is the row's maximum and its shifted sum of exponentials. -/
theorem tileML_final (x : Fin 32000 → EReal) (hx : ∀ v, ∃ r : ℝ, x v = (r : EReal)) :
    (tileML x 10).1 = Finset.univ.sup x
      ∧ (tileML x 10).2 = ∑ v : Fin 32000, Ideal.exp (x v - Finset.univ.sup x) := by
  choose g hg using hx
  obtain rfl : x = fun v => (g v : EReal) := funext hg
  obtain ⟨h1, h2⟩ := tileML_inv g 10 le_rfl
  rw [firstTiles_ten] at h1 h2
  have hsup : (tileML (fun v => (g v : EReal)) 10).1 = Finset.univ.sup fun v => (g v : EReal) := by
    rw [h1]; exact sup_tiles (fun v => (g v : EReal))
  refine ⟨hsup, ?_⟩
  rw [h2, hsup]
  exact sum_tiles (fun v => Ideal.exp ((g v : EReal) - Finset.univ.sup fun v => (g v : EReal)))

/-! ### The result is real -/

/-- The maximum of a row of reals is a real. -/
theorem sup_real (x : Fin 32000 → EReal) (hx : ∀ v, ∃ r : ℝ, x v = (r : EReal)) :
    ∃ r : ℝ, Finset.univ.sup x = (r : EReal) :=
  finset_sup_real _ ⟨⟨0, by norm_num⟩, Finset.mem_univ _⟩ x hx

/-- The shifted sum of exponentials of a row of reals is a positive real. -/
theorem sum_pos_real (x : Fin 32000 → EReal) (hx : ∀ v, ∃ r : ℝ, x v = (r : EReal)) :
    ∃ r : ℝ, 0 < r ∧ ∑ v : Fin 32000, Ideal.exp (x v - Finset.univ.sup x) = (r : EReal) := by
  obtain ⟨M, hM⟩ := sup_real x hx
  choose g hg using hx
  refine ⟨∑ v : Fin 32000, Real.exp (g v - M), ?_, ?_⟩
  · exact Finset.sum_pos (fun v _ => Real.exp_pos _) ⟨⟨0, by norm_num⟩, Finset.mem_univ _⟩
  · rw [hM, ← coe_sum]
    exact Finset.sum_congr rfl fun v _ => by rw [hg v, exp_coe_sub]

/-- The log-softmax of a row of reals is real at every column. -/
theorem out_real (x : Fin 32000 → EReal) (hx : ∀ v, ∃ r : ℝ, x v = (r : EReal)) (v : Fin 32000) :
    ∃ r : ℝ, (x v - Finset.univ.sup x)
      - Ideal.log (∑ v' : Fin 32000, Ideal.exp (x v' - Finset.univ.sup x)) = (r : EReal) := by
  obtain ⟨s, hs, hsum⟩ := sum_pos_real x hx
  obtain ⟨M, hM⟩ := sup_real x hx
  obtain ⟨a, ha⟩ := hx v
  refine ⟨(a - M) - Real.log s, ?_⟩
  rw [hsum, hM, ha, Ideal.log_coe, if_neg (not_le.2 hs), ← EReal.coe_sub, ← EReal.coe_sub]

/-- The mask's fill value is the real number -100. -/
theorem fillv_real : Cert.Spec.fillv = ((-100 : ℝ) : EReal) := by
  simp [Cert.Spec.fillv, Ideal.ofBits, Ideal.ieee, -EReal.coe_mul]; norm_num

end Cert.Softmax

end
-- ==== Proof.SoftmaxSpec.lean ====
/-
  The specification's rows are rows of real numbers in the domain, so the online recursion applies to them:
  each logit is real, the row maximum is real, the row sum of shifted exponentials is a positive real, the
  result is real, and the recursion's final pair is the specification's (row maximum, row sum).
-/
import proofs.«424303_j34282428957025_2_alg».proof.Proof.Softmax

noncomputable section

namespace Cert.Softmax

open Idealize.ShloMosaic

/-! ### The specification's rows are rows of reals -/

section SpecRows

open Cert.Spec Idealize.ShloMosaic.ValueIdx

variable {midx : IVec256} {z : ZArr} {ridx : IVec256} {mask : MaskArr} {bg : BgArr} {auth : AuthArr}
  {pers : PersArr}

/-- The persona term is a finite sum of products of reals. -/
theorem persona_real (h : Dom midx z ridx mask bg auth pers) (b : Fin 256) (v : Fin 32000) :
    ∃ r : ℝ, persona z ridx pers b v = (r : EReal) := by
  unfold persona
  choose zf hzf using h.hz
  choose pf hpf using h.hpers
  refine ⟨∑ p : Fin 64, zf (ix2 b p) * pf (ix3 p (role ridx b) v), ?_⟩
  rw [← coe_sum]
  exact Finset.sum_congr rfl fun p _ => by rw [hzf, hpf, EReal.coe_mul]

/-- Every logit is a real: the fill value `-100` where masked, a sum of reals elsewhere. -/
theorem logit_real (h : Dom midx z ridx mask bg auth pers) (b : Fin 256) (v : Fin 32000) :
    ∃ r : ℝ, logit midx z ridx mask bg auth pers b v = (r : EReal) := by
  unfold logit
  split
  · exact ⟨-100, fillv_real⟩
  · obtain ⟨a, ha⟩ := h.hbg (ix2 (role ridx b) v)
    obtain ⟨c, hc⟩ := h.hauth (ix3 (author midx b) (role ridx b) v)
    obtain ⟨p, hp⟩ := persona_real h b v
    exact ⟨a + c + p, by rw [ha, hc, hp, EReal.coe_add, EReal.coe_add]⟩

/-- The specification's row maximum and row sum are where the online recursion over row `b`'s logits ends. -/
theorem Spec_out_eq_tiles (hd : Dom midx z ridx mask bg auth pers) (b : Fin 256) :
    rowMax midx z ridx mask bg auth pers b
        = (tileML (fun v => logit midx z ridx mask bg auth pers b v) 10).1
      ∧ rowSum midx z ridx mask bg auth pers b
        = (tileML (fun v => logit midx z ridx mask bg auth pers b v) 10).2 :=
  let h := tileML_final (fun v => logit midx z ridx mask bg auth pers b v) (logit_real hd b)
  ⟨h.1.symm, h.2.symm⟩

/-- The specification's row maximum is a real. -/
theorem rowMax_real (h : Dom midx z ridx mask bg auth pers) (b : Fin 256) :
    ∃ r : ℝ, rowMax midx z ridx mask bg auth pers b = (r : EReal) :=
  sup_real (logit midx z ridx mask bg auth pers b) (logit_real h b)

/-- The specification's row sum is a positive real. -/
theorem rowSum_pos_real (h : Dom midx z ridx mask bg auth pers) (b : Fin 256) :
    ∃ r : ℝ, 0 < r ∧ rowSum midx z ridx mask bg auth pers b = (r : EReal) :=
  sum_pos_real (logit midx z ridx mask bg auth pers b) (logit_real h b)

/-- The specification's result is a real at every index. -/
theorem spec_out_real (h : Dom midx z ridx mask bg auth pers) (b : Fin 256) (v : Fin 32000) :
    ∃ r : ℝ, Cert.Spec.out midx z ridx mask bg auth pers b v = (r : EReal) :=
  out_real (logit midx z ridx mask bg auth pers b) (logit_real h b) v

end SpecRows

end Cert.Softmax

end
-- ==== Proof.TileInduction.lean ====
/-
  The per-row induction of the fused kernel's carried columns. Along one row of the 128-row block the running
  maximum and running sum that the kernel carries from tile to tile follow the online log-softmax recursion over the
  row's 32000 logits, so after the tenth tile they are the row's maximum and its sum of shifted exponentials, and the
  last tile's normalisation writes the log-softmax of the row.
-/
import proofs.«424303_j34282428957025_2_alg».proof.Proof.FusedVals
import proofs.«424303_j34282428957025_2_alg».proof.Proof.SoftmaxSpec

noncomputable section

namespace Cert.KernelIdeal.FusedValue

open Cert.KernelIdeal Cert.KernelIdeal.Gen Cert.KernelIdeal.Hand
open Idealize.ShloMosaic Idealize.ShloMosaic.ValueIdx
open Cert.Softmax

/-- What the carried columns and the normalised tile are at row `b`, as extended reals: the resets are `⊥` and `0`,
    a tile's row maximum is the supremum of the row's 3200 entries, the new maximum is the larger of the old one and
    the tile's, the new sum is the old sum rescaled plus the tile's shifted exponentials, and the normalised tile is
    the entry minus the maximum minus the logarithm of the sum. -/
structure RowReadings (b : Fin 128) : Prop where
  mReset_row : (mReset : Vec Ideal S128x1 .f32) (ix2 b 0) = (⊥ : EReal)
  lReset_row : (lReset : Vec Ideal S128x1 .f32) (ix2 b 0) = (0 : EReal)
  rowMaxv_row : ∀ lg : FVec Ideal S128x3200 .f32,
    rowMaxv lg (ix2 b 0) = Finset.univ.sup fun i : Fin 3200 => (lg (ix2 b i) : EReal)
  mNew_row : ∀ (m : Vec Ideal S128x1 .f32) (lg : FVec Ideal S128x3200 .f32),
    mNew m lg (ix2 b 0) = max (m (ix2 b 0) : EReal) (rowMaxv lg (ix2 b 0))
  lNew_row : ∀ (m l : Vec Ideal S128x1 .f32) (lg : FVec Ideal S128x3200 .f32),
    lNew m l lg (ix2 b 0)
      = (l (ix2 b 0) : EReal) * Ideal.exp (m (ix2 b 0) - max (m (ix2 b 0) : EReal) (rowMaxv lg (ix2 b 0)))
        + ∑ i : Fin 3200, Ideal.exp (lg (ix2 b i) - max (m (ix2 b 0) : EReal) (rowMaxv lg (ix2 b 0)))
  finTile_row : ∀ (m l : Vec Ideal S128x1 .f32) (tl : Vec Ideal S128x3200 .f32) (i : Fin 3200),
    finTile m l tl (ix2 b i) = ((tl (ix2 b i) : EReal) - m (ix2 b 0)) - Ideal.log (l (ix2 b 0))

/-- The carried pair of columns after tile `k` (tiles counted from 0), the first tile starting from the resets. -/
def carry (lg : ℕ → FVec Ideal S128x3200 .f32) : ℕ → Vec Ideal S128x1 .f32 × Vec Ideal S128x1 .f32
  | 0 => (mNew mReset (lg 0), lNew mReset lReset (lg 0))
  | k + 1 => (mNew (carry lg k).1 (lg (k + 1)), lNew (carry lg k).1 (carry lg k).2 (lg (k + 1)))

/-- Absorbing one tile at row `b` is one step of the online recursion. -/
theorem row_step {b : Fin 128} (R : RowReadings b) (X : Fin 32000 → EReal) (k : Fin 10)
    (m l : Vec Ideal S128x1 .f32) (lg : FVec Ideal S128x3200 .f32)
    (hlg : ∀ i : Fin 3200, lg (ix2 b i) = X (tileIdx k i)) :
    ((mNew m lg (ix2 b 0) : EReal), (lNew m l lg (ix2 b 0) : EReal))
      = tileStep X k ((m (ix2 b 0) : EReal), (l (ix2 b 0) : EReal)) := by
  rw [R.mNew_row, R.lNew_row, R.rowMaxv_row]
  simp only [hlg]
  rfl

/-- The per-row induction: columns carried by the kernel's recursion are, at row `b`, the online recursion's pair. -/
theorem row_induction {b : Fin 128} (R : RowReadings b) (X : Fin 32000 → EReal)
    (lg : ℕ → FVec Ideal S128x3200 .f32)
    (hlg : ∀ (k : Fin 10) (i : Fin 3200), lg k.val (ix2 b i) = X (tileIdx k i))
    (ms ls : ℕ → Vec Ideal S128x1 .f32)
    (hm0 : ms 0 = mNew mReset (lg 0)) (hl0 : ls 0 = lNew mReset lReset (lg 0))
    (hms : ∀ k, k + 1 < 10 → ms (k + 1) = mNew (ms k) (lg (k + 1)))
    (hls : ∀ k, k + 1 < 10 → ls (k + 1) = lNew (ms k) (ls k) (lg (k + 1))) :
    ∀ k, k < 10 → ((ms k (ix2 b 0) : EReal), (ls k (ix2 b 0) : EReal)) = tileML X (k + 1) := by
  intro k
  induction k with
  | zero =>
    intro _
    rw [hm0, hl0, row_step R X ⟨0, by norm_num⟩ mReset lReset (lg 0) (hlg ⟨0, by norm_num⟩),
      R.mReset_row, R.lReset_row]
    exact (tileML_succ X 0 (by norm_num)).symm
  | succ k ih =>
    intro hk
    have hk' : k < 10 := by omega
    rw [hms k hk, hls k hk, row_step R X ⟨k + 1, hk⟩ (ms k) (ls k) (lg (k + 1)) (hlg ⟨k + 1, hk⟩),
      ih hk', tileML_succ X (k + 1) hk]

/-- The same for the recursion `carry`. -/
theorem carry_row {b : Fin 128} (R : RowReadings b) (X : Fin 32000 → EReal)
    (lg : ℕ → FVec Ideal S128x3200 .f32)
    (hlg : ∀ (k : Fin 10) (i : Fin 3200), lg k.val (ix2 b i) = X (tileIdx k i)) :
    ∀ k, k < 10 → (((carry lg k).1 (ix2 b 0) : EReal), ((carry lg k).2 (ix2 b 0) : EReal)) = tileML X (k + 1) := by
  exact row_induction R X lg hlg (fun k => (carry lg k).1) (fun k => (carry lg k).2) rfl rfl
    (fun _ _ => rfl) (fun _ _ => rfl)

/-- After the tenth tile the carried columns hold, at row `b`, the row's maximum and its shifted sum of exponentials
    (the row's entries real). -/
theorem row_final_ml {b : Fin 128} (R : RowReadings b) (X : Fin 32000 → EReal)
    (hX : ∀ v, ∃ r : ℝ, X v = (r : EReal))
    (lg : ℕ → FVec Ideal S128x3200 .f32)
    (hlg : ∀ (k : Fin 10) (i : Fin 3200), lg k.val (ix2 b i) = X (tileIdx k i))
    (ms ls : ℕ → Vec Ideal S128x1 .f32)
    (hm0 : ms 0 = mNew mReset (lg 0)) (hl0 : ls 0 = lNew mReset lReset (lg 0))
    (hms : ∀ k, k + 1 < 10 → ms (k + 1) = mNew (ms k) (lg (k + 1)))
    (hls : ∀ k, k + 1 < 10 → ls (k + 1) = lNew (ms k) (ls k) (lg (k + 1))) :
    (ms 9 (ix2 b 0) : EReal) = Finset.univ.sup X
      ∧ (ls 9 (ix2 b 0) : EReal) = ∑ v : Fin 32000, Ideal.exp (X v - Finset.univ.sup X) := by
  have h := row_induction R X lg hlg ms ls hm0 hl0 hms hls 9 (by norm_num)
  obtain ⟨h1, h2⟩ := tileML_final X hX
  exact ⟨(congrArg Prod.fst h).trans h1, (congrArg Prod.snd h).trans h2⟩

/-- The last tile's normalisation at row `b`: a tile entry equal to `X (tileIdx k i)` is rewritten to the
    log-softmax of the row at that column. -/
theorem row_final {b : Fin 128} (R : RowReadings b) (X : Fin 32000 → EReal)
    (hX : ∀ v, ∃ r : ℝ, X v = (r : EReal))
    (lg : ℕ → FVec Ideal S128x3200 .f32)
    (hlg : ∀ (k : Fin 10) (i : Fin 3200), lg k.val (ix2 b i) = X (tileIdx k i))
    (ms ls : ℕ → Vec Ideal S128x1 .f32)
    (hm0 : ms 0 = mNew mReset (lg 0)) (hl0 : ls 0 = lNew mReset lReset (lg 0))
    (hms : ∀ k, k + 1 < 10 → ms (k + 1) = mNew (ms k) (lg (k + 1)))
    (hls : ∀ k, k + 1 < 10 → ls (k + 1) = lNew (ms k) (ls k) (lg (k + 1)))
    (tl : Vec Ideal S128x3200 .f32) (k : Fin 10) (i : Fin 3200) (htl : tl (ix2 b i) = X (tileIdx k i)) :
    finTile (ms 9) (ls 9) tl (ix2 b i)
      = (X (tileIdx k i) - Finset.univ.sup X)
        - Ideal.log (∑ v : Fin 32000, Ideal.exp (X v - Finset.univ.sup X)) := by
  obtain ⟨h1, h2⟩ := row_final_ml R X hX lg hlg ms ls hm0 hl0 hms hls
  rw [R.finTile_row, htl, h1, h2]

section Spec
open Cert.Spec
variable {midx : IVec256} {z : ZArr} {ridx : IVec256} {mask : MaskArr} {bg : BgArr} {auth : AuthArr}
  {pers : PersArr}

/-- With the row's entries the specification's logits of batch row `B`, the normalised tile is the specification's
    result at `(B, tileIdx k i)`. -/
theorem row_final_spec (hd : Dom midx z ridx mask bg auth pers) (B : Fin 256)
    {b : Fin 128} (R : RowReadings b)
    (lg : ℕ → FVec Ideal S128x3200 .f32)
    (hlg : ∀ (k : Fin 10) (i : Fin 3200),
      lg k.val (ix2 b i) = logit midx z ridx mask bg auth pers B (tileIdx k i))
    (ms ls : ℕ → Vec Ideal S128x1 .f32)
    (hm0 : ms 0 = mNew mReset (lg 0)) (hl0 : ls 0 = lNew mReset lReset (lg 0))
    (hms : ∀ k, k + 1 < 10 → ms (k + 1) = mNew (ms k) (lg (k + 1)))
    (hls : ∀ k, k + 1 < 10 → ls (k + 1) = lNew (ms k) (ls k) (lg (k + 1)))
    (tl : Vec Ideal S128x3200 .f32) (k : Fin 10) (i : Fin 3200)
    (htl : tl (ix2 b i) = logit midx z ridx mask bg auth pers B (tileIdx k i)) :
    finTile (ms 9) (ls 9) tl (ix2 b i) = Cert.Spec.out midx z ridx mask bg auth pers B (tileIdx k i) := by
  unfold Cert.Spec.out Cert.Spec.rowSum Cert.Spec.rowMax
  exact row_final R (logit midx z ridx mask bg auth pers B) (logit_real hd B) lg hlg ms ls hm0 hl0 hms hls
    tl k i htl

end Spec

end Cert.KernelIdeal.FusedValue

end
-- ==== Proof.TileValueB.lean ====
/-
  The tile arithmetic of the fused kernel read at an index, over the extended reals: the running row maximum, the
  rescaled running sum of exponentials, and the finalize step that subtracts the row's maximum and the logarithm of its
  sum from every tile entry.
-/
import proofs.«424303_j34282428957025_2_alg».proof.Proof.FusedVals
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.TileValue

open Cert.KernelIdeal Cert.KernelIdeal.Gen Cert.KernelIdeal.Hand
open Idealize.ShloMosaic Idealize.ShloMosaic.ValueIdx

/-! ## Layout: a column spread along a row, a vector stood up as a column, a row's sum -/

/-- A (128, 1) column spread along the 3200 columns reads, at (b, i), the column at row b. -/
theorem bcast_col {α : Type} (x : S128x1.Idx → α) (b : Fin 128) (i : Fin 3200) :
    broadcastTo S128x3200 x broadcasts_S128x1_S128x3200 (ix2 b i) = x (ix2 b 0) :=
  broadcastTo_apply x _ (ix2 b i) (ix2 b 0) (fun a => by match a with | ⟨0, _⟩ => rfl | ⟨1, _⟩ => rfl)

/-- A 128-vector stood up as a (128, 1) column reads, at (b, 0), the vector at b. -/
theorem col_cast {α : Type} (x : S128.Idx → α) (b : Fin 128) :
    shapeCast S128x1 x shapeCasts_S128_S128x1 (ix2 b 0) = x (ix1 b) :=
  shapeCast_apply x _ (ix2 b 0) (ix1 b) (by rw [Shape.rowMajor_val_one, Shape.rowMajor_val_two]; simp)

/-- The lane sum of a (128, 3200) tile at row b is the sum of the row's 3200 entries. -/
theorem row_sum (x : FVec Ideal S128x3200 .f32) (b : Fin 128) :
    multiReduction (F := Ideal) .add [1] S128 x 0x00000000#32 reduces_S128x3200_S128 (.inl rfl) rfl (ix1 b)
      = ∑ i : Fin 3200, x (ix2 b i) := by
  refine (Ideal.multiReduction_add_single x _ reduces_S128x3200_S128 (.inl rfl) rfl (ix1 b)).trans ?_
  refine Finset.sum_congr rfl fun i _ => congrArg x ?_
  funext c
  apply Fin.ext
  match c with
  | ⟨0, _⟩ => rfl
  | ⟨1, _⟩ => rfl

/-! ## The initial carries -/

/-- The running maximum starts at -∞. -/
theorem pay19_apply (b : Fin 128) : k1_pay19 (F := Ideal) (ix2 b 0) = ⊥ := by
  unfold k1_pay19
  refine (congrFun (shapeCast_self _ _) (ix2 b 0)).trans ?_
  show Ideal.ofBits .f32 0xFF800000#32 = ⊥
  simp [Ideal.ofBits, Ideal.ieee]

/-- The running sum starts at 0. -/
theorem pay20_apply (b : Fin 128) : k1_pay20 (F := Ideal) (ix2 b 0) = 0 := by
  unfold k1_pay20
  refine (congrFun (shapeCast_self _ _) (ix2 b 0)).trans ?_
  exact Ideal.ofBits_zero_f32

/-! ## One tile's update of the carries -/

/-- The new running maximum: the old one against the tile's row maximum. -/
theorem mnew_apply (v152 : FVec Ideal S128x1 .f32) (v153 : Vec Ideal S128x1 .f32) (b : Fin 128) :
    k1_pay1 v152 v153 (ix2 b 0) = max (v153 (ix2 b 0)) (v152 (ix2 b 0)) := rfl

/-- The stored running maximum is the new running maximum. -/
theorem pay3_apply (v152 : FVec Ideal S128x1 .f32) (v153 : Vec Ideal S128x1 .f32) (b : Fin 128) :
    k1_pay3 v152 v153 (ix2 b 0) = max (v153 (ix2 b 0)) (v152 (ix2 b 0)) := by
  unfold k1_pay3
  exact (congrFun (shapeCast_self _ _) (ix2 b 0)).trans (mnew_apply v152 v153 b)

/-- The new running sum: the old one rescaled to the new maximum, plus the tile's row sum of exponentials shifted by it. -/
theorem lnew_apply (v150 : FVec Ideal S128x3200 .f32) (v152 : FVec Ideal S128x1 .f32) (v153 : Vec Ideal S128x1 .f32)
    (v155 : Vec Ideal S128x1 .f32) (v156 : Vec Ideal S128x1 .f32) (b : Fin 128) :
    k1_pay2 v150 v152 v153 v155 v156 (ix2 b 0)
      = v155 (ix2 b 0) * Ideal.exp (v156 (ix2 b 0) - max (v153 (ix2 b 0)) (v152 (ix2 b 0)))
        + ∑ i : Fin 3200, Ideal.exp (v150 (ix2 b i) - max (v153 (ix2 b 0)) (v152 (ix2 b 0))) := by
  unfold k1_pay2
  refine (congrFun (shapeCast_self _ _) (ix2 b 0)).trans ?_
  refine congrArg (fun y => v155 (ix2 b 0) * Ideal.exp (v156 (ix2 b 0) - max (v153 (ix2 b 0)) (v152 (ix2 b 0))) + y) ?_
  refine (col_cast _ b).trans ?_
  refine (row_sum _ b).trans ?_
  refine Finset.sum_congr rfl fun i _ => ?_
  exact congrArg (fun y => Ideal.exp (v150 (ix2 b i) - y)) (bcast_col (k1_pay1 v152 v153) b i)

/-! ## The finalize step -/

/-- The logarithm of the final running sum. -/
theorem pay5_apply (v180 : Vec Ideal S128x1 .f32) (b : Fin 128) :
    k1_pay5 v180 (ix2 b 0) = Ideal.log (v180 (ix2 b 0)) := rfl

/-- A finalized tile entry: the logit less the row maximum, less the logarithm of the row sum. -/
theorem pay6_apply (v179 : Vec Ideal S128x1 .f32) (v180 : Vec Ideal S128x1 .f32) (tile : Vec Ideal S128x3200 .f32)
    (b : Fin 128) (i : Fin 3200) :
    k1_pay6 v179 v180 tile (ix2 b i) = (tile (ix2 b i) - v179 (ix2 b 0)) - Ideal.log (v180 (ix2 b 0)) := by
  have e1 : shapeCast S128x3200 tile shapeCasts_S128x3200_S128x3200 (ix2 b i) = tile (ix2 b i) :=
    congrFun (shapeCast_self tile _) _
  have e2 := bcast_col v179 b i
  have e3 := bcast_col (k1_pay5 v180) b i
  unfold k1_pay6
  show (shapeCast S128x3200 tile shapeCasts_S128x3200_S128x3200 (ix2 b i)
      - broadcastTo S128x3200 v179 broadcasts_S128x1_S128x3200 (ix2 b i))
      - broadcastTo S128x3200 (k1_pay5 v180) broadcasts_S128x1_S128x3200 (ix2 b i) = _
  rw [e1, e2, e3]
  rfl

/-! ## The same, over the kernel's named values -/

/-- A first tile resets the running maximum to -∞. -/
theorem mReset_apply (b : Fin 128) : mReset (F := Ideal) (ix2 b 0) = ⊥ := pay19_apply b

/-- A first tile resets the running sum to 0. -/
theorem lReset_apply (b : Fin 128) : lReset (F := Ideal) (ix2 b 0) = 0 := pay20_apply b

/-- The running maximum after a tile: the old maximum against the tile's row maximum. -/
theorem mNew_apply (m : Vec Ideal S128x1 .f32) (lg : FVec Ideal S128x3200 .f32) (b : Fin 128) :
    mNew m lg (ix2 b 0) = max (m (ix2 b 0)) (rowMaxv lg (ix2 b 0)) := pay3_apply (rowMaxv lg) m b

/-- The running sum after a tile: l · exp(m − m') + Σ exp(logit − m'), m' the new maximum. -/
theorem lNew_apply (m l : Vec Ideal S128x1 .f32) (lg : FVec Ideal S128x3200 .f32) (b : Fin 128) :
    lNew m l lg (ix2 b 0)
      = l (ix2 b 0) * Ideal.exp (m (ix2 b 0) - max (m (ix2 b 0)) (rowMaxv lg (ix2 b 0)))
        + ∑ i : Fin 3200, Ideal.exp (lg (ix2 b i) - max (m (ix2 b 0)) (rowMaxv lg (ix2 b 0))) :=
  lnew_apply lg (rowMaxv lg) m l m b

/-- A normalised tile entry: (tile − m) − log l. -/
theorem finTile_apply (m l : Vec Ideal S128x1 .f32) (tl : Vec Ideal S128x3200 .f32) (b : Fin 128) (i : Fin 3200) :
    finTile m l tl (ix2 b i) = (tl (ix2 b i) - m (ix2 b 0)) - Ideal.log (l (ix2 b 0)) := pay6_apply m l tl b i

/-- info: 'Cert.KernelIdeal.TileValue.mReset_apply' depends on axioms: [propext, Classical.choice, Quot.sound] -/
#guard_msgs (whitespace := lax) in #print axioms mReset_apply

/-- info: 'Cert.KernelIdeal.TileValue.lReset_apply' depends on axioms: [propext, Classical.choice, Quot.sound] -/
#guard_msgs (whitespace := lax) in #print axioms lReset_apply

/-- info: 'Cert.KernelIdeal.TileValue.mNew_apply' depends on axioms: [propext, Classical.choice, Quot.sound] -/
#guard_msgs (whitespace := lax) in #print axioms mNew_apply

/-- info: 'Cert.KernelIdeal.TileValue.lNew_apply' depends on axioms: [propext, Classical.choice, Quot.sound] -/
#guard_msgs (whitespace := lax) in #print axioms lNew_apply

/-- info: 'Cert.KernelIdeal.TileValue.finTile_apply' depends on axioms: [propext, Classical.choice, Quot.sound] -/
#guard_msgs (whitespace := lax) in #print axioms finTile_apply

end Cert.KernelIdeal.TileValue

end
-- ==== Proof.RowReadingsInst.lean ====
/-
  The readings of the carried columns and of the normalised tile at a row, assembled: at every row of the 128-row block
  the resets, the tile's row maximum, the updated maximum and sum, and the normalised tile are the extended-real
  expressions the per-row induction takes as given.
-/
import proofs.«424303_j34282428957025_2_alg».proof.Proof.TileInduction
import proofs.«424303_j34282428957025_2_alg».proof.Proof.TileValueB
import proofs.«424303_j34282428957025_2_alg».proof.Proof.TileValue.Layout

noncomputable section

namespace Cert.KernelIdeal.FusedValue

open Cert.KernelIdeal Cert.KernelIdeal.Gen Cert.KernelIdeal.Hand Cert.KernelIdeal.TileValue
open Idealize.ShloMosaic Idealize.ShloMosaic.ValueIdx

/-- Every row has the readings. -/
theorem rowReadings (b : Fin 128) : RowReadings b where
  mReset_row := mReset_apply b
  lReset_row := lReset_apply b
  rowMaxv_row := fun lg => rowmax_apply lg b
  mNew_row := fun m lg => mNew_apply m lg b
  lNew_row := fun m l lg => lNew_apply m l lg b
  finTile_row := fun m l tl i => finTile_apply m l tl b i

end Cert.KernelIdeal.FusedValue

end
-- ==== Proof.OutBuffer.lean ====
/-
  The output block after a tile's store and after the last tile's normalisation, read at an index: storing tile j's
  logits overwrites columns 3200 j .. 3200 j + 3199 and leaves the others; after ten stores, one per column tile, the
  block holds the ten tiles whatever it held before; the normalisation rewrites every column v of row b as
  (o b v - m b) - log (l b).
-/
import proofs.«424303_j34282428957025_2_alg».proof.Proof.Common
import proofs.«424303_j34282428957025_2_alg».proof.Proof.FusedVals
import proofs.«424303_j34282428957025_2_alg».proof.Proof.TileValueB
import Idealize.ShloMosaic.Lib.ValueIdx
import Idealize.ShloMosaic.Lib.Pipeline.Value
import Idealize.ShloMosaic.Lib.Ring

noncomputable section

namespace Cert.KernelIdeal.FusedValue

open Cert.KernelIdeal Cert.KernelIdeal.Gen Cert.KernelIdeal.Hand
open Idealize.ShloMosaic Idealize.ShloMosaic.TcCoe Idealize.SL.Sem
open Idealize.ShloMosaic.ValueIdx

variable {F : FTy → Type} [FloatOps F]

/-! ## One tile's store -/

/-- The offsets of tile j's columns in the output block, at the point t = 10 h + j. -/
theorem off_facts : ∀ t : Fin cfg1.N,
    k1_off1 (grid1.coords t) 0 = 0 ∧ k1_off1 (grid1.coords t) 1 = 3200 * (t.val % 10) :=
  (by decide +kernel : ∀ t : Fin grid1.N, _)

/-- Inside tile j's columns the stored block reads the tile's logits. -/
theorem setTile_apply_in (o : Vec F S128x32000 .f32) (t : Fin cfg1.N) (lg : FVec F S128x3200 .f32)
    (b : Fin 128) (i : Fin 3200) (v : Fin 32000) (hv : v.val = 3200 * (t.val % 10) + i.val) :
    setTile o t lg (ix2 b v) = lg (ix2 b i) := by
  have ho := off_facts t
  have e : (ix2 b v : S128x32000.Idx) = (tileR t).emb (ix2 b i : S128x3200.Idx) := by
    funext a
    apply Fin.ext
    match a with
    | ⟨0, _⟩ => show b.val = k1_off1 (grid1.coords t) 0 + 1 * b.val; rw [ho.1]; omega
    | ⟨1, _⟩ => show v.val = k1_off1 (grid1.coords t) 1 + 1 * i.val; rw [ho.2, hv]; omega
  unfold setTile
  rw [e]
  exact (tileR t).overlay_emb o lg (ix2 b i)

/-- Outside them it reads what the block held. -/
theorem setTile_apply_out (o : Vec F S128x32000 .f32) (t : Fin cfg1.N) (lg : FVec F S128x3200 .f32)
    (b : Fin 128) (v : Fin 32000) (hv : v.val < 3200 * (t.val % 10) ∨ 3200 * (t.val % 10) + 3200 ≤ v.val) :
    setTile o t lg (ix2 b v) = o (ix2 b v) := by
  have ho := off_facts t
  unfold setTile
  refine (tileR t).overlay_of_not_mem o lg ?_
  rw [Rect.mem_set_unit]
  intro h
  have h1 : k1_off1 (grid1.coords t) 1 ≤ v.val ∧ v.val < k1_off1 (grid1.coords t) 1 + 3200 := h 1
  rw [ho.2] at h1
  omega

/-- The two together: the tile's logits on its columns, the old block elsewhere. -/
theorem setTile_apply (o : Vec F S128x32000 .f32) (t : Fin cfg1.N) (lg : FVec F S128x3200 .f32)
    (b : Fin 128) (v : Fin 32000) :
    setTile o t lg (ix2 b v)
      = if h : 3200 * (t.val % 10) ≤ v.val ∧ v.val < 3200 * (t.val % 10) + 3200
        then lg (ix2 b ⟨v.val - 3200 * (t.val % 10), by omega⟩) else o (ix2 b v) := by
  by_cases h : 3200 * (t.val % 10) ≤ v.val ∧ v.val < 3200 * (t.val % 10) + 3200
  · rw [dif_pos h]
    exact setTile_apply_in o t lg b ⟨v.val - 3200 * (t.val % 10), by omega⟩ v
      (by show v.val = 3200 * (t.val % 10) + (v.val - 3200 * (t.val % 10)); omega)
  · rw [dif_neg h]
    exact setTile_apply_out o t lg b v (by omega)

/-! ## Ten stores, one per column tile -/

/-- "The first n column tiles of the block o are the tiles lgs 0 … lgs (n-1)". -/
def TilesHold (n : Nat) (o : Vec F S128x32000 .f32) (lgs : Fin 10 → FVec F S128x3200 .f32) : Prop :=
  ∀ k : Fin 10, k.val < n → ∀ (b : Fin 128) (i : Fin 3200) (v : Fin 32000), v.val = 3200 * k.val + i.val →
    o (ix2 b v) = lgs k (ix2 b i)

/-- No tile is asked of any block. -/
theorem tilesHold_zero (o : Vec F S128x32000 .f32) (lgs : Fin 10 → FVec F S128x3200 .f32) : TilesHold 0 o lgs := by
  unfold TilesHold
  intro k hk
  exact absurd hk (Nat.not_lt_zero _)

/-- Storing tile n at a point whose column tile is n keeps the first n tiles and adds the n-th. -/
theorem tilesHold_step (n : Nat) (hn : n < 10) (o : Vec F S128x32000 .f32) (lgs : Fin 10 → FVec F S128x3200 .f32)
    (t : Fin cfg1.N) (ht : t.val % 10 = n) (h : TilesHold n o lgs) :
    TilesHold (n + 1) (setTile o t (lgs ⟨n, hn⟩)) lgs := by
  unfold TilesHold at h ⊢
  intro k hk b i v hv
  by_cases hkn : k.val = n
  · have hk' : k = ⟨n, hn⟩ := Fin.ext hkn
    subst hk'
    exact setTile_apply_in o t _ b i v (by rw [ht]; exact hv)
  · have hi := i.isLt
    rw [setTile_apply_out o t _ b v (by rw [ht]; omega)]
    exact h k (by omega) b i v hv

/-- The block after the first n of ten stores, store k at the point ts k with the tile lgs k, over the block d. -/
def foldTiles (d : Vec F S128x32000 .f32) (ts : Fin 10 → Fin cfg1.N) (lgs : Fin 10 → FVec F S128x3200 .f32) :
    (n : Nat) → n ≤ 10 → Vec F S128x32000 .f32
  | 0, _ => d
  | n + 1, h => setTile (foldTiles d ts lgs n (by omega)) (ts ⟨n, by omega⟩) (lgs ⟨n, by omega⟩)

/-- After the first n stores the first n column tiles are the stored tiles, whatever d held. -/
theorem foldTiles_holds (d : Vec F S128x32000 .f32) (ts : Fin 10 → Fin cfg1.N) (lgs : Fin 10 → FVec F S128x3200 .f32)
    (hts : ∀ k : Fin 10, (ts k).val % 10 = k.val) (n : Nat) (hn : n ≤ 10) :
    TilesHold n (foldTiles d ts lgs n hn) lgs := by
  induction n with
  | zero => exact tilesHold_zero _ _
  | succ n ih =>
    have hn' : n < 10 := by omega
    exact tilesHold_step n hn' _ lgs (ts ⟨n, hn'⟩) (hts ⟨n, hn'⟩) (ih (by omega))

/-- After all ten stores every entry of the block is its tile's: independent of d. -/
theorem foldTiles_apply (d : Vec F S128x32000 .f32) (ts : Fin 10 → Fin cfg1.N) (lgs : Fin 10 → FVec F S128x3200 .f32)
    (hts : ∀ k : Fin 10, (ts k).val % 10 = k.val) (k : Fin 10) (b : Fin 128) (i : Fin 3200) (v : Fin 32000)
    (hv : v.val = 3200 * k.val + i.val) :
    foldTiles d ts lgs 10 le_rfl (ix2 b v) = lgs k (ix2 b i) := by
  exact foldTiles_holds d ts lgs hts 10 le_rfl k k.isLt b i v hv

/-! ## The ten column tiles -/

theorem colTile_inb (k : Fin 10) : ∀ a, (![0, 3200 * k.val] : Fin 2 → Nat) a + S128x3200.size a ≤ S128x32000.size a := by
  intro a
  have hk := k.isLt
  match a with
  | ⟨0, _⟩ => show 0 + 128 ≤ 128; omega
  | ⟨1, _⟩ => show 3200 * k.val + 3200 ≤ 32000; omega

/-- The k-th column tile of the output block: columns [3200 k, 3200 k + 3200). -/
abbrev colTile (k : Fin 10) : Rect S128x32000 :=
  Rect.unit (s := S128x32000) ![0, 3200 * k.val] S128x3200.size (colTile_inb k)

/-- The ten named column tiles are these. -/
theorem R_eq : R0 = colTile 0 ∧ R1 = colTile 1 ∧ R2 = colTile 2 ∧ R3 = colTile 3 ∧ R4 = colTile 4 ∧ R5 = colTile 5
    ∧ R6 = colTile 6 ∧ R7 = colTile 7 ∧ R8 = colTile 8 ∧ R9 = colTile 9 := by
  exact ⟨rfl, rfl, rfl, rfl, rfl, rfl, rfl, rfl, rfl, rfl⟩

/-- A column tile read out of the block: entry (b, i) of tile k is entry (b, 3200 k + i) of the block. -/
theorem ld_colTile (o : Vec F S128x32000 .f32) (k : Fin 10) (b : Fin 128) (i : Fin 3200) (v : Fin 32000)
    (hv : v.val = 3200 * k.val + i.val) : View.ld o (colTile k) (ix2 b i) = o (ix2 b v) := by
  show o ((colTile k).emb (ix2 b i)) = o (ix2 b v)
  refine congrArg o (funext fun a => Fin.ext ?_)
  match a with
  | ⟨0, _⟩ => show 0 + 1 * b.val = b.val; omega
  | ⟨1, _⟩ => show 3200 * k.val + 1 * i.val = v.val; omega

/-- A block whose ten column tiles are lgs reads, through column tile k, lgs k. -/
theorem ld_colTile_of_tilesHold (o : Vec F S128x32000 .f32) (lgs : Fin 10 → FVec F S128x3200 .f32)
    (h : TilesHold 10 o lgs) (k : Fin 10) : View.ld o (colTile k) = lgs k := by
  funext (x : S128x3200.Idx)
  obtain ⟨b, i, rfl⟩ : ∃ (b : Fin 128) (i : Fin 3200), x = ix2 b i := ⟨x 0, x 1, eq_ix2 x⟩
  have hk := k.isLt
  have hi := i.isLt
  exact (ld_colTile o k b i ⟨3200 * k.val + i.val, by omega⟩ rfl).trans (h k k.isLt b i _ rfl)

/-! ## The normalisation, over the extended reals -/

/-- The normalised block as one function of the block's index: (o y - m b) - log (l b), b the row of y. -/
def normAt (o : Vec Ideal S128x32000 .f32) (m l : Vec Ideal S128x1 .f32) : Vec Ideal S128x32000 .f32 :=
  fun y => (o y - m (ix2 (y 0 : Fin 128) 0)) - Ideal.log (l (ix2 (y 0 : Fin 128) 0))

/-- A normalised column tile is the block of that function its rectangle names. -/
theorem piece_fin (o : Vec Ideal S128x32000 .f32) (m l : Vec Ideal S128x1 .f32) (c : Nat)
    (inb : ∀ a, (![0, c] : Fin 2 → Nat) a + S128x3200.size a ≤ S128x32000.size a)
    (x : (Rect.unit (s := S128x32000) ![0, c] S128x3200.size inb).shape.Idx) :
    finTile m l (View.ld o (Rect.unit (s := S128x32000) ![0, c] S128x3200.size inb)) x
      = normAt o m l ((Rect.unit (s := S128x32000) ![0, c] S128x3200.size inb).emb x) := by
  obtain ⟨b, i, rfl⟩ : ∃ (b : Fin 128) (i : Fin 3200), x = ix2 b i := ⟨x 0, x 1, eq_ix2 x⟩
  refine (TileValue.finTile_apply m l _ b i).trans ?_
  have e0 : (((Rect.unit (s := S128x32000) ![0, c] S128x3200.size inb).emb (ix2 b i)) 0 : Fin 128) = b :=
    Fin.ext (by show 0 + 1 * b.val = b.val; omega)
  exact congrArg (fun r : Fin 128 =>
    (o ((Rect.unit (s := S128x32000) ![0, c] S128x3200.size inb).emb (ix2 b i)) - m (ix2 r 0)) - Ideal.log (l (ix2 r 0))) e0.symm

/-- Every entry of the normalised block: (o b v - m b) - log (l b). -/
theorem finalv_apply (o : Vec Ideal S128x32000 .f32) (m l : Vec Ideal S128x1 .f32) (b : Fin 128) (v : Fin 32000) :
    finalv o m l (ix2 b v) = (o (ix2 b v) - m (ix2 b 0)) - Ideal.log (l (ix2 b 0)) := by
  unfold finalv
  refine View.canon_apply_of_pieces (normAt o m l) _ ?_ (ix2 b v) ?_
  · intro p hp x
    simp only [List.mem_cons, List.not_mem_nil, or_false] at hp
    rcases hp with rfl | rfl | rfl | rfl | rfl | rfl | rfl | rfl | rfl | rfl <;> exact piece_fin o m l _ _ x
  · exact View.cover_of_tiledL (s := S128x32000) _ S128x3200.size (by sl_kernel_rfl) (ix2 b v)

/-- The same through the tiles: entry (b, 3200 k + i) is the normalised tile k at (b, i). -/
theorem finalv_apply_tile (o : Vec Ideal S128x32000 .f32) (m l : Vec Ideal S128x1 .f32) (k : Fin 10) (b : Fin 128)
    (i : Fin 3200) (v : Fin 32000) (hv : v.val = 3200 * k.val + i.val) :
    finalv o m l (ix2 b v) = finTile m l (View.ld o (colTile k)) (ix2 b i) := by
  rw [finalv_apply, TileValue.finTile_apply, ld_colTile o k b i v hv]

/-- The normalisation of a block whose ten column tiles are lgs: entry (b, 3200 k + i) is the normalised lgs k at (b, i). -/
theorem finalv_of_tilesHold (o : Vec Ideal S128x32000 .f32) (m l : Vec Ideal S128x1 .f32)
    (lgs : Fin 10 → FVec Ideal S128x3200 .f32) (h : TilesHold 10 o lgs) (k : Fin 10) (b : Fin 128) (i : Fin 3200)
    (v : Fin 32000) (hv : v.val = 3200 * k.val + i.val) :
    finalv o m l (ix2 b v) = finTile m l (lgs k) (ix2 b i) := by
  rw [finalv_apply_tile o m l k b i v hv, ld_colTile_of_tilesHold o lgs h k]

/-- The same, opened: (lgs k (b, i) - m b) - log (l b). -/
theorem finalv_of_tilesHold' (o : Vec Ideal S128x32000 .f32) (m l : Vec Ideal S128x1 .f32)
    (lgs : Fin 10 → FVec Ideal S128x3200 .f32) (h : TilesHold 10 o lgs) (k : Fin 10) (b : Fin 128) (i : Fin 3200)
    (v : Fin 32000) (hv : v.val = 3200 * k.val + i.val) :
    finalv o m l (ix2 b v) = (lgs k (ix2 b i) - m (ix2 b 0)) - Ideal.log (l (ix2 b 0)) := by
  rw [finalv_of_tilesHold o m l lgs h k b i v hv, TileValue.finTile_apply]

/-- info: 'Cert.KernelIdeal.FusedValue.setTile_apply' depends on axioms: [propext, Classical.choice, Quot.sound] -/
#guard_msgs (whitespace := lax) in #print axioms setTile_apply

/-- info: 'Cert.KernelIdeal.FusedValue.tilesHold_step' depends on axioms: [propext, Classical.choice, Quot.sound] -/
#guard_msgs (whitespace := lax) in #print axioms tilesHold_step

/-- info: 'Cert.KernelIdeal.FusedValue.foldTiles_apply' depends on axioms: [propext, Classical.choice, Quot.sound] -/
#guard_msgs (whitespace := lax) in #print axioms foldTiles_apply

/-- info: 'Cert.KernelIdeal.FusedValue.ld_colTile_of_tilesHold' depends on axioms: [propext, Classical.choice, Quot.sound] -/
#guard_msgs (whitespace := lax) in #print axioms ld_colTile_of_tilesHold

/-- info: 'Cert.KernelIdeal.FusedValue.finalv_apply' depends on axioms: [propext, Classical.choice, Quot.sound] -/
#guard_msgs (whitespace := lax) in #print axioms finalv_apply

/-- info: 'Cert.KernelIdeal.FusedValue.finalv_of_tilesHold'' depends on axioms: [propext, Classical.choice, Quot.sound] -/
#guard_msgs (whitespace := lax) in #print axioms finalv_of_tilesHold'

end Cert.KernelIdeal.FusedValue

end
-- ==== Proof.FusedBlocks.lean ====
/-
  The fused kernel's seven windows, read at an index: at the grid point t = 10 h + j (h the batch half, j the
  vocabulary tile) a block's coordinate is the block index times the block size plus the coordinate inside the block,
  so each input block is a rectangle of rows 128 h .. 128 h + 127 and/or columns 3200 j .. 3200 j + 3199 of its
  array, and the output block is rows 128 h .. 128 h + 127 of the result. The two blocks written back (h = 0, 1)
  cover the result array.
-/
import proofs.«424303_j34282428957025_2_alg».proof.Proof.Common
import Idealize.ShloMosaic.Lib.ValueIdx
import Idealize.ShloMosaic.Lib.Pipeline.Value

noncomputable section

namespace Cert.KernelIdeal.FusedValue

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The grid has twenty points. -/
theorem N1 : cfg1.N = 20 := by decide

/-- The block indices of the seven windows at the point t = 10 h + j: h = t / 10 along the batch, j = t % 10 along the
    vocabulary, 0 along the axes a window does not tile. -/
theorem idx_facts : ∀ t : Fin cfg1.N,
    (win1_0.index t 0 = t.val / 10 ∧ win1_0.index t 1 = 0)
    ∧ (win1_1.index t 0 = 0 ∧ win1_1.index t 1 = 0 ∧ win1_1.index t 2 = t.val % 10)
    ∧ (win1_2.index t 0 = 0 ∧ win1_2.index t 1 = t.val % 10)
    ∧ (win1_3.index t 0 = 0 ∧ win1_3.index t 1 = t.val % 10)
    ∧ (win1_4.index t 0 = t.val / 10 ∧ win1_4.index t 1 = t.val % 10)
    ∧ (win1_5.index t 0 = t.val / 10 ∧ win1_5.index t 1 = 0)
    ∧ (win1_6.index t 0 = t.val / 10 ∧ win1_6.index t 1 = 0) :=
  (by decide +kernel : ∀ t : Fin grid1.N, _)

/-- Window 0 (z): rows 128 h + b, all 64 columns. -/
theorem blk0_apply (A : Vec F S256x64 .f32) (t : Fin cfg1.N) (x : S128x64.Idx) (k : S256x64.Idx)
    (hk0 : (k 0).val = 128 * (t.val / 10) + (x 0).val) (hk1 : (k 1).val = (x 1).val) :
    ((win1_0.blk t).view.read (Elt F) A : Vec F S128x64 .f32) x = A k := by
  have hi := (idx_facts t).1
  rw [View.read_apply]
  show A _ = A _
  congr 1
  funext a
  apply Fin.ext
  match a with
  | ⟨0, _⟩ => show win1_0.index t 0 * 128 + 1 * (x 0).val = (k 0).val; rw [hi.1, hk0]; omega
  | ⟨1, _⟩ => show win1_0.index t 1 * 64 + 1 * (x 1).val = (k 1).val; rw [hi.2, hk1]; omega

/-- Window 1 (persona weights): all 64 x 8 leading coordinates, columns 3200 j + i. -/
theorem blk1_apply (A : Vec F S64x8x32000 .f32) (t : Fin cfg1.N) (x : S64x8x3200.Idx) (k : S64x8x32000.Idx)
    (hk0 : (k 0).val = (x 0).val) (hk1 : (k 1).val = (x 1).val)
    (hk2 : (k 2).val = 3200 * (t.val % 10) + (x 2).val) :
    ((win1_1.blk t).view.read (Elt F) A : Vec F S64x8x3200 .f32) x = A k := by
  have hi := (idx_facts t).2.1
  rw [View.read_apply]
  show A _ = A _
  congr 1
  funext a
  apply Fin.ext
  match a with
  | ⟨0, _⟩ => show win1_1.index t 0 * 64 + 1 * (x 0).val = (k 0).val; rw [hi.1, hk0]; omega
  | ⟨1, _⟩ => show win1_1.index t 1 * 8 + 1 * (x 1).val = (k 1).val; rw [hi.2.1, hk1]; omega
  | ⟨2, _⟩ => show win1_1.index t 2 * 3200 + 1 * (x 2).val = (k 2).val; rw [hi.2.2, hk2]; omega

/-- Window 2 (background): all 8 roles, columns 3200 j + i. -/
theorem blk2_apply (A : Vec F S8x32000 .f32) (t : Fin cfg1.N) (x : S8x3200.Idx) (k : S8x32000.Idx)
    (hk0 : (k 0).val = (x 0).val) (hk1 : (k 1).val = 3200 * (t.val % 10) + (x 1).val) :
    ((win1_2.blk t).view.read (Elt F) A : Vec F S8x3200 .f32) x = A k := by
  have hi := (idx_facts t).2.2.1
  rw [View.read_apply]
  show A _ = A _
  congr 1
  funext a
  apply Fin.ext
  match a with
  | ⟨0, _⟩ => show win1_2.index t 0 * 8 + 1 * (x 0).val = (k 0).val; rw [hi.1, hk0]; omega
  | ⟨1, _⟩ => show win1_2.index t 1 * 3200 + 1 * (x 1).val = (k 1).val; rw [hi.2, hk1]; omega

/-- Window 3 (the role mask, integer words): all 8 roles, columns 3200 j + i. -/
theorem blk3_apply (A : Vec F S8x32000 .i32) (t : Fin cfg1.N) (x : S8x3200.Idx) (k : S8x32000.Idx)
    (hk0 : (k 0).val = (x 0).val) (hk1 : (k 1).val = 3200 * (t.val % 10) + (x 1).val) :
    ((win1_3.blk t).view.read (Elt F) A : Vec F S8x3200 .i32) x = A k := by
  have hi := (idx_facts t).2.2.2.1
  rw [View.read_apply]
  show A _ = A _
  congr 1
  funext a
  apply Fin.ext
  match a with
  | ⟨0, _⟩ => show win1_3.index t 0 * 8 + 1 * (x 0).val = (k 0).val; rw [hi.1, hk0]; omega
  | ⟨1, _⟩ => show win1_3.index t 1 * 3200 + 1 * (x 1).val = (k 1).val; rw [hi.2, hk1]; omega

/-- Window 4 (the gathered author rows): rows 128 h + b, columns 3200 j + i. -/
theorem blk4_apply (A : Vec F S256x32000 .f32) (t : Fin cfg1.N) (x : S128x3200.Idx) (k : S256x32000.Idx)
    (hk0 : (k 0).val = 128 * (t.val / 10) + (x 0).val) (hk1 : (k 1).val = 3200 * (t.val % 10) + (x 1).val) :
    ((win1_4.blk t).view.read (Elt F) A : Vec F S128x3200 .f32) x = A k := by
  have hi := (idx_facts t).2.2.2.2.1
  rw [View.read_apply]
  show A _ = A _
  congr 1
  funext a
  apply Fin.ext
  match a with
  | ⟨0, _⟩ => show win1_4.index t 0 * 128 + 1 * (x 0).val = (k 0).val; rw [hi.1, hk0]; omega
  | ⟨1, _⟩ => show win1_4.index t 1 * 3200 + 1 * (x 1).val = (k 1).val; rw [hi.2, hk1]; omega

/-- Window 5 (the one-hot roles): rows 128 h + b, all 8 columns. -/
theorem blk5_apply (A : Vec F S256x8 .f32) (t : Fin cfg1.N) (x : S128x8.Idx) (k : S256x8.Idx)
    (hk0 : (k 0).val = 128 * (t.val / 10) + (x 0).val) (hk1 : (k 1).val = (x 1).val) :
    ((win1_5.blk t).view.read (Elt F) A : Vec F S128x8 .f32) x = A k := by
  have hi := (idx_facts t).2.2.2.2.2.1
  rw [View.read_apply]
  show A _ = A _
  congr 1
  funext a
  apply Fin.ext
  match a with
  | ⟨0, _⟩ => show win1_5.index t 0 * 128 + 1 * (x 0).val = (k 0).val; rw [hi.1, hk0]; omega
  | ⟨1, _⟩ => show win1_5.index t 1 * 8 + 1 * (x 1).val = (k 1).val; rw [hi.2, hk1]; omega

/-- Window 6 (the result): rows 128 h + b, all 32000 columns. -/
theorem blk6_apply (A : Vec F S256x32000 .f32) (t : Fin cfg1.N) (x : S128x32000.Idx) (k : S256x32000.Idx)
    (hk0 : (k 0).val = 128 * (t.val / 10) + (x 0).val) (hk1 : (k 1).val = (x 1).val) :
    ((win1_6.blk t).view.read (Elt F) A : Vec F S128x32000 .f32) x = A k := by
  have hi := (idx_facts t).2.2.2.2.2.2
  rw [View.read_apply]
  show A _ = A _
  congr 1
  funext a
  apply Fin.ext
  match a with
  | ⟨0, _⟩ => show win1_6.index t 0 * 128 + 1 * (x 0).val = (k 0).val; rw [hi.1, hk0]; omega
  | ⟨1, _⟩ => show win1_6.index t 1 * 32000 + 1 * (x 1).val = (k 1).val; rw [hi.2, hk1]; omega

/-- An index of the result array lies in the output block of point t exactly when its row is one of the half's. -/
theorem mem_blk6 (t : Fin cfg1.N) (i : S256x32000.Idx) :
    i ∈ (win1_6.blk t).view.set ↔ 128 * (t.val / 10) ≤ (i 0).val ∧ (i 0).val < 128 * (t.val / 10) + 128 := by
  have hi := (idx_facts t).2.2.2.2.2.2
  show i ∈ ((View.whole main_v6).slice (win1_6.rect t)).set ↔ _
  rw [View.set_slice_whole, Rect.mem_set_unit]
  constructor
  · intro h
    have h0 : win1_6.index t 0 * 128 ≤ (i 0 : Nat) ∧ (i 0 : Nat) < win1_6.index t 0 * 128 + 128 := h 0
    rw [hi.1] at h0
    omega
  · intro h a
    have h1 : (i 1 : Nat) < 32000 := (i 1).isLt
    match a with
    | ⟨0, _⟩ =>
      show win1_6.index t 0 * 128 ≤ (i 0 : Nat) ∧ (i 0 : Nat) < win1_6.index t 0 * 128 + 128
      rw [hi.1]; omega
    | ⟨1, _⟩ =>
      show win1_6.index t 1 * 32000 ≤ (i 1 : Nat) ∧ (i 1 : Nat) < win1_6.index t 1 * 32000 + 32000
      rw [hi.2, Nat.zero_mul, Nat.zero_add]
      exact ⟨Nat.zero_le _, h1⟩

/-- The two blocks written back, at the last tile of each half, cover the result array. -/
theorem cover6 (i : S256x32000.Idx) :
    ∃ t : Fin cfg1.N, (cfg1.win 6).flush t = true ∧ i ∈ ((cfg1.win 6).blk t).view.set := by
  have h0 : (i 0 : Nat) < 256 := (i 0).isLt
  obtain ⟨t, ht⟩ : ∃ t : Fin cfg1.N, t.val = 10 * ((i 0).val / 128) + 9 :=
    ⟨⟨10 * ((i 0).val / 128) + 9, by rw [N1]; omega⟩, rfl⟩
  exact ⟨t, (flush1_6 t).mpr (by omega), (mem_blk6 t i).mpr (by omega)⟩

end Cert.KernelIdeal.FusedValue

end
-- ==== Proof.FusedCover.lean ====
/-
  An output array after the write-backs, when the proof data relate the contents handed to the body to the contents
  it leaves: if whatever the body may leave at a flushing point, cut to the part written back, is that point's block
  of ONE whole-array function G, then after the write-backs below n every index in a flushed block below n reads G;
  when the flushed blocks cover the array, the array is G.
-/
import proofs.«424303_j34282428957025_2_alg».proof.Proof.Common
import Idealize.ShloMosaic.Lib.Pipeline.Cells
import Idealize.ShloMosaic.Lib.Pipeline.Value

noncomputable section

namespace Cert.KernelIdeal.FusedValue

open Cert.KernelIdeal Cert.KernelIdeal.Gen Cert.KernelIdeal.Hand
open Idealize.ShloMosaic Idealize.ShloMosaic.TcCoe Idealize.SL.Sem
open Idealize.ShloMosaic.Pipeline (RDat Cfg)

variable {F : FTy → Type} [FloatOps F]
variable {cfg : Cfg sig Λ₀} {c : Dev nD} (rd : RDat τ (Elt F) Unit ℕ UC ℕ cfg c)

/-- An index in a flushed block below n reads G in every contents the array may hold after the write-backs below n. -/
theorem ArrAt_apply_of_mem (w : Fin cfg.W) (G : Buf (Elt F) ((cfg.win w).arr.view.loc (c.tc : Thread nD τ)))
    (hG : ∀ t X, (cfg.win w).flush t = true → rd.Leaves w t X →
      (cfg.win w).cut (cfg.grid.coords t) X = ((cfg.win w).blk t).view.read (Elt F) G) :
    ∀ (n : Nat) (Fv : Buf (Elt F) ((cfg.win w).arr.view.loc (c.tc : Thread nD τ))), rd.ArrAt w n Fv →
      ∀ (t : Fin cfg.N) (i : ((cfg.win w).arr.view.loc (c.tc : Thread nD τ)).2.ty.Idx),
        t.val < n → (cfg.win w).flush t = true → i ∈ ((cfg.win w).blk t).view.set → Fv i = G i
  | 0, _, _, _, _, ht, _, _ => absurd ht (Nat.not_lt_zero _)
  | n + 1, Fv, hFv, t, i, ht, hf, hi => by
    by_cases hn : n < cfg.N
    swap
    · -- past the grid: nothing changes, and t is below n
      have e1 : rd.ArrAt w (n + 1) = rd.ArrAt w cfg.N := rd.ArrAt_stable w (n + 1) (by omega)
      have e2 : rd.ArrAt w n = rd.ArrAt w cfg.N := rd.ArrAt_stable w n (by omega)
      rw [e1, ← e2] at hFv
      exact ArrAt_apply_of_mem w G hG n Fv hFv t i (by have := t.isLt; omega) hf hi
    have hs := rd.ArrAt_succ w ⟨n, hn⟩
    rw [show (⟨n, hn⟩ : Fin cfg.N).val + 1 = n + 1 from rfl] at hs
    rw [hs] at hFv
    by_cases hfn : (cfg.win w).flush ⟨n, hn⟩ = true
    · rw [if_pos hfn] at hFv
      obtain ⟨G₀, X, hG₀, hX, rfl⟩ := hFv
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact ArrAt_apply_of_mem w G hG n G₀ hG₀ t i (by omega) hf hi
    · rw [if_neg hfn] at hFv
      have htn : t.val ≠ n := fun e => hfn (by have : t = ⟨n, hn⟩ := Fin.ext e; exact this ▸ hf)
      exact ArrAt_apply_of_mem w G hG n Fv hFv t i (by omega) hf hi

/-- When every index of the array is in some flushing point's block, the array ends holding G. -/
theorem ArrAt_eq_of_cover (w : Fin cfg.W) (G : Buf (Elt F) ((cfg.win w).arr.view.loc (c.tc : Thread nD τ)))
    (hG : ∀ t X, (cfg.win w).flush t = true → rd.Leaves w t X →
      (cfg.win w).cut (cfg.grid.coords t) X = ((cfg.win w).blk t).view.read (Elt F) G)
    (hcover : ∀ i : ((cfg.win w).arr.view.loc (c.tc : Thread nD τ)).2.ty.Idx,
      ∃ t : Fin cfg.N, (cfg.win w).flush t = true ∧ i ∈ ((cfg.win w).blk t).view.set)
    (Fv : Buf (Elt F) ((cfg.win w).arr.view.loc (c.tc : Thread nD τ))) (hFv : rd.ArrAt w cfg.N Fv) : Fv = G :=
  funext fun i => by
    obtain ⟨t, hf, hi⟩ := hcover i
    exact ArrAt_apply_of_mem rd w G hG cfg.N Fv hFv t i t.isLt hf hi

end Cert.KernelIdeal.FusedValue

end
-- ==== Proof.FusedValue.lean ====
/-
  The fused kernel's result array is the specification's. At the point t = 10 h + j the six input blocks are rows
  128 h .. 128 h + 127 and columns 3200 j .. 3200 j + 3199 of the arrays the region reads, so the tile's logits are the
  specification's logits of those rows at those columns; along a half the carried columns follow the online
  log-softmax recursion over each row's 32000 logits while the ten tiles' stores fill the output block, whatever it held
  at the half's first tile; the last tile's normalisation then writes the specification's result on the half's 128
  rows, and the two blocks written back cover the result array.
-/
import proofs.«424303_j34282428957025_2_alg».proof.Proof.Common
import proofs.«424303_j34282428957025_2_alg».proof.Proof.FusedVals
import proofs.«424303_j34282428957025_2_alg».proof.Proof.Region1
import proofs.«424303_j34282428957025_2_alg».proof.Proof.TileValue
import proofs.«424303_j34282428957025_2_alg».proof.Proof.TileInduction
import proofs.«424303_j34282428957025_2_alg».proof.Proof.RowReadingsInst
import proofs.«424303_j34282428957025_2_alg».proof.Proof.OutBuffer
import proofs.«424303_j34282428957025_2_alg».proof.Proof.SoftmaxSpec
import proofs.«424303_j34282428957025_2_alg».proof.Proof.FusedBlocks
import proofs.«424303_j34282428957025_2_alg».proof.Proof.FusedCover
import Idealize.ShloMosaic.Lib.ValueIdx
import Idealize.ShloMosaic.Lib.Pipeline.Value

noncomputable section

namespace Cert.KernelIdeal.FusedValue

open Cert.KernelIdeal Cert.KernelIdeal.Gen Cert.KernelIdeal.Hand
open Idealize.ShloMosaic Idealize.ShloMosaic.TcCoe Idealize.SL.Sem
open Idealize.ShloMosaic.Pipeline (RDat Cfg)
open Idealize.ShloMosaic.ValueIdx
open Cert.Softmax (tileIdx)

section
variable (x0 : Spec.IVec256) (x1 : Spec.ZArr) (x2 : Spec.IVec256) (x3 : Spec.MaskArr) (x4 : Spec.BgArr)
  (x5 : Spec.AuthArr) (x6 : Spec.PersArr)
variable (V : (c : Dev nD) → (b : Ref sig .tc) → Buf (Elt Ideal) ((c : Thread nD τ).loc b)) (c : Dev nD)

/-- What the region finds in the six arrays it reads: the four argument arrays it reads directly, the gathered author
    rows (row b holds the author's and role's slice of the author weights), and the exact one-hot of the roles. -/
structure Entry : Prop where
  hz : (V c main_arg1 : Vec Ideal S256x64 .f32) = x1
  hpers : (V c main_arg6 : Vec Ideal S64x8x32000 .f32) = x6
  hbg : (V c main_arg4 : Vec Ideal S8x32000 .f32) = x4
  hmask : (V c main_arg3 : Vec Ideal S8x32000 .i32) = x3
  hauth : ∀ (b : Fin 256) (v : Fin 32000),
    (V c main_v4 : Vec Ideal S256x32000 .f32) (ix2 b v) = x5 (ix3 (Spec.author x0 b) (Spec.role x2 b) v)
  honehot : ∀ (b : Fin 256) (r : Fin 8),
    (V c main_v5 : Vec Ideal S256x8 .f32) (ix2 b r) = if r = Spec.role x2 b then (1 : EReal) else 0

/-- The batch row of row b of the block at point t = 10 h + j: 128 h + b. -/
def rowOf (t : Fin cfg1.N) (b : Fin 128) : Fin 256 :=
  ⟨128 * (t.val / 10) + b.val, by have h := t.isLt; have e : cfg1.N = 20 := N1; omega⟩

/-- The vocabulary tile of point t = 10 h + j: j. -/
def tileOf (t : Fin cfg1.N) : Fin 10 := ⟨t.val % 10, Nat.mod_lt _ (by decide)⟩

variable {x0 x1 x2 x3 x4 x5 x6 V c}

/-! ## The six input blocks at an index -/

theorem zblk_apply (E : Entry x0 x1 x2 x3 x4 x5 x6 V c) (t : Fin cfg1.N) (b : Fin 128) (p : Fin 64) :
    (iblk1 V c 0 t : Vec Ideal S128x64 .f32) (ix2 b p) = x1 (ix2 (rowOf t b) p) := by
  show ((win1_0.blk t).view.read (Elt Ideal) (V c main_arg1 : Vec Ideal S256x64 .f32) : Vec Ideal S128x64 .f32) (ix2 b p) = _
  rw [blk0_apply (V c main_arg1 : Vec Ideal S256x64 .f32) t (ix2 b p) (ix2 (rowOf t b) p) rfl rfl, E.hz]

theorem persblk_apply (E : Entry x0 x1 x2 x3 x4 x5 x6 V c) (t : Fin cfg1.N) (p : Fin 64) (r : Fin 8) (i : Fin 3200) :
    (iblk1 V c 1 t : Vec Ideal S64x8x3200 .f32) (ix3 p r i) = x6 (ix3 p r (tileIdx (tileOf t) i)) := by
  show ((win1_1.blk t).view.read (Elt Ideal) (V c main_arg6 : Vec Ideal S64x8x32000 .f32) : Vec Ideal S64x8x3200 .f32) (ix3 p r i) = _
  rw [blk1_apply (V c main_arg6 : Vec Ideal S64x8x32000 .f32) t (ix3 p r i) (ix3 p r (tileIdx (tileOf t) i)) rfl rfl rfl, E.hpers]

theorem bgblk_apply (E : Entry x0 x1 x2 x3 x4 x5 x6 V c) (t : Fin cfg1.N) (r : Fin 8) (i : Fin 3200) :
    (iblk1 V c 2 t : Vec Ideal S8x3200 .f32) (ix2 r i) = x4 (ix2 r (tileIdx (tileOf t) i)) := by
  show ((win1_2.blk t).view.read (Elt Ideal) (V c main_arg4 : Vec Ideal S8x32000 .f32) : Vec Ideal S8x3200 .f32) (ix2 r i) = _
  rw [blk2_apply (V c main_arg4 : Vec Ideal S8x32000 .f32) t (ix2 r i) (ix2 r (tileIdx (tileOf t) i)) rfl rfl, E.hbg]

theorem maskblk_apply (E : Entry x0 x1 x2 x3 x4 x5 x6 V c) (t : Fin cfg1.N) (r : Fin 8) (i : Fin 3200) :
    (iblk1 V c 3 t : Vec Ideal S8x3200 .i32) (ix2 r i) = x3 (ix2 r (tileIdx (tileOf t) i)) := by
  show ((win1_3.blk t).view.read (Elt Ideal) (V c main_arg3 : Vec Ideal S8x32000 .i32) : Vec Ideal S8x3200 .i32) (ix2 r i) = _
  rw [blk3_apply (V c main_arg3 : Vec Ideal S8x32000 .i32) t (ix2 r i) (ix2 r (tileIdx (tileOf t) i)) rfl rfl, E.hmask]

theorem authblk_apply (E : Entry x0 x1 x2 x3 x4 x5 x6 V c) (t : Fin cfg1.N) (b : Fin 128) (i : Fin 3200) :
    (iblk1 V c 4 t : Vec Ideal S128x3200 .f32) (ix2 b i)
      = x5 (ix3 (Spec.author x0 (rowOf t b)) (Spec.role x2 (rowOf t b)) (tileIdx (tileOf t) i)) := by
  show ((win1_4.blk t).view.read (Elt Ideal) (V c main_v4 : Vec Ideal S256x32000 .f32) : Vec Ideal S128x3200 .f32) (ix2 b i) = _
  rw [blk4_apply (V c main_v4 : Vec Ideal S256x32000 .f32) t (ix2 b i) (ix2 (rowOf t b) (tileIdx (tileOf t) i)) rfl rfl, E.hauth]

theorem ohblk_apply (E : Entry x0 x1 x2 x3 x4 x5 x6 V c) (t : Fin cfg1.N) (b : Fin 128) (r : Fin 8) :
    (iblk1 V c 5 t : Vec Ideal S128x8 .f32) (ix2 b r) = if r = Spec.role x2 (rowOf t b) then (1 : EReal) else 0 := by
  show ((win1_5.blk t).view.read (Elt Ideal) (V c main_v5 : Vec Ideal S256x8 .f32) : Vec Ideal S128x8 .f32) (ix2 b r) = _
  rw [blk5_apply (V c main_v5 : Vec Ideal S256x8 .f32) t (ix2 b r) (ix2 (rowOf t b) r) rfl rfl, E.honehot]

/-- The tile's logits at point t are the specification's logits of the half's rows at the tile's columns. -/
theorem lgA_apply (E : Entry x0 x1 x2 x3 x4 x5 x6 V c) (hd : Spec.Dom x0 x1 x2 x3 x4 x5 x6) (t : Fin cfg1.N)
    (b : Fin 128) (i : Fin 3200) :
    lgA V c t (ix2 b i) = Spec.logit x0 x1 x2 x3 x4 x5 x6 (rowOf t b) (tileIdx (tileOf t) i) := by
  unfold lgA
  refine (TileValue.logits_apply (iblk1 V c 0 t) (iblk1 V c 1 t) (iblk1 V c 2 t) (iblk1 V c 3 t) (iblk1 V c 4 t)
    (iblk1 V c 5 t) (fun b' => Spec.role x2 (rowOf t b')) (fun b' r => ohblk_apply E t b' r)
    (fun r i' => by rw [maskblk_apply E t r i']; exact hd.hmask r _) b i).trans ?_
  unfold Spec.logit Spec.persona
  rw [maskblk_apply E t, bgblk_apply E t, authblk_apply E t]
  simp only [zblk_apply E t, persblk_apply E t]

end

/-! ## The ten points of a half -/

/-- The point 10 h + k of half h (k taken below 10). -/
def tp (h : Fin 2) (k : ℕ) : Fin cfg1.N :=
  ⟨10 * h.val + k % 10, by have e : cfg1.N = 20 := N1; have := h.isLt; omega⟩

theorem tp_val (h : Fin 2) (k : ℕ) (hk : k < 10) : (tp h k).val = 10 * h.val + k := by
  show 10 * h.val + k % 10 = _
  rw [Nat.mod_eq_of_lt hk]

theorem tp_mod (h : Fin 2) (k : ℕ) (hk : k < 10) : (tp h k).val % 10 = k := by
  rw [tp_val h k hk]; omega

theorem tp_pred (h : Fin 2) (k : ℕ) (hk : k + 1 < 10) :
    (⟨(tp h (k + 1)).val - 1, Nat.lt_of_le_of_lt (Nat.sub_le _ _) (tp h (k + 1)).isLt⟩ : Fin cfg1.N) = tp h k :=
  Fin.ext (by show (tp h (k + 1)).val - 1 = (tp h k).val; rw [tp_val h (k + 1) hk, tp_val h k (by omega)]; omega)

theorem rowOf_tp (h : Fin 2) (k : ℕ) (hk : k < 10) (b : Fin 128) : (rowOf (tp h k) b).val = 128 * h.val + b.val := by
  show 128 * ((tp h k).val / 10) + b.val = _
  rw [tp_val h k hk]; have := h.isLt; omega

theorem tileOf_tp (h : Fin 2) (k : Fin 10) : tileOf (tp h k.val) = k :=
  Fin.ext (tp_mod h k.val k.isLt)

section
variable (V : (c : Dev nD) → (b : Ref sig .tc) → Buf (Elt Ideal) ((c : Thread nD τ).loc b)) (c : Dev nD)

/-- The ten tiles' logits of half h. -/
abbrev lgs (h : Fin 2) (k : Fin 10) : FVec Ideal S128x3200 .f32 := lgA V c (tp h k.val)

/-- The carried columns after tile k of half h. -/
def msH (h : Fin 2) (k : ℕ) : Vec Ideal S128x1 .f32 := mA V c (tp h k).val (tp h k).isLt
def lsH (h : Fin 2) (k : ℕ) : Vec Ideal S128x1 .f32 := lA V c (tp h k).val (tp h k).isLt

theorem mA_congr {n n' : ℕ} (e : n = n') (hn : n < cfg1.N) (hn' : n' < cfg1.N) : mA V c n hn = mA V c n' hn' := by
  subst e; rfl
theorem lA_congr {n n' : ℕ} (e : n = n') (hn : n < cfg1.N) (hn' : n' < cfg1.N) : lA V c n hn = lA V c n' hn' := by
  subst e; rfl

theorem msH_zero (h : Fin 2) : msH V c h 0 = mNew mReset (lgA V c (tp h 0)) :=
  mA_first V c (tp h 0) (tp_mod h 0 (by norm_num))
theorem lsH_zero (h : Fin 2) : lsH V c h 0 = lNew mReset lReset (lgA V c (tp h 0)) :=
  lA_first V c (tp h 0) (tp_mod h 0 (by norm_num))

theorem msH_succ (h : Fin 2) (k : ℕ) (hk : k + 1 < 10) :
    msH V c h (k + 1) = mNew (msH V c h k) (lgA V c (tp h (k + 1))) := by
  have hp : (tp h (k + 1)).val - 1 < cfg1.N := Nat.lt_of_le_of_lt (Nat.sub_le _ _) (tp h (k + 1)).isLt
  have e : (tp h (k + 1)).val - 1 = (tp h k).val := congrArg Fin.val (tp_pred h k hk)
  unfold msH
  rw [mA_step V c (tp h (k + 1)) (by rw [tp_mod h (k + 1) hk]; omega) hp, mA_congr V c e hp (tp h k).isLt]

theorem lsH_succ (h : Fin 2) (k : ℕ) (hk : k + 1 < 10) :
    lsH V c h (k + 1) = lNew (msH V c h k) (lsH V c h k) (lgA V c (tp h (k + 1))) := by
  have hp : (tp h (k + 1)).val - 1 < cfg1.N := Nat.lt_of_le_of_lt (Nat.sub_le _ _) (tp h (k + 1)).isLt
  have e : (tp h (k + 1)).val - 1 = (tp h k).val := congrArg Fin.val (tp_pred h k hk)
  unfold lsH msH
  rw [lA_step V c (tp h (k + 1)) (by rw [tp_mod h (k + 1) hk]; omega) hp, mA_congr V c e hp (tp h k).isLt,
    lA_congr V c e hp (tp h k).isLt]

/-! ## The output block along a half -/

/-- Whatever the body may leave in the output block at tile k < 9 of a half holds the tiles 0 .. k: the block arrives at
    the half's first tile at contents nothing states, and every tile's store overwrites its own columns. -/
theorem leaves_tiles (h : Fin 2) : ∀ (k : ℕ) (_ : k < 9) (X : Vec Ideal S128x32000 .f32),
    (rdat1 V c).Leaves 6 (tp h k) X → TilesHold (k + 1) X (lgs V c h)
  | 0, _, X, hX => by
    obtain ⟨Y, -, rfl⟩ := (leaves1_6 V c (tp h 0) X).mp hX
    rw [oStep_other V c (tp h 0) Y (by rw [tp_mod h 0 (by norm_num)]; norm_num)]
    exact tilesHold_step 0 (by norm_num) Y (lgs V c h) (tp h 0) (tp_mod h 0 (by norm_num)) (tilesHold_zero Y _)
  | k + 1, hk, X, hX => by
    have hk10 : k + 1 < 10 := by omega
    obtain ⟨Y, hY, rfl⟩ := (leaves1_6 V c (tp h (k + 1)) X).mp hX
    rw [finds1_6_other V c (tp h (k + 1)) (by rw [tp_mod h (k + 1) hk10]; omega) Y, tp_pred h k hk10] at hY
    have ih := leaves_tiles h k (by omega) Y hY
    rw [oStep_other V c (tp h (k + 1)) Y (by rw [tp_mod h (k + 1) hk10]; omega)]
    exact tilesHold_step (k + 1) hk10 Y (lgs V c h) (tp h (k + 1)) (tp_mod h (k + 1) hk10) ih

/-- At the last tile the body leaves the normalisation of a block holding all ten tiles. -/
theorem leaves_last (h : Fin 2) (X : Vec Ideal S128x32000 .f32) (hX : (rdat1 V c).Leaves 6 (tp h 9) X) :
    ∃ o : Vec Ideal S128x32000 .f32, TilesHold 10 o (lgs V c h) ∧ X = finalv o (msH V c h 9) (lsH V c h 9) := by
  obtain ⟨Y, hY, rfl⟩ := (leaves1_6 V c (tp h 9) X).mp hX
  rw [finds1_6_other V c (tp h 9) (by rw [tp_mod h 9 (by norm_num)]; norm_num) Y, tp_pred h 8 (by norm_num)] at hY
  have ih := leaves_tiles V c h 8 (by norm_num) Y hY
  refine ⟨setTile Y (tp h 9) (lgA V c (tp h 9)), ?_, ?_⟩
  · exact tilesHold_step 9 (by norm_num) Y (lgs V c h) (tp h 9) (tp_mod h 9 (by norm_num)) ih
  · exact oStep_last V c (tp h 9) Y (tp_mod h 9 (by norm_num))

end

section
variable {x0 : Spec.IVec256} {x1 : Spec.ZArr} {x2 : Spec.IVec256} {x3 : Spec.MaskArr} {x4 : Spec.BgArr}
  {x5 : Spec.AuthArr} {x6 : Spec.PersArr}
variable {V : (c : Dev nD) → (b : Ref sig .tc) → Buf (Elt Ideal) ((c : Thread nD τ).loc b)} {c : Dev nD}

/-- What the last tile of half h leaves in the output block is the specification's result on the half's rows. -/
theorem leaves_out (E : Entry x0 x1 x2 x3 x4 x5 x6 V c) (hd : Spec.Dom x0 x1 x2 x3 x4 x5 x6) (h : Fin 2)
    (X : Vec Ideal S128x32000 .f32) (hX : (rdat1 V c).Leaves 6 (tp h 9) X) (b : Fin 128) (v : Fin 32000)
    (B : Fin 256) (hB : B.val = 128 * h.val + b.val) :
    X (ix2 b v) = Spec.out x0 x1 x2 x3 x4 x5 x6 B v := by
  obtain ⟨o, ho, rfl⟩ := leaves_last V c h X hX
  obtain ⟨k, i, rfl⟩ := Cert.Softmax.tileIdx_surj v
  have hlg : ∀ (k : Fin 10) (i : Fin 3200),
      (fun j : ℕ => lgA V c (tp h j)) k.val (ix2 b i) = Spec.logit x0 x1 x2 x3 x4 x5 x6 B (tileIdx k i) := by
    intro k i
    have e := lgA_apply E hd (tp h k.val) b i
    rw [tileOf_tp h k, show rowOf (tp h k.val) b = B from Fin.ext ((rowOf_tp h k.val k.isLt b).trans hB.symm)] at e
    exact e
  rw [finalv_of_tilesHold o (msH V c h 9) (lsH V c h 9) (lgs V c h) ho k b i (tileIdx k i) rfl]
  exact row_final_spec hd B (rowReadings b) (fun j : ℕ => lgA V c (tp h j)) hlg (msH V c h) (lsH V c h)
    (msH_zero V c h) (lsH_zero V c h) (msH_succ V c h) (lsH_succ V c h) (lgs V c h k) k i (hlg k i)

/-- What any flushing point writes back is its block of the specification's result array. -/
theorem flushed_spec (E : Entry x0 x1 x2 x3 x4 x5 x6 V c) (hd : Spec.Dom x0 x1 x2 x3 x4 x5 x6) (t : Fin cfg1.N)
    (X : (cfg1.win 6).block.Idx → Elt Ideal (cfg1.win 6).elt) (hf : (cfg1.win 6).flush t = true)
    (hX : (rdat1 V c).Leaves 6 t X) :
    (cfg1.win 6).cut (cfg1.grid.coords t) X
      = ((cfg1.win 6).blk t).view.read (Elt Ideal) (Spec.G x0 x1 x2 x3 x4 x5 x6) := by
  have h9 : t.val % 10 = 9 := (flush1_6 t).mp hf
  have hN : cfg1.N = 20 := N1
  have hlt := t.isLt
  obtain ⟨h, hh⟩ : ∃ h : Fin 2, h.val = t.val / 10 := ⟨⟨t.val / 10, by omega⟩, rfl⟩
  obtain rfl : t = tp h 9 := Fin.ext (by rw [tp_val h 9 (by norm_num)]; omega)
  funext x
  obtain ⟨b, v, rfl⟩ : ∃ (b : Fin 128) (v : Fin 32000), x = ix2 b v := ⟨x 0, x 1, eq_ix2 x⟩
  show (X : Vec Ideal S128x32000 .f32) (ix2 b v)
    = ((win1_6.blk (tp h 9)).view.read (Elt Ideal) (Spec.G x0 x1 x2 x3 x4 x5 x6 : Vec Ideal S256x32000 .f32) : Vec Ideal S128x32000 .f32) (ix2 b v)
  refine Eq.trans ?_ (blk6_apply (F := Ideal) (Spec.G x0 x1 x2 x3 x4 x5 x6 : Vec Ideal S256x32000 .f32) (tp h 9) (ix2 b v)
    (ix2 (rowOf (tp h 9) b) v) rfl rfl).symm
  exact leaves_out E hd h X hX b v (rowOf (tp h 9) b) (rowOf_tp h 9 (by norm_num) b)

/-- THE REGION'S ARRAY VALUE: whatever the result array may hold after the fused kernel's write-backs is the
    specification's result array. -/
theorem fused_array (E : Entry x0 x1 x2 x3 x4 x5 x6 V c) (hd : Spec.Dom x0 x1 x2 x3 x4 x5 x6)
    (Fv : Buf (Elt Ideal) ((cfg1.win 6).arr.view.loc (c.tc : Thread nD τ)))
    (hF : (rdat1 V c).ArrAt 6 cfg1.N Fv) : Fv = Spec.G x0 x1 x2 x3 x4 x5 x6 :=
  ArrAt_eq_of_cover (rdat1 V c) 6 (Spec.G x0 x1 x2 x3 x4 x5 x6) (fun t X hf hX => flushed_spec E hd t X hf hX)
    (fun i => cover6 i) Fv hF

end

end Cert.KernelIdeal.FusedValue

end
-- ==== Proof.KernelClaims.lean ====
/-
  The kernel program at the ideal instance: under the precondition every weakly fair execution terminates, the result array
  ends holding the specification's function of the seven argument arrays, and the arguments end unchanged.
-/
import proofs.«424303_j34282428957025_2_alg».proof.Defs
import proofs.«424303_j34282428957025_2_alg».proof.Proof.PreFacts
import proofs.«424303_j34282428957025_2_alg».proof.Proof.RegionsRun
import proofs.«424303_j34282428957025_2_alg».proof.Proof.HostValuesIdeal
import proofs.«424303_j34282428957025_2_alg».proof.Proof.FusedValue

noncomputable section

namespace Cert.Proof.KernelClaims

open Cert.KernelIdeal Cert.KernelIdeal.Gen Cert.KernelIdeal.Hand Cert.KernelIdeal.FusedValue
open Idealize.ShloMosaic Idealize.ShloMosaic.TcCoe Idealize.ShloMosaic.ValueIdx Idealize.SL.Sem

/-- THE KERNEL SIDE: under the precondition the idealized kernel runs to the end, its result array ends at the
    specification's function of the seven argument arrays, and the arguments end as launched. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
        = Cert.Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  have hD : ∀ c : Dev nD, Spec.Dom (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) :=
    fun c => Cert.PreFacts.dom_of_pre _ _ _ _ _ _ _ (hpre c)
  have hok : Ok0 (F := Ideal) (V1h m) := ok0_of_dom m 0 (hD 0)
  refine (θ_run _ _ _).mono (fun r h c => ?_) (run_value m ρ hok)
  obtain ⟨⟨Fv, hF, hmem⟩, hargs⟩ := h c
  refine ⟨hmem.trans ?_, hargs⟩
  have hout : (outsA m 2 main_v4 c : S256x32000.Idx → EReal)
      = gathered (F := Ideal) (V1 m 0 (Proc.devRef .tc main_v2)) (V1 m c (Proc.devRef .tc main_v3)) hok :=
    (W2_v4 m c).trans (gathered_array (V1h m) hok c)
  have E : Entry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (V3h m) c :=
    ⟨V3_main_arg1 m (outsA m) c, V3_main_arg6 m (outsA m) c, V3_main_arg4 m (outsA m) c, V3_main_arg3 m (outsA m) c,
      fun b v => author_rows_of_dom m (outsA m) c (hD c) hok hout b v, fun b r => onehot_of_dom m (outsA m) c (hD c) b r⟩
  exact fused_array E (hD c) Fv hF

end Cert.Proof.KernelClaims

end
-- ==== Proof.AlgClaims.lean ====
/-
  The reference program's frame claim and the claim that ties the two programs together, over the extended reals: run
  from memories that agree on the seven arguments, the kernel program and the reference program end with the same result
  array, the masked log-softmax of the specification, and each leaves its arguments unchanged.
-/
import proofs.«424303_j34282428957025_2_alg».proof.Defs
import proofs.«424303_j34282428957025_2_alg».proof.Proof.PreFacts
import proofs.«424303_j34282428957025_2_alg».proof.Proof.Spec
import proofs.«424303_j34282428957025_2_alg».proof.Proof.RefRunA
import proofs.«424303_j34282428957025_2_alg».proof.Proof.RefIsG
import proofs.«424303_j34282428957025_2_alg».proof.Proof.KernelClaims

noncomputable section

namespace Cert.Proof.AlgClaims

open Idealize.ShloMosaic Idealize.SL.Sem

/-- The idealized reference program runs and leaves its arguments unchanged: its run with the result named, the result forgotten. -/
theorem frame_ri : Cert.frame_ReferenceIdeal := fun m ρ _ =>
  (θ_run Cert.ReferenceIdeal.defs _ _).mono (fun _ h c => (h c).2) (Cert.ReferenceIdeal.ValueS.run (F := Ideal) m ρ)

/-- Over the extended reals the kernel program and the reference program, run from memories that agree on the seven
    arguments, end with the same result array: each ends with the masked log-softmax of the specification, the kernel by
    its online recursion over the ten vocabulary tiles of a row, the reference by its whole-row reductions; and each
    leaves its arguments unchanged. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Proof.KernelClaims.kernel_value m ρ hpre, ?_⟩
  refine (θ_run Cert.ReferenceIdeal.defs _ _).mono (fun _ h c => ⟨(h c).1.trans ?_, (h c).2⟩)
    (Cert.ReferenceIdeal.ValueS.run (F := Ideal) m' ρ')
  obtain ⟨h0, h1, h2, h3, h4, h5, h6⟩ := hagree c
  rw [h0, h1, h2, h3, h4, h5, h6]
  exact Cert.RefValue.ref_is_G _ _ _ _ _ _ _ (Cert.PreFacts.dom_of_pre _ _ _ _ _ _ _ (hpre c))

end Cert.Proof.AlgClaims

end
-- ==== Proof.lean ====
/-
  The certificate's claim, assembled. The kernel program (over words, and over the extended reals) and the reference
  program (over the extended reals) each run to their end with their seven argument arrays unchanged; the idealized
  kernel program is the kernel program's own text read over the extended reals (nothing was rewritten); and over the
  extended reals, from memories that agree on the arguments, the kernel program and the reference program end with the
  same result array. The last is by a common specification: both results are the masked log-softmax
  out b v = (logit b v - max_v logit b v) - log (Σ_v exp (logit b v - max_v logit b v)), the reference by its whole-row
  reductions, the kernel by the online recursion over a row's ten vocabulary tiles
  (m' = max m (tile max), l' = l · exp (m - m') + Σ_tile exp (logit - m')), whose last step rewrites the stored logits as
  (logit - m) - log l; the precondition (finite inputs, indices in range, a 0/1 mask) makes every logit a real number,
  under which the two agree exactly.
-/
import proofs.«424303_j34282428957025_2_alg».proof.Defs
import proofs.«424303_j34282428957025_2_alg».proof.Proof.Gen.Kernel
import proofs.«424303_j34282428957025_2_alg».proof.Proof.Gen.KernelIdeal
import proofs.«424303_j34282428957025_2_alg».proof.Proof.Gen.ReferenceIdeal
import proofs.«424303_j34282428957025_2_alg».proof.Proof.Gen.Pre_finite_inputs
import proofs.«424303_j34282428957025_2_alg».proof.Proof.FrameClaims
import proofs.«424303_j34282428957025_2_alg».proof.Proof.AlgClaims

noncomputable section

namespace Cert.Proof

theorem claim : Cert.Claim :=
  ⟨Cert.Kernel.Gen.facts, Cert.KernelIdeal.Gen.facts, Cert.ReferenceIdeal.Gen.facts, Cert.Pre_finite_inputs.Gen.facts,
    FrameClaims.frame_k, FrameClaims.frame_ki, AlgClaims.frame_ri, trivial, AlgClaims.algebraic⟩

end Cert.Proof

end
